-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "fold_c_134217728_13421773" .f32 0x41200000#32 ((134217728 / 13421773 : ℝ) : EReal)
  ∧ IdealRules.named_const.Statement Cert.KernelIdeal.κ "fold_c_134217728_13421773" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg2 : IVec S100000 32) (main_v15 : IVec S_ 1) (main_c_5 : IVec S_ 32) : IVec S_ 1 :=
  let main_v16 : IVec S100000 32 := broadcastInDim S100000 ![] bcast_S_S100000 main_c_5
  let main_v17 : IVec S100000 1 := cmpi .sge main_arg2 main_v16
  let main_c_6 : IVec S_ 32 := constantI S_ 32 64#32
  let main_v18 : IVec S100000 32 := broadcastInDim S100000 ![] bcast_S_S100000 main_c_6
  let main_v19 : IVec S100000 1 := cmpi .slt main_arg2 main_v18
  let main_v20 : IVec S100000 1 := andi main_v17 main_v19
  let main_c_7 : IVec S_ 1 := constantI S_ 1 1#1
  let main_v21 : IVec S_ 1 := (fun x v => Host.reduce IntOp.andi x v reducesTo_S100000_S_d0 h_S_) main_v20 main_c_7
  let main_v22 : IVec S_ 1 := andi main_v15 main_v21
  main_v22

def fn {F : FTy → Type} [FloatOps F] (main_arg0 : FVec F S100000x64 .f32) (main_arg1 : IVec S2x1000000 32) (main_arg2 : IVec S100000 32) (main_arg3 : IVec S100000 1) (main_arg4 : FVec F S100000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000 .f32 := Host.absf main_arg4
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_c_2 : IVec S_ 32 := constantI S_ 32 0#32
  let main_v9 : IVec S2x1000000 32 := broadcastInDim S2x1000000 ![] bcast_S_S2x1000000 main_c_2
  let main_v10 : IVec S2x1000000 1 := cmpi .sge main_arg1 main_v9
  let main_c_3 : IVec S_ 32 := constantI S_ 32 100000#32
  let main_v11 : IVec S2x1000000 32 := broadcastInDim S2x1000000 ![] bcast_S_S2x1000000 main_c_3
  let main_v12 : IVec S2x1000000 1 := cmpi .slt main_arg1 main_v11
  let main_v13 : IVec S2x1000000 1 := andi main_v10 main_v12
  let main_c_4 : IVec S_ 1 := constantI S_ 1 1#1
  let main_v14 : IVec S_ 1 := (fun x v => Host.reduce IntOp.andi x v reducesTo_S2x1000000_S_d0_1 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S100000x64 : Shape := ⟨2, ![100000, 64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S100000x1 : Shape := ⟨2, ![100000, 1]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1015808x64 : Shape := ⟨2, ![1015808, 64]⟩
abbrev S1015808 : Shape := ⟨1, ![1015808]⟩
abbrev S1x1015808 : Shape := ⟨2, ![1, 1015808]⟩
abbrev S3x1015808 : Shape := ⟨2, ![3, 1015808]⟩
abbrev S16384x64 : Shape := ⟨2, ![16384, 64]⟩
abbrev S1x16384 : Shape := ⟨2, ![1, 16384]⟩
abbrev S3x16384 : Shape := ⟨2, ![3, 16384]⟩
abbrev S16384 : Shape := ⟨1, ![16384]⟩
abbrev S1015808x1 : Shape := ⟨2, ![1015808, 1]⟩
abbrev S1x64 : Shape := ⟨2, ![1, 64]⟩
abbrev S16384x1 : Shape := ⟨2, ![16384, 1]⟩
abbrev S64 : Shape := ⟨1, ![64]⟩

abbrev nBuf : Space → Nat
  | .hbm => 188
  | .vmem => 24
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S100000, .i1⟩
  | 4 => ⟨S100000, .f32⟩
  | 5 => ⟨S1x1000000, .i32⟩
  | 6 => ⟨S1000000, .i32⟩
  | 7 => ⟨S1x1000000, .i32⟩
  | 8 => ⟨S1000000, .i32⟩
  | 9 => ⟨S100000x64, .f32⟩
  | 10 => ⟨S_, .f32⟩
  | 11 => ⟨S100000, .f32⟩
  | 12 => ⟨S100000x1, .f32⟩
  | 13 => ⟨S100000x1, .f32⟩
  | 14 => ⟨S_, .f32⟩
  | 15 => ⟨S100000x1, .f32⟩
  | 16 => ⟨S100000x1, .f32⟩
  | 17 => ⟨S100000x64, .f32⟩
  | 18 => ⟨S100000x64, .f32⟩
  | 19 => ⟨S_, .f32⟩
  | 20 => ⟨S100000, .f32⟩
  | 21 => ⟨S100000, .i1⟩
  | 22 => ⟨S100000, .i1⟩
  | 23 => ⟨S100000, .i32⟩
  | 24 => ⟨S_, .i32⟩
  | 25 => ⟨S100000, .i32⟩
  | 26 => ⟨S100000, .i32⟩
  | 27 => ⟨S100000, .i32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1, .i32⟩
  | 37 => ⟨S_, .i32⟩
  | 38 => ⟨S1000000x1, .i32⟩
  | 39 => ⟨S1000000x1, .i1⟩
  | 40 => ⟨S1x1, .i32⟩
  | 41 => ⟨S1000000x1, .i32⟩
  | 42 => ⟨S1000000x1, .i1⟩
  | 43 => ⟨S1000000x1, .i1⟩
  | 44 => ⟨S_, .i1⟩
  | 45 => ⟨S1000000, .i1⟩
  | 46 => ⟨S1000000x64, .f32⟩
  | 47 => ⟨S1000000x64, .i1⟩
  | 48 => ⟨S_, .f32⟩
  | 49 => ⟨S1000000x64, .f32⟩
  | 50 => ⟨S1000000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1, .i32⟩
  | 60 => ⟨S_, .i32⟩
  | 61 => ⟨S1000000x1, .i32⟩
  | 62 => ⟨S1000000x1, .i1⟩
  | 63 => ⟨S1x1, .i32⟩
  | 64 => ⟨S1000000x1, .i32⟩
  | 65 => ⟨S1000000x1, .i1⟩
  | 66 => ⟨S1000000x1, .i1⟩
  | 67 => ⟨S_, .i1⟩
  | 68 => ⟨S1000000, .i1⟩
  | 69 => ⟨S1000000x64, .f32⟩
  | 70 => ⟨S1000000x64, .i1⟩
  | 71 => ⟨S_, .f32⟩
  | 72 => ⟨S1000000x64, .f32⟩
  | 73 => ⟨S1000000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1, .i32⟩
  | 83 => ⟨S_, .i32⟩
  | 84 => ⟨S1000000x1, .i32⟩
  | 85 => ⟨S1000000x1, .i1⟩
  | 86 => ⟨S1x1, .i32⟩
  | 87 => ⟨S1000000x1, .i32⟩
  | 88 => ⟨S1000000x1, .i1⟩
  | 89 => ⟨S1000000x1, .i1⟩
  | 90 => ⟨S_, .i1⟩
  | 91 => ⟨S1000000, .i1⟩
  | 92 => ⟨S1000000, .i32⟩
  | 93 => ⟨S_, .i32⟩
  | 94 => ⟨S1000000, .i32⟩
  | 95 => ⟨S1000000, .i32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1, .i32⟩
  | 105 => ⟨S_, .i32⟩
  | 106 => ⟨S1000000x1, .i32⟩
  | 107 => ⟨S1000000x1, .i1⟩
  | 108 => ⟨S1x1, .i32⟩
  | 109 => ⟨S1000000x1, .i32⟩
  | 110 => ⟨S1000000x1, .i1⟩
  | 111 => ⟨S1000000x1, .i1⟩
  | 112 => ⟨S_, .i1⟩
  | 113 => ⟨S1000000, .i1⟩
  | 114 => ⟨S1000000, .i32⟩
  | 115 => ⟨S_, .i32⟩
  | 116 => ⟨S1000000, .i32⟩
  | 117 => ⟨S1000000, .i32⟩
  | 118 => ⟨S_, .i32⟩
  | 119 => ⟨S_, .f32⟩
  | 120 => ⟨S1015808x64, .f32⟩
  | 121 => ⟨S_, .i32⟩
  | 122 => ⟨S_, .f32⟩
  | 123 => ⟨S1015808x64, .f32⟩
  | 124 => ⟨S_, .i32⟩
  | 125 => ⟨S_, .i32⟩
  | 126 => ⟨S1015808, .i32⟩
  | 127 => ⟨S_, .i32⟩
  | _ => ⟨S100000x64, .f32⟩

abbrev hbmTy0_1 (i : Nat) : BufTy := match i % 128 with
  | 0 => ⟨S_, .i32⟩
  | 1 => ⟨S1015808, .i32⟩
  | 2 => ⟨S_, .i32⟩
  | 3 => ⟨S_, .i32⟩
  | 4 => ⟨S1015808, .i32⟩
  | 5 => ⟨S1x1015808, .i32⟩
  | 6 => ⟨S1x1015808, .i32⟩
  | 7 => ⟨S3x1015808, .f32⟩
  | 8 => ⟨S1x1015808, .i32⟩
  | 9 => ⟨S1x1015808, .f32⟩
  | 10 => ⟨S1015808, .f32⟩
  | 11 => ⟨S1x1015808, .f32⟩
  | 12 => ⟨S1015808, .f32⟩
  | 13 => ⟨S1x1015808, .f32⟩
  | 14 => ⟨S1015808, .f32⟩
  | 15 => ⟨S1015808, .i32⟩
  | 16 => ⟨S_, .f32⟩
  | 17 => ⟨S100000, .f32⟩
  | 18 => ⟨S1015808x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1015808, .i32⟩
  | 26 => ⟨S1015808, .i1⟩
  | 27 => ⟨S_, .i32⟩
  | 28 => ⟨S1015808, .i32⟩
  | 29 => ⟨S1015808, .i32⟩
  | 30 => ⟨S1015808, .i32⟩
  | 31 => ⟨S1015808x1, .i32⟩
  | 32 => ⟨S1015808, .f32⟩
  | 33 => ⟨S1x1015808, .f32⟩
  | 34 => ⟨S1x1015808, .f32⟩
  | 35 => ⟨S1x1015808, .f32⟩
  | 36 => ⟨S1x1015808, .i32⟩
  | 37 => ⟨S1x64, .f32⟩
  | 38 => ⟨S1x64, .f32⟩
  | 39 => ⟨S64, .f32⟩
  | 40 => ⟨S64, .f32⟩
  | 41 => ⟨S_, .f32⟩
  | 42 => ⟨S64, .f32⟩
  | 43 => ⟨S64, .f32⟩
  | 44 => ⟨S64, .f32⟩
  | 45 => ⟨S_, .f32⟩
  | 46 => ⟨S64, .f32⟩
  | 47 => ⟨S64, .i1⟩
  | 48 => ⟨S64, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S_, .f32⟩
  | 58 => ⟨S_, .f32⟩
  | 59 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S16384x64, .f32⟩
  | .local _ .vmem, ⟨1, _⟩ => ⟨S16384x64, .f32⟩
  | .local _ .vmem, ⟨2, _⟩ => ⟨S16384x64, .f32⟩
  | .local _ .vmem, ⟨3, _⟩ => ⟨S16384x64, .f32⟩
  | .local _ .vmem, ⟨4, _⟩ => ⟨S1x16384, .i32⟩
  | .local _ .vmem, ⟨5, _⟩ => ⟨S1x16384, .i32⟩
  | .local _ .vmem, ⟨6, _⟩ => ⟨S1x16384, .i32⟩
  | .local _ .vmem, ⟨7, _⟩ => ⟨S1x16384, .i32⟩
  | .local _ .vmem, ⟨8, _⟩ => ⟨S3x16384, .f32⟩
  | .local _ .vmem, ⟨9, _⟩ => ⟨S3x16384, .f32⟩
  | .local _ .vmem, ⟨10, _⟩ => ⟨S1x16384, .i32⟩
  | .local _ .vmem, ⟨11, _⟩ => ⟨S1x16384, .i32⟩
  | .local _ .vmem, ⟨12, _⟩ => ⟨S1x16384, .f32⟩
  | .local _ .vmem, ⟨13, _⟩ => ⟨S1x16384, .f32⟩
  | .local _ .vmem, ⟨14, _⟩ => ⟨S1x16384, .f32⟩
  | .local _ .vmem, ⟨15, _⟩ => ⟨S1x16384, .f32⟩
  | .local _ .vmem, ⟨16, _⟩ => ⟨S1x16384, .f32⟩
  | .local _ .vmem, ⟨17, _⟩ => ⟨S1x16384, .f32⟩
  | .local _ .vmem, ⟨18, _⟩ => ⟨S1x16384, .i32⟩
  | .local _ .vmem, ⟨19, _⟩ => ⟨S1x16384, .i32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v19 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v20 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_c_4 : Ref sig .tc := ⟨.hbm, 93, rfl⟩
abbrev main_call2_v14 : Ref sig .tc := ⟨.hbm, 94, rfl⟩
abbrev main_v21 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_c_4 : Ref sig .tc := ⟨.hbm, 115, rfl⟩
abbrev main_call3_v14 : Ref sig .tc := ⟨.hbm, 116, rfl⟩
abbrev main_v22 : Ref sig .tc := ⟨.hbm, 117, rfl⟩
abbrev main_c_2 : Ref sig .tc := ⟨.hbm, 118, rfl⟩
abbrev main_call4_v0 : Ref sig .tc := ⟨.hbm, 119, rfl⟩
abbrev main_v23 : Ref sig .tc := ⟨.hbm, 120, rfl⟩
abbrev main_c_3 : Ref sig .tc := ⟨.hbm, 121, rfl⟩
abbrev main_call5_v0 : Ref sig .tc := ⟨.hbm, 122, rfl⟩
abbrev main_v24 : Ref sig .tc := ⟨.hbm, 123, rfl⟩
abbrev main_c_4 : Ref sig .tc := ⟨.hbm, 124, rfl⟩
abbrev main_call6_v0 : Ref sig .tc := ⟨.hbm, 125, rfl⟩
abbrev main_v25 : Ref sig .tc := ⟨.hbm, 126, rfl⟩
abbrev main_c_5 : Ref sig .tc := ⟨.hbm, 127, rfl⟩
abbrev main_call7_v0 : Ref sig .tc := ⟨.hbm, 128, rfl⟩
abbrev main_v26 : Ref sig .tc := ⟨.hbm, 129, rfl⟩
abbrev main_c_6 : Ref sig .tc := ⟨.hbm, 130, rfl⟩
abbrev main_call8_v0 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30_0 : Ref sig .tc := ⟨.hbm, 135, rfl⟩
abbrev main_v30_1 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_cst_7 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_cst_8 : Ref sig .tc := ⟨.hbm, 148, rfl⟩
abbrev main_call9_v0 : Ref sig .tc := ⟨.hbm, 149, rfl⟩
abbrev main_call9_v1 : Ref sig .tc := ⟨.hbm, 150, rfl⟩
abbrev main_v41 : Ref sig .tc := ⟨.hbm, 151, rfl⟩
abbrev main_c_9 : Ref sig .tc := ⟨.hbm, 152, rfl⟩
abbrev main_v42 : Ref sig .tc := ⟨.hbm, 153, rfl⟩
abbrev main_v43 : Ref sig .tc := ⟨.hbm, 154, rfl⟩
abbrev main_c_10 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53_0 : Ref sig .tc := ⟨.hbm, 165, rfl⟩
abbrev main_v53_1 : Ref sig .tc := ⟨.hbm, 166, rfl⟩
abbrev main_v54 : Ref sig .tc := ⟨.hbm, 167, rfl⟩
abbrev main_v55 : Ref sig .tc := ⟨.hbm, 168, rfl⟩
abbrev main_cst_11 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_cst_12 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_cst_13 : Ref sig .tc := ⟨.hbm, 177, rfl⟩
abbrev main_v62 : Ref sig .tc := ⟨.hbm, 178, rfl⟩
abbrev main_cst_14 : Ref sig .tc := ⟨.hbm, 179, rfl⟩
abbrev main_v63 : Ref sig .tc := ⟨.hbm, 180, rfl⟩
abbrev main_cst_15 : Ref sig .tc := ⟨.hbm, 181, rfl⟩
abbrev main_call10_v0 : Ref sig .tc := ⟨.hbm, 182, rfl⟩
abbrev main_call10_v1 : Ref sig .tc := ⟨.hbm, 183, rfl⟩
abbrev main_v64 : Ref sig .tc := ⟨.hbm, 184, rfl⟩
abbrev main_cst_16 : Ref sig .tc := ⟨.hbm, 185, rfl⟩
abbrev main_v65 : Ref sig .tc := ⟨.hbm, 186, rfl⟩
abbrev main_v66 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16384 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16384 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000 : S_.BroadcastsInDim S100000 (![] : Fin 0 → Fin S100000.rank)
  natLt_1_32 : 1 < 32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  pads_S1000000x64_S1015808x64_0158080_000 : S1000000x64.Pads (![0, 0] : Fin 2 → Nat) ![15808, 0] ![0, 0] S1015808x64
  pads_S1000000_S1015808_0158080 : S1000000.Pads (![0] : Fin 1 → Nat) ![15808] ![0] S1015808
  shapeCasts_S1015808_S1x1015808 : S1015808.ShapeCasts S1x1015808
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  inb_S1x16384_S1x16384_0_0 : ∀ a, (![0, 0] : Fin 2 → Nat) a + S1x16384.size a ≤ S1x16384.size a
  h_S1x16384 : 0 < S1x16384.numel
  shapeCasts_S1x16384_S16384 : S1x16384.ShapeCasts S16384
  iota_S1x16384_d1_w32 : S1x16384.Iotas .tc 32 [1]
  inb_S3x16384_S1x16384_0_0 : ∀ a, (![0, 0] : Fin 2 → Nat) a + S1x16384.size a ≤ S3x16384.size a
  shapeCasts_S16384_S1x16384 : S16384.ShapeCasts S1x16384
  inb_S3x16384_S1x16384_1_0 : ∀ a, (![1, 0] : Fin 2 → Nat) a + S1x16384.size a ≤ S3x16384.size a
  inb_S3x16384_S1x16384_2_0 : ∀ a, (![2, 0] : Fin 2 → Nat) a + S1x16384.size a ≤ S3x16384.size a
  slices_S3x1015808_S1x1015808_0_0 : S3x1015808.Slices ![0, 0] S1x1015808
  shapeCasts_S1x1015808_S1015808 : S1x1015808.ShapeCasts S1015808
  slices_S3x1015808_S1x1015808_1_0 : S3x1015808.Slices ![1, 0] S1x1015808
  slices_S3x1015808_S1x1015808_2_0 : S3x1015808.Slices ![2, 0] S1x1015808
  bcast_S1015808_S1015808x1_0 : S1015808.BroadcastsInDim S1015808x1 (![0] : Fin 1 → Fin S1015808x1.rank)
  bcast_S_S1015808 : S_.BroadcastsInDim S1015808 (![] : Fin 0 → Fin S1015808.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S16384x64_d1_w32 : S16384x64.Iotas .tc 32 [1]
  shapeCasts_S16384_S16384x1 : S16384.ShapeCasts S16384x1
  broadcasts_S16384x1_S16384x64 : S16384x1.Broadcasts S16384x64
  shapeCasts_S1x64_S64 : S1x64.ShapeCasts S64
  bcast_S_S64 : S_.BroadcastsInDim S64 (![] : Fin 0 → Fin S64.rank)
  reducesTo_S64_S_d0 : S64.ReducesTo [0] S_
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000_S1015808x1_S1015808_n_0_0_1_wf : ScatterDims.WF S100000 S1015808x1 S1015808 [] [0] [0] 1
  gather_S100000_S1015808x1_S1015808_n_0_n_n_0_1_1_wf : GatherDims.WF S100000 S1015808x1 S1015808 [] [0] [] [0] [] 1 ![1]
  dot_S1x16384_S16384x64_S1x64_1_0_0_1_n_n_wf : DotDims.WF S1x16384 S16384x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1015808x64.size a
  hwx0_0 : ∀ i : grid0.Coords, EltTy.bits .f32 = 32 ∨ (Rect.block (s := S1015808x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S1015808x64.size a
  hwx0_1 : ∀ i : grid0.Coords, EltTy.bits .f32 = 32 ∨ (Rect.block (s := S1015808x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1015808.size a
  hwx0_2 : ∀ i : grid0.Coords, EltTy.bits .i32 = 32 ∨ (Rect.block (s := S1x1015808) S1x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x1015808.size a
  hwx0_3 : ∀ i : grid0.Coords, EltTy.bits .i32 = 32 ∨ (Rect.block (s := S1x1015808) S1x16384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x16384.size a ≤ S3x1015808.size a
  hwx0_4 : ∀ i : grid0.Coords, EltTy.bits .f32 = 32 ∨ (Rect.block (s := S3x1015808) S3x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16384.size a ≤ S1x1015808.size a
  hwx0_5 : ∀ i : grid0.Coords, EltTy.bits .i32 = 32 ∨ (Rect.block (s := S1x1015808) S1x16384.size (cc0_transform_5 i) (hinb0_5 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16384.size a ≤ S1x1015808.size a
  hwx1_0 : ∀ i : grid1.Coords, EltTy.bits .f32 = 32 ∨ (Rect.block (s := S1x1015808) S1x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16384.size a ≤ S1x1015808.size a
  hwx1_1 : ∀ i : grid1.Coords, EltTy.bits .f32 = 32 ∨ (Rect.block (s := S1x1015808) S1x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x1015808.size a
  hwx1_2 : ∀ i : grid1.Coords, EltTy.bits .f32 = 32 ∨ (Rect.block (s := S1x1015808) S1x16384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16384.size a ≤ S1x1015808.size a
  hwx1_3 : ∀ i : grid1.Coords, EltTy.bits .i32 = 32 ∨ (Rect.block (s := S1x1015808) S1x16384.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000_S1015808x1_S1015808_n_0_0_1 : ScatterDims S100000 S1015808x1 S1015808 where
  updateWindowDims := []
  insertedWindowDims := [0]
  scatterDimsToOperandDims := [0]
  indexVectorDim := 1
  wf := scatter_S100000_S1015808x1_S1015808_n_0_0_1_wf
def gather_S100000_S1015808x1_S1015808_n_0_n_n_0_1_1 : GatherDims S100000 S1015808x1 S1015808 where
  offsetDims := []
  collapsedSliceDims := [0]
  operandBatchingDims := []
  startIndicesBatchingDims := []
  startIndexMap := [0]
  indexVectorDim := 1
  sliceSizes := ![1]
  wf := gather_S100000_S1015808x1_S1015808_n_0_n_n_0_1_1_wf
def dot_S1x16384_S16384x64_S1x64_1_0_0_1_n_n : DotDims S1x16384 S16384x64 S1x64 where
  lhsContracting := [1]
  rhsContracting := [0]
  lhsNonContracting := [0]
  rhsNonContracting := [1]
  lhsBatch := []
  rhsBatch := []
  wf := dot_S1x16384_S16384x64_S1x64_1_0_0_1_n_n_wf

abbrev win0_0 : Pipeline.Window sig grid0 :=
  Pipeline.Window.ofSpec (Memref.whole main_v23) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S16384x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S3x16384.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S1x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S1x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x16384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v53_0) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53_1) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S64 : Shape := ⟨1, ![64]⟩

abbrev nBuf : Space → Nat
  | .hbm => 183
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S100000, .i1⟩
  | 4 => ⟨S100000, .f32⟩
  | 5 => ⟨S1x1000000, .i32⟩
  | 6 => ⟨S1000000, .i32⟩
  | 7 => ⟨S1x1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000, .i32⟩
  | 27 => ⟨S1000000, .i1⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S_, .f32⟩
  | 38 => ⟨S1000000, .f32⟩
  | 39 => ⟨S1000000, .i1⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .f32⟩
  | 50 => ⟨S1000000, .f32⟩
  | 51 => ⟨S1000000, .i1⟩
  | 52 => ⟨S1000000, .i1⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000, .i1⟩
  | 62 => ⟨S1000000, .i1⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000, .i1⟩
  | 72 => ⟨S1000000, .i1⟩
  | 73 => ⟨S1000000, .i1⟩
  | 74 => ⟨S1000000, .i1⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S1000000x64, .f32⟩
  | 94 => ⟨S_, .f32⟩
  | 95 => ⟨S1000000, .f32⟩
  | 96 => ⟨S1000000x64, .f32⟩
  | 97 => ⟨S_, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S1000000x64, .f32⟩
  | 104 => ⟨S_, .f32⟩
  | 105 => ⟨S1000000, .f32⟩
  | 106 => ⟨S1000000, .f32⟩
  | 107 => ⟨S_, .f32⟩
  | 108 => ⟨S1000000, .f32⟩
  | 109 => ⟨S1000000, .f32⟩
  | 110 => ⟨S1000000, .f32⟩
  | 111 => ⟨S1000000, .f32⟩
  | 112 => ⟨S_, .f32⟩
  | 113 => ⟨S1000000, .f32⟩
  | 114 => ⟨S1000000, .f32⟩
  | 115 => ⟨S_, .f32⟩
  | 116 => ⟨S_, .f32⟩
  | 117 => ⟨S1000000, .f32⟩
  | 118 => ⟨S1000000, .f32⟩
  | 119 => ⟨S1000000, .f32⟩
  | 120 => ⟨S_, .f32⟩
  | 121 => ⟨S_, .f32⟩
  | 122 => ⟨S1000000, .f32⟩
  | 123 => ⟨S1000000, .f32⟩
  | 124 => ⟨S_, .f32⟩
  | 125 => ⟨S100000, .f32⟩
  | 126 => ⟨S1000000x1, .i32⟩
  | 127 => ⟨S100000, .f32⟩
  | _ => ⟨S100000x64, .f32⟩

abbrev hbmTy0_1 (i : Nat) : BufTy := match i % 128 with
  | 0 => ⟨S_, .f32⟩
  | 1 => ⟨S_, .f32⟩
  | 2 => ⟨S100000, .f32⟩
  | 3 => ⟨S100000, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S1000000, .f32⟩
  | 14 => ⟨S1000000, .f32⟩
  | 15 => ⟨S1000000, .f32⟩
  | 16 => ⟨S1000000, .f32⟩
  | 17 => ⟨S1000000, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000, .i32⟩
  | 27 => ⟨S1000000, .f32⟩
  | 28 => ⟨S_, .f32⟩
  | 29 => ⟨S64, .f32⟩
  | 30 => ⟨S1000000x1, .i32⟩
  | 31 => ⟨S64, .f32⟩
  | 32 => ⟨S_, .f32⟩
  | 33 => ⟨S64, .f32⟩
  | 34 => ⟨S1000000x1, .i32⟩
  | 35 => ⟨S64, .f32⟩
  | 36 => ⟨S_, .f32⟩
  | 37 => ⟨S64, .f32⟩
  | 38 => ⟨S64, .f32⟩
  | 39 => ⟨S64, .f32⟩
  | 40 => ⟨S_, .f32⟩
  | 41 => ⟨S64, .f32⟩
  | 42 => ⟨S64, .i1⟩
  | 43 => ⟨S64, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S64, .f32⟩
  | 51 => ⟨S64, .f32⟩
  | 52 => ⟨S_, .f32⟩
  | 53 => ⟨S_, .f32⟩
  | 54 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_v56 : Ref sig .tc := ⟨.hbm, 76, rfl⟩
abbrev main_v57 : Ref sig .tc := ⟨.hbm, 77, rfl⟩
abbrev main_c_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_14 : Ref sig .tc := ⟨.hbm, 84, rfl⟩
abbrev main_v63 : Ref sig .tc := ⟨.hbm, 85, rfl⟩
abbrev main_v64 : Ref sig .tc := ⟨.hbm, 86, rfl⟩
abbrev main_c_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_call0_v0 : Ref sig .tc := ⟨.hbm, 96, rfl⟩
abbrev main_call0_cst : Ref sig .tc := ⟨.hbm, 97, rfl⟩
abbrev main_call0_v1 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_call1_v0 : Ref sig .tc := ⟨.hbm, 103, rfl⟩
abbrev main_call1_cst : Ref sig .tc := ⟨.hbm, 104, rfl⟩
abbrev main_call1_v1 : Ref sig .tc := ⟨.hbm, 105, rfl⟩
abbrev main_v75 : Ref sig .tc := ⟨.hbm, 106, rfl⟩
abbrev main_cst_18 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_19 : Ref sig .tc := ⟨.hbm, 112, rfl⟩
abbrev main_v80 : Ref sig .tc := ⟨.hbm, 113, rfl⟩
abbrev main_v81 : Ref sig .tc := ⟨.hbm, 114, rfl⟩
abbrev main_cst_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_21 : Ref sig .tc := ⟨.hbm, 120, rfl⟩
abbrev main_call2_v0 : Ref sig .tc := ⟨.hbm, 121, rfl⟩
abbrev main_call2_v1 : Ref sig .tc := ⟨.hbm, 122, rfl⟩
abbrev main_v86 : Ref sig .tc := ⟨.hbm, 123, rfl⟩
abbrev main_cst_22 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_23 : Ref sig .tc := ⟨.hbm, 128, rfl⟩
abbrev main_call3_v0 : Ref sig .tc := ⟨.hbm, 129, rfl⟩
abbrev main_call3_v1 : Ref sig .tc := ⟨.hbm, 130, rfl⟩
abbrev main_v90 : Ref sig .tc := ⟨.hbm, 131, rfl⟩
abbrev main_c_24 : Ref sig .tc := ⟨.hbm, 132, rfl⟩
abbrev main_v91 : Ref sig .tc := ⟨.hbm, 133, rfl⟩
abbrev main_v92 : Ref sig .tc := ⟨.hbm, 134, rfl⟩
abbrev main_c_25 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_26 : Ref sig .tc := ⟨.hbm, 146, rfl⟩
abbrev main_v103 : Ref sig .tc := ⟨.hbm, 147, rfl⟩
abbrev main_v104 : Ref sig .tc := ⟨.hbm, 148, rfl⟩
abbrev main_c_27 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_28 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_29 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_30 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_31 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_32 : Ref sig .tc := ⟨.hbm, 172, rfl⟩
abbrev main_v123 : Ref sig .tc := ⟨.hbm, 173, rfl⟩
abbrev main_cst_33 : Ref sig .tc := ⟨.hbm, 174, rfl⟩
abbrev main_v124 : Ref sig .tc := ⟨.hbm, 175, rfl⟩
abbrev main_cst_34 : Ref sig .tc := ⟨.hbm, 176, rfl⟩
abbrev main_call4_v0 : Ref sig .tc := ⟨.hbm, 177, rfl⟩
abbrev main_call4_v1 : Ref sig .tc := ⟨.hbm, 178, rfl⟩
abbrev main_v125 : Ref sig .tc := ⟨.hbm, 179, rfl⟩
abbrev main_cst_35 : Ref sig .tc := ⟨.hbm, 180, rfl⟩
abbrev main_v126 : Ref sig .tc := ⟨.hbm, 181, rfl⟩
abbrev main_v127 : Ref sig .tc := ⟨.hbm, 182, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  h_S_ : 0 < S_.numel
  reducesTo_S1000000_S_d0 : S1000000.ReducesTo [0] S_
  bcast_S_S100000 : S_.BroadcastsInDim S100000 (![] : Fin 0 → Fin S100000.rank)
  bcast_S_S64 : S_.BroadcastsInDim S64 (![] : Fin 0 → Fin S64.rank)
  reducesTo_S64_S_d0 : S64.ReducesTo [0] S_
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000_S1000000x1_S1000000_n_0_0_1_wf : ScatterDims.WF S100000 S1000000x1 S1000000 [] [0] [0] 1
  scatter_S64_S1000000x1_S1000000_n_0_0_1_wf : ScatterDims.WF S64 S1000000x1 S1000000 [] [0] [0] 1

variable [Facts₀]

def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S64_S1000000x1_S1000000_n_0_0_1 : ScatterDims S64 S1000000x1 S1000000 where
  updateWindowDims := []
  insertedWindowDims := [0]
  scatterDimsToOperandDims := [0]
  indexVectorDim := 1
  wf := scatter_S64_S1000000x1_S1000000_n_0_0_1_wf

class Facts : Prop extends Facts₀ where

variable [Facts]
-- ==== Proof.KB.Reg0.lean ====
/-
  Region 0 of the program: the first of its two tiled kernels, on a grid of 62 points.

  At a point the kernel reads one tile of 16384 pairs: the two tiles of scaled feature rows (16384 × 64), and the two
  tiles of packed node words (1 × 16384) of the pairs' anchors and second nodes. It writes three rows of 16384 reals
  (a pair's exponential, that exponential kept where the pair is negative and in range, and the positive flag as a real)
  into a 3 × 16384 tile, and one row of 16384 label words into a 1 × 16384 tile. Whether a pair is in range depends on
  the tile's position in the grid, so what the kernel leaves is a function of the point's coordinate as well as of the
  four tiles it read.

  This file states what the kernel leaves in each output tile as a closed form of the input tiles (the three row
  writes of the first output as pieces, last first; the single write of the second), proves that the kernel's body
  run on whole tiles leaves exactly that, and packages it as the region's proof data and body obligation: every input
  tile is left as read, every output tile is left at its closed form, the invariant is the untouched rest of the
  machine, nothing is owed.
-/
import proofs.«413937_j37383395344507_3_alg».proof.Proof.Gen.Kernel.Launch
import proofs.«413937_j37383395344507_3_alg».proof.Proof.Gen.Kernel.Skeleton
import proofs.«413937_j37383395344507_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' tiles -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes -/

/-- A whole 16384 × 64 tile. -/
abbrev rA : Rect S16384x64 := Rect.unit (s := S16384x64) ![0, 0] S16384x64.size inb_S16384x64_S16384x64_0_0
/-- A whole 1 × 16384 tile. -/
abbrev rB : Rect S1x16384 := Rect.unit (s := S1x16384) ![0, 0] S1x16384.size inb_S1x16384_S1x16384_0_0
/-- Rows 0, 1, 2 of the 3 × 16384 tile. -/
abbrev r4_0 : Rect S3x16384 := Rect.unit (s := S3x16384) ![0, 0] S1x16384.size inb_S3x16384_S1x16384_0_0
abbrev r4_1 : Rect S3x16384 := Rect.unit (s := S3x16384) ![1, 0] S1x16384.size inb_S3x16384_S1x16384_1_0
abbrev r4_2 : Rect S3x16384 := Rect.unit (s := S3x16384) ![2, 0] S1x16384.size inb_S3x16384_S1x16384_2_0

/-! ## What the body leaves in each output tile -/

/-- The first output tile after the body, from the point's coordinate and the four input tiles: its three row
    writes as pieces, last first. Row 0 is the exponential; row 1 the exponential where the pair is negative and in
    range, else 0; row 2 the positive flag as a real. -/
def out0_4 (i : grid0.Coords) (x0 x1 : Vec F S16384x64 .f32) (x2 x3 : Vec F S1x16384 .i32) : Vec F S3x16384 .f32 :=
  View.canon [
    ⟨r4_2, k0_pay4 (F := F) (k0_pay10 (F := F) (View.ld x3 rB)) (k0_pay11 i) (k0_pay12 (F := F) (View.ld x2 rB) (View.ld x3 rB)) (k0_pay13 (F := F) (View.ld x2 rB)) k0_pay14⟩,
    ⟨r4_1, k0_pay3 (k0_pay6 (View.ld x0 rA) (View.ld x1 rA)) (k0_pay10 (F := F) (View.ld x3 rB)) (k0_pay11 i) (k0_pay12 (F := F) (View.ld x2 rB) (View.ld x3 rB)) (k0_pay13 (F := F) (View.ld x2 rB)) k0_pay14⟩,
    ⟨r4_0, k0_pay2 (k0_pay6 (View.ld x0 rA) (View.ld x1 rA))⟩]

/-- The second output tile after the body: its one write, the anchors' label words. -/
def out0_5 (x2 : Vec F S1x16384 .i32) : Vec F S1x16384 .i32 :=
  View.canon [⟨rB, k0_pay5 (k0_pay9 (F := F) (View.ld x2 rB))⟩]

/-- The three row writes tile the 3 × 16384 tile, so they cover it. -/
theorem cover0_4 (p2 p1 p0 : Vec F S1x16384 .f32) (y : S3x16384.Idx) :
    ∃ pc ∈ ([⟨r4_2, p2⟩, ⟨r4_1, p1⟩, ⟨r4_0, p0⟩] : List (View.Piece (Elt F) S3x16384 .f32)), y ∈ pc.1.set :=
  View.cover_of_tiled [⟨r4_2, p2⟩, ⟨r4_1, p1⟩, ⟨r4_0, p0⟩] S1x16384.size (by rfl) y

/-- The one write of the 1 × 16384 tile covers it. -/
theorem cover0_5 (p0 : Vec F S1x16384 .i32) (y : S1x16384.Idx) :
    ∃ pc ∈ ([⟨rB, p0⟩] : List (View.Piece (Elt F) S1x16384 .i32)), y ∈ pc.1.set :=
  View.cover_of_tiled [⟨rB, p0⟩] S1x16384.size (by rfl) y

/-! ## The body's triple -/

set_option maxHeartbeats 4000000 in
/-- The kernel body on whole tiles, the inputs' at read contents and the outputs' at anything, runs to the
    continuation holding the inputs' as they were and each output's at its closed form of the inputs'. The four
    reads of an output tile before its writes read whatever is there and are used by nothing. -/
theorem sound_kernel0 (c : Dev nD) (E : Set ℕ) (i : grid0.Coords)
    (arg1 : Memref sig .tc .vmem S16384x64 .f32) (harg1 : arg1.IsWhole) (arg2 : Memref sig .tc .vmem S16384x64 .f32) (harg2 : arg2.IsWhole)
    (arg3 : Memref sig .tc .vmem S1x16384 .i32) (harg3 : arg3.IsWhole) (arg4 : Memref sig .tc .vmem S1x16384 .i32) (harg4 : arg4.IsWhole)
    (arg5 : Memref sig .tc .vmem S3x16384 .f32) (harg5 : arg5.IsWhole) (arg6 : Memref sig .tc .vmem S1x16384 .i32) (harg6 : arg6.IsWhole)
    (x0 x1 : Vec F S16384x64 .f32) (x2 x3 : Vec F S1x16384 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3)
            ∗ owns (c : Thread nD τ) arg6 fullShare (out0_5 x2)) -∗ K ⟨⟩))
      ⊢ wp frame (wpE (defs₀ (F := F)) Variants.none c none) E
          (cc0__k1_body i arg1 harg1 arg2 harg2 arg3 harg3 arg4 harg4 arg5 harg5 arg6 harg6) K := by
  simp only [cc0__k1_body_eq_skeleton]; unfold cc0__k1_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _ _ _)
  iexists _; isplitr
  swap; · iexact H5
  ipureintro
  exact View.read_writes_eq_canon _ _ _ (cover0_5 _)

/-! ## The region's proof data -/

/-- The proof data of the region on core `c`: the arrays as the region finds them; after the body at point `t` each
    input's tile as read and each output's at its closed form of the input tiles and the point's coordinate; the
    invariant the untouched rest of the machine; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
    | ⟨5, _⟩ => out0_5 (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t =
    out0_4 (grid0.coords t) (iblk0 V c 0 t) (iblk0 V c 1 t) (iblk0 V c 2 t) (iblk0 V c 3 t) := by dsimp only [dat0]
theorem after0_5 (c : Dev nD) (t : Fin cfg0.N) : (dat0 V c).after 5 t = out0_5 (iblk0 V c 2 t) := by dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The tile the fetch at a point reads is the window's tile of the region-entry contents, the proof data's arrays
    being those contents. -/
theorem blockOf0_eq (c : Dev nD) (w : Fin cfg0.W) (t : Fin cfg0.N) : (dat0 V c).blockOf w t = iblk0 V c w t := by
  unfold Dat.blockOf iblk0
  rw [A_eq0]

/-- Every input window is fetched at every point of this grid, and none is cut: so when the body runs its current
    buffer holds what the fetch put there, the whole tile. -/
theorem before0_0 (c : Dev nD) (t : Fin cfg0.N) (d) : (dat0 V c).before 0 t d = iblk0 V c 0 t := by
  rw [(dat0 V c).before_fetched 0 t (fetch0_0 t) d]
  exact blockOf0_eq V c 0 t
theorem before0_1 (c : Dev nD) (t : Fin cfg0.N) (d) : (dat0 V c).before 1 t d = iblk0 V c 1 t := by
  rw [(dat0 V c).before_fetched 1 t (fetch0_1 t) d]
  exact blockOf0_eq V c 1 t
theorem before0_2 (c : Dev nD) (t : Fin cfg0.N) (d) : (dat0 V c).before 2 t d = iblk0 V c 2 t := by
  rw [(dat0 V c).before_fetched 2 t (fetch0_2 t) d]
  exact blockOf0_eq V c 2 t
theorem before0_3 (c : Dev nD) (t : Fin cfg0.N) (d) : (dat0 V c).before 3 t d = iblk0 V c 3 t := by
  rw [(dat0 V c).before_fetched 3 t (fetch0_3 t) d]
  exact blockOf0_eq V c 3 t

/-- The body at any point: the inputs' buffers hold their tiles, so the body's triple applies at the point's
    coordinate; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point: the two products over the six windows written out, it is the
    body's triple at that point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Reg1.lean ====
/- REGION 1 of the kernel program (its second kernel call: the masked per-segment sums, accumulated over the
   62 grid points in two carried scratch rows).  This module gives the region's proof data and proves its body
   obligation: at the first point the two scratch rows are zeroed; at every point each row has the point's partial
   sum added to it; and at every point the two output blocks receive the rows' current contents, so that after
   point t the outputs hold the sums over the points 0..t. -/
import proofs.«413937_j37383395344507_3_alg».proof.Proof.Gen.Kernel.Launch
import proofs.«413937_j37383395344507_3_alg».proof.Proof.Gen.Kernel.Skeleton
import proofs.«413937_j37383395344507_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What a point adds, and the two carried rows after n points -/

/-- The two partial sums of point `t`: the two contractions of the point's four input blocks. -/
def part1 (c : Dev nD) (t : Fin cfg1.N) : Vec F S1x64 .f32 × Vec F S1x64 .f32 :=
  (k1_pay8 (grid1.coords t) (iblk1 V c 0 t) (iblk1 V c 1 t) (iblk1 V c 2 t) (iblk1 V c 3 t),
   k1_pay9 (grid1.coords t) (iblk1 V c 2 t) (iblk1 V c 3 t))

/-- The two carried rows after `n` points: before any point the zero rows the first point stores; each point adds
    its partial sums to what the point before left. -/
def sAt1 (c : Dev nD) : ℕ → Vec F S1x64 .f32 × Vec F S1x64 .f32
  | 0 => (k1_pay3, k1_pay4)
  | n + 1 =>
    if h : n < cfg1.N then
      (k1_pay1 (part1 V c ⟨n, h⟩).1 (sAt1 c n).1, k1_pay2 (part1 V c ⟨n, h⟩).2 (sAt1 c n).2)
    else sAt1 c n

/-- The recursion at a point of the grid: the rows after point `t` are the rows before it with the point's partial
    sums added (at the first point the rows before are the zero rows, `sAt1_zero`). -/
theorem sAt1_succ (c : Dev nD) (t : Fin cfg1.N) :
    sAt1 V c (t.val + 1) = (k1_pay1 (part1 V c t).1 (sAt1 V c t.val).1, k1_pay2 (part1 V c t).2 (sAt1 V c t.val).2) := by
  rw [sAt1, dif_pos t.isLt]

theorem sAt1_zero (c : Dev nD) : sAt1 V c 0 = (k1_pay3, k1_pay4) := rfl

/-! ## The invariant -/

/-- The two scratch operands, whole scoped buffers of the kernel's own. -/
abbrev scM1_0 : Memref sig .tc .vmem S1x64 .f32 := Memref.whole cc1_scratch0
abbrev scM1_1 : Memref sig .tc .vmem S1x64 .f32 := Memref.whole cc1_scratch1
abbrev scL1 : List (Ref sig .tc) := [cc1_scratch0, cc1_scratch1]

/-- The region invariant before position `n`: before the first point every scoped buffer that is no staging buffer
    at anything and the generator register at some state; afterwards the same with the two carried rows at `sAt1 n`. -/
def Phi1 (c : Dev nD) : ℕ → sProp 𝕄
  | 0 => Pipeline.ΦA spec1 c
  | n + 1 => iprop(owns (c : Thread nD τ) scM1_0 fullShare (sAt1 V c (n + 1)).1
      ∗ owns (c : Thread nD τ) scM1_1 fullShare (sAt1 V c (n + 1)).2
      ∗ Pipeline.scopedRestBut (Ix := Unit) (Name := ℕ) (U := UR sig nD τ) (Lvl := ℕ) (Val := Elt F) spec1 c scL1
      ∗ ∃ r, prngReg c r)

/-! ## The proof data -/

/-- The proof data of the region on core `c`: the arrays as the region finds them; after the body at point `t` each
    input's buffer at its block and the two outputs' at the carried rows after `t + 1` points; the invariant `Phi1`;
    full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (sAt1 V c (t.val + 1)).1
    | ⟨5, _⟩ => (sAt1 V c (t.val + 1)).2
  Φ t := Phi1 V c t.val
  q _ := fullShare
  owed _ := 0

/-- The proof data's fields projected. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (sAt1 V c (t.val + 1)).1 := by dsimp only [dat1]
theorem after1_5 (c : Dev nD) (t : Fin cfg1.N) : (dat1 V c).after 5 t = (sAt1 V c (t.val + 1)).2 := by dsimp only [dat1]

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := by
  dsimp only [dat1]; simp only [Fin.val_succ]

/-! ## Whole-rectangle accesses -/

theorem h00_64 : (![0, 0] : Fin S1x64.rank → ℕ) = fun _ => 0 := by funext a; fin_cases a <;> rfl
theorem h00_16384 : (![0, 0] : Fin S1x16384.rank → ℕ) = fun _ => 0 := by funext a; fin_cases a <;> rfl

/-- A load through the whole-buffer rectangle reads the contents. -/
theorem ld64 {e : EltTy} (X : S1x64.Idx → Elt F e) :
    View.ld X (Rect.unit (s := S1x64) ![0, 0] S1x64.size inb_S1x64_S1x64_0_0) = X := View.ld_unit_zero h00_64 _ X
theorem ld16384 {e : EltTy} (X : S1x16384.Idx → Elt F e) :
    View.ld X (Rect.unit (s := S1x16384) ![0, 0] S1x16384.size inb_S1x16384_S1x16384_0_0) = X := View.ld_unit_zero h00_16384 _ X

/-- A load of a whole buffer reads the buffer's contents. -/
theorem readAt64 {κ : Kind} {sp : Space} {e : EltTy} (v : View sig κ sp S1x64 e) (f : v.ty.Contents (Elt F)) :
    v.readAt (Elt F) (Rect.unit (s := S1x64) ![0, 0] S1x64.size inb_S1x64_S1x64_0_0).toLoadRect f = v.read (Elt F) f :=
  (View.readAt_eq_ld v f _).trans (ld64 _)
theorem readAt16384 {κ : Kind} {sp : Space} {e : EltTy} (v : View sig κ sp S1x16384 e) (f : v.ty.Contents (Elt F)) :
    v.readAt (Elt F) (Rect.unit (s := S1x16384) ![0, 0] S1x16384.size inb_S1x16384_S1x16384_0_0).toLoadRect f = v.read (Elt F) f :=
  (View.readAt_eq_ld v f _).trans (ld16384 _)

/-- A whole-buffer store made last covers the buffer, whatever was stored before. -/
theorem cover64_cons (p : Vec F S1x64 .f32) (L : List (View.Piece (Elt F) S1x64 .f32)) (y : S1x64.Idx) :
    ∃ pc ∈ ((⟨Rect.unit (s := S1x64) ![0, 0] S1x64.size inb_S1x64_S1x64_0_0, p⟩ : View.Piece (Elt F) S1x64 .f32) :: L), y ∈ pc.1.set :=
  ⟨_, List.mem_cons_self, View.mem_set_unit_zero h00_64 inb_S1x64_S1x64_0_0 y⟩

/-- A whole-buffer load after whole-buffer stores reads the last store's payload. -/
theorem readCov64_cons {κ : Kind} {sp : Space} (v : View sig κ sp S1x64 .f32) (p : Vec F S1x64 .f32) (L : List (View.Piece (Elt F) S1x64 .f32)) :
    v.readCov ((⟨Rect.unit (s := S1x64) ![0, 0] S1x64.size inb_S1x64_S1x64_0_0, p⟩ : View.Piece (Elt F) S1x64 .f32) :: L)
      (Rect.unit (s := S1x64) ![0, 0] S1x64.size inb_S1x64_S1x64_0_0).toLoadRect = p := by
  rw [View.readCov_eq_canon_ld _ _ _ (cover64_cons _ _), View.canon_cons_unit_zero h00_64, ld64]

/-! ## The branch on the grid coordinate -/

/-- The body's one condition: the point is the grid's first. -/
abbrev cond1 (i : grid1.Coords) : Prop :=
  (Scalar.cmpi .ne (Scalar.extui (Scalar.cmpi .eq (BitVec.ofNat 32 (i 0).val) 0#32)) 0#32) = 1#1

/-- It holds at the grid's first point and at no other (decided over the 62 points). -/
theorem hcond1 : ∀ t : Fin cfg1.N, cond1 (grid1.coords t) ↔ t.val = 0 :=
  (by decide +kernel : ∀ t : Fin grid1.N, cond1 (grid1.coords t) ↔ t.val = 0)

/-! ## The body's triple, per control case -/

set_option maxHeartbeats 4000000 in
/-- The body at a point that is not the first, on whole buffers: the inputs at read contents `x0 … x3`, the outputs at
    anything, the two carried rows at `s7`, `s8`.  It leaves the inputs as they were, and each carried row AND the
    output beside it at the row with the point's partial sum added. -/
theorem sound_kernel1_later (c : Dev nD) (E : Set ℕ) (i : grid1.Coords) (hc : ¬ cond1 i)
    (arg1 : Memref sig .tc .vmem S1x16384 .f32) (harg1 : arg1.IsWhole) (arg2 : Memref sig .tc .vmem S1x16384 .f32) (harg2 : arg2.IsWhole)
    (arg3 : Memref sig .tc .vmem S1x16384 .f32) (harg3 : arg3.IsWhole) (arg4 : Memref sig .tc .vmem S1x16384 .i32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (x0 x1 x2 : Vec F S1x16384 .f32) (x3 : Vec F S1x16384 .i32) (s7 s8 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 (k1_pay8 i x0 x1 x2 x3) s7)
            ∗ owns (c : Thread nD τ) arg6 fullShare (k1_pay2 (k1_pay9 i x2 x3) s8)
            ∗ owns (c : Thread nD τ) arg7 fullShare (k1_pay1 (k1_pay8 i x0 x1 x2 x3) s7)
            ∗ owns (c : Thread nD τ) arg8 fullShare (k1_pay2 (k1_pay9 i x2 x3) s8)) -∗ K ⟨⟩))
      ⊢ wp frame (wpE (defs₀ (F := F)) Variants.none c none) E
          (cc1__k2_body i arg1 harg1 arg2 harg2 arg3 harg3 arg4 harg4 arg5 harg5 arg6 harg6 arg7 harg7 arg8 harg8) K := by
  simp only [cc1__k2_body_eq_skeleton]; unfold cc1__k2_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf1 hf2 hf3 hf4 hf7 hf8
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  isplitl [H6]
  · iexists _; isplitr
    swap; · iexact H6
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay9 k1_pay5 k1_pay6 k1_pay7; rfl) | rfl
  isplitl [H7]
  · iexists _; isplitr
    swap; · iexact H7
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  iexists _; isplitr
  swap; · iexact H8
  ipureintro
  sl_unfold_run_names
  rewrite [View.read_writes_eq_canon _ _ _ (cover64_cons _ _), View.canon_cons_unit_zero h00_64]
  repeat rewrite [readCov64_cons]
  repeat rewrite [readAt16384]
  repeat rewrite [readAt64]
  first | (unfold k1_pay9 k1_pay5 k1_pay6 k1_pay7; rfl) | rfl

set_option maxHeartbeats 4000000 in
/-- The body at the first point: the two carried rows may hold anything; they are zeroed first, so that they and the
    outputs end at the zero rows with the point's partial sums added. -/
theorem sound_kernel1_first (c : Dev nD) (E : Set ℕ) (i : grid1.Coords) (hc : cond1 i)
    (arg1 : Memref sig .tc .vmem S1x16384 .f32) (harg1 : arg1.IsWhole) (arg2 : Memref sig .tc .vmem S1x16384 .f32) (harg2 : arg2.IsWhole)
    (arg3 : Memref sig .tc .vmem S1x16384 .f32) (harg3 : arg3.IsWhole) (arg4 : Memref sig .tc .vmem S1x16384 .i32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (x0 x1 x2 : Vec F S1x16384 .f32) (x3 : Vec F S1x16384 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 (k1_pay8 i x0 x1 x2 x3) k1_pay3)
            ∗ owns (c : Thread nD τ) arg6 fullShare (k1_pay2 (k1_pay9 i x2 x3) k1_pay4)
            ∗ owns (c : Thread nD τ) arg7 fullShare (k1_pay1 (k1_pay8 i x0 x1 x2 x3) k1_pay3)
            ∗ owns (c : Thread nD τ) arg8 fullShare (k1_pay2 (k1_pay9 i x2 x3) k1_pay4)) -∗ K ⟨⟩))
      ⊢ wp frame (wpE (defs₀ (F := F)) Variants.none c none) E
          (cc1__k2_body i arg1 harg1 arg2 harg2 arg3 harg3 arg4 harg4 arg5 harg5 arg6 harg6 arg7 harg7 arg8 harg8) K := by
  simp only [cc1__k2_body_eq_skeleton]; unfold cc1__k2_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  isplitl [H6]
  · iexists _; isplitr
    swap; · iexact H6
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay9 k1_pay5 k1_pay6 k1_pay7; rfl) | rfl
  isplitl [H7]
  · iexists _; isplitr
    swap; · iexact H7
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  iexists _; isplitr
  swap; · iexact H8
  ipureintro
  sl_unfold_run_names
  rewrite [View.read_writes_eq_canon _ _ _ (cover64_cons _ _), View.canon_cons_unit_zero h00_64]
  repeat rewrite [readCov64_cons]
  repeat rewrite [readAt16384]
  repeat rewrite [readAt64]
  first | (unfold k1_pay9 k1_pay5 k1_pay6 k1_pay7; rfl) | rfl

/-! ## The invariant opened -/

/-- The scoped rest with the two carried rows split out of it. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c scL1) := by
  rw [Pipeline.scopedRest_split_of_list spec1 c scL1 (by decide) (by decide)]
  simp only [scL1, bigSepL_cons_cons, bigSepL_singleton, scM1_0, scM1_1, owns_whole] <;> rfl

/-- After a point the invariant holds the two rows at `sAt1`. -/
theorem Phi1_pos (c : Dev nD) (n : ℕ) (hn : n ≠ 0) :
    Phi1 V c n = iprop(owns (c : Thread nD τ) scM1_0 fullShare (sAt1 V c n).1
      ∗ owns (c : Thread nD τ) scM1_1 fullShare (sAt1 V c n).2
      ∗ Pipeline.scopedRestBut (Ix := Unit) (Name := ℕ) (U := UR sig nD τ) (Lvl := ℕ) (Val := Elt F) spec1 c scL1
      ∗ ∃ r, prngReg c r) := by
  cases n with
  | zero => exact absurd rfl hn
  | succ n => rfl

/-! ## What the inputs' buffers hold when the body runs -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks; at the first point the rows are at anything and the
    first case of the body runs, at a later point they are at what the point before left and the other case runs; either
    way the rows and the two outputs end at the rows before the point with the point's partial sums added. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Phi1_castSucc, Phi1_succ, after1_0, after1_1, after1_2, after1_3, after1_4, after1_5,
    Phi1_pos V c (t.val + 1) (Nat.succ_ne_zero _), sAt1_succ]
  unfold part1; (try dsimp only)
  by_cases hz : t.val = 0
  · have hc : cond1 (grid1.coords t) := (hcond1 t).mpr hz
    have e0 : Phi1 V c t.val = Pipeline.ΦA spec1 c := by rw [hz]; rfl
    have e1 : sAt1 V c t.val = (k1_pay3, k1_pay4) := by rw [hz]; rfl
    rw [e0, e1]; unfold Pipeline.ΦA; rw [scopedRest1_split]; (try dsimp only)
    iintro ⟨⟨⟨⟨⟨%d7, H7⟩, ⟨%d8, H8⟩⟩, Hrest⟩, Hr⟩, Ho, ⟨%d0, H0⟩, ⟨%d1, H1⟩, ⟨%d2, H2⟩, ⟨%d3, H3⟩, ⟨%d4, H4⟩, ⟨%d5, H5⟩⟩
    iapply (sound_kernel1_first c Set.univ (grid1.coords t) hc _ _ _ _ _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H7]; · iexists _; iexact H7
    isplitl [H8]; · iexists _; iexact H8
    iintro ⟨H0, H1, H2, H3, H4, H5, H7, H8⟩
    isplitl [H7 H8 Hrest Hr]
    · isplitl [H7]; · iexact H7
      isplitl [H8]; · iexact H8
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    iexact H5
  · have hc : ¬ cond1 (grid1.coords t) := fun h => hz ((hcond1 t).mp h)
    rw [Phi1_pos V c t.val hz]
    iintro ⟨⟨H7, H8, Hrest, Hr⟩, Ho, ⟨%d0, H0⟩, ⟨%d1, H1⟩, ⟨%d2, H2⟩, ⟨%d3, H3⟩, ⟨%d4, H4⟩, ⟨%d5, H5⟩⟩
    iapply (sound_kernel1_later c Set.univ (grid1.coords t) hc _ _ _ _ _ _ _ _ _ _ _ _ _ _ _ _
      (iblk1 V c 0 t) (iblk1 V c 1 t) (iblk1 V c 2 t) (iblk1 V c 3 t) (sAt1 V c t.val).1 (sAt1 V c t.val).2 _)
    isplitl [H0]; · iexact H0
    isplitl [H1]; · iexact H1
    isplitl [H2]; · iexact H2
    isplitl [H3]; · iexact H3
    isplitl [H4]; · iexists _; iexact H4
    isplitl [H5]; · iexists _; iexact H5
    isplitl [H7]; · iexact H7
    isplitl [H8]; · iexact H8
    iintro ⟨H0, H1, H2, H3, H4, H5, H7, H8⟩
    isplitl [H7 H8 Hrest Hr]
    · isplitl [H7]; · iexact H7
      isplitl [H8]; · iexact H8
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering: the generator register and the scoped rest make the invariant before the first point (whatever
    `T` rides between them is dropped). -/
theorem hin1 (c : Dev nD) (T : sProp 𝕄) :
    iprop((∃ r, prngReg c r) ∗ T ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- Leaving: the invariant after the last point gives the generator register and the scoped rest back, the rows'
    named contents forgotten; the kernel has no semaphore of its own. -/
theorem hout1 (c : Dev nD) :
    (dat1 V c).Φ (Fin.last cfg1.N) ⊢ iprop((∃ r, prngReg c r)
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec1 c) := by
  rw [Pipeline.ownSems0_none, show (dat1 V c).Φ (Fin.last cfg1.N) = Phi1 V c cfg1.N from rfl,
    Phi1_pos V c cfg1.N (by have : cfg1.N = 62 := N_1; omega), scopedRest1_split]
  iintro ⟨H7, H8, Hrest, Hr⟩
  isplitl [Hr]; · iexact Hr
  isplitr; · iempintro
  isplitl [H7 H8]
  · isplitl [H7]
    · iexists _; iexact H7
    · iexists _; iexact H8
  iexact Hrest

end Region1

end Cert.Kernel.Hand

end
-- ==== Proof.KB.Run.lean ====
/-
  The kernel program's run, on every core: @main's host stretches and its two kernel regions from the launch to the return.

  Between two items of @main a core holds every unscoped buffer whole at a known valuation. Region 0 is entered from the
  valuation after the sixteenth host stretch and leaves its two output arrays at what its 62 points wrote back; the three host
  stretches that follow compute region 1's operands from them; region 1 leaves its two output arrays at what its last point
  wrote back; three more stretches compute the result. Each region's record splits its six windows' arrays out of the unscoped
  buffers at entry and puts them back at exit; the generator register rides along, and nothing is owed between cores.
  The frame follows: no item writes an argument array.
-/
import proofs.«413937_j37383395344507_3_alg».proof.Proof.KB.Reg0
import proofs.«413937_j37383395344507_3_alg».proof.Proof.KB.Reg1
import proofs.«413937_j37383395344507_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents, read at the TensorCore's references. -/
abbrev Vin0 : (c : Dev nD) → (b : Ref sig .tc) → Buf (Elt F) ((c : Thread nD τ).loc b) := fun c b => V16 m c b

/-- Region 0's two output arrays after its 62 points. -/
abbrev A0 (c : Dev nD) : Buf (Elt F) ((c : Thread nD τ).loc main_v30_0) := (dat0 (Vin0 m) c).arrAt 4 cfg0.N
abbrev A1 (c : Dev nD) : Buf (Elt F) ((c : Thread nD τ).loc main_v30_1) := (dat0 (Vin0 m) c).arrAt 5 cfg0.N

/-- The contents the regions leave, region 0's only: every other entry is a placeholder no valuation reads. -/
def outsA : Outs (F := F) := fun _ r c =>
  Function.update (Function.update (fun r : Ref sig .tc => (V16 m c r : Buf (Elt F) ((c : Thread nD τ).loc r))) main_v30_0 (A0 m c)) main_v30_1 (A1 m c) r

/-- Region 1's entry contents: three host stretches after region 0's exit. -/
abbrev Vin1 : (c : Dev nD) → (b : Ref sig .tc) → Buf (Elt F) ((c : Thread nD τ).loc b) := fun c b => V20 m (outsA m) c b

/-- Region 1's two output arrays after its last point. -/
abbrev B0 (c : Dev nD) : Buf (Elt F) ((c : Thread nD τ).loc main_v53_0) := (dat1 (Vin1 m) c).arrAt 4 cfg1.N
abbrev B1 (c : Dev nD) : Buf (Elt F) ((c : Thread nD τ).loc main_v53_1) := (dat1 (Vin1 m) c).arrAt 5 cfg1.N

/-- The contents both regions leave. -/
def outs : Outs (F := F) := fun J r c =>
  Function.update (Function.update (fun r : Ref sig .tc => outsA m J r c) main_v53_0 (B0 m c)) main_v53_1 (B1 m c) r

theorem outs_v30_0 (J : ℕ) (c : Dev nD) : outs m J main_v30_0 c = A0 m c := by
  unfold outs outsA
  rw [Function.update_of_ne (by decide), Function.update_of_ne (by decide), Function.update_of_ne (by decide), Function.update_self]
theorem outs_v30_1 (J : ℕ) (c : Dev nD) : outs m J main_v30_1 c = A1 m c := by
  unfold outs outsA
  rw [Function.update_of_ne (by decide), Function.update_of_ne (by decide), Function.update_self]
theorem outs_v53_0 (J : ℕ) (c : Dev nD) : outs m J main_v53_0 c = B0 m c := by
  unfold outs
  rw [Function.update_of_ne (by decide), Function.update_self]
theorem outs_v53_1 (J : ℕ) (c : Dev nD) : outs m J main_v53_1 c = B1 m c := by
  unfold outs
  rw [Function.update_self]
theorem outsA_v30_0 (J : ℕ) (c : Dev nD) : outsA m J main_v30_0 c = A0 m c := by
  unfold outsA
  rw [Function.update_of_ne (by decide), Function.update_self]
theorem outsA_v30_1 (J : ℕ) (c : Dev nD) : outsA m J main_v30_1 c = A1 m c := by
  unfold outsA
  rw [Function.update_self]

/-- Region 0's exit contents read the two families alike, so every valuation up to region 1's entry is one. -/
theorem V17_outs (c : Dev nD) : V17 m (outs m) c = V17 m (outsA m) c := by
  show Function.update (Function.update (V16 m c) main_v30_0 (outs m 17 main_v30_0 c)) main_v30_1 (outs m 17 main_v30_1 c)
    = Function.update (Function.update (V16 m c) main_v30_0 (outsA m 17 main_v30_0 c)) main_v30_1 (outsA m 17 main_v30_1 c)
  rw [outs_v30_0, outs_v30_1, outsA_v30_0, outsA_v30_1]
theorem V20_outs (c : Dev nD) : V20 m (outs m) c = V20 m (outsA m) c := by
  show StableHlo.after hostOps1_2 (StableHlo.after hostOps1_1 (StableHlo.after hostOps1 (V17 m (outs m) c))) = _
  rw [V17_outs]

/-! ## The regions' arrays at exit -/

theorem V17_at0 (c : Dev nD) : V17 m (outs m) c main_v30_0 = A0 m c := by
  simp only [V17, Function.update_of_ne (StableHlo.devRef_ne_of_ne (by decide) : (Proc.devRef .tc main_v30_0 : DevRef τ sig) ≠ Proc.devRef .tc main_v30_1), Function.update_self]
  exact outs_v30_0 m 17 c
theorem V17_at1 (c : Dev nD) : V17 m (outs m) c main_v30_1 = A1 m c := by
  simp only [V17, Function.update_self]
  exact outs_v30_1 m 17 c
theorem V21_at0 (c : Dev nD) : V21 m (outs m) c main_v53_0 = B0 m c := by
  simp only [V21, Function.update_of_ne (StableHlo.devRef_ne_of_ne (by decide) : (Proc.devRef .tc main_v53_0 : DevRef τ sig) ≠ Proc.devRef .tc main_v53_1), Function.update_self]
  exact outs_v53_0 m 21 c
theorem V21_at1 (c : Dev nD) : V21 m (outs m) c main_v53_1 = B1 m c := by
  simp only [V21, Function.update_self]
  exact outs_v53_1 m 21 c

/-- Region 0's exit contents read at the TensorCore's references. -/
abbrev Vout0 : (c : Dev nD) → (b : Ref sig .tc) → Buf (Elt F) ((c : Thread nD τ).loc b) := fun c b => V17 m (outs m) c b
/-- Region 1's exit contents. -/
abbrev Vout1 : (c : Dev nD) → (b : Ref sig .tc) → Buf (Elt F) ((c : Thread nD τ).loc b) := fun c b => V21 m (outs m) c b

/-- At region 0's exit each of its six arrays holds what the pipeline leaves: an input what it held at entry, an output what
    the points wrote back. -/
theorem hF0 (c : Dev nD) (w : Fin cfg0.W) : (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (V17_of m (outs m) c main_v23 (by decide)).symm)
  | ⟨1, _⟩ => exact ((dat0 (Vin0 m) c).arrAt_in 1 rfl _).trans ((A_eq0 (Vin0 m) c 1).trans (V17_of m (outs m) c main_v24 (by decide)).symm)
  | ⟨2, _⟩ => exact ((dat0 (Vin0 m) c).arrAt_in 2 rfl _).trans ((A_eq0 (Vin0 m) c 2).trans (V17_of m (outs m) c main_v28 (by decide)).symm)
  | ⟨3, _⟩ => exact ((dat0 (Vin0 m) c).arrAt_in 3 rfl _).trans ((A_eq0 (Vin0 m) c 3).trans (V17_of m (outs m) c main_v29 (by decide)).symm)
  | ⟨4, _⟩ => exact (V17_at0 m c).symm
  | ⟨5, _⟩ => exact (V17_at1 m c).symm

/-- and every other buffer what it held at entry. -/
theorem hrest0 (c : Dev nD) : ∀ b, b ∉ Finset.univ.image (Pipeline.arrRef spec0) → Vout0 m c b = Vin0 m c b := fun b hb =>
  V17_of m (outs m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil)

theorem hF1 (c : Dev nD) (w : Fin cfg1.W) : (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans (((V21_of m (outs m) c main_v49 (by decide)).trans (congrFun (V20_outs m c) _)).symm))
  | ⟨1, _⟩ => exact ((dat1 (Vin1 m) c).arrAt_in 1 rfl _).trans ((A_eq1 (Vin1 m) c 1).trans (((V21_of m (outs m) c main_v50 (by decide)).trans (congrFun (V20_outs m c) _)).symm))
  | ⟨2, _⟩ => exact ((dat1 (Vin1 m) c).arrAt_in 2 rfl _).trans ((A_eq1 (Vin1 m) c 2).trans (((V21_of m (outs m) c main_v51 (by decide)).trans (congrFun (V20_outs m c) _)).symm))
  | ⟨3, _⟩ => exact ((dat1 (Vin1 m) c).arrAt_in 3 rfl _).trans ((A_eq1 (Vin1 m) c 3).trans (((V21_of m (outs m) c main_v52 (by decide)).trans (congrFun (V20_outs m c) _)).symm))
  | ⟨4, _⟩ => exact (V21_at0 m c).symm
  | ⟨5, _⟩ => exact (V21_at1 m c).symm

theorem hrest1 (c : Dev nD) : ∀ b, b ∉ Finset.univ.image (Pipeline.arrRef spec1) → Vout1 m c b = Vin1 m c b := fun b hb =>
  (V21_of m (outs m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil)).trans (congrFun (V20_outs m c) _)

/-! ## The proof data family and what rides beside the buffers -/

/-- Every pipeline's proof data, each at its region's entry contents: a literal match on the pipeline. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev Lz : GSem nD τ sig → Finset Unit := fun _ => ∅
abbrev lvz : GSem nD τ sig → Unit → ℕ := fun _ _ => 0

/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the sixteenth stretch's valuation, left at the
    valuation with its two output arrays at what the points wrote back. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (V16 m c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the valuation three stretches after region 0, left at the valuation with
    its two output arrays at what the last point wrote back. Its invariant carries the two scratch accumulators. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (V20 m (outsA m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (Vin1 m) c _
  hout c := by rw [Pipeline.ownSems0_none]; exact (hout1 (Vin1 m) c).trans (by rw [Pipeline.ownSems0_none]; exact .rfl)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side facts -/

/-- The launch's ghost element is the pipelines' cells and tokens; nothing else is dealt. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core makes the riding state: its generator register, and nothing owed. -/
theorem launch_rest : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lz lvz)
    ⊢ (|={Set.univ}=> bigSep Finset.univ (fun c : Dev nD => R (F := F) c) : sProp 𝕄) :=
  Pipeline.initEach Lz lvz fun c => by
    iintro ⟨⟨-, HO, -, Hp, -⟩, -⟩
    imodintro
    isplitl [Hp]; · iexists _; iexact Hp
    iexists ∅; iexact HO

/-- The riding state ends owing nothing. -/
theorem rest_owes (c : Dev nD) : R (F := F) c ⊢ (iprop(∃ W, owes (c : Thread nD τ) (0 : CellTallies nD τ sig Unit) W) : sProp 𝕄) := by
  iintro ⟨-, HO⟩; iexact HO

/-! ## The frame -/

-- the launch theorem's implicit arguments are found by unifying its conclusion with this one, which takes unfolding plain
-- definitions in a metavariable's type
set_option backward.isDefEq.respectTransparency.types false in
/-- THE FRAME: every weakly fair execution of @main from memory `m` with zero counters terminates, nothing faulting, and the
    five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := launch_own) (E := fun _ c => R c) (hE0 := launch_rest ρ) (hE2 := rest_owes)
    (R0 := reg0 m) (hpre0 := fun c => .rfl) (hpost0 := fun c => .rfl)
    (R1 := reg1 m) (hpre1 := fun c => by rw [V20_outs]; exact .rfl) (hpost1 := fun c => .rfl)

end Cert.Kernel.Hand

end
-- ==== Proof.KI.Reg0.lean ====
/-
  Region 0 of the program: the first of its two tiled kernels, on a grid of 62 points.

  At a point the kernel reads one tile of 16384 pairs: the two tiles of scaled feature rows (16384 × 64), and the two
  tiles of packed node words (1 × 16384) of the pairs' anchors and second nodes. It writes three rows of 16384 reals
  (a pair's exponential, that exponential kept where the pair is negative and in range, and the positive flag as a real)
  into a 3 × 16384 tile, and one row of 16384 label words into a 1 × 16384 tile. Whether a pair is in range depends on
  the tile's position in the grid, so what the kernel leaves is a function of the point's coordinate as well as of the
  four tiles it read.

  This file states what the kernel leaves in each output tile as a closed form of the input tiles (the three row
  writes of the first output as pieces, last first; the single write of the second), proves that the kernel's body
  run on whole tiles leaves exactly that, and packages it as the region's proof data and body obligation: every input
  tile is left as read, every output tile is left at its closed form, the invariant is the untouched rest of the
  machine, nothing is owed.
-/
import proofs.«413937_j37383395344507_3_alg».proof.Proof.Gen.KernelIdeal.Launch
import proofs.«413937_j37383395344507_3_alg».proof.Proof.Gen.KernelIdeal.Skeleton
import proofs.«413937_j37383395344507_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-! ## The windows' tiles -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes -/

/-- A whole 16384 × 64 tile. -/
abbrev rA : Rect S16384x64 := Rect.unit (s := S16384x64) ![0, 0] S16384x64.size inb_S16384x64_S16384x64_0_0
/-- A whole 1 × 16384 tile. -/
abbrev rB : Rect S1x16384 := Rect.unit (s := S1x16384) ![0, 0] S1x16384.size inb_S1x16384_S1x16384_0_0
/-- Rows 0, 1, 2 of the 3 × 16384 tile. -/
abbrev r4_0 : Rect S3x16384 := Rect.unit (s := S3x16384) ![0, 0] S1x16384.size inb_S3x16384_S1x16384_0_0
abbrev r4_1 : Rect S3x16384 := Rect.unit (s := S3x16384) ![1, 0] S1x16384.size inb_S3x16384_S1x16384_1_0
abbrev r4_2 : Rect S3x16384 := Rect.unit (s := S3x16384) ![2, 0] S1x16384.size inb_S3x16384_S1x16384_2_0

/-! ## What the body leaves in each output tile -/

/-- The first output tile after the body, from the point's coordinate and the four input tiles: its three row
    writes as pieces, last first. Row 0 is the exponential; row 1 the exponential where the pair is negative and in
    range, else 0; row 2 the positive flag as a real. -/
def out0_4 (i : grid0.Coords) (x0 x1 : Vec F S16384x64 .f32) (x2 x3 : Vec F S1x16384 .i32) : Vec F S3x16384 .f32 :=
  View.canon [
    ⟨r4_2, k0_pay4 (F := F) (k0_pay10 (F := F) (View.ld x3 rB)) (k0_pay11 i) (k0_pay12 (F := F) (View.ld x2 rB) (View.ld x3 rB)) (k0_pay13 (F := F) (View.ld x2 rB)) k0_pay14⟩,
    ⟨r4_1, k0_pay3 (k0_pay6 (View.ld x0 rA) (View.ld x1 rA)) (k0_pay10 (F := F) (View.ld x3 rB)) (k0_pay11 i) (k0_pay12 (F := F) (View.ld x2 rB) (View.ld x3 rB)) (k0_pay13 (F := F) (View.ld x2 rB)) k0_pay14⟩,
    ⟨r4_0, k0_pay2 (k0_pay6 (View.ld x0 rA) (View.ld x1 rA))⟩]

/-- The second output tile after the body: its one write, the anchors' label words. -/
def out0_5 (x2 : Vec F S1x16384 .i32) : Vec F S1x16384 .i32 :=
  View.canon [⟨rB, k0_pay5 (k0_pay9 (F := F) (View.ld x2 rB))⟩]

/-- The three row writes tile the 3 × 16384 tile, so they cover it. -/
theorem cover0_4 (p2 p1 p0 : Vec F S1x16384 .f32) (y : S3x16384.Idx) :
    ∃ pc ∈ ([⟨r4_2, p2⟩, ⟨r4_1, p1⟩, ⟨r4_0, p0⟩] : List (View.Piece (Elt F) S3x16384 .f32)), y ∈ pc.1.set :=
  View.cover_of_tiled [⟨r4_2, p2⟩, ⟨r4_1, p1⟩, ⟨r4_0, p0⟩] S1x16384.size (by rfl) y

/-- The one write of the 1 × 16384 tile covers it. -/
theorem cover0_5 (p0 : Vec F S1x16384 .i32) (y : S1x16384.Idx) :
    ∃ pc ∈ ([⟨rB, p0⟩] : List (View.Piece (Elt F) S1x16384 .i32)), y ∈ pc.1.set :=
  View.cover_of_tiled [⟨rB, p0⟩] S1x16384.size (by rfl) y

/-! ## The body's triple -/

set_option maxHeartbeats 4000000 in
/-- The kernel body on whole tiles, the inputs' at read contents and the outputs' at anything, runs to the
    continuation holding the inputs' as they were and each output's at its closed form of the inputs'. The four
    reads of an output tile before its writes read whatever is there and are used by nothing. -/
theorem sound_kernel0 (c : Dev nD) (E : Set ℕ) (i : grid0.Coords)
    (arg1 : Memref sig .tc .vmem S16384x64 .f32) (harg1 : arg1.IsWhole) (arg2 : Memref sig .tc .vmem S16384x64 .f32) (harg2 : arg2.IsWhole)
    (arg3 : Memref sig .tc .vmem S1x16384 .i32) (harg3 : arg3.IsWhole) (arg4 : Memref sig .tc .vmem S1x16384 .i32) (harg4 : arg4.IsWhole)
    (arg5 : Memref sig .tc .vmem S3x16384 .f32) (harg5 : arg5.IsWhole) (arg6 : Memref sig .tc .vmem S1x16384 .i32) (harg6 : arg6.IsWhole)
    (x0 x1 : Vec F S16384x64 .f32) (x2 x3 : Vec F S1x16384 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3)
            ∗ owns (c : Thread nD τ) arg6 fullShare (out0_5 x2)) -∗ K ⟨⟩))
      ⊢ wp frame (wpE (defs₀ (F := F)) Variants.none c none) E
          (cc0__k1_body i arg1 harg1 arg2 harg2 arg3 harg3 arg4 harg4 arg5 harg5 arg6 harg6) K := by
  simp only [cc0__k1_body_eq_skeleton]; unfold cc0__k1_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _ _ _)
  iexists _; isplitr
  swap; · iexact H5
  ipureintro
  exact View.read_writes_eq_canon _ _ _ (cover0_5 _)

/-! ## The region's proof data -/

/-- The proof data of the region on core `c`: the arrays as the region finds them; after the body at point `t` each
    input's tile as read and each output's at its closed form of the input tiles and the point's coordinate; the
    invariant the untouched rest of the machine; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
    | ⟨5, _⟩ => out0_5 (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t =
    out0_4 (grid0.coords t) (iblk0 V c 0 t) (iblk0 V c 1 t) (iblk0 V c 2 t) (iblk0 V c 3 t) := by dsimp only [dat0]
theorem after0_5 (c : Dev nD) (t : Fin cfg0.N) : (dat0 V c).after 5 t = out0_5 (iblk0 V c 2 t) := by dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The tile the fetch at a point reads is the window's tile of the region-entry contents, the proof data's arrays
    being those contents. -/
theorem blockOf0_eq (c : Dev nD) (w : Fin cfg0.W) (t : Fin cfg0.N) : (dat0 V c).blockOf w t = iblk0 V c w t := by
  unfold Dat.blockOf iblk0
  rw [A_eq0]

/-- Every input window is fetched at every point of this grid, and none is cut: so when the body runs its current
    buffer holds what the fetch put there, the whole tile. -/
theorem before0_0 (c : Dev nD) (t : Fin cfg0.N) (d) : (dat0 V c).before 0 t d = iblk0 V c 0 t := by
  rw [(dat0 V c).before_fetched 0 t (fetch0_0 t) d]
  exact blockOf0_eq V c 0 t
theorem before0_1 (c : Dev nD) (t : Fin cfg0.N) (d) : (dat0 V c).before 1 t d = iblk0 V c 1 t := by
  rw [(dat0 V c).before_fetched 1 t (fetch0_1 t) d]
  exact blockOf0_eq V c 1 t
theorem before0_2 (c : Dev nD) (t : Fin cfg0.N) (d) : (dat0 V c).before 2 t d = iblk0 V c 2 t := by
  rw [(dat0 V c).before_fetched 2 t (fetch0_2 t) d]
  exact blockOf0_eq V c 2 t
theorem before0_3 (c : Dev nD) (t : Fin cfg0.N) (d) : (dat0 V c).before 3 t d = iblk0 V c 3 t := by
  rw [(dat0 V c).before_fetched 3 t (fetch0_3 t) d]
  exact blockOf0_eq V c 3 t

/-- The body at any point: the inputs' buffers hold their tiles, so the body's triple applies at the point's
    coordinate; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point: the two products over the six windows written out, it is the
    body's triple at that point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/- REGION 1 of the kernel program (its second kernel call: the masked per-segment sums, accumulated over the
   62 grid points in two carried scratch rows).  This module gives the region's proof data and proves its body
   obligation: at the first point the two scratch rows are zeroed; at every point each row has the point's partial
   sum added to it; and at every point the two output blocks receive the rows' current contents, so that after
   point t the outputs hold the sums over the points 0..t. -/
import proofs.«413937_j37383395344507_3_alg».proof.Proof.Gen.KernelIdeal.Launch
import proofs.«413937_j37383395344507_3_alg».proof.Proof.Gen.KernelIdeal.Skeleton
import proofs.«413937_j37383395344507_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What a point adds, and the two carried rows after n points -/

/-- The two partial sums of point `t`: the two contractions of the point's four input blocks. -/
def part1 (c : Dev nD) (t : Fin cfg1.N) : Vec F S1x64 .f32 × Vec F S1x64 .f32 :=
  (k1_pay8 (grid1.coords t) (iblk1 V c 0 t) (iblk1 V c 1 t) (iblk1 V c 2 t) (iblk1 V c 3 t),
   k1_pay9 (grid1.coords t) (iblk1 V c 2 t) (iblk1 V c 3 t))

/-- The two carried rows after `n` points: before any point the zero rows the first point stores; each point adds
    its partial sums to what the point before left. -/
def sAt1 (c : Dev nD) : ℕ → Vec F S1x64 .f32 × Vec F S1x64 .f32
  | 0 => (k1_pay3, k1_pay4)
  | n + 1 =>
    if h : n < cfg1.N then
      (k1_pay1 (part1 V c ⟨n, h⟩).1 (sAt1 c n).1, k1_pay2 (part1 V c ⟨n, h⟩).2 (sAt1 c n).2)
    else sAt1 c n

/-- The recursion at a point of the grid: the rows after point `t` are the rows before it with the point's partial
    sums added (at the first point the rows before are the zero rows, `sAt1_zero`). -/
theorem sAt1_succ (c : Dev nD) (t : Fin cfg1.N) :
    sAt1 V c (t.val + 1) = (k1_pay1 (part1 V c t).1 (sAt1 V c t.val).1, k1_pay2 (part1 V c t).2 (sAt1 V c t.val).2) := by
  rw [sAt1, dif_pos t.isLt]

theorem sAt1_zero (c : Dev nD) : sAt1 V c 0 = (k1_pay3, k1_pay4) := rfl

/-! ## The invariant -/

/-- The two scratch operands, whole scoped buffers of the kernel's own. -/
abbrev scM1_0 : Memref sig .tc .vmem S1x64 .f32 := Memref.whole cc1_scratch0
abbrev scM1_1 : Memref sig .tc .vmem S1x64 .f32 := Memref.whole cc1_scratch1
abbrev scL1 : List (Ref sig .tc) := [cc1_scratch0, cc1_scratch1]

/-- The region invariant before position `n`: before the first point every scoped buffer that is no staging buffer
    at anything and the generator register at some state; afterwards the same with the two carried rows at `sAt1 n`. -/
def Phi1 (c : Dev nD) : ℕ → sProp 𝕄
  | 0 => Pipeline.ΦA spec1 c
  | n + 1 => iprop(owns (c : Thread nD τ) scM1_0 fullShare (sAt1 V c (n + 1)).1
      ∗ owns (c : Thread nD τ) scM1_1 fullShare (sAt1 V c (n + 1)).2
      ∗ Pipeline.scopedRestBut (Ix := Unit) (Name := ℕ) (U := UR sig nD τ) (Lvl := ℕ) (Val := Elt F) spec1 c scL1
      ∗ ∃ r, prngReg c r)

/-! ## The proof data -/

/-- The proof data of the region on core `c`: the arrays as the region finds them; after the body at point `t` each
    input's buffer at its block and the two outputs' at the carried rows after `t + 1` points; the invariant `Phi1`;
    full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (sAt1 V c (t.val + 1)).1
    | ⟨5, _⟩ => (sAt1 V c (t.val + 1)).2
  Φ t := Phi1 V c t.val
  q _ := fullShare
  owed _ := 0

/-- The proof data's fields projected. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (sAt1 V c (t.val + 1)).1 := by dsimp only [dat1]
theorem after1_5 (c : Dev nD) (t : Fin cfg1.N) : (dat1 V c).after 5 t = (sAt1 V c (t.val + 1)).2 := by dsimp only [dat1]

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := by
  dsimp only [dat1]; simp only [Fin.val_succ]

/-! ## Whole-rectangle accesses -/

theorem h00_64 : (![0, 0] : Fin S1x64.rank → ℕ) = fun _ => 0 := by funext a; fin_cases a <;> rfl
theorem h00_16384 : (![0, 0] : Fin S1x16384.rank → ℕ) = fun _ => 0 := by funext a; fin_cases a <;> rfl

/-- A load through the whole-buffer rectangle reads the contents. -/
theorem ld64 {e : EltTy} (X : S1x64.Idx → Elt F e) :
    View.ld X (Rect.unit (s := S1x64) ![0, 0] S1x64.size inb_S1x64_S1x64_0_0) = X := View.ld_unit_zero h00_64 _ X
theorem ld16384 {e : EltTy} (X : S1x16384.Idx → Elt F e) :
    View.ld X (Rect.unit (s := S1x16384) ![0, 0] S1x16384.size inb_S1x16384_S1x16384_0_0) = X := View.ld_unit_zero h00_16384 _ X

/-- A load of a whole buffer reads the buffer's contents. -/
theorem readAt64 {κ : Kind} {sp : Space} {e : EltTy} (v : View sig κ sp S1x64 e) (f : v.ty.Contents (Elt F)) :
    v.readAt (Elt F) (Rect.unit (s := S1x64) ![0, 0] S1x64.size inb_S1x64_S1x64_0_0).toLoadRect f = v.read (Elt F) f :=
  (View.readAt_eq_ld v f _).trans (ld64 _)
theorem readAt16384 {κ : Kind} {sp : Space} {e : EltTy} (v : View sig κ sp S1x16384 e) (f : v.ty.Contents (Elt F)) :
    v.readAt (Elt F) (Rect.unit (s := S1x16384) ![0, 0] S1x16384.size inb_S1x16384_S1x16384_0_0).toLoadRect f = v.read (Elt F) f :=
  (View.readAt_eq_ld v f _).trans (ld16384 _)

/-- A whole-buffer store made last covers the buffer, whatever was stored before. -/
theorem cover64_cons (p : Vec F S1x64 .f32) (L : List (View.Piece (Elt F) S1x64 .f32)) (y : S1x64.Idx) :
    ∃ pc ∈ ((⟨Rect.unit (s := S1x64) ![0, 0] S1x64.size inb_S1x64_S1x64_0_0, p⟩ : View.Piece (Elt F) S1x64 .f32) :: L), y ∈ pc.1.set :=
  ⟨_, List.mem_cons_self, View.mem_set_unit_zero h00_64 inb_S1x64_S1x64_0_0 y⟩

/-- A whole-buffer load after whole-buffer stores reads the last store's payload. -/
theorem readCov64_cons {κ : Kind} {sp : Space} (v : View sig κ sp S1x64 .f32) (p : Vec F S1x64 .f32) (L : List (View.Piece (Elt F) S1x64 .f32)) :
    v.readCov ((⟨Rect.unit (s := S1x64) ![0, 0] S1x64.size inb_S1x64_S1x64_0_0, p⟩ : View.Piece (Elt F) S1x64 .f32) :: L)
      (Rect.unit (s := S1x64) ![0, 0] S1x64.size inb_S1x64_S1x64_0_0).toLoadRect = p := by
  rw [View.readCov_eq_canon_ld _ _ _ (cover64_cons _ _), View.canon_cons_unit_zero h00_64, ld64]

/-! ## The branch on the grid coordinate -/

/-- The body's one condition: the point is the grid's first. -/
abbrev cond1 (i : grid1.Coords) : Prop :=
  (Scalar.cmpi .ne (Scalar.extui (Scalar.cmpi .eq (BitVec.ofNat 32 (i 0).val) 0#32)) 0#32) = 1#1

/-- It holds at the grid's first point and at no other (decided over the 62 points). -/
theorem hcond1 : ∀ t : Fin cfg1.N, cond1 (grid1.coords t) ↔ t.val = 0 :=
  (by decide +kernel : ∀ t : Fin grid1.N, cond1 (grid1.coords t) ↔ t.val = 0)

/-! ## The body's triple, per control case -/

set_option maxHeartbeats 4000000 in
/-- The body at a point that is not the first, on whole buffers: the inputs at read contents `x0 … x3`, the outputs at
    anything, the two carried rows at `s7`, `s8`.  It leaves the inputs as they were, and each carried row AND the
    output beside it at the row with the point's partial sum added. -/
theorem sound_kernel1_later (c : Dev nD) (E : Set ℕ) (i : grid1.Coords) (hc : ¬ cond1 i)
    (arg1 : Memref sig .tc .vmem S1x16384 .f32) (harg1 : arg1.IsWhole) (arg2 : Memref sig .tc .vmem S1x16384 .f32) (harg2 : arg2.IsWhole)
    (arg3 : Memref sig .tc .vmem S1x16384 .f32) (harg3 : arg3.IsWhole) (arg4 : Memref sig .tc .vmem S1x16384 .i32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (x0 x1 x2 : Vec F S1x16384 .f32) (x3 : Vec F S1x16384 .i32) (s7 s8 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 (k1_pay8 i x0 x1 x2 x3) s7)
            ∗ owns (c : Thread nD τ) arg6 fullShare (k1_pay2 (k1_pay9 i x2 x3) s8)
            ∗ owns (c : Thread nD τ) arg7 fullShare (k1_pay1 (k1_pay8 i x0 x1 x2 x3) s7)
            ∗ owns (c : Thread nD τ) arg8 fullShare (k1_pay2 (k1_pay9 i x2 x3) s8)) -∗ K ⟨⟩))
      ⊢ wp frame (wpE (defs₀ (F := F)) Variants.none c none) E
          (cc1__k2_body i arg1 harg1 arg2 harg2 arg3 harg3 arg4 harg4 arg5 harg5 arg6 harg6 arg7 harg7 arg8 harg8) K := by
  simp only [cc1__k2_body_eq_skeleton]; unfold cc1__k2_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf1 hf2 hf3 hf4 hf7 hf8
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  isplitl [H6]
  · iexists _; isplitr
    swap; · iexact H6
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay9 k1_pay5 k1_pay6 k1_pay7; rfl) | rfl
  isplitl [H7]
  · iexists _; isplitr
    swap; · iexact H7
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  iexists _; isplitr
  swap; · iexact H8
  ipureintro
  sl_unfold_run_names
  rewrite [View.read_writes_eq_canon _ _ _ (cover64_cons _ _), View.canon_cons_unit_zero h00_64]
  repeat rewrite [readCov64_cons]
  repeat rewrite [readAt16384]
  repeat rewrite [readAt64]
  first | (unfold k1_pay9 k1_pay5 k1_pay6 k1_pay7; rfl) | rfl

set_option maxHeartbeats 4000000 in
/-- The body at the first point: the two carried rows may hold anything; they are zeroed first, so that they and the
    outputs end at the zero rows with the point's partial sums added. -/
theorem sound_kernel1_first (c : Dev nD) (E : Set ℕ) (i : grid1.Coords) (hc : cond1 i)
    (arg1 : Memref sig .tc .vmem S1x16384 .f32) (harg1 : arg1.IsWhole) (arg2 : Memref sig .tc .vmem S1x16384 .f32) (harg2 : arg2.IsWhole)
    (arg3 : Memref sig .tc .vmem S1x16384 .f32) (harg3 : arg3.IsWhole) (arg4 : Memref sig .tc .vmem S1x16384 .i32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (x0 x1 x2 : Vec F S1x16384 .f32) (x3 : Vec F S1x16384 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 (k1_pay8 i x0 x1 x2 x3) k1_pay3)
            ∗ owns (c : Thread nD τ) arg6 fullShare (k1_pay2 (k1_pay9 i x2 x3) k1_pay4)
            ∗ owns (c : Thread nD τ) arg7 fullShare (k1_pay1 (k1_pay8 i x0 x1 x2 x3) k1_pay3)
            ∗ owns (c : Thread nD τ) arg8 fullShare (k1_pay2 (k1_pay9 i x2 x3) k1_pay4)) -∗ K ⟨⟩))
      ⊢ wp frame (wpE (defs₀ (F := F)) Variants.none c none) E
          (cc1__k2_body i arg1 harg1 arg2 harg2 arg3 harg3 arg4 harg4 arg5 harg5 arg6 harg6 arg7 harg7 arg8 harg8) K := by
  simp only [cc1__k2_body_eq_skeleton]; unfold cc1__k2_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  isplitl [H6]
  · iexists _; isplitr
    swap; · iexact H6
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay9 k1_pay5 k1_pay6 k1_pay7; rfl) | rfl
  isplitl [H7]
  · iexists _; isplitr
    swap; · iexact H7
    ipureintro
    sl_unfold_run_names
    rewrite [View.read_writes_eq_canon _ _ _ (cover64_cons _ _), View.canon_cons_unit_zero h00_64]
    repeat rewrite [readCov64_cons]
    repeat rewrite [readAt16384]
    repeat rewrite [readAt64]
    first | (unfold k1_pay8 k1_pay5 k1_pay6 k1_pay7; rfl) | rfl
  iexists _; isplitr
  swap; · iexact H8
  ipureintro
  sl_unfold_run_names
  rewrite [View.read_writes_eq_canon _ _ _ (cover64_cons _ _), View.canon_cons_unit_zero h00_64]
  repeat rewrite [readCov64_cons]
  repeat rewrite [readAt16384]
  repeat rewrite [readAt64]
  first | (unfold k1_pay9 k1_pay5 k1_pay6 k1_pay7; rfl) | rfl

/-! ## The invariant opened -/

/-- The scoped rest with the two carried rows split out of it. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c scL1) := by
  rw [Pipeline.scopedRest_split_of_list spec1 c scL1 (by decide) (by decide)]
  simp only [scL1, bigSepL_cons_cons, bigSepL_singleton, scM1_0, scM1_1, owns_whole] <;> rfl

/-- After a point the invariant holds the two rows at `sAt1`. -/
theorem Phi1_pos (c : Dev nD) (n : ℕ) (hn : n ≠ 0) :
    Phi1 V c n = iprop(owns (c : Thread nD τ) scM1_0 fullShare (sAt1 V c n).1
      ∗ owns (c : Thread nD τ) scM1_1 fullShare (sAt1 V c n).2
      ∗ Pipeline.scopedRestBut (Ix := Unit) (Name := ℕ) (U := UR sig nD τ) (Lvl := ℕ) (Val := Elt F) spec1 c scL1
      ∗ ∃ r, prngReg c r) := by
  cases n with
  | zero => exact absurd rfl hn
  | succ n => rfl

/-! ## What the inputs' buffers hold when the body runs -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks; at the first point the rows are at anything and the
    first case of the body runs, at a later point they are at what the point before left and the other case runs; either
    way the rows and the two outputs end at the rows before the point with the point's partial sums added. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Phi1_castSucc, Phi1_succ, after1_0, after1_1, after1_2, after1_3, after1_4, after1_5,
    Phi1_pos V c (t.val + 1) (Nat.succ_ne_zero _), sAt1_succ]
  unfold part1; (try dsimp only)
  by_cases hz : t.val = 0
  · have hc : cond1 (grid1.coords t) := (hcond1 t).mpr hz
    have e0 : Phi1 V c t.val = Pipeline.ΦA spec1 c := by rw [hz]; rfl
    have e1 : sAt1 V c t.val = (k1_pay3, k1_pay4) := by rw [hz]; rfl
    rw [e0, e1]; unfold Pipeline.ΦA; rw [scopedRest1_split]; (try dsimp only)
    iintro ⟨⟨⟨⟨⟨%d7, H7⟩, ⟨%d8, H8⟩⟩, Hrest⟩, Hr⟩, Ho, ⟨%d0, H0⟩, ⟨%d1, H1⟩, ⟨%d2, H2⟩, ⟨%d3, H3⟩, ⟨%d4, H4⟩, ⟨%d5, H5⟩⟩
    iapply (sound_kernel1_first c Set.univ (grid1.coords t) hc _ _ _ _ _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H7]; · iexists _; iexact H7
    isplitl [H8]; · iexists _; iexact H8
    iintro ⟨H0, H1, H2, H3, H4, H5, H7, H8⟩
    isplitl [H7 H8 Hrest Hr]
    · isplitl [H7]; · iexact H7
      isplitl [H8]; · iexact H8
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    iexact H5
  · have hc : ¬ cond1 (grid1.coords t) := fun h => hz ((hcond1 t).mp h)
    rw [Phi1_pos V c t.val hz]
    iintro ⟨⟨H7, H8, Hrest, Hr⟩, Ho, ⟨%d0, H0⟩, ⟨%d1, H1⟩, ⟨%d2, H2⟩, ⟨%d3, H3⟩, ⟨%d4, H4⟩, ⟨%d5, H5⟩⟩
    iapply (sound_kernel1_later c Set.univ (grid1.coords t) hc _ _ _ _ _ _ _ _ _ _ _ _ _ _ _ _
      (iblk1 V c 0 t) (iblk1 V c 1 t) (iblk1 V c 2 t) (iblk1 V c 3 t) (sAt1 V c t.val).1 (sAt1 V c t.val).2 _)
    isplitl [H0]; · iexact H0
    isplitl [H1]; · iexact H1
    isplitl [H2]; · iexact H2
    isplitl [H3]; · iexact H3
    isplitl [H4]; · iexists _; iexact H4
    isplitl [H5]; · iexists _; iexact H5
    isplitl [H7]; · iexact H7
    isplitl [H8]; · iexact H8
    iintro ⟨H0, H1, H2, H3, H4, H5, H7, H8⟩
    isplitl [H7 H8 Hrest Hr]
    · isplitl [H7]; · iexact H7
      isplitl [H8]; · iexact H8
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering: the generator register and the scoped rest make the invariant before the first point (whatever
    `T` rides between them is dropped). -/
theorem hin1 (c : Dev nD) (T : sProp 𝕄) :
    iprop((∃ r, prngReg c r) ∗ T ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- Leaving: the invariant after the last point gives the generator register and the scoped rest back, the rows'
    named contents forgotten; the kernel has no semaphore of its own. -/
theorem hout1 (c : Dev nD) :
    (dat1 V c).Φ (Fin.last cfg1.N) ⊢ iprop((∃ r, prngReg c r)
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec1 c) := by
  rw [Pipeline.ownSems0_none, show (dat1 V c).Φ (Fin.last cfg1.N) = Phi1 V c cfg1.N from rfl,
    Phi1_pos V c cfg1.N (by have : cfg1.N = 62 := N_1; omega), scopedRest1_split]
  iintro ⟨H7, H8, Hrest, Hr⟩
  isplitl [Hr]; · iexact Hr
  isplitr; · iempintro
  isplitl [H7 H8]
  · isplitl [H7]
    · iexists _; iexact H7
    · iexists _; iexact H8
  iexact Hrest

end Region1

end Cert.KernelIdeal.Hand

end
-- ==== Proof.KI.Run.lean ====
/-
  The kernel program's run, on every core: @main's host stretches and its two kernel regions from the launch to the return.

  Between two items of @main a core holds every unscoped buffer whole at a known valuation. Region 0 is entered from the
  valuation after the sixteenth host stretch and leaves its two output arrays at what its 62 points wrote back; the three host
  stretches that follow compute region 1's operands from them; region 1 leaves its two output arrays at what its last point
  wrote back; three more stretches compute the result. Each region's record splits its six windows' arrays out of the unscoped
  buffers at entry and puts them back at exit; the generator register rides along, and nothing is owed between cores.
  The frame follows: no item writes an argument array.
-/
import proofs.«413937_j37383395344507_3_alg».proof.Proof.KI.Reg0
import proofs.«413937_j37383395344507_3_alg».proof.Proof.KI.Reg1
import proofs.«413937_j37383395344507_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents, read at the TensorCore's references. -/
abbrev Vin0 : (c : Dev nD) → (b : Ref sig .tc) → Buf (Elt F) ((c : Thread nD τ).loc b) := fun c b => V16 m c b

/-- Region 0's two output arrays after its 62 points. -/
abbrev A0 (c : Dev nD) : Buf (Elt F) ((c : Thread nD τ).loc main_v30_0) := (dat0 (Vin0 m) c).arrAt 4 cfg0.N
abbrev A1 (c : Dev nD) : Buf (Elt F) ((c : Thread nD τ).loc main_v30_1) := (dat0 (Vin0 m) c).arrAt 5 cfg0.N

/-- The contents the regions leave, region 0's only: every other entry is a placeholder no valuation reads. -/
def outsA : Outs (F := F) := fun _ r c =>
  Function.update (Function.update (fun r : Ref sig .tc => (V16 m c r : Buf (Elt F) ((c : Thread nD τ).loc r))) main_v30_0 (A0 m c)) main_v30_1 (A1 m c) r

/-- Region 1's entry contents: three host stretches after region 0's exit. -/
abbrev Vin1 : (c : Dev nD) → (b : Ref sig .tc) → Buf (Elt F) ((c : Thread nD τ).loc b) := fun c b => V20 m (outsA m) c b

/-- Region 1's two output arrays after its last point. -/
abbrev B0 (c : Dev nD) : Buf (Elt F) ((c : Thread nD τ).loc main_v53_0) := (dat1 (Vin1 m) c).arrAt 4 cfg1.N
abbrev B1 (c : Dev nD) : Buf (Elt F) ((c : Thread nD τ).loc main_v53_1) := (dat1 (Vin1 m) c).arrAt 5 cfg1.N

/-- The contents both regions leave. -/
def outs : Outs (F := F) := fun J r c =>
  Function.update (Function.update (fun r : Ref sig .tc => outsA m J r c) main_v53_0 (B0 m c)) main_v53_1 (B1 m c) r

theorem outs_v30_0 (J : ℕ) (c : Dev nD) : outs m J main_v30_0 c = A0 m c := by
  unfold outs outsA
  rw [Function.update_of_ne (by decide), Function.update_of_ne (by decide), Function.update_of_ne (by decide), Function.update_self]
theorem outs_v30_1 (J : ℕ) (c : Dev nD) : outs m J main_v30_1 c = A1 m c := by
  unfold outs outsA
  rw [Function.update_of_ne (by decide), Function.update_of_ne (by decide), Function.update_self]
theorem outs_v53_0 (J : ℕ) (c : Dev nD) : outs m J main_v53_0 c = B0 m c := by
  unfold outs
  rw [Function.update_of_ne (by decide), Function.update_self]
theorem outs_v53_1 (J : ℕ) (c : Dev nD) : outs m J main_v53_1 c = B1 m c := by
  unfold outs
  rw [Function.update_self]
theorem outsA_v30_0 (J : ℕ) (c : Dev nD) : outsA m J main_v30_0 c = A0 m c := by
  unfold outsA
  rw [Function.update_of_ne (by decide), Function.update_self]
theorem outsA_v30_1 (J : ℕ) (c : Dev nD) : outsA m J main_v30_1 c = A1 m c := by
  unfold outsA
  rw [Function.update_self]

/-- Region 0's exit contents read the two families alike, so every valuation up to region 1's entry is one. -/
theorem V17_outs (c : Dev nD) : V17 m (outs m) c = V17 m (outsA m) c := by
  show Function.update (Function.update (V16 m c) main_v30_0 (outs m 17 main_v30_0 c)) main_v30_1 (outs m 17 main_v30_1 c)
    = Function.update (Function.update (V16 m c) main_v30_0 (outsA m 17 main_v30_0 c)) main_v30_1 (outsA m 17 main_v30_1 c)
  rw [outs_v30_0, outs_v30_1, outsA_v30_0, outsA_v30_1]
theorem V20_outs (c : Dev nD) : V20 m (outs m) c = V20 m (outsA m) c := by
  show StableHlo.after hostOps1_2 (StableHlo.after hostOps1_1 (StableHlo.after hostOps1 (V17 m (outs m) c))) = _
  rw [V17_outs]

/-! ## The regions' arrays at exit -/

theorem V17_at0 (c : Dev nD) : V17 m (outs m) c main_v30_0 = A0 m c := by
  simp only [V17, Function.update_of_ne (StableHlo.devRef_ne_of_ne (by decide) : (Proc.devRef .tc main_v30_0 : DevRef τ sig) ≠ Proc.devRef .tc main_v30_1), Function.update_self]
  exact outs_v30_0 m 17 c
theorem V17_at1 (c : Dev nD) : V17 m (outs m) c main_v30_1 = A1 m c := by
  simp only [V17, Function.update_self]
  exact outs_v30_1 m 17 c
theorem V21_at0 (c : Dev nD) : V21 m (outs m) c main_v53_0 = B0 m c := by
  simp only [V21, Function.update_of_ne (StableHlo.devRef_ne_of_ne (by decide) : (Proc.devRef .tc main_v53_0 : DevRef τ sig) ≠ Proc.devRef .tc main_v53_1), Function.update_self]
  exact outs_v53_0 m 21 c
theorem V21_at1 (c : Dev nD) : V21 m (outs m) c main_v53_1 = B1 m c := by
  simp only [V21, Function.update_self]
  exact outs_v53_1 m 21 c

/-- Region 0's exit contents read at the TensorCore's references. -/
abbrev Vout0 : (c : Dev nD) → (b : Ref sig .tc) → Buf (Elt F) ((c : Thread nD τ).loc b) := fun c b => V17 m (outs m) c b
/-- Region 1's exit contents. -/
abbrev Vout1 : (c : Dev nD) → (b : Ref sig .tc) → Buf (Elt F) ((c : Thread nD τ).loc b) := fun c b => V21 m (outs m) c b

/-- At region 0's exit each of its six arrays holds what the pipeline leaves: an input what it held at entry, an output what
    the points wrote back. -/
theorem hF0 (c : Dev nD) (w : Fin cfg0.W) : (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (V17_of m (outs m) c main_v23 (by decide)).symm)
  | ⟨1, _⟩ => exact ((dat0 (Vin0 m) c).arrAt_in 1 rfl _).trans ((A_eq0 (Vin0 m) c 1).trans (V17_of m (outs m) c main_v24 (by decide)).symm)
  | ⟨2, _⟩ => exact ((dat0 (Vin0 m) c).arrAt_in 2 rfl _).trans ((A_eq0 (Vin0 m) c 2).trans (V17_of m (outs m) c main_v28 (by decide)).symm)
  | ⟨3, _⟩ => exact ((dat0 (Vin0 m) c).arrAt_in 3 rfl _).trans ((A_eq0 (Vin0 m) c 3).trans (V17_of m (outs m) c main_v29 (by decide)).symm)
  | ⟨4, _⟩ => exact (V17_at0 m c).symm
  | ⟨5, _⟩ => exact (V17_at1 m c).symm

/-- and every other buffer what it held at entry. -/
theorem hrest0 (c : Dev nD) : ∀ b, b ∉ Finset.univ.image (Pipeline.arrRef spec0) → Vout0 m c b = Vin0 m c b := fun b hb =>
  V17_of m (outs m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil)

theorem hF1 (c : Dev nD) (w : Fin cfg1.W) : (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans (((V21_of m (outs m) c main_v49 (by decide)).trans (congrFun (V20_outs m c) _)).symm))
  | ⟨1, _⟩ => exact ((dat1 (Vin1 m) c).arrAt_in 1 rfl _).trans ((A_eq1 (Vin1 m) c 1).trans (((V21_of m (outs m) c main_v50 (by decide)).trans (congrFun (V20_outs m c) _)).symm))
  | ⟨2, _⟩ => exact ((dat1 (Vin1 m) c).arrAt_in 2 rfl _).trans ((A_eq1 (Vin1 m) c 2).trans (((V21_of m (outs m) c main_v51 (by decide)).trans (congrFun (V20_outs m c) _)).symm))
  | ⟨3, _⟩ => exact ((dat1 (Vin1 m) c).arrAt_in 3 rfl _).trans ((A_eq1 (Vin1 m) c 3).trans (((V21_of m (outs m) c main_v52 (by decide)).trans (congrFun (V20_outs m c) _)).symm))
  | ⟨4, _⟩ => exact (V21_at0 m c).symm
  | ⟨5, _⟩ => exact (V21_at1 m c).symm

theorem hrest1 (c : Dev nD) : ∀ b, b ∉ Finset.univ.image (Pipeline.arrRef spec1) → Vout1 m c b = Vin1 m c b := fun b hb =>
  (V21_of m (outs m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil)).trans (congrFun (V20_outs m c) _)

/-! ## The proof data family and what rides beside the buffers -/

/-- Every pipeline's proof data, each at its region's entry contents: a literal match on the pipeline. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev Lz : GSem nD τ sig → Finset Unit := fun _ => ∅
abbrev lvz : GSem nD τ sig → Unit → ℕ := fun _ _ => 0

/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the sixteenth stretch's valuation, left at the
    valuation with its two output arrays at what the points wrote back. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (V16 m c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the valuation three stretches after region 0, left at the valuation with
    its two output arrays at what the last point wrote back. Its invariant carries the two scratch accumulators. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (V20 m (outsA m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (Vin1 m) c _
  hout c := by rw [Pipeline.ownSems0_none]; exact (hout1 (Vin1 m) c).trans (by rw [Pipeline.ownSems0_none]; exact .rfl)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side facts -/

/-- The launch's ghost element is the pipelines' cells and tokens; nothing else is dealt. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core makes the riding state: its generator register, and nothing owed. -/
theorem launch_rest : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lz lvz)
    ⊢ (|={Set.univ}=> bigSep Finset.univ (fun c : Dev nD => R (F := F) c) : sProp 𝕄) :=
  Pipeline.initEach Lz lvz fun c => by
    iintro ⟨⟨-, HO, -, Hp, -⟩, -⟩
    imodintro
    isplitl [Hp]; · iexists _; iexact Hp
    iexists ∅; iexact HO

/-- The riding state ends owing nothing. -/
theorem rest_owes (c : Dev nD) : R (F := F) c ⊢ (iprop(∃ W, owes (c : Thread nD τ) (0 : CellTallies nD τ sig Unit) W) : sProp 𝕄) := by
  iintro ⟨-, HO⟩; iexact HO

/-! ## The frame -/

-- the launch theorem's implicit arguments are found by unifying its conclusion with this one, which takes unfolding plain
-- definitions in a metavariable's type
set_option backward.isDefEq.respectTransparency.types false in
/-- THE FRAME: every weakly fair execution of @main from memory `m` with zero counters terminates, nothing faulting, and the
    five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := launch_own) (E := fun _ c => R c) (hE0 := launch_rest ρ) (hE2 := rest_owes)
    (R0 := reg0 m) (hpre0 := fun c => .rfl) (hpost0 := fun c => .rfl)
    (R1 := reg1 m) (hpre1 := fun c => by rw [V20_outs]; exact .rfl) (hpost1 := fun c => .rfl)

end Cert.KernelIdeal.Hand

end
-- ==== Proof.KI.RunValue.lean ====
/-
  The kernel program's run with its result. The same launch as the frame's, with the whole last valuation in the post: every
  unscoped buffer ends holding what the last host stretch leaves, so the five arguments are read off it unchanged and the result
  buffer holds the last stretch's value.
-/
import proofs.«413937_j37383395344507_3_alg».proof.Proof.KI.Run
import proofs.«413937_j37383395344507_3_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from memory `m` with zero counters terminates, nothing faulting, and every final
    memory holds every unscoped buffer at the last valuation. -/
theorem run : θ_run defs (onTc (τ := τ) (main (F := F))) ⟨m, fun _ => 0, ρ⟩ (fun r => ∀ c : Dev nD,
      ∀ b ∈ Pipeline.ucRefs τ sig, r.2.mem ((c : Thread nD τ).1, b) = V24 m (outs m) c b) :=
  GenP.run_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := launch_own) (E := fun _ c => R c) (hE0 := launch_rest ρ) (hE2 := rest_owes)
    (R0 := reg0 m) (hpre0 := fun c => .rfl) (hpost0 := fun c => .rfl)
    (R1 := reg1 m) (hpre1 := fun c => by rw [V20_outs]; exact .rfl) (hpost1 := fun c => .rfl)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments end as launched and the result buffer holds the last valuation's. -/
theorem run_result : θ_run defs (onTc (τ := τ) (main (F := F))) ⟨m, fun _ => 0, ρ⟩ (fun r => ∀ c : Dev nD,
      r.2.mem ((c.tc : Thread nD τ).loc main_v66) = V24 m (outs m) c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v66 (by decide)),
     (h c _ (mem_uc main_arg0 (by decide))).trans (V24_main_arg0 m (outs m) c),
     (h c _ (mem_uc main_arg1 (by decide))).trans (V24_main_arg1 m (outs m) c),
     (h c _ (mem_uc main_arg2 (by decide))).trans (V24_main_arg2 m (outs m) c),
     (h c _ (mem_uc main_arg3 (by decide))).trans (V24_main_arg3 m (outs m) c),
     (h c _ (mem_uc main_arg4 (by decide))).trans (V24_main_arg4 m (outs m) c)⟩) (run m ρ)

end Cert.KernelIdeal.Hand

end
-- ==== Proof.Spec.lean ====
/-
  The contrastive loss of this certificate, written over the reals.

  N = 100000 nodes carry a feature row of D = 64 reals, a cluster label below 64, a score and a flag; P = 1000000 pairs
  (i, j) of nodes are given. A node's row is scaled by its Euclidean norm clamped below at a small ε. A pair's similarity is the
  inner product of its two scaled rows, s = similarity / τ, and e = exp (s − shift). A pair is POSITIVE when its two nodes share a
  label and both pass (score above a threshold, flag set); every other pair is negative. An anchor node's denominator is the sum
  of e over the negative pairs anchored at it, clamped below at 0, and a pair's loss is log (e + denominator of its anchor) − log e.
  The result averages the positive pairs' losses within each label and then averages over the labels that have a positive pair.

  The loss of a pair does not depend on the shift: e scales by exp (−shift), so does the denominator, and the two logarithms'
  difference cancels the factor. One program shifts by the constant 1/τ, the other by the largest s; both are instances of
  `lossAt` below, at different shifts. One program forms the similarity from rows scaled first (`simK`), the other divides the
  raw inner product by the product of the two clamped norms (`simR`): the same real number, the norms being positive.
-/
import Idealize.ShloMosaic.PureOps.Ideal
import Idealize.ShloMosaic.Lib.ValueIdx

noncomputable section

namespace Cert.Spec

open Idealize.ShloMosaic Idealize.ShloMosaic.ValueIdx
open scoped Classical

/-- Nodes, pairs, pairs rounded up to whole tiles of 16384, feature width, labels. -/
abbrev NN : ℕ := 100000
abbrev PP : ℕ := 1000000
abbrev PPad : ℕ := 1015808
abbrev DD : ℕ := 64
abbrev CC : ℕ := 64

/-- The clamp ε under a norm: the real the single-precision word 0x322BCC77 denotes. -/
def epsR : ℝ := 11258999 / 2 ^ 50
/-- The score threshold: the real the word 0x3F666666 denotes. -/
def thrR : ℝ := 15099494 / 2 ^ 24
/-- The temperature τ: the real the word 0x3DCCCCCD denotes. -/
def tauR : ℝ := 13421773 / 2 ^ 27
/-- Its reciprocal 1/τ, the scale of a similarity. -/
def c0 : ℝ := 134217728 / 13421773

theorem epsR_pos : 0 < epsR := by unfold epsR; positivity
theorem tauR_pos : 0 < tauR := by unfold tauR; positivity
theorem c0_eq : c0 = 1 / tauR := by unfold c0 tauR; norm_num

/-- The real data the formulas are written over. -/
structure Data where
  /-- a node's feature row -/
  xr : Fin NN → Fin DD → ℝ
  /-- a node's score -/
  pt : Fin NN → ℝ
  /-- a node's flag -/
  rc : Fin NN → Bool
  /-- a node's cluster label -/
  cl : Fin NN → Fin CC
  /-- a pair's anchor node -/
  ia : Fin PP → Fin NN
  /-- a pair's second node -/
  ja : Fin PP → Fin NN

namespace Data

variable (D : Data)

/-- A node's Euclidean norm, clamped below at ε. -/
def nr (n : Fin NN) : ℝ := max (Real.sqrt (∑ d, D.xr n d * D.xr n d)) epsR

theorem nr_pos (n : Fin NN) : 0 < D.nr n := lt_of_lt_of_le epsR_pos (le_max_right _ _)

/-- A node passes: its score is above the threshold and its flag is set. -/
def passed (n : Fin NN) : Prop := thrR < D.pt n ∧ D.rc n = true

/-- A pair is positive: one label, both nodes pass. -/
def pos (p : Fin PP) : Prop := D.cl (D.ia p) = D.cl (D.ja p) ∧ D.passed (D.ia p) ∧ D.passed (D.ja p)

/-- A pair's similarity, from rows scaled first. -/
def simK (p : Fin PP) : ℝ := ∑ d, (D.xr (D.ia p) d / D.nr (D.ia p)) * (D.xr (D.ja p) d / D.nr (D.ja p))

/-- A pair's similarity, the raw inner product over the product of the clamped norms. -/
def simR (p : Fin PP) : ℝ := (∑ d, D.xr (D.ia p) d * D.xr (D.ja p) d) / (D.nr (D.ia p) * D.nr (D.ja p))

/-- The exponential of a pair's scaled similarity `s p` less a shift. -/
def eAt (s : Fin PP → ℝ) (shift : ℝ) (p : Fin PP) : ℝ := Real.exp (s p - shift)

/-- What a pair adds to its anchor's denominator: its exponential when negative, nothing when positive. -/
def negAt (s : Fin PP → ℝ) (shift : ℝ) (p : Fin PP) : ℝ := if D.pos p then 0 else eAt s shift p

/-- A node's denominator: the negative pairs anchored at it, summed, clamped below at 0. -/
def denAt (s : Fin PP → ℝ) (shift : ℝ) (n : Fin NN) : ℝ := max 0 (∑ q, if D.ia q = n then D.negAt s shift q else 0)

/-- A pair's loss. -/
def lossAt (s : Fin PP → ℝ) (shift : ℝ) (p : Fin PP) : ℝ :=
  Real.log (eAt s shift p + D.denAt s shift (D.ia p)) - Real.log (eAt s shift p)

/-- A label's sum of losses over its positive pairs (a pair's label is its anchor's). -/
def sumsAt (s : Fin PP → ℝ) (shift : ℝ) (k : Fin CC) : ℝ := ∑ p, if D.pos p ∧ D.cl (D.ia p) = k then D.lossAt s shift p else 0

/-- A label's number of positive pairs. -/
def cnt (k : Fin CC) : ℝ := ∑ p : Fin PP, if D.pos p ∧ D.cl (D.ia p) = k then 1 else 0

/-- The scaled similarity as one program forms it: scaled rows' inner product times 1/τ. -/
def sK (p : Fin PP) : ℝ := D.simK p * c0
/-- The scaled similarity as the other forms it: the quotient over τ. -/
def sR (p : Fin PP) : ℝ := D.simR p / tauR

/-- One program's per-label sums: scale by the product with 1/τ, shift by 1/τ. -/
def sumsK (k : Fin CC) : ℝ := D.sumsAt D.sK c0 k
/-- The other's, at a shift `M` (it takes the largest scaled similarity; any real gives the same sums). -/
def sumsR (M : ℝ) (k : Fin CC) : ℝ := D.sumsAt D.sR M k

/-! ### The padded run: the pairs rounded up to 62 tiles of 16384, the last 15808 of them padding

A padding pair has zero rows (similarity 0), a zero packed word, anchor node 0; its position is past the P real pairs, so it
is neither positive nor negative: it adds nothing to any denominator, sum or count. -/

/-- A node's packed word: its label in bits 0–7, whether it passes in bit 8. -/
def packedW (n : Fin NN) : BitVec 32 := BitVec.ofNat 32 (D.cl n).val ||| ((if D.passed n then 1#32 else 0#32) <<< 8)

/-- The exponential a (padded) pair carries: a real pair's, at the scale and shift 1/τ; a padding pair's exp (0 · (1/τ) − 1/τ). -/
def ePad (p : Fin PPad) : ℝ := if h : p.val < PP then eAt D.sK c0 ⟨p.val, h⟩ else Real.exp (0 * c0 - c0)
/-- What it adds to its anchor's denominator. -/
def negPad (p : Fin PPad) : ℝ := if h : p.val < PP then D.negAt D.sK c0 ⟨p.val, h⟩ else 0
/-- Its weight: 1 when a real, positive pair. -/
def wPad (p : Fin PPad) : ℝ := if h : p.val < PP then (if D.pos ⟨p.val, h⟩ then 1 else 0) else 0
/-- Its label word: its anchor's label; 0 for padding. -/
def labPad (p : Fin PPad) : BitVec 32 := if h : p.val < PP then BitVec.ofNat 32 (D.cl (D.ia ⟨p.val, h⟩)).val else 0#32
/-- Its anchor node; node 0 for padding. -/
def iaPad (p : Fin PPad) : Fin NN := if h : p.val < PP then D.ia ⟨p.val, h⟩ else ⟨0, by decide⟩
/-- Its anchor's denominator. -/
def denPad (p : Fin PPad) : ℝ := D.denAt D.sK c0 (D.iaPad p)

end Data

/-- The last step, shared: the mean within each label that has a positive pair, then the mean over those labels. -/
def tail (s c : Fin CC → ℝ) : ℝ :=
  (∑ k, if 0 < c k then s k / max (c k) 1 else 0) / max (∑ k : Fin CC, if 0 < c k then (1 : ℝ) else 0) 1

/-! ## Reading the data off the programs' argument arrays -/

/-- The data of the five argument arrays: a float as the real it denotes, an index word as a number below the extent. -/
def Data.of (x : FVec Ideal ⟨2, ![NN, DD]⟩ .f32) (pp : IVec ⟨2, ![2, PP]⟩ 32) (cid : IVec ⟨1, ![NN]⟩ 32)
    (rec : IVec ⟨1, ![NN]⟩ 1) (pts : FVec Ideal ⟨1, ![NN]⟩ .f32) : Data where
  xr n d := (x (ix2 n d)).toReal
  pt n := (pts (ix1 n)).toReal
  rc n := decide (rec (ix1 n) = 1#1)
  cl n := ⟨(cid (ix1 n)).toNat % CC, Nat.mod_lt _ (by decide)⟩
  ia p := ⟨(pp (ix2 0 p)).toNat % NN, Nat.mod_lt _ (by decide)⟩
  ja p := ⟨(pp (ix2 1 p)).toNat % NN, Nat.mod_lt _ (by decide)⟩

/-- What the precondition says of the argument arrays: every float is a real; every pair index is a node; every label is below 64. -/
structure Good (x : FVec Ideal ⟨2, ![NN, DD]⟩ .f32) (pp : IVec ⟨2, ![2, PP]⟩ 32) (cid : IVec ⟨1, ![NN]⟩ 32)
    (pts : FVec Ideal ⟨1, ![NN]⟩ .f32) : Prop where
  hx : ∀ i, x i = ((x i).toReal : EReal)
  hpts : ∀ i, pts i = ((pts i).toReal : EReal)
  hpp : ∀ i, 0 ≤ (pp i).toInt ∧ (pp i).toInt < 100000
  hcid : ∀ i, 0 ≤ (cid i).toInt ∧ (cid i).toInt < 64

end Cert.Spec

end
-- ==== Proof.PreFacts.lean ====
/-
  What the stated precondition says of the argument arrays.

  The precondition is a conjunction of four "for every entry" tests, each an and-reduction of a truth array from the
  constant true: |x| < +∞ at every entry of the feature rows, |score| < +∞ at every score, 0 ≤ index < 100000 at every
  pair index, 0 ≤ label < 64 at every label. An and-reduction that comes out true met only true entries, so each test
  holds at every entry. An extended real a with max a (−a) < +∞ is neither +∞ nor −∞ (−(−∞) = +∞), hence the real it
  denotes; a signed comparison that is true orders its operands' signed values, and the words 0, 100000 and 64 read
  signed are 0, 100000 and 64.
-/
import proofs.«413937_j37383395344507_3_alg».proof.Pre_finite_inputs
import proofs.«413937_j37383395344507_3_alg».proof.Proof.Spec
import Idealize.ShloMosaic.Lib.ReduceAll
import Idealize.ShloMosaic.Lib.StableHlo.Predicate

noncomputable section

namespace Cert.Spec

open Idealize.ShloMosaic Idealize.ShloMosaic.ValueIdx

/-- The shape with no axes has one index. -/
instance subsingleton_scalar_idx : Subsingleton Cert.Pre_finite_inputs.S_.Idx :=
  ⟨fun a b => funext fun d => d.elim0⟩

/-- An extended real whose absolute value max a (−a) is strictly below +∞ is the real it denotes. -/
theorem real_of_abs_lt_top (a : EReal) (h : Ideal.cmp .olt (max a (-a)) (Ideal.ofBits .f32 0x7F800000#32) = 1#1) :
    a = ((a.toReal : ℝ) : EReal) := by
  have htop : Ideal.ofBits .f32 0x7F800000#32 = (⊤ : EReal) := by simp [Ideal.ofBits, Ideal.ieee]
  rw [htop] at h
  have hlt : max a (-a) < ⊤ := by
    simpa [Ideal.cmp, StableHlo.Predicate.ofBool_eq_one_iff] using h
  have h1 : a ≠ ⊤ := by
    rintro rfl
    simp at hlt
  have h2 : a ≠ ⊥ := by
    rintro rfl
    simp at hlt
  exact (EReal.coe_toReal h1 h2).symm

/-- A word that tests 0 ≤ w and w < n (signed, n a small literal) has its signed value in [0, n). -/
theorem range_of_tests (w lo hi : BitVec 32)
    (h : IntOp.andi (IntOp.cmpi .sge w lo) (IntOp.cmpi .slt w hi) = 1#1) : lo.toInt ≤ w.toInt ∧ w.toInt < hi.toInt := by
  obtain ⟨h1, h2⟩ := IntOp.andi_eq_one.1 h
  exact ⟨IntOp.cmpi_sge.1 h1, IntOp.cmpi_slt.1 h2⟩

/-- The precondition, decoded: every float argument is a real, every pair index names a node, every label is below 64. -/
theorem good_of_pre [Cert.Pre_finite_inputs.Facts] (x : FVec Ideal Cert.Pre_finite_inputs.S100000x64 .f32)
    (pp : IVec Cert.Pre_finite_inputs.S2x1000000 32) (cid : IVec Cert.Pre_finite_inputs.S100000 32)
    (rec : IVec Cert.Pre_finite_inputs.S100000 1) (pts : FVec Ideal Cert.Pre_finite_inputs.S100000 .f32)
    (h : Cert.Pre_finite_inputs.fn (F := Ideal) x pp cid rec pts = fun _ => 1#1) : Good x pp cid pts := by
  have h0 := congrFun h ValueIdx.ix0
  dsimp only [Cert.Pre_finite_inputs.fn, Cert.Pre_finite_inputs.fn_part1] at h0
  obtain ⟨h0, h21⟩ := IntOp.andi_eq_one.1 h0
  obtain ⟨h0, h14⟩ := IntOp.andi_eq_one.1 h0
  obtain ⟨h3, h7⟩ := IntOp.andi_eq_one.1 h0
  have e3 := Host.reduce_andi_all _ _ _ _ _ h3
  have e7 := Host.reduce_andi_all _ _ _ _ _ h7
  have e14 := Host.reduce_andi_all _ _ _ _ _ h14
  have e21 := Host.reduce_andi_all _ _ _ _ _ h21
  refine ⟨fun i => real_of_abs_lt_top (x i) (e3 i), fun i => real_of_abs_lt_top (pts i) (e7 i), fun i => ?_, fun i => ?_⟩
  · exact range_of_tests (pp i) 0#32 100000#32 (e14 i)
  · exact range_of_tests (cid i) 0#32 64#32 (e21 i)

end Cert.Spec

end
-- ==== Proof.Math.lean ====
/-
  Real analysis behind the contrastive loss of this certificate.

  Three facts, all over the reals. (1) A pair's similarity is the same number whether each row is divided by its clamped norm
  before the inner product or the raw inner product is divided by the product of the two clamped norms, the norms being positive;
  hence the two scaled similarities (times 1/τ, or divided by τ) agree. (2) A pair's loss does not depend on the shift: moving the
  shift from b to a multiplies every exponential by the positive factor exp (b − a), hence every denominator (a clamped sum of
  exponentials) by the same factor, and the difference of the two logarithms cancels it. (3) Hence the per-label sums of losses
  formed by the two programs, at their different scalings and shifts, are equal.
-/
import proofs.«413937_j37383395344507_3_alg».proof.Proof.Spec
import Mathlib.Analysis.SpecialFunctions.Log.Basic
import Mathlib.Analysis.SpecialFunctions.Exp

noncomputable section

namespace Cert.Spec

open scoped Classical

namespace Data

variable (D : Data)

/-! ## The two similarities -/

/-- Scaling the rows first, or dividing the inner product by both norms, gives one number. -/
theorem simK_eq_simR (p : Fin PP) : D.simK p = D.simR p := by
  unfold simK simR
  rw [Finset.sum_div]
  refine Finset.sum_congr rfl (fun d _ => ?_)
  rw [div_mul_div_comm]

/-- Multiplying by 1/τ is dividing by τ. -/
theorem sK_eq_sR (p : Fin PP) : D.sK p = D.sR p := by
  unfold sK sR
  rw [D.simK_eq_simR p, c0_eq, mul_one_div]

/-! ## Signs -/

/-- An exponential is positive. -/
theorem eAt_pos (s : Fin PP → ℝ) (a : ℝ) (p : Fin PP) : 0 < eAt s a p := Real.exp_pos _

/-- A denominator is clamped below at 0. -/
theorem denAt_nonneg (s : Fin PP → ℝ) (a : ℝ) (n : Fin NN) : 0 ≤ D.denAt s a n := le_max_left _ _

/-- A count is a sum of zeros and ones. -/
theorem cnt_nonneg (k : Fin CC) : 0 ≤ D.cnt k := by
  unfold cnt
  refine Finset.sum_nonneg (fun p _ => ?_)
  by_cases h : D.pos p ∧ D.cl (D.ia p) = k
  · rw [if_pos h]; exact zero_le_one
  · rw [if_neg h]

/-! ## The shift cancels -/

/-- Moving the shift from b to a multiplies an exponential by exp (b − a). -/
theorem eAt_shift (s : Fin PP → ℝ) (a b : ℝ) (p : Fin PP) : eAt s a p = Real.exp (b - a) * eAt s b p := by
  unfold eAt
  rw [← Real.exp_add]
  congr 1
  ring

/-- So it does to a pair's contribution to its anchor's denominator. -/
theorem negAt_shift (s : Fin PP → ℝ) (a b : ℝ) (p : Fin PP) :
    D.negAt s a p = Real.exp (b - a) * D.negAt s b p := by
  unfold negAt
  by_cases h : D.pos p
  · rw [if_pos h, if_pos h, mul_zero]
  · rw [if_neg h, if_neg h, eAt_shift s a b p]

/-- And to a denominator: a positive factor passes through the sum and through the clamp at 0. -/
theorem denAt_shift (s : Fin PP → ℝ) (a b : ℝ) (n : Fin NN) :
    D.denAt s a n = Real.exp (b - a) * D.denAt s b n := by
  unfold denAt
  rw [mul_max_of_nonneg _ _ (Real.exp_pos (b - a)).le, mul_zero, Finset.mul_sum]
  refine congrArg (max (0 : ℝ)) (Finset.sum_congr rfl (fun q _ => ?_))
  by_cases h : D.ia q = n
  · rw [if_pos h, if_pos h, D.negAt_shift s a b q]
  · rw [if_neg h, if_neg h, mul_zero]

/-- A pair's loss is the same at every shift. -/
theorem lossAt_shift (s : Fin PP → ℝ) (a b : ℝ) (p : Fin PP) : D.lossAt s a p = D.lossAt s b p := by
  have hα : Real.exp (b - a) ≠ 0 := (Real.exp_pos (b - a)).ne'
  have he : eAt s b p ≠ 0 := (eAt_pos s b p).ne'
  have hs : eAt s b p + D.denAt s b (D.ia p) ≠ 0 :=
    (add_pos_of_pos_of_nonneg (eAt_pos s b p) (D.denAt_nonneg s b (D.ia p))).ne'
  unfold lossAt
  rw [eAt_shift s a b p, D.denAt_shift s a b (D.ia p), ← mul_add, Real.log_mul hα hs, Real.log_mul hα he]
  ring

/-! ## The per-label sums -/

/-- The sums depend on the scaled similarities only through their values. -/
theorem sumsAt_congr (s s' : Fin PP → ℝ) (h : ∀ p, s p = s' p) (a : ℝ) : D.sumsAt s a = D.sumsAt s' a := by
  have hs : s = s' := funext h
  rw [hs]

/-- The two programs' per-label sums agree, whatever shift the second takes. -/
theorem sumsK_eq_sumsR (M : ℝ) : D.sumsK = D.sumsR M := by
  funext k
  unfold sumsK sumsR
  rw [D.sumsAt_congr D.sK D.sR D.sK_eq_sR c0]
  unfold sumsAt
  refine Finset.sum_congr rfl (fun p _ => ?_)
  by_cases h : D.pos p ∧ D.cl (D.ia p) = k
  · rw [if_pos h, if_pos h, D.lossAt_shift D.sR c0 M p]
  · rw [if_neg h, if_neg h]

end Data

end Cert.Spec

end
-- ==== Proof.KV.Basic.lean ====
/-
  The kernel program's five argument arrays on a core, and the real data read off them.
-/
import proofs.«413937_j37383395344507_3_alg».proof.Proof.Gen.KernelIdeal.Regions
import proofs.«413937_j37383395344507_3_alg».proof.Proof.Spec

noncomputable section

namespace Cert.KernelIdeal.KV

open Cert.KernelIdeal Cert.KernelIdeal.Gen Idealize.ShloMosaic Idealize.ShloMosaic.TcCoe Idealize.SL.Sem

variable (m : (ℓ : Loc nD τ sig) → Buf (Elt Ideal) ℓ) (c : Dev nD)

/-- The feature rows, the pairs, the labels, the flags, the scores, as core `c` holds them at launch. -/
abbrev a0 : FVec Ideal S100000x64 .f32 := m ((c.tc : Thread nD τ).loc main_arg0)
abbrev a1 : IVec S2x1000000 32 := m ((c.tc : Thread nD τ).loc main_arg1)
abbrev a2 : IVec S100000 32 := m ((c.tc : Thread nD τ).loc main_arg2)
abbrev a3 : IVec S100000 1 := m ((c.tc : Thread nD τ).loc main_arg3)
abbrev a4 : FVec Ideal S100000 .f32 := m ((c.tc : Thread nD τ).loc main_arg4)

/-- The real data of those arrays, and what the precondition says of them. -/
abbrev dat : Cert.Spec.Data := Cert.Spec.Data.of (a0 m c) (a1 m c) (a2 m c) (a3 m c) (a4 m c)
abbrev good : Prop := Cert.Spec.Good (a0 m c) (a1 m c) (a2 m c) (a4 m c)

end Cert.KernelIdeal.KV

end
-- ==== Proof.Consts.lean ====
/-
  The single-precision words this certificate meets, each as the extended real it denotes.

  A single-precision word is a sign bit, eight exponent bits E and twenty-three fraction bits T. With E neither 0 nor 255
  it denotes ±(2^23 + T) · 2^(E − 150); E = 0 with T = 0 denotes zero; E = 255 with T = 0 denotes the infinity of its sign.
  So 0x322BCC77 (E = 100, T = 2870391) is 11258999 / 2^50, the clamp ε; 0x3F666666 (E = 126, T = 6710886) is
  15099494 / 2^24, the score threshold; 0x3DCCCCCD (E = 123, T = 5033165) is 13421773 / 2^27, the temperature τ;
  0x3F800000 is 1, 0x3F000000 is 1/2, 0x00000000 is 0, and 0xFF800000, 0x7F800000 are −∞, +∞.
-/
import Idealize.ShloMosaic.PureOps.Ideal
import proofs.«413937_j37383395344507_3_alg».proof.Proof.Spec

noncomputable section

namespace Cert.Spec

open Idealize.ShloMosaic

/-- The word 0x322BCC77 denotes the clamp ε = 11258999 / 2^50. -/
theorem ofBits_eps : Ideal.ofBits .f32 0x322BCC77#32 = ((epsR : ℝ) : EReal) := by
  simp [Ideal.ofBits, Ideal.ieee, epsR, -EReal.coe_mul]; norm_num

/-- The word 0x3F666666 denotes the threshold 15099494 / 2^24. -/
theorem ofBits_thr : Ideal.ofBits .f32 0x3F666666#32 = ((thrR : ℝ) : EReal) := by
  simp [Ideal.ofBits, Ideal.ieee, thrR, -EReal.coe_mul]; norm_num

/-- The word 0x3DCCCCCD denotes the temperature τ = 13421773 / 2^27. -/
theorem ofBits_tau : Ideal.ofBits .f32 0x3DCCCCCD#32 = ((tauR : ℝ) : EReal) := by
  simp [Ideal.ofBits, Ideal.ieee, tauR, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The word 0x3F000000 denotes 1/2. -/
theorem ofBits_half : Ideal.ofBits .f32 0x3F000000#32 = (((1 : ℝ) / 2 : ℝ) : EReal) := by
  simp [Ideal.ofBits, Ideal.ieee, -EReal.coe_mul]; norm_num

/-- The all-zero word denotes 0. -/
theorem ofBits_zero : Ideal.ofBits .f32 0x00000000#32 = ((0 : ℝ) : EReal) := by
  simp [Ideal.ofBits, Ideal.ieee]

/-- The word 0xFF800000 denotes −∞. -/
theorem ofBits_ninf : Ideal.ofBits .f32 0xFF800000#32 = (⊥ : EReal) := by
  simp [Ideal.ofBits, Ideal.ieee]

/-- The word 0x7F800000 denotes +∞. -/
theorem ofBits_pinf : Ideal.ofBits .f32 0x7F800000#32 = (⊤ : EReal) := by
  simp [Ideal.ofBits, Ideal.ieee]

end Cert.Spec

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.IdealReal.lean ====
/-
  The float operations of the two programs, read at the exact instance, on extended reals that are real numbers.

  At the exact instance a float is an extended real and every operation is the textbook one. When its operands are real
  numbers (neither infinity), so is its result, and the result is the real operation applied to the operands: a sum, a
  difference, a product, a quotient by a nonzero divisor, a maximum, an exponential, a logarithm of a positive number, a square
  root of a nonnegative number. A comparison of two reals answers the bit 1 exactly when the order relation holds; a selection on
  that bit is the corresponding choice; a bit turned into a float is the real 0 or 1; a constant word is the real it denotes; and
  a finite sum of reals, taken in the extended reals, is the real sum. Each statement below rewrites one operation applied to
  coerced reals into the coercion of a real expression, once for the vector unit's operation, once for the scalar unit's, and
  once for the host's where the host has its own.
-/
import Idealize.ShloMosaic.PureOps.Ideal
import Idealize.ShloMosaic.PureOps.Ideal.Laws
import proofs.«413937_j37383395344507_3_alg».proof.Proof.Consts
import proofs.«413937_j37383395344507_3_alg».proof.Proof.LibLinear

noncomputable section

namespace Cert.IdealReal

open Idealize.ShloMosaic

variable {φ : FTy} (x y : ℝ)

/-! ## Sum, difference, product -/

/-- A sum of two reals. -/
theorem addf_coe : FloatOps.addf (F := Ideal) (φ := φ) ((x : ℝ) : EReal) ((y : ℝ) : EReal) = ((x + y : ℝ) : EReal) :=
  (EReal.coe_add x y).symm

/-- The scalar unit's sum. -/
theorem scalar_addf_coe : Scalar.addf (F := Ideal) (φ := φ) ((x : ℝ) : EReal) ((y : ℝ) : EReal) = ((x + y : ℝ) : EReal) :=
  (EReal.coe_add x y).symm

/-- A difference of two reals. -/
theorem subf_coe : FloatOps.subf (F := Ideal) (φ := φ) ((x : ℝ) : EReal) ((y : ℝ) : EReal) = ((x - y : ℝ) : EReal) :=
  (EReal.coe_sub x y).symm

/-- The scalar unit's difference. -/
theorem scalar_subf_coe : Scalar.subf (F := Ideal) (φ := φ) ((x : ℝ) : EReal) ((y : ℝ) : EReal) = ((x - y : ℝ) : EReal) :=
  (EReal.coe_sub x y).symm

/-- A product of two reals. -/
theorem mulf_coe : FloatOps.mulf (F := Ideal) (φ := φ) ((x : ℝ) : EReal) ((y : ℝ) : EReal) = ((x * y : ℝ) : EReal) :=
  (EReal.coe_mul x y).symm

/-- The scalar unit's product. -/
theorem scalar_mulf_coe : Scalar.mulf (F := Ideal) (φ := φ) ((x : ℝ) : EReal) ((y : ℝ) : EReal) = ((x * y : ℝ) : EReal) :=
  (EReal.coe_mul x y).symm

/-! ## Quotient by a nonzero real -/

/-- The exact quotient of two reals, the divisor not zero, is the real quotient. -/
theorem idealDiv_coe {y : ℝ} (hy : y ≠ 0) : Ideal.div ((x : ℝ) : EReal) ((y : ℝ) : EReal) = ((x / y : ℝ) : EReal) := by
  rw [Ideal.div_coe hy, ← EReal.coe_mul, mul_one_div]

/-- A quotient on the vector unit. -/
theorem divf_coe {y : ℝ} (hy : y ≠ 0) :
    FloatOps.divf (F := Ideal) (φ := φ) ((x : ℝ) : EReal) ((y : ℝ) : EReal) = ((x / y : ℝ) : EReal) :=
  idealDiv_coe x hy

/-- A quotient on the scalar unit. -/
theorem scalar_divf_coe {y : ℝ} (hy : y ≠ 0) :
    Scalar.divf (F := Ideal) (φ := φ) ((x : ℝ) : EReal) ((y : ℝ) : EReal) = ((x / y : ℝ) : EReal) :=
  idealDiv_coe x hy

/-- A quotient on the host. -/
theorem hostDivf_coe {y : ℝ} (hy : y ≠ 0) :
    FloatOps.hostDivf (F := Ideal) (φ := φ) ((x : ℝ) : EReal) ((y : ℝ) : EReal) = ((x / y : ℝ) : EReal) :=
  idealDiv_coe x hy

/-! ## Maximum -/

/-- The larger of two reals, in the extended reals, is the larger real. -/
theorem emax_coe : max ((x : ℝ) : EReal) ((y : ℝ) : EReal) = ((max x y : ℝ) : EReal) :=
  (EReal.coe_strictMono.monotone.map_max).symm

/-- A maximum on the vector unit (the host's maximum is this operation too). -/
theorem maximumf_coe :
    FloatOps.maximumf (F := Ideal) (φ := φ) ((x : ℝ) : EReal) ((y : ℝ) : EReal) = ((max x y : ℝ) : EReal) :=
  emax_coe x y

/-- A maximum on the scalar unit. -/
theorem scalar_maximumf_coe :
    Scalar.maximumf (F := Ideal) (φ := φ) ((x : ℝ) : EReal) ((y : ℝ) : EReal) = ((max x y : ℝ) : EReal) :=
  emax_coe x y

/-! ## Exponential, logarithm, square root -/

/-- The exponential of a real. -/
theorem exp_coe : FloatOps.exp (F := Ideal) (φ := φ) ((x : ℝ) : EReal) = ((Real.exp x : ℝ) : EReal) := rfl

/-- The host's exponential. -/
theorem hostUnary_exp_coe :
    FloatOps.hostUnary (F := Ideal) .exp (φ := φ) ((x : ℝ) : EReal) = ((Real.exp x : ℝ) : EReal) := rfl

/-- The logarithm of a positive real. -/
theorem log_coe {x : ℝ} (hx : 0 < x) : FloatOps.log (F := Ideal) (φ := φ) ((x : ℝ) : EReal) = ((Real.log x : ℝ) : EReal) := by
  rw [Ideal.log_def, Ideal.log_coe, if_neg (not_le.mpr hx)]

/-- The host's logarithm of a positive real. -/
theorem hostUnary_log_coe {x : ℝ} (hx : 0 < x) :
    FloatOps.hostUnary (F := Ideal) .log (φ := φ) ((x : ℝ) : EReal) = ((Real.log x : ℝ) : EReal) := by
  rw [Ideal.hostUnary_log_def, Ideal.log_coe, if_neg (not_le.mpr hx)]

/-- The square root of a nonnegative real. -/
theorem sqrt_coe {x : ℝ} (hx : 0 ≤ x) : FloatOps.sqrt (F := Ideal) (φ := φ) ((x : ℝ) : EReal) = ((Real.sqrt x : ℝ) : EReal) := by
  rw [Ideal.sqrt_def, Ideal.sqrt_coe, if_neg (not_lt.mpr hx)]

/-- The host's square root of a nonnegative real. -/
theorem hostUnary_sqrt_coe {x : ℝ} (hx : 0 ≤ x) :
    FloatOps.hostUnary (F := Ideal) .sqrt (φ := φ) ((x : ℝ) : EReal) = ((Real.sqrt x : ℝ) : EReal) := by
  rw [Ideal.hostUnary_sqrt_def, Ideal.sqrt_coe, if_neg (not_lt.mpr hx)]

/-! ## Comparison of two reals -/

/-- "Greater than" on two reals answers the bit 1 exactly when the first is the greater. -/
theorem cmpf_ogt_coe :
    FloatOps.cmpf (F := Ideal) (φ := φ) .ogt ((x : ℝ) : EReal) ((y : ℝ) : EReal) = if x > y then 1#1 else 0#1 := by
  show BitVec.ofBool (decide (((y : ℝ) : EReal) < ((x : ℝ) : EReal))) = _
  by_cases h : y < x
  · rw [if_pos h, decide_eq_true (EReal.coe_lt_coe_iff.mpr h)]; rfl
  · rw [if_neg h, decide_eq_false (fun h' => h (EReal.coe_lt_coe_iff.mp h'))]; rfl

/-- "Greater than", the relation holding. -/
theorem cmpf_ogt_coe_of_lt {x y : ℝ} (h : y < x) :
    FloatOps.cmpf (F := Ideal) (φ := φ) .ogt ((x : ℝ) : EReal) ((y : ℝ) : EReal) = 1#1 := by
  rw [cmpf_ogt_coe, if_pos h]

/-- "Greater than", the relation failing. -/
theorem cmpf_ogt_coe_of_not_lt {x y : ℝ} (h : ¬ y < x) :
    FloatOps.cmpf (F := Ideal) (φ := φ) .ogt ((x : ℝ) : EReal) ((y : ℝ) : EReal) = 0#1 := by
  rw [cmpf_ogt_coe, if_neg h]

/-- "Less than" on two reals answers the bit 1 exactly when the first is the smaller. -/
theorem cmpf_olt_coe :
    FloatOps.cmpf (F := Ideal) (φ := φ) .olt ((x : ℝ) : EReal) ((y : ℝ) : EReal) = if x < y then 1#1 else 0#1 := by
  show BitVec.ofBool (decide (((x : ℝ) : EReal) < ((y : ℝ) : EReal))) = _
  by_cases h : x < y
  · rw [if_pos h, decide_eq_true (EReal.coe_lt_coe_iff.mpr h)]; rfl
  · rw [if_neg h, decide_eq_false (fun h' => h (EReal.coe_lt_coe_iff.mp h'))]; rfl

/-- "Less than", the relation holding. -/
theorem cmpf_olt_coe_of_lt {x y : ℝ} (h : x < y) :
    FloatOps.cmpf (F := Ideal) (φ := φ) .olt ((x : ℝ) : EReal) ((y : ℝ) : EReal) = 1#1 := by
  rw [cmpf_olt_coe, if_pos h]

/-- "Less than", the relation failing. -/
theorem cmpf_olt_coe_of_not_lt {x y : ℝ} (h : ¬ x < y) :
    FloatOps.cmpf (F := Ideal) (φ := φ) .olt ((x : ℝ) : EReal) ((y : ℝ) : EReal) = 0#1 := by
  rw [cmpf_olt_coe, if_neg h]

/-- The scalar unit's "greater than". -/
theorem scalar_cmpf_ogt_coe :
    Scalar.cmpf (F := Ideal) (φ := φ) .ogt ((x : ℝ) : EReal) ((y : ℝ) : EReal) = if x > y then 1#1 else 0#1 :=
  cmpf_ogt_coe (φ := φ) x y

/-- The scalar unit's "less than". -/
theorem scalar_cmpf_olt_coe :
    Scalar.cmpf (F := Ideal) (φ := φ) .olt ((x : ℝ) : EReal) ((y : ℝ) : EReal) = if x < y then 1#1 else 0#1 :=
  cmpf_olt_coe (φ := φ) x y

/-! ## Selection on a bit -/

/-- Selecting on the bit 1 takes the first operand. -/
theorem select_one {α : Type} (a b : α) : Scalar.select 1#1 a b = a := if_pos rfl

/-- Selecting on the bit 0 takes the second operand. -/
theorem select_zero {α : Type} (a b : α) : Scalar.select 0#1 a b = b := if_neg (by decide)

/-- Selecting on a bit that is 1 exactly when a proposition holds is the choice by that proposition. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- Selecting between two reals on such a bit, under the coercion. -/
theorem select_ite_coe (p : Prop) [Decidable p] :
    Scalar.select (if p then 1#1 else 0#1) ((x : ℝ) : EReal) ((y : ℝ) : EReal) = (((if p then x else y) : ℝ) : EReal) := by
  rw [select_ite]
  by_cases h : p
  · rw [if_pos h, if_pos h]
  · rw [if_neg h, if_neg h]

/-! ## A word or a bit turned into a float -/

/-- A signed word turned into a float is its signed value. -/
theorem sitofp_def {w : Nat} (b : BitVec w) : FloatOps.sitofp (F := Ideal) φ b = (((b.toInt : ℤ) : ℝ) : EReal) := rfl

/-- An unsigned word turned into a float is its unsigned value. -/
theorem uitofp_def {w : Nat} (b : BitVec w) : FloatOps.uitofp (F := Ideal) φ b = (((b.toNat : ℕ) : ℝ) : EReal) := rfl

/-- The 32-bit word 0, read signed, is the real 0. -/
theorem sitofp_zero_coe : FloatOps.sitofp (F := Ideal) φ (0#32) = ((0 : ℝ) : EReal) := by
  rw [sitofp_def]
  have h : (0#32 : BitVec 32).toInt = 0 := by decide
  rw [h, Int.cast_zero]

/-- The 32-bit word 1, read signed, is the real 1. -/
theorem sitofp_one_coe : FloatOps.sitofp (F := Ideal) φ (1#32) = ((1 : ℝ) : EReal) := by
  rw [sitofp_def]
  have h : (1#32 : BitVec 32).toInt = 1 := by decide
  rw [h, Int.cast_one]

/-- The bit 0 widened to 32 bits and read signed is the real 0. -/
theorem sitofp_extui_zero_coe : FloatOps.sitofp (F := Ideal) φ ((0#1 : BitVec 1).setWidth 32) = ((0 : ℝ) : EReal) := by
  have h : (0#1 : BitVec 1).setWidth 32 = 0#32 := by decide
  rw [h, sitofp_zero_coe]

/-- The bit 1 widened to 32 bits and read signed is the real 1. -/
theorem sitofp_extui_one_coe : FloatOps.sitofp (F := Ideal) φ ((1#1 : BitVec 1).setWidth 32) = ((1 : ℝ) : EReal) := by
  have h : (1#1 : BitVec 1).setWidth 32 = 1#32 := by decide
  rw [h, sitofp_one_coe]

/-- A bit that is 1 exactly when a proposition holds, widened and read signed, is the real 1 or 0 by that proposition. -/
theorem sitofp_extui_ite_coe (p : Prop) [Decidable p] :
    FloatOps.sitofp (F := Ideal) φ ((if p then 1#1 else 0#1 : BitVec 1).setWidth 32) = (((if p then 1 else 0) : ℝ) : EReal) := by
  by_cases h : p
  · rw [if_pos h, if_pos h, sitofp_extui_one_coe]
  · rw [if_neg h, if_neg h, sitofp_extui_zero_coe]

/-- The same through the scalar unit's widening. -/
theorem sitofp_scalar_extui_ite_coe (p : Prop) [Decidable p] :
    FloatOps.sitofp (F := Ideal) φ (Scalar.extui (if p then 1#1 else 0#1)) = (((if p then 1 else 0) : ℝ) : EReal) :=
  sitofp_extui_ite_coe p

/-- The bit 0 read unsigned (the host's conversion of a truth value to a float) is the real 0. -/
theorem uitofp_zero_coe : FloatOps.uitofp (F := Ideal) φ (0#1) = ((0 : ℝ) : EReal) := by
  rw [uitofp_def]
  have h : (0#1 : BitVec 1).toNat = 0 := by decide
  rw [h, Nat.cast_zero]

/-- The bit 1 read unsigned is the real 1. -/
theorem uitofp_one_coe : FloatOps.uitofp (F := Ideal) φ (1#1) = ((1 : ℝ) : EReal) := by
  rw [uitofp_def]
  have h : (1#1 : BitVec 1).toNat = 1 := by decide
  rw [h, Nat.cast_one]

/-- A bit that is 1 exactly when a proposition holds, read unsigned, is the real 1 or 0 by that proposition. -/
theorem uitofp_ite_coe (p : Prop) [Decidable p] :
    FloatOps.uitofp (F := Ideal) φ (if p then 1#1 else 0#1 : BitVec 1) = (((if p then 1 else 0) : ℝ) : EReal) := by
  by_cases h : p
  · rw [if_pos h, if_pos h, uitofp_one_coe]
  · rw [if_neg h, if_neg h, uitofp_zero_coe]

/-! ## Constant words -/

open Cert.Spec in
/-- The words of this certificate as the reals (or infinities) they denote, through the operation a program's constant reads. -/
theorem ofBits_eps_coe : FloatOps.ofBits (F := Ideal) .f32 0x322BCC77#32 = ((epsR : ℝ) : EReal) := ofBits_eps
open Cert.Spec in
theorem ofBits_thr_coe : FloatOps.ofBits (F := Ideal) .f32 0x3F666666#32 = ((thrR : ℝ) : EReal) := ofBits_thr
open Cert.Spec in
theorem ofBits_tau_coe : FloatOps.ofBits (F := Ideal) .f32 0x3DCCCCCD#32 = ((tauR : ℝ) : EReal) := ofBits_tau
theorem ofBits_one_coe : FloatOps.ofBits (F := Ideal) .f32 0x3F800000#32 = ((1 : ℝ) : EReal) := Cert.Spec.ofBits_one
theorem ofBits_half_coe : FloatOps.ofBits (F := Ideal) .f32 0x3F000000#32 = (((1 : ℝ) / 2 : ℝ) : EReal) := Cert.Spec.ofBits_half
theorem ofBits_zero_coe : FloatOps.ofBits (F := Ideal) .f32 0x00000000#32 = ((0 : ℝ) : EReal) := Cert.Spec.ofBits_zero
theorem ofBits_ninf_eq : FloatOps.ofBits (F := Ideal) .f32 0xFF800000#32 = (⊥ : EReal) := Cert.Spec.ofBits_ninf
theorem ofBits_pinf_eq : FloatOps.ofBits (F := Ideal) .f32 0x7F800000#32 = (⊤ : EReal) := Cert.Spec.ofBits_pinf

/-- A splat constant read at an index is the word's value. -/
theorem constant_apply_coe {s : Shape} (b : BitVec (FTy.f32).bits) (r : ℝ) (h : Ideal.ofBits .f32 b = ((r : ℝ) : EReal)) (i : s.Idx) :
    constant (F := Ideal) s .f32 b i = ((r : ℝ) : EReal) := h

/-- A broadcast scalar read at an index is the scalar. -/
theorem broadcast_apply_coe {s : Shape} (r : ℝ) (i : s.Idx) : broadcast s (((r : ℝ) : EReal) : Ideal .f32) i = ((r : ℝ) : EReal) := rfl

/-! ## Finite sums -/

/-- A finite sum of reals taken in the extended reals is the real sum. -/
theorem sum_coe {ι : Type} (S : Finset ι) (f : ι → ℝ) : ∑ i ∈ S, ((f i : ℝ) : EReal) = ((∑ i ∈ S, f i : ℝ) : EReal) :=
  (Cert.LibLinear.coe_sum S f).symm

/-- The same over a whole finite type. -/
theorem sum_univ_coe {ι : Type} [Fintype ι] (f : ι → ℝ) : ∑ i, ((f i : ℝ) : EReal) = ((∑ i, f i : ℝ) : EReal) :=
  sum_coe Finset.univ f

/-- A finite sum of extended reals, each known to be a given real, is the real sum. -/
theorem sum_eq_coe {ι : Type} (S : Finset ι) (g : ι → EReal) (f : ι → ℝ) (h : ∀ i ∈ S, g i = ((f i : ℝ) : EReal)) :
    ∑ i ∈ S, g i = ((∑ i ∈ S, f i : ℝ) : EReal) := by
  rw [Finset.sum_congr rfl h, sum_coe]

/-- Zero plus a real, in the extended reals (a sum started from the zero word). -/
theorem zero_add_coe : ((0 : ℝ) : EReal) + ((x : ℝ) : EReal) = ((x : ℝ) : EReal) := by
  rw [EReal.coe_zero, zero_add]

end Cert.IdealReal

end
-- ==== Proof.KV.Nodes.lean ====
/-
  The kernel program's first host stretch, read entry by entry.

  Before its first region the kernel program prepares, from the argument arrays, four arrays per node or per pair:
  the two columns of the pairs array (a pair's anchor node and its second node, as words), every feature row divided by its
  Euclidean norm clamped below at ε, and one packed word per node: the node's label in the low bits, and bit 8 set exactly
  when the node passes (its score exceeds the threshold and its flag is set).

  Under the precondition every float argument is a real, every pair index lies in [0, 100000) and every label in [0, 64), so a
  word's signed value, its unsigned value and its residue modulo the extent are one number. A row's sum of squares is then a
  nonnegative real, its square root is the real square root, the maximum with ε is the clamped norm (positive), and the exact
  quotient by it is the real quotient. A float comparison of two reals is the order of the reals; the and of two bits widened to
  a word and shifted left by eight is 1 · 2^8 when both bits are set and 0 otherwise.

  The last section records that the stretches between this one and the first region's entry write none of the four arrays.
-/
import proofs.«413937_j37383395344507_3_alg».proof.Proof.KV.Basic
import proofs.«413937_j37383395344507_3_alg».proof.Proof.Consts
import proofs.«413937_j37383395344507_3_alg».proof.Proof.LibLinear
import proofs.«413937_j37383395344507_3_alg».proof.Proof.IdealReal
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.Lib.StableHlo.Predicate
import Idealize.ShloMosaic.PureOps.Ideal.Laws

noncomputable section

namespace Cert.KernelIdeal.KV

open Cert.KernelIdeal Cert.KernelIdeal.Gen Cert.Spec Idealize.ShloMosaic Idealize.ShloMosaic.TcCoe Idealize.SL.Sem Idealize.ShloMosaic.ValueIdx
open scoped Classical

variable (m : (ℓ : Loc nD τ sig) → Buf (Elt Ideal) ℓ) (c : Dev nD)

namespace Nodes

/-! ## Elementwise operations read at an index -/

section ReadAt
variable {s : Shape}
theorem hostSqrt_apply {φ : FTy} (x : FVec Ideal s φ) (i : s.Idx) : Host.sqrt x i = Ideal.sqrt (x i) := rfl
theorem andi_apply {w : ℕ} (x y : IVec s w) (i : s.Idx) : andi x y i = IntOp.andi (x i) (y i) := rfl
theorem ori_apply {w : ℕ} (x y : IVec s w) (i : s.Idx) : ori x y i = IntOp.ori (x i) (y i) := rfl
theorem hostShli_apply {w : ℕ} (x y : IVec s w) (i : s.Idx) : Host.shli x y i = IntOp.shli .host (x i) (y i) := rfl
end ReadAt

/-! ## Words in range -/

/-- A 32-bit word whose signed value lies in [0, n) has its unsigned value below n. -/
theorem toNat_lt_of_toInt (w : BitVec 32) (n : ℕ) (h0 : 0 ≤ w.toInt) (h1 : w.toInt < (n : ℤ)) : w.toNat < n := by
  have hw := w.isLt
  rw [BitVec.toInt_eq_toNat_cond] at h0 h1
  by_cases hc : 2 * w.toNat < 2 ^ 32
  · rw [if_pos hc] at h1; omega
  · rw [if_neg hc] at h0; omega

/-- Such a word is the word of its unsigned value's residue modulo n. -/
theorem ofNat_mod_of_range (w : BitVec 32) (n : ℕ) (h0 : 0 ≤ w.toInt) (h1 : w.toInt < (n : ℤ)) :
    BitVec.ofNat 32 (w.toNat % n) = w := by
  apply BitVec.eq_of_toNat_eq
  rw [BitVec.toNat_ofNat, Nat.mod_eq_of_lt (toNat_lt_of_toInt w n h0 h1), Nat.mod_eq_of_lt w.isLt]

/-! ## The pair columns -/

/-- The anchor column: row 0 of the pairs array, as a vector. -/
theorem v1_term : (V1 m c main_v1 : S1000000.Idx → BitVec 32)
    = shapeCast S1000000 (extractStridedSlice S1x1000000 ![0, 0] (a1 m c) slices_S2x1000000_S1x1000000_0_0) shapeCasts_S1x1000000_S1000000 := by
  show StableHlo.after hostOps0 (V0 m c) (Proc.devRef .tc main_v1) = _
  after_results <;> rfl

/-- The second-node column: row 1 of the pairs array, as a vector. -/
theorem v3_term : (V1 m c main_v3 : S1000000.Idx → BitVec 32)
    = shapeCast S1000000 (extractStridedSlice S1x1000000 ![1, 0] (a1 m c) slices_S2x1000000_S1x1000000_1_0) shapeCasts_S1x1000000_S1000000 := by
  show StableHlo.after hostOps0 (V0 m c) (Proc.devRef .tc main_v3) = _
  after_results <;> rfl

/-- The anchor column at pair p is the pairs array at (0, p). -/
theorem v1_raw (p : Fin PP) : (V1 m c main_v1 : S1000000.Idx → BitVec 32) (ix1 p) = a1 m c (ix2 0 p) := by
  rw [v1_term]
  refine (shapeCast_1a_a_apply _ _ p).trans ?_
  exact slice2_axis0_apply 0 (a1 m c) _ (0 : Fin 1) p (0 : Fin 2) rfl

/-- The second-node column at pair p is the pairs array at (1, p). -/
theorem v3_raw (p : Fin PP) : (V1 m c main_v3 : S1000000.Idx → BitVec 32) (ix1 p) = a1 m c (ix2 1 p) := by
  rw [v3_term]
  refine (shapeCast_1a_a_apply _ _ p).trans ?_
  exact slice2_axis0_apply 1 (a1 m c) _ (0 : Fin 1) p (1 : Fin 2) rfl

/-! ## The scaled rows -/

/-- Each row's sum of squares, as the stretch forms it. -/
abbrev sq5 : FVec Ideal S100000 .f32 :=
  Host.reduceAdd (mulf (a0 m c) (a0 m c)) (constant (F := Ideal) S_ .f32 0x00000000#32) reducesTo_S100000x64_S100000_d1 h_S_

/-- Each row's norm clamped below at ε, as a column. -/
abbrev nrm9 : FVec Ideal S100000x1 .f32 :=
  maximumf (Host.sqrt (broadcastInDim S100000x1 ![0] bcast_S100000_S100000x1_0 (sq5 m c)))
    (broadcastInDim S100000x1 ![] bcast_S_S100000x1 (constant (F := Ideal) S_ .f32 0x322BCC77#32))

/-- The scaled rows: the feature rows over the clamped norms, broadcast along the row. -/
theorem v11_term : (V1 m c main_v11 : S100000x64.Idx → EReal)
    = Host.divf (a0 m c) (broadcastInDim S100000x64 ![0, 1] bcast_S100000x1_S100000x64_0_1 (nrm9 m c)) := by
  show StableHlo.after hostOps0 (V0 m c) (Proc.devRef .tc main_v11) = _
  after_results <;> rfl

/-- A feature entry is the real the data records. -/
theorem a0_apply (hG : good m c) (n : Fin NN) (d : Fin DD) : a0 m c (ix2 n d) = (((dat m c).xr n d : ℝ) : EReal) :=
  hG.hx (ix2 n d)

/-- A row's sum of squares is the real sum of squares. -/
theorem sq5_apply (hG : good m c) (n : Fin NN) :
    sq5 m c (ix1 n) = ((∑ d, (dat m c).xr n d * (dat m c).xr n d : ℝ) : EReal) := by
  have hR : S100000x64.Reduces [1] S100000 := by decide
  refine (hostReduceAdd_apply _ _ _ _ _).trans ?_
  refine (Ideal.hostReduceAdd_single _ hR _ _ _).trans ?_
  rw [constant_apply, Cert.Spec.ofBits_zero, Cert.LibLinear.coe_sum, EReal.coe_zero, zero_add]
  refine Finset.sum_congr rfl fun (k : Fin DD) _ => ?_
  have hl : hR.lift (ix1 n) k = ix2 n k := by
    funext a
    match a with
    | ⟨0, _⟩ => exact Fin.ext rfl
    | ⟨1, _⟩ => exact Fin.ext rfl
  rw [hl, mulf_apply, a0_apply m c hG n k, ← EReal.coe_mul]

/-- A row's sum of squares is not negative. -/
theorem sumsq_nonneg (n : Fin NN) : 0 ≤ ∑ d, (dat m c).xr n d * (dat m c).xr n d :=
  Finset.sum_nonneg fun d _ => mul_self_nonneg _

/-- The clamped-norm column at node n is the node's clamped norm. -/
theorem nrm9_apply (hG : good m c) (n : Fin NN) : nrm9 m c (ix2 n (0 : Fin 1)) = (((dat m c).nr n : ℝ) : EReal) := by
  have e6 : broadcastInDim S100000x1 ![0] bcast_S100000_S100000x1_0 (sq5 m c) (ix2 n (0 : Fin 1)) = sq5 m c (ix1 n) :=
    broadcastInDim_apply _ _ _ _ (ix1 n) (fun a => by match a with | ⟨0, _⟩ => rfl)
  show maximumf _ _ (ix2 n (0 : Fin 1)) = _
  rw [maximumf_apply, hostSqrt_apply, e6, sq5_apply m c hG n, broadcastInDim_scalar_apply, constant_apply, Cert.Spec.ofBits_eps,
    Ideal.sqrt_coe, if_neg (not_lt.2 (sumsq_nonneg m c n)), Cert.IdealReal.emax_coe]
  rfl

/-! ## The packed words -/

/-- Each node's packed word, as the stretch forms it: the label, or the pass bit shifted left by eight. -/
abbrev pk18 : IVec S100000 32 :=
  ori (a2 m c)
    (Host.shli
      (extui 32 (andi (cmpf .ogt (a4 m c) (broadcastInDim S100000 ![] bcast_S_S100000 (constant (F := Ideal) S_ .f32 0x3F666666#32))) (a3 m c)) natLt_1_32)
      (broadcastInDim S100000 ![] bcast_S_S100000 (constantI S_ 32 8#32)))

theorem v18_term : (V1 m c main_v18 : S100000.Idx → BitVec 32) = pk18 m c := by
  show StableHlo.after hostOps0 (V0 m c) (Proc.devRef .tc main_v18) = _
  after_results <;> rfl

/-- The and of two bits, widened to a word and shifted left by eight, is 2^8 when both are set and 0 otherwise. -/
theorem pack_bit (b1 b2 : BitVec 1) (P : Prop) [Decidable P] (hP : P ↔ (b1 = 1#1 ∧ b2 = 1#1)) :
    IntOp.shli .host ((IntOp.andi b1 b2).setWidth 32) 8#32 = (if P then 1#32 else 0#32) <<< 8 := by
  by_cases h1 : b1 = 1#1
  · by_cases h2 : b2 = 1#1
    · rw [if_pos (hP.2 ⟨h1, h2⟩), h1, h2]; decide
    · rw [if_neg (fun hp => h2 (hP.1 hp).2), h1, eq_zero_of_ne_one h2]; decide
  · rw [if_neg (fun hp => h1 (hP.1 hp).1), eq_zero_of_ne_one h1]
    by_cases h2 : b2 = 1#1
    · rw [h2]; decide
    · rw [eq_zero_of_ne_one h2]; decide

/-- A node passes exactly when the score comparison and the flag are both the bit 1. -/
theorem passed_iff (hG : good m c) (n : Fin NN) :
    (dat m c).passed n ↔ (Ideal.cmp .ogt (a4 m c (ix1 n)) (Ideal.ofBits .f32 0x3F666666#32) = 1#1 ∧ a3 m c (ix1 n) = 1#1) := by
  have hp : a4 m c (ix1 n) = (((dat m c).pt n : ℝ) : EReal) := hG.hpts (ix1 n)
  rw [hp, Cert.Spec.ofBits_thr]
  unfold Cert.Spec.Data.passed
  have h1 : Ideal.cmp .ogt (((dat m c).pt n : ℝ) : EReal) ((thrR : ℝ) : EReal) = 1#1 ↔ thrR < (dat m c).pt n := by
    simp only [Ideal.cmp, StableHlo.Predicate.ofBool_eq_one_iff, decide_eq_true_eq, EReal.coe_lt_coe_iff]
  have h2 : (dat m c).rc n = true ↔ a3 m c (ix1 n) = 1#1 := by
    show decide (a3 m c (ix1 n) = 1#1) = true ↔ _
    exact decide_eq_true_iff
  rw [h1, h2]

end Nodes

open Nodes

/-! ## The four arrays after the stretch -/

/-- The anchor column holds each pair's anchor node as a word. -/
theorem v1_apply (hG : good m c) (p : Fin PP) :
    (V1 m c main_v1 : S1000000.Idx → BitVec 32) (ix1 p) = BitVec.ofNat 32 ((dat m c).ia p).val := by
  rw [v1_raw]
  exact (ofNat_mod_of_range _ NN (hG.hpp (ix2 0 p)).1 (by exact_mod_cast (hG.hpp (ix2 0 p)).2)).symm

/-- The second-node column holds each pair's second node as a word. -/
theorem v3_apply (hG : good m c) (p : Fin PP) :
    (V1 m c main_v3 : S1000000.Idx → BitVec 32) (ix1 p) = BitVec.ofNat 32 ((dat m c).ja p).val := by
  rw [v3_raw]
  exact (ofNat_mod_of_range _ NN (hG.hpp (ix2 1 p)).1 (by exact_mod_cast (hG.hpp (ix2 1 p)).2)).symm

/-- The scaled rows hold each feature entry over its row's clamped norm. -/
theorem v11_apply (hG : good m c) (n : Fin NN) (d : Fin DD) :
    (V1 m c main_v11 : S100000x64.Idx → EReal) (ix2 n d) = ((((dat m c).xr n d / (dat m c).nr n : ℝ)) : EReal) := by
  rw [v11_term]
  have e10 : broadcastInDim S100000x64 ![0, 1] bcast_S100000x1_S100000x64_0_1 (nrm9 m c) (ix2 n d) = nrm9 m c (ix2 n (0 : Fin 1)) :=
    broadcastInDim_apply _ _ _ _ (ix2 n (0 : Fin 1)) (fun a => by match a with | ⟨0, _⟩ => rfl | ⟨1, _⟩ => rfl)
  rw [hostDivf_apply, e10, nrm9_apply m c hG n, a0_apply m c hG n d,
    Cert.IdealReal.idealDiv_coe _ (ne_of_gt ((dat m c).nr_pos n))]

/-- The packed words hold each node's label with bit 8 set exactly when the node passes. -/
theorem v18_apply (hG : good m c) (n : Fin NN) :
    (V1 m c main_v18 : S100000.Idx → BitVec 32) (ix1 n) = (dat m c).packedW n := by
  rw [v18_term]
  have hl : a2 m c (ix1 n) = BitVec.ofNat 32 ((dat m c).cl n).val :=
    (ofNat_mod_of_range _ CC (hG.hcid (ix1 n)).1 (by exact_mod_cast (hG.hcid (ix1 n)).2)).symm
  show ori _ _ (ix1 n) = _
  rw [ori_apply, hostShli_apply, extui_apply, andi_apply, cmpf_apply, broadcastInDim_scalar_apply, broadcastInDim_scalar_apply,
    constant_apply, constantI_apply, Ideal.cmpf_def, pack_bit _ _ ((dat m c).passed n) (passed_iff m c hG n), hl]
  rfl

/-! ## The four arrays at the first region's entry -/

/-- The stretches between this one and the first region's entry write none of the four arrays. -/
theorem V16_main_v1 : V16 m c main_v1 = V1 m c main_v1 := by
  rw [V16_of m c _ (by decide), V15_of m c _ (by decide), V14_of m c _ (by decide), V13_of m c _ (by decide), V12_of m c _ (by decide),
    V11_of m c _ (by decide), V10_of m c _ (by decide), V9_of m c _ (by decide), V8_of m c _ (by decide), V7_of m c _ (by decide),
    V6_of m c _ (by decide), V5_of m c _ (by decide), V4_of m c _ (by decide), V3_of m c _ (by decide), V2_of m c _ (by decide)]

theorem V16_main_v3 : V16 m c main_v3 = V1 m c main_v3 := by
  rw [V16_of m c _ (by decide), V15_of m c _ (by decide), V14_of m c _ (by decide), V13_of m c _ (by decide), V12_of m c _ (by decide),
    V11_of m c _ (by decide), V10_of m c _ (by decide), V9_of m c _ (by decide), V8_of m c _ (by decide), V7_of m c _ (by decide),
    V6_of m c _ (by decide), V5_of m c _ (by decide), V4_of m c _ (by decide), V3_of m c _ (by decide), V2_of m c _ (by decide)]

theorem V16_main_v11 : V16 m c main_v11 = V1 m c main_v11 := by
  rw [V16_of m c _ (by decide), V15_of m c _ (by decide), V14_of m c _ (by decide), V13_of m c _ (by decide), V12_of m c _ (by decide),
    V11_of m c _ (by decide), V10_of m c _ (by decide), V9_of m c _ (by decide), V8_of m c _ (by decide), V7_of m c _ (by decide),
    V6_of m c _ (by decide), V5_of m c _ (by decide), V4_of m c _ (by decide), V3_of m c _ (by decide), V2_of m c _ (by decide)]

theorem V16_main_v18 : V16 m c main_v18 = V1 m c main_v18 := by
  rw [V16_of m c _ (by decide), V15_of m c _ (by decide), V14_of m c _ (by decide), V13_of m c _ (by decide), V12_of m c _ (by decide),
    V11_of m c _ (by decide), V10_of m c _ (by decide), V9_of m c _ (by decide), V8_of m c _ (by decide), V7_of m c _ (by decide),
    V6_of m c _ (by decide), V5_of m c _ (by decide), V4_of m c _ (by decide), V3_of m c _ (by decide), V2_of m c _ (by decide)]

end Cert.KernelIdeal.KV

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Lib1D.lean ====
/-
  Element gathers and accumulating element scatters read at an index, and a lookup that fills out-of-range reads.

  A vector of N entries is read, or accumulated into, at entries named by a column of n start indices (an [n × 1] array of
  words). Reading: result entry p is the vector's entry at start index p, read signed and clamped into [0, N − 1].
  Accumulating: update e lands on the operand entry its start index names, read signed and NOT clamped, and is dropped when that
  is no entry of the operand; entry r of the result is the operand's entry plus the sum of the updates that land on r.
  A filling lookup shifts negative start indices up by N, gathers, and replaces every read whose shifted index is not in
  [0, N − 1] by a fill value; with every start index in [0, N) it is the plain gather.
-/
import Idealize.ShloMosaic.PureOps.Ideal
import Idealize.ShloMosaic.PureOps.Ideal.Laws
import Idealize.ShloMosaic.Lib.ValueIdx
import Idealize.ShloMosaic.Lib.StableHlo.Predicate
import proofs.«413937_j37383395344507_3_alg».proof.Proof.LibRows

noncomputable section

namespace Cert.Lib1D

open Idealize.ShloMosaic Idealize.ShloMosaic.ValueIdx Idealize.ShloMosaic.StableHlo.Predicate Cert.LibRows

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An element gather read at p: the vector at the entry start index p names (read signed, clamped into [0, N − 1]). -/
theorem gather_elems {α : Type} {N n w : ℕ} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (hN : 0 < N) (p : Fin n) :
    Host.gather d x idx (ix1 p) = x (ix1 (rowOf hN idx p)) := by
  -- an index of rank 1 built from its coordinate, in either of the two spellings, is the same function
  have hp : (Shape.Idx.ofFin p : (⟨1, ![n]⟩ : Shape).Idx) = ix1 p := by
    funext a; match a with | ⟨0, _⟩ => rfl
  have hr : (Shape.Idx.ofFin (rowOf hN idx p) : (⟨1, ![N]⟩ : Shape).Idx) = ix1 (rowOf hN idx p) := by
    funext a; match a with | ⟨0, _⟩ => rfl
  rw [← hp, ← hr]
  exact gather_take d hcoll hob hsim hivd x idx p hN

/-- Where update e of an accumulating element scatter lands: on entry r exactly when start index e, read signed, is r. -/
theorem scatter_elems_resultIdx {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (r : Fin N) :
    d.resultIdx? (ix1 e) idx = some (ix1 r) ↔ (idx (ixP e)).toInt = (r.val : ℤ) := by
  have e0 : ∀ X : Fin 1, ((ix1 e : (⟨1, ![n]⟩ : Shape).Idx) X).val = e.val := by
    intro X; match X with | ⟨0, _⟩ => rfl
  have hmem_sKept : ∀ a : Fin 1, a ∈ d.sKept ↔ a ∉ d.insertedWindowDims := fun a => by
    simp [ScatterDims.sKept, Shape.kept, List.mem_filter, List.mem_finRange]
  -- the start of the window on the one axis: the index word, read signed
  have hs0 : d.start (ix1 e) idx 0 = (idx (ixP e)).toInt := by
    have hm : (0 : Fin 1) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _
    | ⟨1, _⟩ =>
      unfold ScatterDims.siIdx
      rw [dif_pos (by rw [hivd])]
      show List.idxOf (0 : Fin 1) d.scatterDimsToOperandDims = 0
      rw [hsd]; simp
  -- the one axis is inserted: no window coordinate
  have hw0 : d.window (ix1 e) 0 = 0 := by
    have hk : (0 : Fin 1) ∉ d.sKept := by rw [hmem_sKept, hiw]; simp
    unfold ScatterDims.window
    rw [dif_neg hk]
  have hr := r.isLt
  unfold ScatterDims.resultIdx?
  constructor
  · intro h
    split at h
    · next hin =>
      have hf := Option.some.inj h
      have h0 := congrArg (fun f => (f 0).val) hf
      simp only [hs0, hw0] at h0
      have hin0 := (hin 0).1
      rw [hs0, hw0] at hin0
      change ((idx (ixP e)).toInt + ((0 : ℕ) : ℤ)).toNat = r.val at h0
      omega
    · exact absurd h (by simp)
  · intro hi
    have hin : ∀ a, 0 ≤ d.start (ix1 e) idx a + d.window (ix1 e) a ∧
        d.start (ix1 e) idx a + (d.window (ix1 e) a : ℤ) < ((⟨1, ![N]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw0, hi]; omega
    rw [dif_pos hin]
    congr 1
    funext a
    apply Fin.ext
    match a with
    | ⟨0, _⟩ =>
      show (d.start (ix1 e) idx 0 + (d.window (ix1 e) 0 : ℤ)).toNat = r.val
      rw [hs0, hw0, hi]; omega

/-- The accumulating element scatter at the extended reals, read at r: the operand's entry plus the sum of the updates whose
    start index, read signed, is r. -/
theorem scatterAdd_elems {φ : FTy} {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (r : Fin N) :
    Host.scatterAdd d x idx upd (ix1 r)
      = x (ix1 r) + ∑ e ∈ Finset.univ.filter (fun e : Fin n => (idx (ixP e)).toInt = (r.val : ℤ)), upd (ix1 e) := by
  show x (ix1 r) + ∑ j ∈ Finset.univ.filter (fun j => d.resultIdx? j idx = some (ix1 r)), upd j = _
  congr 1
  rw [Finset.sum_filter, sum_idx1, Finset.sum_filter]
  refine Finset.sum_congr rfl fun a _ => ?_
  simp only [scatter_elems_resultIdx d huw hiw hsd hivd]

/-- The row a start index in [0, N) names when read: the index itself. -/
theorem rowOf_of_inRange {N n w : ℕ} (hN : 0 < N) (idx : IVec ⟨2, ![n, 1]⟩ w) (p : Fin n)
    (h0 : 0 ≤ (idx (ixP p)).toInt) (h1 : (idx (ixP p)).toInt < (N : ℤ)) :
    ((rowOf hN idx p).val : ℤ) = (idx (ixP p)).toInt := by
  show ((min (idx (ixP p)).toInt.toNat (N - 1) : ℕ) : ℤ) = _
  omega

/-! ## A lookup that fills out-of-range reads, when every start index is in range

The lookup shifts a negative start index up by the operand's length N, gathers (the gather clamps a start into the
operand), and then replaces by a fill value every read whose shifted index is not in [0, N − 1]. When every start index
lies in [0, N) nothing is shifted and nothing is replaced: the lookup reads the operand at the start index itself. -/

/-- Every start index lies in [0, N). -/
def InRange {n : ℕ} (N : ℕ) (ei : IVec ⟨1, ![n]⟩ 32) : Prop :=
  ∀ e : Fin n, 0 ≤ (ei (ix1 e)).toInt ∧ (ei (ix1 e)).toInt < (N : ℤ)

/-- A word that is not negative read signed has the same value read unsigned. -/
theorem toInt_eq_toNat_of_nonneg (a : BitVec 32) (h : 0 ≤ a.toInt) : a.toInt = (a.toNat : ℤ) := by
  have hlt := a.isLt
  rw [BitVec.toInt_eq_toNat_cond] at h ⊢
  split at h
  · rw [if_pos (by assumption)]
  · omega

/-- A start index in [0, N) read unsigned is below N: it names an entry of the operand. -/
theorem InRange.toNat_lt {n N : ℕ} {ei : IVec ⟨1, ![n]⟩ 32} (hr : InRange N ei) (e : Fin n) : (ei (ix1 e)).toNat < N := by
  obtain ⟨h0, h1⟩ := hr e
  rw [toInt_eq_toNat_of_nonneg _ h0] at h1
  exact_mod_cast h1

/-- The start indices as the gather reads them: a negative word shifted up by N, the result laid out as a column. -/
abbrev wrapIdx {n : ℕ} (N : BitVec 32) (ei : IVec ⟨1, ![n]⟩ 32)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2)) : IVec ⟨2, ![n, 1]⟩ 32 :=
  broadcastInDim ⟨2, ![n, 1]⟩ ![0] hc
    (select (cmpi .slt ei (broadcastInDim ⟨1, ![n]⟩ ![] h0 (constantI ⟨0, ![]⟩ 32 0#32)))
      (addi ei (broadcastInDim ⟨1, ![n]⟩ ![] h0 (constantI ⟨0, ![]⟩ 32 N))) ei)

/-- Which reads are kept: bit p is the conjunction, along the column's one-entry second axis, of "shifted index p is at
    least 0" and "shifted index p is at most M" (M the operand's last entry, N − 1). -/
abbrev validMask {n : ℕ} (M : BitVec 32) (W : IVec ⟨2, ![n, 1]⟩ 32)
    (h0c : (⟨0, ![]⟩ : Shape).BroadcastsInDim ⟨2, ![n, 1]⟩ (![] : Fin 0 → Fin 2))
    (h11 : (⟨1, ![1]⟩ : Shape).BroadcastsInDim ⟨2, ![1, 1]⟩ (![1] : Fin 1 → Fin 2))
    (h1n : (⟨2, ![1, 1]⟩ : Shape).BroadcastsInDim ⟨2, ![n, 1]⟩ (![0, 1] : Fin 2 → Fin 2))
    (hred : (⟨2, ![n, 1]⟩ : Shape).ReducesTo [1] ⟨1, ![n]⟩) (hu : 0 < (⟨0, ![]⟩ : Shape).numel) : IVec ⟨1, ![n]⟩ 1 :=
  Host.reduce IntOp.andi
    (andi (cmpi .sge W (broadcastInDim ⟨2, ![n, 1]⟩ ![] h0c (constantI ⟨0, ![]⟩ 32 0#32)))
          (cmpi .sle W (broadcastInDim ⟨2, ![n, 1]⟩ ![0, 1] h1n (broadcastInDim ⟨2, ![1, 1]⟩ ![1] h11 (constantI ⟨1, ![1]⟩ 32 M)))))
    (constantI ⟨0, ![]⟩ 1 1#1) hred hu

/-- With every start index in [0, N) no word is shifted: each word of the column is a start index … -/
theorem wrapIdx_mem {n N : ℕ} (ei : IVec ⟨1, ![n]⟩ 32) (hr : InRange N ei)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2)) (k : (⟨1, ![n]⟩ : Shape).Idx) :
    select (cmpi .slt ei (broadcastInDim ⟨1, ![n]⟩ ![] h0 (constantI ⟨0, ![]⟩ 32 0#32)))
      (addi ei (broadcastInDim ⟨1, ![n]⟩ ![] h0 (constantI ⟨0, ![]⟩ 32 (BitVec.ofNat 32 N)))) ei k = ei (ix1 (k 0)) := by
  obtain ⟨e, rfl⟩ : ∃ e : Fin n, k = ix1 e := ⟨k 0, eq_ix1 k⟩
  rw [select_apply]
  have hz : cmpi .slt ei (broadcastInDim ⟨1, ![n]⟩ ![] h0 (constantI ⟨0, ![]⟩ 32 0#32)) (ix1 e) = 0#1 := by
    apply eq_zero_of_ne_one
    show ¬ BitVec.ofBool ((ei (ix1 e)).slt 0#32) = 1#1
    rw [ofBool_eq_one_iff, BitVec.slt_iff_toInt_lt, BitVec.toInt_zero]
    have := (hr e).1
    omega
  rw [hz, select_zero]
  rfl

/-- … and word p of the column is start index p. -/
theorem wrapIdx_apply {n N : ℕ} (ei : IVec ⟨1, ![n]⟩ 32) (hr : InRange N ei)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2)) (p : Fin n) :
    wrapIdx (BitVec.ofNat 32 N) ei h0 hc (ixP p) = ei (ix1 p) := by
  refine (bcast_col1 hc _ p).trans ?_
  rw [wrapIdx_mem ei hr h0 hc]
  rfl

/-- A left fold by conjunction from 1 over bits that are all 1 is 1. -/
private theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

/-- With every start index in [0, N), N below 2³¹ and M = N − 1, every read is kept. -/
theorem validMask_eq_one {n N M : ℕ} (hM : M + 1 = N) (hN31 : N < 2 ^ 31) (ei : IVec ⟨1, ![n]⟩ 32) (hr : InRange N ei)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (h0c : (⟨0, ![]⟩ : Shape).BroadcastsInDim ⟨2, ![n, 1]⟩ (![] : Fin 0 → Fin 2))
    (h11 : (⟨1, ![1]⟩ : Shape).BroadcastsInDim ⟨2, ![1, 1]⟩ (![1] : Fin 1 → Fin 2))
    (h1n : (⟨2, ![1, 1]⟩ : Shape).BroadcastsInDim ⟨2, ![n, 1]⟩ (![0, 1] : Fin 2 → Fin 2))
    (hred : (⟨2, ![n, 1]⟩ : Shape).ReducesTo [1] ⟨1, ![n]⟩) (hu : 0 < (⟨0, ![]⟩ : Shape).numel)
    (j : (⟨1, ![n]⟩ : Shape).Idx) :
    validMask (BitVec.ofNat 32 M) (wrapIdx (BitVec.ofNat 32 N) ei h0 hc) h0c h11 h1n hred hu j = 1#1 := by
  show Host.reduce IntOp.andi _ _ hred hu j = 1#1
  rw [Host.reduce_eq_foldl]
  refine foldl_andi_ones _ (fun i => ?_) _
  -- word i of the column is some start index e, in [0, N) = [0, M]
  obtain ⟨e, he⟩ : ∃ e : Fin n, wrapIdx (BitVec.ofNat 32 N) ei h0 hc i = ei (ix1 e) := ⟨_, wrapIdx_mem ei hr h0 hc _⟩
  obtain ⟨hlo, hhi⟩ := hr e
  show IntOp.andi (IntOp.cmpi .sge (wrapIdx (BitVec.ofNat 32 N) ei h0 hc i) 0#32)
      (IntOp.cmpi .sle (wrapIdx (BitVec.ofNat 32 N) ei h0 hc i) (BitVec.ofNat 32 M)) = 1#1
  rw [he]
  have hMi : (BitVec.ofNat 32 M).toInt = (M : ℤ) := toInt_ofNat_small M (by omega)
  have h1 : IntOp.cmpi .sge (ei (ix1 e)) 0#32 = 1#1 := by
    show BitVec.ofBool ((0#32).sle (ei (ix1 e))) = 1#1
    rw [ofBool_eq_one_iff, BitVec.sle_iff_toInt_le, BitVec.toInt_zero]
    exact hlo
  have h2 : IntOp.cmpi .sle (ei (ix1 e)) (BitVec.ofNat 32 M) = 1#1 := by
    show BitVec.ofBool ((ei (ix1 e)).sle (BitVec.ofNat 32 M)) = 1#1
    rw [ofBool_eq_one_iff, BitVec.sle_iff_toInt_le, hMi]
    omega
  rw [h1, h2]
  decide

/-- THE ELEMENT LOOKUP. With every start index in [0, N) the filling lookup of a vector reads, at p, the vector at start
    index p. M is N − 1, the last entry; the five equations are the gather's printed dimension numbers. -/
theorem take_elems {α : Type} {N M n : ℕ} (hM : M + 1 = N) (hN31 : N < 2 ^ 31)
    (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (h0c : (⟨0, ![]⟩ : Shape).BroadcastsInDim ⟨2, ![n, 1]⟩ (![] : Fin 0 → Fin 2))
    (h11 : (⟨1, ![1]⟩ : Shape).BroadcastsInDim ⟨2, ![1, 1]⟩ (![1] : Fin 1 → Fin 2))
    (h1n : (⟨2, ![1, 1]⟩ : Shape).BroadcastsInDim ⟨2, ![n, 1]⟩ (![0, 1] : Fin 2 → Fin 2))
    (hred : (⟨2, ![n, 1]⟩ : Shape).ReducesTo [1] ⟨1, ![n]⟩) (hu : 0 < (⟨0, ![]⟩ : Shape).numel)
    (ei : IVec ⟨1, ![n]⟩ 32) (hr : InRange N ei)
    (x : (⟨1, ![N]⟩ : Shape).Idx → α) (fill : (⟨1, ![n]⟩ : Shape).Idx → α) (p : Fin n) :
    select (validMask (BitVec.ofNat 32 M) (wrapIdx (BitVec.ofNat 32 N) ei h0 hc) h0c h11 h1n hred hu)
        (Host.gather d x (wrapIdx (BitVec.ofNat 32 N) ei h0 hc)) fill (ix1 p)
      = x (ix1 ⟨(ei (ix1 p)).toNat, hr.toNat_lt p⟩) := by
  have hN : 0 < N := by omega
  rw [select_apply, validMask_eq_one hM hN31 ei hr h0 hc h0c h11 h1n hred hu, select_one,
    gather_elems d hoff hcoll hob hsim hivd x _ hN p]
  congr 2
  -- the clamped read of a start index in [0, N) is the index
  apply Fin.ext
  have h := rowOf_of_inRange hN (wrapIdx (BitVec.ofNat 32 N) ei h0 hc) p
  rw [wrapIdx_apply ei hr h0 hc p] at h
  have h' := h (hr p).1 (hr p).2
  rw [toInt_eq_toNat_of_nonneg _ (hr p).1] at h'
  exact_mod_cast h'

/-- THE ROW LOOKUP. With every start index in [0, N) the filling lookup of a table's rows reads, at (p, q), the table at
    (start index p, q): the kept-reads bits are laid along the rows before the select. -/
theorem take_rows {α : Type} {N M C n : ℕ} (hM : M + 1 = N) (hN31 : N < 2 ^ 31)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (h0c : (⟨0, ![]⟩ : Shape).BroadcastsInDim ⟨2, ![n, 1]⟩ (![] : Fin 0 → Fin 2))
    (h11 : (⟨1, ![1]⟩ : Shape).BroadcastsInDim ⟨2, ![1, 1]⟩ (![1] : Fin 1 → Fin 2))
    (h1n : (⟨2, ![1, 1]⟩ : Shape).BroadcastsInDim ⟨2, ![n, 1]⟩ (![0, 1] : Fin 2 → Fin 2))
    (hred : (⟨2, ![n, 1]⟩ : Shape).ReducesTo [1] ⟨1, ![n]⟩) (hu : 0 < (⟨0, ![]⟩ : Shape).numel)
    (hm : (⟨1, ![n]⟩ : Shape).BroadcastsInDim ⟨2, ![n, C]⟩ (![0] : Fin 1 → Fin 2))
    (ei : IVec ⟨1, ![n]⟩ 32) (hr : InRange N ei)
    (T : (⟨2, ![N, C]⟩ : Shape).Idx → α) (fill : (⟨2, ![n, C]⟩ : Shape).Idx → α) (p : Fin n) (q : Fin C) :
    select (broadcastInDim ⟨2, ![n, C]⟩ ![0] hm
          (validMask (BitVec.ofNat 32 M) (wrapIdx (BitVec.ofNat 32 N) ei h0 hc) h0c h11 h1n hred hu))
        (Host.gather d T (wrapIdx (BitVec.ofNat 32 N) ei h0 hc)) fill (ix2 p q)
      = T (ix2 ⟨(ei (ix1 p)).toNat, hr.toNat_lt p⟩ q) := by
  have hN : 0 < N := by omega
  -- a bit laid along a row is one of the kept-reads bits, all 1
  have hb : broadcastInDim ⟨2, ![n, C]⟩ ![0] hm
      (validMask (BitVec.ofNat 32 M) (wrapIdx (BitVec.ofNat 32 N) ei h0 hc) h0c h11 h1n hred hu) (ix2 p q) = 1#1 :=
    validMask_eq_one hM hN31 ei hr h0 hc h0c h11 h1n hred hu _
  rw [select_apply, hb, select_one, gather_rows d hoff hcoll hob hsim hivd T _ hN p q]
  congr 2
  apply Fin.ext
  have h := rowOf_of_inRange hN (wrapIdx (BitVec.ofNat 32 N) ei h0 hc) p
  rw [wrapIdx_apply ei hr h0 hc p] at h
  have h' := h (hr p).1 (hr p).2
  rw [toInt_eq_toNat_of_nonneg _ (hr p).1] at h'
  exact_mod_cast h'

end Cert.Lib1D

end
-- ==== Proof.KV.Pre.lean ====
/-
  From the node tables to the four operands of the first kernel region, read entry by entry.

  The pair columns name nodes. Four filling lookups read, for every pair, the scaled feature row and the packed word of its
  anchor node and of its second node; every pair word names a node, so each lookup is the plain read of the table at the
  named row. The four results, and the anchor column itself, are padded with zeros from 1000000 pairs up to
  1015808 = 62 · 16384, and the two padded word vectors are laid out as single rows. Entry p of each padded array is the
  looked-up value of pair p when p is a real pair, and zero (node 0 for the anchor column) when p is padding.
-/
import proofs.«413937_j37383395344507_3_alg».proof.Proof.KV.Basic
import proofs.«413937_j37383395344507_3_alg».proof.Proof.Lib1D
import proofs.«413937_j37383395344507_3_alg».proof.Proof.LibRows
import Idealize.ShloMosaic.Lib.StableHlo.Run
import Idealize.ShloMosaic.Lib.KernelVsHost
import Idealize.ShloMosaic.Lib.Pipeline.Value

noncomputable section

namespace Cert.KernelIdeal.KV

open Cert.KernelIdeal Cert.KernelIdeal.Gen Cert.Spec Idealize.ShloMosaic Idealize.ShloMosaic.TcCoe Idealize.SL.Sem Idealize.ShloMosaic.ValueIdx
open Idealize.ShloMosaic.StableHlo Cert.Lib1D Cert.LibRows
open scoped Classical

variable (m : (ℓ : Loc nD τ sig) → Buf (Elt Ideal) ℓ) (c : Dev nD)

/-! ## A value carried to a buffer's own type and back -/

/-- Carrying a value to the type of the buffer that holds it and back again is the identity. -/
theorem ofBuf_toBuf {T : BufTy} (x : StableHlo.TRef sig T) (v : T.Contents (Elt Ideal)) :
    x.ofBuf (x.toBuf (Val := Elt Ideal) v) = v := by
  obtain ⟨ref, ty_eq, _, _⟩ := x
  subst ty_eq
  rfl

/-! ## Words of small numbers -/

/-- A number below 2³¹, written as a 32-bit word and read back signed, is itself. -/
theorem toInt_ofNat_small {n : ℕ} (h : n < 2 ^ 31) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-- … and read back unsigned. -/
theorem toNat_ofNat_small {n : ℕ} (h : n < 2 ^ 31) : (BitVec.ofNat 32 n).toNat = n := by
  rw [BitVec.toNat_ofNat]
  exact Nat.mod_eq_of_lt (by omega)

/-! ## Padding at the high end, read at an index -/

/-- A vector of 1000000 entries padded at the high end to 1015808: the entry below 1000000, the padding value from there on. -/
theorem pad1_apply {α : Type} (x : S1000000.Idx → α) (v : S_.Idx → α) (p : Fin PPad) :
    pad S1015808 ![0] ![15808] ![0] x v pads_S1000000_S1015808_0158080 h_S_ (ix1 p)
      = if h : p.val < PP then x (ix1 ⟨p.val, h⟩) else v ix0 := by
  by_cases h : p.val < PP
  · rw [dif_pos h]
    refine pad_apply_of_inside _ _ _ x v _ h_S_ (ix1 p) (ix1 ⟨p.val, h⟩) fun a => ?_
    match a with
    | ⟨0, _⟩ =>
      show p.val = 0 + p.val * (0 + 1)
      omega
  · rw [dif_neg h]
    refine (pad_apply_of_not_inside _ _ _ x v _ h_S_ (ix1 p) ⟨0, Nat.one_pos⟩ ?_).trans (congrArg v (eq_ix0 _))
    show ¬(0 ≤ p.val ∧ (p.val - 0) % (0 + 1) = 0 ∧ (p.val - 0) / (0 + 1) < 1000000)
    have : PP = 1000000 := rfl
    omega

/-- A table of 1000000 rows padded at the high end to 1015808 rows: the row below 1000000, the padding value from there on. -/
theorem pad2_apply {α : Type} (x : S1000000x64.Idx → α) (v : S_.Idx → α) (p : Fin PPad) (d : Fin DD) :
    pad S1015808x64 ![0, 0] ![15808, 0] ![0, 0] x v pads_S1000000x64_S1015808x64_0158080_000 h_S_ (ix2 p d)
      = if h : p.val < PP then x (ix2 ⟨p.val, h⟩ d) else v ix0 := by
  by_cases h : p.val < PP
  · rw [dif_pos h]
    refine pad_apply_of_inside _ _ _ x v _ h_S_ (ix2 p d) (ix2 ⟨p.val, h⟩ d) fun a => ?_
    match a with
    | ⟨0, _⟩ =>
      show p.val = 0 + p.val * (0 + 1)
      omega
    | ⟨1, _⟩ =>
      show d.val = 0 + d.val * (0 + 1)
      omega
  · rw [dif_neg h]
    refine (pad_apply_of_not_inside _ _ _ x v _ h_S_ (ix2 p d) ⟨0, Nat.zero_lt_two⟩ ?_).trans (congrArg v (eq_ix0 _))
    show ¬(0 ≤ p.val ∧ (p.val - 0) % (0 + 1) = 0 ∧ (p.val - 0) / (0 + 1) < 1000000)
    have : PP = 1000000 := rfl
    omega

/-- A vector of 1015808 entries laid out as one row, read at (0, p): entry p. -/
theorem pre_row_apply {α : Type} (x : S1015808.Idx → α) (p : Fin PPad) :
    shapeCast S1x1015808 x shapeCasts_S1015808_S1x1015808 (ix2 0 p) = x (ix1 p) := by
  refine shapeCast_apply x _ (ix2 0 p) (ix1 p) ?_
  rw [Shape.rowMajor_val_one, Shape.rowMajor_val_two]
  show p.val = 0 * 1015808 + p.val
  omega

/-! ## A filling lookup whose indices all name rows -/

/-- Pair words that are node numbers lie in the table's range. -/
theorem inRange_of (ei : S1000000.Idx → BitVec 32) (f : Fin PP → Fin NN)
    (h : ∀ p, ei (ix1 p) = BitVec.ofNat 32 (f p).val) : InRange 100000 ei := fun e => by
  have hlt : (f e).val < 100000 := (f e).isLt
  rw [h e, toInt_ofNat_small (by omega)]
  constructor <;> omega

/-- The filling lookup of a vector at node-number words: the vector's entry at the node. -/
theorem take1_read {α : Type} (ei : S1000000.Idx → BitVec 32) (x : S100000.Idx → α) (fill : S1000000.Idx → α)
    (f : Fin PP → Fin NN) (h : ∀ p, ei (ix1 p) = BitVec.ofNat 32 (f p).val) (p : Fin PP) :
    select (validMask 99999#32 (wrapIdx 100000#32 ei bcast_S_S1000000 bcast_S1000000_S1000000x1_0)
          bcast_S_S1000000x1 bcast_S1_S1x1_1 bcast_S1x1_S1000000x1_0_1 reducesTo_S1000000x1_S1000000_d1 h_S_)
        (Host.gather gather_S100000_S1000000x1_S1000000_n_0_n_n_0_1_1 x
          (wrapIdx 100000#32 ei bcast_S_S1000000 bcast_S1000000_S1000000x1_0)) fill (ix1 p)
      = x (ix1 (f p)) := by
  have hlt : (f p).val < 100000 := (f p).isLt
  refine (take_elems (N := 100000) (M := 99999) rfl (by norm_num) _ rfl rfl rfl rfl rfl _ _ _ _ _ _ _ ei
    (inRange_of ei f h) x fill p).trans (congrArg (fun k => x (ix1 k)) (Fin.ext ?_))
  show (ei (ix1 p)).toNat = (f p).val
  rw [h p, toNat_ofNat_small (by omega)]

/-- The filling lookup of a table's rows at node-number words: the table's row at the node. -/
theorem take2_read {α : Type} (ei : S1000000.Idx → BitVec 32) (x : S100000x64.Idx → α) (fill : S1000000x64.Idx → α)
    (f : Fin PP → Fin NN) (h : ∀ p, ei (ix1 p) = BitVec.ofNat 32 (f p).val) (p : Fin PP) (d : Fin DD) :
    select (broadcastInDim S1000000x64 ![0] bcast_S1000000_S1000000x64_0
          (validMask 99999#32 (wrapIdx 100000#32 ei bcast_S_S1000000 bcast_S1000000_S1000000x1_0)
            bcast_S_S1000000x1 bcast_S1_S1x1_1 bcast_S1x1_S1000000x1_0_1 reducesTo_S1000000x1_S1000000_d1 h_S_))
        (Host.gather gather_S100000x64_S1000000x1_S1000000x64_1_0_n_n_0_1_164 x
          (wrapIdx 100000#32 ei bcast_S_S1000000 bcast_S1000000_S1000000x1_0)) fill (ix2 p d)
      = x (ix2 (f p) d) := by
  have hlt : (f p).val < 100000 := (f p).isLt
  refine (take_rows (N := 100000) (M := 99999) rfl (by norm_num) _ rfl rfl rfl rfl rfl _ _ _ _ _ _ _ _ ei
    (inRange_of ei f h) x fill p d).trans (congrArg (fun k => x (ix2 k d)) (Fin.ext ?_))
  show (ei (ix1 p)).toNat = (f p).val
  rw [h p, toNat_ofNat_small (by omega)]

/-! ## The four lookups, as the program prints them -/

set_option maxHeartbeats 4000000 in
set_option maxRecDepth 4000 in
theorem lookup_rows_i (W : Valuation τ sig (Elt Ideal)) :
    (StableHlo.after hostOps0_1 W (Proc.devRef .tc main_v19) : S1000000x64.Idx → EReal)
      = select (broadcastInDim S1000000x64 ![0] bcast_S1000000_S1000000x64_0
            (validMask 99999#32 (wrapIdx 100000#32 (W main_v1 : S1000000.Idx → BitVec 32) bcast_S_S1000000 bcast_S1000000_S1000000x1_0)
              bcast_S_S1000000x1 bcast_S1_S1x1_1 bcast_S1x1_S1000000x1_0_1 reducesTo_S1000000x1_S1000000_d1 h_S_))
          (Host.gather gather_S100000x64_S1000000x1_S1000000x64_1_0_n_n_0_1_164 (W main_v11 : S100000x64.Idx → EReal)
            (wrapIdx 100000#32 (W main_v1 : S1000000.Idx → BitVec 32) bcast_S_S1000000 bcast_S1000000_S1000000x1_0))
          (broadcastInDim S1000000x64 ![] bcast_S_S1000000x64 (constant (F := Ideal) S_ .f32 0x7FC00000#32)) := by
  after_results_simp
  simp only [ofBuf_toBuf]
  have ei : (StableHlo.TRef.of main_v1 : StableHlo.TRef sig ⟨S1000000, .i32⟩).ofBuf (W (Proc.devRef .tc main_v1))
      = (W main_v1 : S1000000.Idx → BitVec 32) := rfl
  have ex : (StableHlo.TRef.of main_v11 : StableHlo.TRef sig ⟨S100000x64, .f32⟩).ofBuf (W (Proc.devRef .tc main_v11))
      = (W main_v11 : S100000x64.Idx → EReal) := rfl
  have ey : ∀ v : S1000000x64.Idx → EReal,
      ((StableHlo.TRef.of main_v19 : StableHlo.TRef sig ⟨S1000000x64, .f32⟩).toBuf (Val := Elt Ideal) v : S1000000x64.Idx → EReal) = v :=
    fun _ => rfl
  rw [ei, ex]
  refine (ey _).trans ?_
  with_reducible rfl

set_option maxHeartbeats 4000000 in
set_option maxRecDepth 4000 in
theorem lookup_rows_j (W : Valuation τ sig (Elt Ideal)) :
    (StableHlo.after hostOps0_2 W (Proc.devRef .tc main_v20) : S1000000x64.Idx → EReal)
      = select (broadcastInDim S1000000x64 ![0] bcast_S1000000_S1000000x64_0
            (validMask 99999#32 (wrapIdx 100000#32 (W main_v3 : S1000000.Idx → BitVec 32) bcast_S_S1000000 bcast_S1000000_S1000000x1_0)
              bcast_S_S1000000x1 bcast_S1_S1x1_1 bcast_S1x1_S1000000x1_0_1 reducesTo_S1000000x1_S1000000_d1 h_S_))
          (Host.gather gather_S100000x64_S1000000x1_S1000000x64_1_0_n_n_0_1_164 (W main_v11 : S100000x64.Idx → EReal)
            (wrapIdx 100000#32 (W main_v3 : S1000000.Idx → BitVec 32) bcast_S_S1000000 bcast_S1000000_S1000000x1_0))
          (broadcastInDim S1000000x64 ![] bcast_S_S1000000x64 (constant (F := Ideal) S_ .f32 0x7FC00000#32)) := by
  after_results_simp
  simp only [ofBuf_toBuf]
  have ei : (StableHlo.TRef.of main_v3 : StableHlo.TRef sig ⟨S1000000, .i32⟩).ofBuf (W (Proc.devRef .tc main_v3))
      = (W main_v3 : S1000000.Idx → BitVec 32) := rfl
  have ex : (StableHlo.TRef.of main_v11 : StableHlo.TRef sig ⟨S100000x64, .f32⟩).ofBuf (W (Proc.devRef .tc main_v11))
      = (W main_v11 : S100000x64.Idx → EReal) := rfl
  have ey : ∀ v : S1000000x64.Idx → EReal,
      ((StableHlo.TRef.of main_v20 : StableHlo.TRef sig ⟨S1000000x64, .f32⟩).toBuf (Val := Elt Ideal) v : S1000000x64.Idx → EReal) = v :=
    fun _ => rfl
  rw [ei, ex]
  refine (ey _).trans ?_
  with_reducible rfl

set_option maxHeartbeats 4000000 in
set_option maxRecDepth 4000 in
theorem lookup_words_i (W : Valuation τ sig (Elt Ideal)) :
    (StableHlo.after hostOps0_3 W (Proc.devRef .tc main_v21) : S1000000.Idx → BitVec 32)
      = select (validMask 99999#32 (wrapIdx 100000#32 (W main_v1 : S1000000.Idx → BitVec 32) bcast_S_S1000000 bcast_S1000000_S1000000x1_0)
            bcast_S_S1000000x1 bcast_S1_S1x1_1 bcast_S1x1_S1000000x1_0_1 reducesTo_S1000000x1_S1000000_d1 h_S_)
          (Host.gather gather_S100000_S1000000x1_S1000000_n_0_n_n_0_1_1 (W main_v18 : S100000.Idx → BitVec 32)
            (wrapIdx 100000#32 (W main_v1 : S1000000.Idx → BitVec 32) bcast_S_S1000000 bcast_S1000000_S1000000x1_0))
          (broadcastInDim S1000000 ![] bcast_S_S1000000 (constantI S_ 32 2147483648#32)) := by
  after_results_simp
  simp only [ofBuf_toBuf]
  have ei : (StableHlo.TRef.of main_v1 : StableHlo.TRef sig ⟨S1000000, .i32⟩).ofBuf (W (Proc.devRef .tc main_v1))
      = (W main_v1 : S1000000.Idx → BitVec 32) := rfl
  have ex : (StableHlo.TRef.of main_v18 : StableHlo.TRef sig ⟨S100000, .i32⟩).ofBuf (W (Proc.devRef .tc main_v18))
      = (W main_v18 : S100000.Idx → BitVec 32) := rfl
  have ey : ∀ v : S1000000.Idx → BitVec 32,
      ((StableHlo.TRef.of main_v21 : StableHlo.TRef sig ⟨S1000000, .i32⟩).toBuf (Val := Elt Ideal) v : S1000000.Idx → BitVec 32) = v :=
    fun _ => rfl
  rw [ei, ex]
  refine (ey _).trans ?_
  with_reducible rfl

set_option maxHeartbeats 4000000 in
set_option maxRecDepth 4000 in
theorem lookup_words_j (W : Valuation τ sig (Elt Ideal)) :
    (StableHlo.after hostOps0_4 W (Proc.devRef .tc main_v22) : S1000000.Idx → BitVec 32)
      = select (validMask 99999#32 (wrapIdx 100000#32 (W main_v3 : S1000000.Idx → BitVec 32) bcast_S_S1000000 bcast_S1000000_S1000000x1_0)
            bcast_S_S1000000x1 bcast_S1_S1x1_1 bcast_S1x1_S1000000x1_0_1 reducesTo_S1000000x1_S1000000_d1 h_S_)
          (Host.gather gather_S100000_S1000000x1_S1000000_n_0_n_n_0_1_1 (W main_v18 : S100000.Idx → BitVec 32)
            (wrapIdx 100000#32 (W main_v3 : S1000000.Idx → BitVec 32) bcast_S_S1000000 bcast_S1000000_S1000000x1_0))
          (broadcastInDim S1000000 ![] bcast_S_S1000000 (constantI S_ 32 2147483648#32)) := by
  after_results_simp
  simp only [ofBuf_toBuf]
  have ei : (StableHlo.TRef.of main_v3 : StableHlo.TRef sig ⟨S1000000, .i32⟩).ofBuf (W (Proc.devRef .tc main_v3))
      = (W main_v3 : S1000000.Idx → BitVec 32) := rfl
  have ex : (StableHlo.TRef.of main_v18 : StableHlo.TRef sig ⟨S100000, .i32⟩).ofBuf (W (Proc.devRef .tc main_v18))
      = (W main_v18 : S100000.Idx → BitVec 32) := rfl
  have ey : ∀ v : S1000000.Idx → BitVec 32,
      ((StableHlo.TRef.of main_v22 : StableHlo.TRef sig ⟨S1000000, .i32⟩).toBuf (Val := Elt Ideal) v : S1000000.Idx → BitVec 32) = v :=
    fun _ => rfl
  rw [ei, ex]
  refine (ey _).trans ?_
  with_reducible rfl

/-! ## The short stretches: a zero constant, a pad, a reshape -/

theorem zero_c2 (W : Valuation τ sig (Elt Ideal)) :
    (StableHlo.after hostOps0_5 W (Proc.devRef .tc main_c_2) : S_.Idx → BitVec 32) = constantI S_ 32 0#32 := by
  after_results

theorem zero_c3 (W : Valuation τ sig (Elt Ideal)) :
    (StableHlo.after hostOps0_7 W (Proc.devRef .tc main_c_3) : S_.Idx → BitVec 32) = constantI S_ 32 0#32 := by
  after_results

theorem zero_c4 (W : Valuation τ sig (Elt Ideal)) :
    (StableHlo.after hostOps0_9 W (Proc.devRef .tc main_c_4) : S_.Idx → BitVec 32) = constantI S_ 32 0#32 := by
  after_results

theorem zero_c5 (W : Valuation τ sig (Elt Ideal)) :
    (StableHlo.after hostOps0_11 W (Proc.devRef .tc main_c_5) : S_.Idx → BitVec 32) = constantI S_ 32 0#32 := by
  after_results

theorem zero_c6 (W : Valuation τ sig (Elt Ideal)) :
    (StableHlo.after hostOps0_13 W (Proc.devRef .tc main_c_6) : S_.Idx → BitVec 32) = constantI S_ 32 0#32 := by
  after_results

theorem pad_rows_i (W : Valuation τ sig (Elt Ideal)) :
    (StableHlo.after hostOps0_6 W (Proc.devRef .tc main_v23) : S1015808x64.Idx → EReal)
      = pad S1015808x64 ![0, 0] ![15808, 0] ![0, 0] (W main_v19 : S1000000x64.Idx → EReal)
          (sitofp (F := Ideal) .f32 (W main_c_2 : S_.Idx → BitVec 32)) pads_S1000000x64_S1015808x64_0158080_000 h_S_ := by
  after_results
  rfl

theorem pad_rows_j (W : Valuation τ sig (Elt Ideal)) :
    (StableHlo.after hostOps0_8 W (Proc.devRef .tc main_v24) : S1015808x64.Idx → EReal)
      = pad S1015808x64 ![0, 0] ![15808, 0] ![0, 0] (W main_v20 : S1000000x64.Idx → EReal)
          (sitofp (F := Ideal) .f32 (W main_c_3 : S_.Idx → BitVec 32)) pads_S1000000x64_S1015808x64_0158080_000 h_S_ := by
  after_results
  rfl

theorem pad_words_i (W : Valuation τ sig (Elt Ideal)) :
    (StableHlo.after hostOps0_10 W (Proc.devRef .tc main_v25) : S1015808.Idx → BitVec 32)
      = pad S1015808 ![0] ![15808] ![0] (W main_v21 : S1000000.Idx → BitVec 32) (W main_c_4 : S_.Idx → BitVec 32)
          pads_S1000000_S1015808_0158080 h_S_ := by
  after_results
  rfl

theorem pad_words_j (W : Valuation τ sig (Elt Ideal)) :
    (StableHlo.after hostOps0_12 W (Proc.devRef .tc main_v26) : S1015808.Idx → BitVec 32)
      = pad S1015808 ![0] ![15808] ![0] (W main_v22 : S1000000.Idx → BitVec 32) (W main_c_5 : S_.Idx → BitVec 32)
          pads_S1000000_S1015808_0158080 h_S_ := by
  after_results
  rfl

theorem pad_anchor (W : Valuation τ sig (Elt Ideal)) :
    (StableHlo.after hostOps0_14 W (Proc.devRef .tc main_v27) : S1015808.Idx → BitVec 32)
      = pad S1015808 ![0] ![15808] ![0] (W main_v1 : S1000000.Idx → BitVec 32) (W main_c_6 : S_.Idx → BitVec 32)
          pads_S1000000_S1015808_0158080 h_S_ := by
  after_results
  rfl

theorem row_words_i (W : Valuation τ sig (Elt Ideal)) :
    (StableHlo.after hostOps0_15 W (Proc.devRef .tc main_v28) : S1x1015808.Idx → BitVec 32)
      = shapeCast S1x1015808 (W main_v25 : S1015808.Idx → BitVec 32) shapeCasts_S1015808_S1x1015808 := by
  after_results
  rfl

theorem row_words_j (W : Valuation τ sig (Elt Ideal)) :
    (StableHlo.after hostOps0_15 W (Proc.devRef .tc main_v29) : S1x1015808.Idx → BitVec 32)
      = shapeCast S1x1015808 (W main_v26 : S1015808.Idx → BitVec 32) shapeCasts_S1015808_S1x1015808 := by
  after_results
  rfl

/-- The zero word converted to a float is the real zero. -/
theorem sitofp_zero_read :
    (sitofp (F := Ideal) .f32 (constantI S_ 32 0#32) : S_.Idx → EReal) ix0 = ((0 : ℝ) : EReal) := by
  show ((((0#32 : BitVec 32).toInt : ℤ) : ℝ) : EReal) = ((0 : ℝ) : EReal)
  have h0 : (0#32 : BitVec 32).toInt = 0 := by decide
  rw [h0, Int.cast_zero]

/-! ## The looked-up arrays, entry by entry -/

section Values

variable (D : Data)

/-- The anchors' scaled rows: pair p's row is its anchor node's. -/
theorem v19_apply (h1 : ∀ p : Fin PP, (V1 m c main_v1 : S1000000.Idx → BitVec 32) (ix1 p) = BitVec.ofNat 32 (D.ia p).val)
    (h11 : ∀ (n : Fin NN) (d : Fin DD), (V1 m c main_v11 : S100000x64.Idx → EReal) (ix2 n d) = (((D.xr n d / D.nr n : ℝ)) : EReal))
    (p : Fin PP) (d : Fin DD) :
    (V2 m c main_v19 : S1000000x64.Idx → EReal) (ix2 p d) = (((D.xr (D.ia p) d / D.nr (D.ia p) : ℝ)) : EReal) :=
  ((congrFun (lookup_rows_i (V1 m c)) (ix2 p d)).trans (take2_read _ _ _ D.ia h1 p d)).trans (h11 _ _)

/-- The second nodes' scaled rows. -/
theorem v20_apply (h3 : ∀ p : Fin PP, (V1 m c main_v3 : S1000000.Idx → BitVec 32) (ix1 p) = BitVec.ofNat 32 (D.ja p).val)
    (h11 : ∀ (n : Fin NN) (d : Fin DD), (V1 m c main_v11 : S100000x64.Idx → EReal) (ix2 n d) = (((D.xr n d / D.nr n : ℝ)) : EReal))
    (p : Fin PP) (d : Fin DD) :
    (V3 m c main_v20 : S1000000x64.Idx → EReal) (ix2 p d) = (((D.xr (D.ja p) d / D.nr (D.ja p) : ℝ)) : EReal) := by
  have k3 : V2 m c main_v3 = V1 m c main_v3 := V2_of m c _ (by decide)
  have k11 : V2 m c main_v11 = V1 m c main_v11 := V2_of m c _ (by decide)
  have e := lookup_rows_j (V2 m c)
  rw [k3, k11] at e
  exact ((congrFun e (ix2 p d)).trans (take2_read _ _ _ D.ja h3 p d)).trans (h11 _ _)

/-- The anchors' packed words. -/
theorem v21_apply (h1 : ∀ p : Fin PP, (V1 m c main_v1 : S1000000.Idx → BitVec 32) (ix1 p) = BitVec.ofNat 32 (D.ia p).val)
    (h18 : ∀ n : Fin NN, (V1 m c main_v18 : S100000.Idx → BitVec 32) (ix1 n) = D.packedW n)
    (p : Fin PP) :
    (V4 m c main_v21 : S1000000.Idx → BitVec 32) (ix1 p) = D.packedW (D.ia p) := by
  have k1 : V3 m c main_v1 = V1 m c main_v1 := by
    rw [V3_of m c _ (by decide), V2_of m c _ (by decide)]
  have k18 : V3 m c main_v18 = V1 m c main_v18 := by
    rw [V3_of m c _ (by decide), V2_of m c _ (by decide)]
  have e := lookup_words_i (V3 m c)
  rw [k1, k18] at e
  exact ((congrFun e (ix1 p)).trans (take1_read _ _ _ D.ia h1 p)).trans (h18 _)

/-- The second nodes' packed words. -/
theorem v22_apply (h3 : ∀ p : Fin PP, (V1 m c main_v3 : S1000000.Idx → BitVec 32) (ix1 p) = BitVec.ofNat 32 (D.ja p).val)
    (h18 : ∀ n : Fin NN, (V1 m c main_v18 : S100000.Idx → BitVec 32) (ix1 n) = D.packedW n)
    (p : Fin PP) :
    (V5 m c main_v22 : S1000000.Idx → BitVec 32) (ix1 p) = D.packedW (D.ja p) := by
  have k3 : V4 m c main_v3 = V1 m c main_v3 := by
    rw [V4_of m c _ (by decide), V3_of m c _ (by decide), V2_of m c _ (by decide)]
  have k18 : V4 m c main_v18 = V1 m c main_v18 := by
    rw [V4_of m c _ (by decide), V3_of m c _ (by decide), V2_of m c _ (by decide)]
  have e := lookup_words_j (V4 m c)
  rw [k3, k18] at e
  exact ((congrFun e (ix1 p)).trans (take1_read _ _ _ D.ja h3 p)).trans (h18 _)

/-! ## The padded arrays, entry by entry -/

/-- The anchors' packed words, padded with the zero word. -/
theorem v25_apply (h1 : ∀ p : Fin PP, (V1 m c main_v1 : S1000000.Idx → BitVec 32) (ix1 p) = BitVec.ofNat 32 (D.ia p).val)
    (h18 : ∀ n : Fin NN, (V1 m c main_v18 : S100000.Idx → BitVec 32) (ix1 n) = D.packedW n)
    (p : Fin PPad) :
    (V11 m c main_v25 : S1015808.Idx → BitVec 32) (ix1 p)
      = if h : p.val < PP then D.packedW (D.ia ⟨p.val, h⟩) else 0#32 := by
  have k : V10 m c main_v21 = V4 m c main_v21 := by
    rw [V10_of m c _ (by decide), V9_of m c _ (by decide), V8_of m c _ (by decide), V7_of m c _ (by decide), V6_of m c _ (by decide), V5_of m c _ (by decide)]
  have kc : (V10 m c main_c_4 : S_.Idx → BitVec 32) = constantI S_ 32 0#32 := zero_c4 (V9 m c)
  have e := pad_words_i (V10 m c)
  rw [k, kc] at e
  refine (congrFun e (ix1 p)).trans ?_
  rw [pad1_apply]
  by_cases h : p.val < PP
  · rw [dif_pos h, dif_pos h]
    exact v21_apply m c D h1 h18 ⟨p.val, h⟩
  · rw [dif_neg h, dif_neg h]
    rfl

/-- The second nodes' packed words, padded with the zero word. -/
theorem v26_apply (h3 : ∀ p : Fin PP, (V1 m c main_v3 : S1000000.Idx → BitVec 32) (ix1 p) = BitVec.ofNat 32 (D.ja p).val)
    (h18 : ∀ n : Fin NN, (V1 m c main_v18 : S100000.Idx → BitVec 32) (ix1 n) = D.packedW n)
    (p : Fin PPad) :
    (V13 m c main_v26 : S1015808.Idx → BitVec 32) (ix1 p)
      = if h : p.val < PP then D.packedW (D.ja ⟨p.val, h⟩) else 0#32 := by
  have k : V12 m c main_v22 = V5 m c main_v22 := by
    rw [V12_of m c _ (by decide), V11_of m c _ (by decide), V10_of m c _ (by decide), V9_of m c _ (by decide), V8_of m c _ (by decide), V7_of m c _ (by decide), V6_of m c _ (by decide)]
  have kc : (V12 m c main_c_5 : S_.Idx → BitVec 32) = constantI S_ 32 0#32 := zero_c5 (V11 m c)
  have e := pad_words_j (V12 m c)
  rw [k, kc] at e
  refine (congrFun e (ix1 p)).trans ?_
  rw [pad1_apply]
  by_cases h : p.val < PP
  · rw [dif_pos h, dif_pos h]
    exact v22_apply m c D h3 h18 ⟨p.val, h⟩
  · rw [dif_neg h, dif_neg h]
    rfl

/-! ## The region's operands -/

/-- First operand: the anchors' scaled rows, zero rows for padding pairs. -/
theorem v23_apply (h1 : ∀ p : Fin PP, (V1 m c main_v1 : S1000000.Idx → BitVec 32) (ix1 p) = BitVec.ofNat 32 (D.ia p).val)
    (h11 : ∀ (n : Fin NN) (d : Fin DD), (V1 m c main_v11 : S100000x64.Idx → EReal) (ix2 n d) = (((D.xr n d / D.nr n : ℝ)) : EReal))
    (p : Fin PPad) (d : Fin DD) :
    (V16 m c main_v23 : S1015808x64.Idx → EReal) (ix2 p d)
      = if h : p.val < PP then (((D.xr (D.ia ⟨p.val, h⟩) d / D.nr (D.ia ⟨p.val, h⟩) : ℝ)) : EReal) else ((0 : ℝ) : EReal) := by
  have k : V16 m c main_v23 = V7 m c main_v23 := by
    rw [V16_of m c _ (by decide), V15_of m c _ (by decide), V14_of m c _ (by decide), V13_of m c _ (by decide), V12_of m c _ (by decide), V11_of m c _ (by decide), V10_of m c _ (by decide), V9_of m c _ (by decide), V8_of m c _ (by decide)]
  have k19 : V6 m c main_v19 = V2 m c main_v19 := by
    rw [V6_of m c _ (by decide), V5_of m c _ (by decide), V4_of m c _ (by decide), V3_of m c _ (by decide)]
  have kc : (V6 m c main_c_2 : S_.Idx → BitVec 32) = constantI S_ 32 0#32 := zero_c2 (V5 m c)
  have e := pad_rows_i (V6 m c)
  rw [k19, kc] at e
  rw [k]
  refine (congrFun e (ix2 p d)).trans ?_
  rw [pad2_apply]
  by_cases h : p.val < PP
  · rw [dif_pos h, dif_pos h]
    exact v19_apply m c D h1 h11 ⟨p.val, h⟩ d
  · rw [dif_neg h, dif_neg h]
    exact sitofp_zero_read

/-- Second operand: the second nodes' scaled rows, zero rows for padding pairs. -/
theorem v24_apply (h3 : ∀ p : Fin PP, (V1 m c main_v3 : S1000000.Idx → BitVec 32) (ix1 p) = BitVec.ofNat 32 (D.ja p).val)
    (h11 : ∀ (n : Fin NN) (d : Fin DD), (V1 m c main_v11 : S100000x64.Idx → EReal) (ix2 n d) = (((D.xr n d / D.nr n : ℝ)) : EReal))
    (p : Fin PPad) (d : Fin DD) :
    (V16 m c main_v24 : S1015808x64.Idx → EReal) (ix2 p d)
      = if h : p.val < PP then (((D.xr (D.ja ⟨p.val, h⟩) d / D.nr (D.ja ⟨p.val, h⟩) : ℝ)) : EReal) else ((0 : ℝ) : EReal) := by
  have k : V16 m c main_v24 = V9 m c main_v24 := by
    rw [V16_of m c _ (by decide), V15_of m c _ (by decide), V14_of m c _ (by decide), V13_of m c _ (by decide), V12_of m c _ (by decide), V11_of m c _ (by decide), V10_of m c _ (by decide)]
  have k20 : V8 m c main_v20 = V3 m c main_v20 := by
    rw [V8_of m c _ (by decide), V7_of m c _ (by decide), V6_of m c _ (by decide), V5_of m c _ (by decide), V4_of m c _ (by decide)]
  have kc : (V8 m c main_c_3 : S_.Idx → BitVec 32) = constantI S_ 32 0#32 := zero_c3 (V7 m c)
  have e := pad_rows_j (V8 m c)
  rw [k20, kc] at e
  rw [k]
  refine (congrFun e (ix2 p d)).trans ?_
  rw [pad2_apply]
  by_cases h : p.val < PP
  · rw [dif_pos h, dif_pos h]
    exact v20_apply m c D h3 h11 ⟨p.val, h⟩ d
  · rw [dif_neg h, dif_neg h]
    exact sitofp_zero_read

/-- Third operand: the anchors' packed words as one row, the zero word for padding pairs. -/
theorem v28_apply (h1 : ∀ p : Fin PP, (V1 m c main_v1 : S1000000.Idx → BitVec 32) (ix1 p) = BitVec.ofNat 32 (D.ia p).val)
    (h18 : ∀ n : Fin NN, (V1 m c main_v18 : S100000.Idx → BitVec 32) (ix1 n) = D.packedW n)
    (p : Fin PPad) :
    (V16 m c main_v28 : S1x1015808.Idx → BitVec 32) (ix2 0 p)
      = if h : p.val < PP then D.packedW (D.ia ⟨p.val, h⟩) else 0#32 := by
  have k : V15 m c main_v25 = V11 m c main_v25 := by
    rw [V15_of m c _ (by decide), V14_of m c _ (by decide), V13_of m c _ (by decide), V12_of m c _ (by decide)]
  have e := row_words_i (V15 m c)
  rw [k] at e
  refine (congrFun e (ix2 0 p)).trans ?_
  rw [pre_row_apply]
  exact v25_apply m c D h1 h18 p

/-- Fourth operand: the second nodes' packed words as one row, the zero word for padding pairs. -/
theorem v29_apply (h3 : ∀ p : Fin PP, (V1 m c main_v3 : S1000000.Idx → BitVec 32) (ix1 p) = BitVec.ofNat 32 (D.ja p).val)
    (h18 : ∀ n : Fin NN, (V1 m c main_v18 : S100000.Idx → BitVec 32) (ix1 n) = D.packedW n)
    (p : Fin PPad) :
    (V16 m c main_v29 : S1x1015808.Idx → BitVec 32) (ix2 0 p)
      = if h : p.val < PP then D.packedW (D.ja ⟨p.val, h⟩) else 0#32 := by
  have k : V15 m c main_v26 = V13 m c main_v26 := by
    rw [V15_of m c _ (by decide), V14_of m c _ (by decide)]
  have e := row_words_j (V15 m c)
  rw [k] at e
  refine (congrFun e (ix2 0 p)).trans ?_
  rw [pre_row_apply]
  exact v26_apply m c D h3 h18 p

/-- The padded anchor column: pair p's anchor node, node 0 for padding pairs. -/
theorem v27_apply (h1 : ∀ p : Fin PP, (V1 m c main_v1 : S1000000.Idx → BitVec 32) (ix1 p) = BitVec.ofNat 32 (D.ia p).val)
    (p : Fin PPad) :
    (V16 m c main_v27 : S1015808.Idx → BitVec 32) (ix1 p) = BitVec.ofNat 32 (D.iaPad p).val := by
  have k : V16 m c main_v27 = V15 m c main_v27 := V16_of m c _ (by decide)
  have k1 : V14 m c main_v1 = V1 m c main_v1 := by
    rw [V14_of m c _ (by decide), V13_of m c _ (by decide), V12_of m c _ (by decide), V11_of m c _ (by decide), V10_of m c _ (by decide), V9_of m c _ (by decide), V8_of m c _ (by decide), V7_of m c _ (by decide), V6_of m c _ (by decide), V5_of m c _ (by decide), V4_of m c _ (by decide), V3_of m c _ (by decide), V2_of m c _ (by decide)]
  have kc : (V14 m c main_c_6 : S_.Idx → BitVec 32) = constantI S_ 32 0#32 := zero_c6 (V13 m c)
  have e := pad_anchor (V14 m c)
  rw [k1, kc] at e
  rw [k]
  refine (congrFun e (ix1 p)).trans ?_
  rw [pad1_apply]
  unfold Data.iaPad
  by_cases h : p.val < PP
  · rw [dif_pos h, dif_pos h]
    exact h1 ⟨p.val, h⟩
  · rw [dif_neg h, dif_neg h]
    rfl

end Values

end Cert.KernelIdeal.KV

end
-- ==== Proof.KV.Reg0Cover.lean ====
/-
  Region 0's two output arrays after its 62 points, read at an element, and its input tiles read off their arrays.

  The grid has 62 points; at point t every window sits at tile t of its array: rows t·16384 … t·16384 + 16383 of the two
  16384 × 64 feature arrays, columns t·16384 … t·16384 + 16383 of the four one-row (or three-row) arrays. Every point writes
  both output tiles back, the 62 tiles of an output array are pairwise disjoint, so after the last point the element at
  column t·16384 + q of an output array is element q of what point t left in that window's tile. The three-row tile a point
  leaves is three row writes, so its element at row r is the r-th write's element; the one-row tile is a single write.
  Nothing here looks inside the arithmetic of those writes.
-/
import proofs.«413937_j37383395344507_3_alg».proof.Proof.KI.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F] [Named F]

/-! ## Where the windows sit at a point -/

/-- At point `t` the two feature windows are at tile `t` along the rows, the four others at tile `t` along the
    columns, and the point's one coordinate is `t`: decided over the 62 points. -/
theorem tile_at0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ ((grid0.coords t) 0).val = t.val :=
  (by decide +kernel : ∀ t : Fin grid0.N, _)

/-- The point's coordinate, as the body reads it. -/
theorem coord0 (t : Fin cfg0.N) : ((grid0.coords t) 0).val = t.val := (tile_at0 t).2.2.2.2.2.2.2.2.2.2.2.2

/-- Column `q` of tile `t` is a column of the padded arrays. -/
theorem col_lt0 (t : Fin cfg0.N) (q : Fin 16384) : t.val * 16384 + q.val < 1015808 := by
  have ht : t.val < 62 := lt_of_lt_of_eq t.isLt N_0
  have hq := q.isLt
  omega

/-! ## A whole-tile read is the tile -/

theorem origin2 : (![0, 0] : Fin 2 → Nat) = fun _ => 0 := funext fun a => by fin_cases a <;> rfl

theorem ld_rA {α : EltTy → Type} {e : EltTy} (x : S16384x64.Idx → α e) : View.ld x rA = x :=
  View.ld_unit_zero (S := S16384x64) origin2 _ x
theorem ld_rB {α : EltTy → Type} {e : EltTy} (x : S1x16384.Idx → α e) : View.ld x rB = x :=
  View.ld_unit_zero (S := S1x16384) origin2 _ x

/-! ## The tiles a point leaves, read at an element -/

/-- Row 2 of the three-row tile is its last write, -/
theorem out0_4_row2 (i : grid0.Coords) (x0 x1 : Vec F S16384x64 .f32) (x2 x3 : Vec F S1x16384 .i32) (q : Fin 16384) :
    out0_4 i x0 x1 x2 x3 (ix2 2 q)
      = k0_pay4 (F := F) (k0_pay10 (F := F) x3) (k0_pay11 i) (k0_pay12 (F := F) x2 x3) (k0_pay13 (F := F) x2) k0_pay14 (ix2 0 q) := by
  unfold out0_4
  have e : (ix2 2 q : S3x16384.Idx) = r4_2.emb (ix2 0 q) := by
    funext a; apply Fin.ext
    match a with
    | ⟨0, _⟩ => rfl
    | ⟨1, _⟩ => show q.val = 0 + 1 * q.val; omega
  rw [e, View.canon_cons_emb, ld_rB, ld_rB]

/-- row 1 the write before it (row 1 is no element of the last write's row), -/
theorem out0_4_row1 (i : grid0.Coords) (x0 x1 : Vec F S16384x64 .f32) (x2 x3 : Vec F S1x16384 .i32) (q : Fin 16384) :
    out0_4 i x0 x1 x2 x3 (ix2 1 q)
      = k0_pay3 (k0_pay6 x0 x1) (k0_pay10 (F := F) x3) (k0_pay11 i) (k0_pay12 (F := F) x2 x3) (k0_pay13 (F := F) x2) k0_pay14 (ix2 0 q) := by
  unfold out0_4
  have n2 : (ix2 1 q : S3x16384.Idx) ∉ r4_2.set := by
    rw [Rect.mem_set_unit]
    intro hm
    have h0 : (2 : ℕ) ≤ 1 := (hm 0).1
    omega
  have e : (ix2 1 q : S3x16384.Idx) = r4_1.emb (ix2 0 q) := by
    funext a; apply Fin.ext
    match a with
    | ⟨0, _⟩ => rfl
    | ⟨1, _⟩ => show q.val = 0 + 1 * q.val; omega
  rw [View.canon_cons_of_not_mem ⟨r4_2, _⟩ _ n2, e, View.canon_cons_emb, ld_rA, ld_rA, ld_rB, ld_rB]

/-- row 0 the first (row 0 is no element of the two later writes' rows). -/
theorem out0_4_row0 (i : grid0.Coords) (x0 x1 : Vec F S16384x64 .f32) (x2 x3 : Vec F S1x16384 .i32) (q : Fin 16384) :
    out0_4 i x0 x1 x2 x3 (ix2 0 q) = k0_pay2 (k0_pay6 x0 x1) (ix2 0 q) := by
  unfold out0_4
  have n2 : (ix2 0 q : S3x16384.Idx) ∉ r4_2.set := by
    rw [Rect.mem_set_unit]
    intro hm
    have h0 : (2 : ℕ) ≤ 0 := (hm 0).1
    omega
  have n1 : (ix2 0 q : S3x16384.Idx) ∉ r4_1.set := by
    rw [Rect.mem_set_unit]
    intro hm
    have h0 : (1 : ℕ) ≤ 0 := (hm 0).1
    omega
  have e : (ix2 0 q : S3x16384.Idx) = r4_0.emb (ix2 0 q) := by
    funext a; apply Fin.ext
    match a with
    | ⟨0, _⟩ => rfl
    | ⟨1, _⟩ => show q.val = 0 + 1 * q.val; omega
  rw [View.canon_cons_of_not_mem ⟨r4_2, _⟩ _ n2, View.canon_cons_of_not_mem ⟨r4_1, _⟩ _ n1]
  conv_lhs => rw [e]
  rw [View.canon_cons_emb, ld_rA, ld_rA]

/-- The one-row tile is its single write. -/
theorem out0_5_apply (x2 : Vec F S1x16384 .i32) (q : Fin 16384) :
    out0_5 (F := F) x2 (ix2 0 q) = k0_pay5 (k0_pay9 (F := F) x2) (ix2 0 q) := by
  unfold out0_5
  rw [View.canon_unit_zero origin2, ld_rB]

section Region0Cover

variable (V : (c : Dev nD) → (b : Ref sig .tc) → Buf (Elt F) ((c : Thread nD τ).loc b))

/-! ## The input tiles, read off their arrays -/

/-- Element (q, d) of the first feature tile at point `t` is row t·16384 + q of its array. -/
theorem iblk0_0_apply (c : Dev nD) (t : Fin cfg0.N) (q : Fin 16384) (d : Fin 64) (h : t.val * 16384 + q.val < 1015808) :
    iblk0 V c 0 t (ix2 q d) = (V c main_v23 : S1015808x64.Idx → Elt F .f32) (ix2 ⟨t.val * 16384 + q.val, h⟩ d) := by
  obtain ⟨e0, e1, -⟩ := tile_at0 t
  show (V c main_v23 : S1015808x64.Idx → Elt F .f32) (((cfg0.win 0).blk t).view.emb (ix2 q d)) = _
  refine congrArg _ ?_
  funext a; apply Fin.ext
  match a with
  | ⟨0, _⟩ => show win0_0.index t (0 : Fin 2) * 16384 + 1 * q.val = t.val * 16384 + q.val; omega
  | ⟨1, _⟩ => show win0_0.index t (1 : Fin 2) * 64 + 1 * d.val = d.val; omega

/-- The same for the second feature tile. -/
theorem iblk0_1_apply (c : Dev nD) (t : Fin cfg0.N) (q : Fin 16384) (d : Fin 64) (h : t.val * 16384 + q.val < 1015808) :
    iblk0 V c 1 t (ix2 q d) = (V c main_v24 : S1015808x64.Idx → Elt F .f32) (ix2 ⟨t.val * 16384 + q.val, h⟩ d) := by
  obtain ⟨-, -, e0, e1, -⟩ := tile_at0 t
  show (V c main_v24 : S1015808x64.Idx → Elt F .f32) (((cfg0.win 1).blk t).view.emb (ix2 q d)) = _
  refine congrArg _ ?_
  funext a; apply Fin.ext
  match a with
  | ⟨0, _⟩ => show win0_1.index t (0 : Fin 2) * 16384 + 1 * q.val = t.val * 16384 + q.val; omega
  | ⟨1, _⟩ => show win0_1.index t (1 : Fin 2) * 64 + 1 * d.val = d.val; omega

/-- Element q of the anchors' word tile at point `t` is column t·16384 + q of its array. -/
theorem iblk0_2_apply (c : Dev nD) (t : Fin cfg0.N) (q : Fin 16384) (h : t.val * 16384 + q.val < 1015808) :
    iblk0 V c 2 t (ix2 0 q) = (V c main_v28 : S1x1015808.Idx → Elt F .i32) (ix2 0 ⟨t.val * 16384 + q.val, h⟩) := by
  obtain ⟨-, -, -, -, e0, e1, -⟩ := tile_at0 t
  show (V c main_v28 : S1x1015808.Idx → Elt F .i32) (((cfg0.win 2).blk t).view.emb (ix2 0 q)) = _
  refine congrArg _ ?_
  funext a; apply Fin.ext
  match a with
  | ⟨0, _⟩ => show win0_2.index t (0 : Fin 2) * 1 + 1 * 0 = 0; omega
  | ⟨1, _⟩ => show win0_2.index t (1 : Fin 2) * 16384 + 1 * q.val = t.val * 16384 + q.val; omega

/-- The same for the second nodes' word tile. -/
theorem iblk0_3_apply (c : Dev nD) (t : Fin cfg0.N) (q : Fin 16384) (h : t.val * 16384 + q.val < 1015808) :
    iblk0 V c 3 t (ix2 0 q) = (V c main_v29 : S1x1015808.Idx → Elt F .i32) (ix2 0 ⟨t.val * 16384 + q.val, h⟩) := by
  obtain ⟨-, -, -, -, -, -, e0, e1, -⟩ := tile_at0 t
  show (V c main_v29 : S1x1015808.Idx → Elt F .i32) (((cfg0.win 3).blk t).view.emb (ix2 0 q)) = _
  refine congrArg _ ?_
  funext a; apply Fin.ext
  match a with
  | ⟨0, _⟩ => show win0_3.index t (0 : Fin 2) * 1 + 1 * 0 = 0; omega
  | ⟨1, _⟩ => show win0_3.index t (1 : Fin 2) * 16384 + 1 * q.val = t.val * 16384 + q.val; omega

/-! ## The output arrays after the last point -/

/-- An element of an output array is in point `t`'s tile of the three-row array iff each of its coordinates is in
    the tile's range on its axis. -/
theorem mem_tile4 (t : Fin cfg0.N) (i : S3x1015808.Idx) :
    i ∈ ((cfg0.win 4).blk t).view.set ↔ ∀ a : Fin 2, win0_4.index t a * S3x16384.size a ≤ (i a).val ∧ (i a).val < win0_4.index t a * S3x16384.size a + S3x16384.size a := by
  show i ∈ ((View.whole main_v30_0).slice (win0_4.rect t)).set ↔ _
  rw [View.set_slice_whole, Rect.mem_set_unit]
  exact Iff.rfl

/-- The same for the one-row array. -/
theorem mem_tile5 (t : Fin cfg0.N) (i : S1x1015808.Idx) :
    i ∈ ((cfg0.win 5).blk t).view.set ↔ ∀ a : Fin 2, win0_5.index t a * S1x16384.size a ≤ (i a).val ∧ (i a).val < win0_5.index t a * S1x16384.size a + S1x16384.size a := by
  show i ∈ ((View.whole main_v30_1).slice (win0_5.rect t)).set ↔ _
  rw [View.set_slice_whole, Rect.mem_set_unit]
  exact Iff.rfl

/-- Two points' tiles of the three-row array share no element: their column ranges are 16384 apart. -/
theorem disjoint_tiles4 (t t' : Fin cfg0.N) (hne : t ≠ t') :
    Disjoint ((cfg0.win 4).blk t).view.set ((cfg0.win 4).blk t').view.set := by
  rw [Finset.disjoint_left]
  intro i hi hi'
  rw [mem_tile4] at hi hi'
  have b : win0_4.index t (1 : Fin 2) * 16384 ≤ (i 1).val ∧ (i 1).val < win0_4.index t (1 : Fin 2) * 16384 + 16384 := hi 1
  have b' : win0_4.index t' (1 : Fin 2) * 16384 ≤ (i 1).val ∧ (i 1).val < win0_4.index t' (1 : Fin 2) * 16384 + 16384 := hi' 1
  have e := (tile_at0 t).2.2.2.2.2.2.2.2.2.1
  have e' := (tile_at0 t').2.2.2.2.2.2.2.2.2.1
  exact hne (Fin.ext (by omega))

/-- The same for the one-row array. -/
theorem disjoint_tiles5 (t t' : Fin cfg0.N) (hne : t ≠ t') :
    Disjoint ((cfg0.win 5).blk t).view.set ((cfg0.win 5).blk t').view.set := by
  rw [Finset.disjoint_left]
  intro i hi hi'
  rw [mem_tile5] at hi hi'
  have b : win0_5.index t (1 : Fin 2) * 16384 ≤ (i 1).val ∧ (i 1).val < win0_5.index t (1 : Fin 2) * 16384 + 16384 := hi 1
  have b' : win0_5.index t' (1 : Fin 2) * 16384 ≤ (i 1).val ∧ (i 1).val < win0_5.index t' (1 : Fin 2) * 16384 + 16384 := hi' 1
  have e := (tile_at0 t).2.2.2.2.2.2.2.2.2.2.2.1
  have e' := (tile_at0 t').2.2.2.2.2.2.2.2.2.2.2.1
  exact hne (Fin.ext (by omega))

/-- Element (r, q) of point `t`'s tile sits in the three-row array at row r, column t·16384 + q. -/
theorem tile4_at (t : Fin cfg0.N) (r : Fin 3) (q : Fin 16384) (h : t.val * 16384 + q.val < 1015808) :
    ((cfg0.win 4).blk t).view.emb (ix2 r q) = (ix2 r ⟨t.val * 16384 + q.val, h⟩ : S3x1015808.Idx) := by
  have e0 := (tile_at0 t).2.2.2.2.2.2.2.2.1
  have e1 := (tile_at0 t).2.2.2.2.2.2.2.2.2.1
  funext a; apply Fin.ext
  match a with
  | ⟨0, _⟩ => show win0_4.index t (0 : Fin 2) * 3 + 1 * r.val = r.val; omega
  | ⟨1, _⟩ => show win0_4.index t (1 : Fin 2) * 16384 + 1 * q.val = t.val * 16384 + q.val; omega

/-- Element q of point `t`'s tile sits in the one-row array at column t·16384 + q. -/
theorem tile5_at (t : Fin cfg0.N) (q : Fin 16384) (h : t.val * 16384 + q.val < 1015808) :
    ((cfg0.win 5).blk t).view.emb (ix2 0 q) = (ix2 0 ⟨t.val * 16384 + q.val, h⟩ : S1x1015808.Idx) := by
  have e0 := (tile_at0 t).2.2.2.2.2.2.2.2.2.2.1
  have e1 := (tile_at0 t).2.2.2.2.2.2.2.2.2.2.2.1
  funext a; apply Fin.ext
  match a with
  | ⟨0, _⟩ => show win0_5.index t (0 : Fin 2) * 1 + 1 * 0 = 0; omega
  | ⟨1, _⟩ => show win0_5.index t (1 : Fin 2) * 16384 + 1 * q.val = t.val * 16384 + q.val; omega

/-- THE THREE-ROW ARRAY after the last point, at row r and column t·16384 + q: element (r, q) of what point `t` left
    in its tile. Every point writes its tile back and no other point's tile holds the element. -/
theorem arrAt4_apply (c : Dev nD) (r : Fin 3) (t : Fin cfg0.N) (q : Fin 16384) (h : t.val * 16384 + q.val < 1015808) :
    ((dat0 V c).arrAt 4 cfg0.N : S3x1015808.Idx → Elt F .f32) (ix2 r ⟨t.val * 16384 + q.val, h⟩)
      = out0_4 (grid0.coords t) (iblk0 V c 0 t) (iblk0 V c 1 t) (iblk0 V c 2 t) (iblk0 V c 3 t) (ix2 r q) := by
  rw [← tile4_at t r q h]
  refine ((dat0 V c).arrAt_emb_eq_flushed 4 (fun t t' _ _ hne => disjoint_tiles4 t t' hne) t (flush0_4 t) (ix2 r q)).trans ?_
  show (cfg0.win 4).cut (grid0.coords t) ((dat0 V c).after 4 t) (ix2 r q) = _
  rw [after0_4]
  rfl

/-- THE ONE-ROW ARRAY after the last point, at column t·16384 + q: element q of what point `t` left in its tile. -/
theorem arrAt5_apply (c : Dev nD) (t : Fin cfg0.N) (q : Fin 16384) (h : t.val * 16384 + q.val < 1015808) :
    ((dat0 V c).arrAt 5 cfg0.N : S1x1015808.Idx → Elt F .i32) (ix2 0 ⟨t.val * 16384 + q.val, h⟩)
      = out0_5 (iblk0 V c 2 t) (ix2 0 q) := by
  rw [← tile5_at t q h]
  refine ((dat0 V c).arrAt_emb_eq_flushed 5 (fun t t' _ _ hne => disjoint_tiles5 t t' hne) t (flush0_5 t) (ix2 0 q)).trans ?_
  show (cfg0.win 5).cut (grid0.coords t) ((dat0 V c).after 5 t) (ix2 0 q) = _
  rw [after0_5]
  rfl

end Region0Cover

end Cert.KernelIdeal.Hand

end
-- ==== Proof.LibPack.lean ====
/-
  Words that pack a label with a flag, and how they are unpacked.

  A label l below 64 sits in bits 0–7 of a 32-bit word and a flag in bit 8: the word is l OR (flag shifted left by 8).
  Masking with 255 gives back the label; shifting right by 8 (arithmetically) and masking with 1 gives back the flag; the
  flag word is 1 exactly when the flag is set; two labels below 64 are equal words exactly when they are equal numbers.
  The zero word unpacks to label 0 and flag 0. Beside these: a small number as a word reads back as itself, signed and
  unsigned; a word whose signed value is in [0, N) is the word of its own unsigned value, which is below N; and the algebra of
  one-bit words under AND and XOR with 1, and of a bit widened to a word.
-/
import Idealize.ShloMosaic.PureOps.Ideal
import Idealize.ShloMosaic.Lib.ValueIdx
import Idealize.ShloMosaic.Lib.StableHlo.Predicate
import proofs.«413937_j37383395344507_3_alg».proof.Proof.Spec

noncomputable section

namespace Cert.LibPack

open Idealize.ShloMosaic Idealize.ShloMosaic.ValueIdx Idealize.ShloMosaic.StableHlo.Predicate Cert.Spec

/-! ## Small numbers as words -/

/-- A number below 2³² as a word reads back, unsigned, as itself. -/
theorem ofNat_toNat {a : ℕ} (ha : a < 2 ^ 32) : (BitVec.ofNat 32 a).toNat = a := by
  rw [BitVec.toNat_ofNat]
  exact Nat.mod_eq_of_lt ha

/-- A number below 2³¹ as a word reads back, signed, as itself. -/
theorem ofNat_toInt {a : ℕ} (ha : a < 2 ^ 31) : (BitVec.ofNat 32 a).toInt = (a : ℤ) := toInt_ofNat_small a ha

/-- Two numbers below 2³² are the same word exactly when they are the same number. -/
theorem ofNat_eq_iff {l l' : ℕ} (hl : l < 2 ^ 32) (hl' : l' < 2 ^ 32) : BitVec.ofNat 32 l = BitVec.ofNat 32 l' ↔ l = l' := by
  constructor
  · intro h
    have h' := congrArg BitVec.toNat h
    rwa [ofNat_toNat hl, ofNat_toNat hl'] at h'
  · rintro rfl; rfl

/-- A word whose signed value is not negative has that value unsigned. -/
theorem toInt_eq_toNat_of_nonneg (w : BitVec 32) (h : 0 ≤ w.toInt) : w.toInt = (w.toNat : ℤ) := by
  have hlt := w.isLt
  rw [BitVec.toInt_eq_toNat_cond] at h ⊢
  split at h
  · rw [if_pos (by assumption)]
  · omega

/-- Every word is the word of its unsigned value. -/
theorem eq_ofNat_toNat (w : BitVec 32) : w = BitVec.ofNat 32 w.toNat := by
  apply BitVec.eq_of_toNat_eq
  rw [BitVec.toNat_ofNat]
  exact (Nat.mod_eq_of_lt w.isLt).symm

/-- A word whose signed value is in [0, N) has unsigned value below N … -/
theorem toNat_lt_of_inRange {N : ℕ} (w : BitVec 32) (h0 : 0 ≤ w.toInt) (h1 : w.toInt < (N : ℤ)) : w.toNat < N := by
  rw [toInt_eq_toNat_of_nonneg w h0] at h1
  exact_mod_cast h1

/-- … so reducing it modulo N changes nothing. -/
theorem toNat_mod_of_inRange {N : ℕ} (w : BitVec 32) (h0 : 0 ≤ w.toInt) (h1 : w.toInt < (N : ℤ)) : w.toNat % N = w.toNat :=
  Nat.mod_eq_of_lt (toNat_lt_of_inRange w h0 h1)

/-- The two together: a word in [0, N) is the word of its unsigned value, which reduction modulo N leaves alone. -/
theorem word_of_inRange {N : ℕ} (w : BitVec 32) (h0 : 0 ≤ w.toInt) (h1 : w.toInt < (N : ℤ)) :
    w = BitVec.ofNat 32 w.toNat ∧ w.toNat % N = w.toNat :=
  ⟨eq_ofNat_toNat w, toNat_mod_of_inRange w h0 h1⟩

/-! ## Unpacking: the label, the flag -/

/-- An arithmetic shift right by 8 meets no corner, on any unit. -/
theorem shrsi_eight (u : ArithUnit) (x : BitVec 32) : IntOp.shrsi u x 8#32 = x.sshiftRight 8 := by
  unfold IntOp.shrsi
  rw [if_pos (by decide)]
  rfl

/-- The 128 packed words, checked one by one: the label, and the flag, of each. -/
private theorem unpack_all : ∀ l : Fin 64,
    ((BitVec.ofNat 32 l.val ||| (1#32 <<< 8)) &&& 255#32 = BitVec.ofNat 32 l.val ∧
      (BitVec.ofNat 32 l.val ||| (0#32 <<< 8)) &&& 255#32 = BitVec.ofNat 32 l.val) ∧
    (((BitVec.ofNat 32 l.val ||| (1#32 <<< 8)).sshiftRight 8) &&& 1#32 = 1#32 ∧
      ((BitVec.ofNat 32 l.val ||| (0#32 <<< 8)).sshiftRight 8) &&& 1#32 = 0#32) := by
  decide

/-- THE LABEL: a packed word masked with 255 is its label. The flag is any decidable proposition (a Boolean b read as
    b = true is one). -/
theorem unpack_label {l : ℕ} (hl : l < 64) (p : Prop) [Decidable p] :
    IntOp.andi (BitVec.ofNat 32 l ||| ((if p then 1#32 else 0#32) <<< 8)) 255#32 = BitVec.ofNat 32 l := by
  have h := (unpack_all ⟨l, hl⟩).1
  by_cases hp : p
  · rw [if_pos hp]; exact h.1
  · rw [if_neg hp]; exact h.2

/-- THE FLAG: a packed word shifted right by 8 and masked with 1 is its flag word. -/
theorem unpack_flag (u : ArithUnit) {l : ℕ} (hl : l < 64) (p : Prop) [Decidable p] :
    IntOp.andi (IntOp.shrsi u (BitVec.ofNat 32 l ||| ((if p then 1#32 else 0#32) <<< 8)) 8#32) 1#32
      = if p then 1#32 else 0#32 := by
  have h := (unpack_all ⟨l, hl⟩).2
  rw [shrsi_eight]
  by_cases hp : p
  · rw [if_pos hp]; exact h.1
  · rw [if_neg hp]; exact h.2

/-- The flag word is 1 exactly when the flag is set. -/
theorem flag_test (p : Prop) [Decidable p] :
    IntOp.cmpi .eq (if p then 1#32 else 0#32) 1#32 = if p then 1#1 else 0#1 := by
  by_cases hp : p
  · rw [if_pos hp, if_pos hp]; decide
  · rw [if_neg hp, if_neg hp]; decide

/-- The two steps at once: unpack the flag and test it. -/
theorem unpack_flag_test (u : ArithUnit) {l : ℕ} (hl : l < 64) (p : Prop) [Decidable p] :
    IntOp.cmpi .eq (IntOp.andi (IntOp.shrsi u (BitVec.ofNat 32 l ||| ((if p then 1#32 else 0#32) <<< 8)) 8#32) 1#32) 1#32
      = if p then 1#1 else 0#1 := by
  rw [unpack_flag u hl p, flag_test p]

/-- Two labels compare equal, as words, exactly when they are equal. -/
theorem label_eq {l l' : ℕ} (hl : l < 64) (hl' : l' < 64) :
    IntOp.cmpi .eq (BitVec.ofNat 32 l) (BitVec.ofNat 32 l') = if l = l' then 1#1 else 0#1 := by
  have hw : BitVec.ofNat 32 l = BitVec.ofNat 32 l' ↔ l = l' := ofNat_eq_iff (by omega) (by omega)
  show BitVec.ofBool (BitVec.ofNat 32 l == BitVec.ofNat 32 l') = _
  by_cases h : l = l'
  · subst h
    rw [if_pos rfl, beq_self_eq_true]
    rfl
  · rw [if_neg h, beq_eq_false_iff_ne.mpr (fun e => h (hw.mp e))]
    rfl

/-- The same as a proposition: the comparison's bit is 1 exactly when the labels are equal. -/
theorem label_eq_one_iff {l l' : ℕ} (hl : l < 64) (hl' : l' < 64) :
    IntOp.cmpi .eq (BitVec.ofNat 32 l) (BitVec.ofNat 32 l') = 1#1 ↔ l = l' := by
  rw [label_eq hl hl']
  by_cases h : l = l'
  · rw [if_pos h]; exact ⟨fun _ => h, fun _ => rfl⟩
  · rw [if_neg h]; exact ⟨fun e => absurd e (by decide), fun e => absurd e h⟩

/-! ## The zero word: a padding pair's packed word -/

/-- The zero word's label is 0 … -/
theorem unpack_label_zero : IntOp.andi 0#32 255#32 = 0#32 := by decide

/-- … its flag word is 0 … -/
theorem unpack_flag_zero (u : ArithUnit) : IntOp.andi (IntOp.shrsi u 0#32 8#32) 1#32 = 0#32 := by
  rw [shrsi_eight]; decide

/-- … and the flag is not set. -/
theorem unpack_flag_test_zero (u : ArithUnit) : IntOp.cmpi .eq (IntOp.andi (IntOp.shrsi u 0#32 8#32) 1#32) 1#32 = 0#1 := by
  rw [unpack_flag_zero]; decide

/-- The zero word is the packed word of label 0 with the flag clear. -/
theorem zero_eq_packed : (0#32 : BitVec 32) = BitVec.ofNat 32 0 ||| ((if False then 1#32 else 0#32) <<< 8) := by decide

/-! ## A node's packed word -/

section Packed
open scoped Classical

/-- A node's packed word masked with 255 is its label. -/
theorem packedW_label (D : Data) (n : Fin NN) : IntOp.andi (D.packedW n) 255#32 = BitVec.ofNat 32 (D.cl n).val :=
  unpack_label (D.cl n).isLt _

/-- A node's packed word shifted right by 8 and masked with 1 is 1 when the node passes, 0 when it does not. -/
theorem packedW_flag (u : ArithUnit) (D : Data) (n : Fin NN) :
    IntOp.andi (IntOp.shrsi u (D.packedW n) 8#32) 1#32 = if D.passed n then 1#32 else 0#32 :=
  unpack_flag u (D.cl n).isLt _

/-- … and testing that against 1 gives the bit "the node passes". -/
theorem packedW_flag_test (u : ArithUnit) (D : Data) (n : Fin NN) :
    IntOp.cmpi .eq (IntOp.andi (IntOp.shrsi u (D.packedW n) 8#32) 1#32) 1#32 = if D.passed n then 1#1 else 0#1 :=
  unpack_flag_test u (D.cl n).isLt _

/-- Two nodes' unpacked labels compare equal exactly when the nodes share a label. -/
theorem packedW_label_eq (D : Data) (n m : Fin NN) :
    IntOp.cmpi .eq (IntOp.andi (D.packedW n) 255#32) (IntOp.andi (D.packedW m) 255#32)
      = if D.cl n = D.cl m then 1#1 else 0#1 := by
  rw [packedW_label, packedW_label, label_eq (D.cl n).isLt (D.cl m).isLt]
  by_cases h : D.cl n = D.cl m
  · rw [if_pos h, if_pos (congrArg Fin.val h)]
  · rw [if_neg h, if_neg (fun e => h (Fin.ext e))]

end Packed

/-! ## One-bit words: AND, XOR with 1, a decided bit, a bit widened to a word -/

/-- A one-bit word is 0 or 1, and not both. -/
theorem bit_ne_one_iff (x : BitVec 1) : ¬ x = 1#1 ↔ x = 0#1 := by revert x; decide

/-- AND with 1 on the right changes nothing … -/
theorem andi_one_right (x : BitVec 1) : IntOp.andi x 1#1 = x := by revert x; decide
/-- … nor on the left. -/
theorem andi_one_left (x : BitVec 1) : IntOp.andi 1#1 x = x := by revert x; decide
/-- AND with 0 on the right is 0 … -/
theorem andi_zero_right (x : BitVec 1) : IntOp.andi x 0#1 = 0#1 := by revert x; decide
/-- … and on the left. -/
theorem andi_zero_left (x : BitVec 1) : IntOp.andi 0#1 x = 0#1 := by revert x; decide
/-- An AND is 1 exactly when both bits are. -/
theorem andi_eq_one_iff (x y : BitVec 1) : IntOp.andi x y = 1#1 ↔ x = 1#1 ∧ y = 1#1 := by revert x y; decide
/-- The AND of two decided bits is the decided conjunction. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq] <;> decide

/-- XOR with 1 flips a bit. -/
theorem xori_one (x : BitVec 1) : IntOp.xori x 1#1 = if x = 1#1 then 0#1 else 1#1 := by revert x; decide
/-- A flipped bit is 1 exactly when the bit was not. -/
theorem xori_one_eq_one_iff (x : BitVec 1) : IntOp.xori x 1#1 = 1#1 ↔ ¬ x = 1#1 := by revert x; decide
/-- Flipping a decided bit decides the negation. -/
theorem xori_one_ite (p : Prop) [Decidable p] :
    IntOp.xori (if p then 1#1 else 0#1) 1#1 = if ¬ p then 1#1 else 0#1 := by
  by_cases hp : p <;> simp [hp] <;> decide

/-- A decided bit is 1 exactly when the proposition holds. -/
theorem ite_eq_one_iff (p : Prop) [Decidable p] : (if p then 1#1 else 0#1 : BitVec 1) = 1#1 ↔ p := by
  by_cases hp : p <;> simp [hp]

/-- A bit widened to a word is the word 1 or the word 0. -/
theorem setWidth_bit (x : BitVec 1) : x.setWidth 32 = if x = 1#1 then 1#32 else 0#32 := by revert x; decide
/-- A decided bit widened to a word. -/
theorem setWidth_ite (p : Prop) [Decidable p] :
    (if p then 1#1 else 0#1 : BitVec 1).setWidth 32 = if p then 1#32 else 0#32 := by
  by_cases hp : p <;> simp [hp]
/-- Its signed value: 1 or 0. -/
theorem toInt_setWidth_bit (x : BitVec 1) : (x.setWidth 32).toInt = if x = 1#1 then 1 else 0 := by revert x; decide

end Cert.LibPack

end
-- ==== Proof.KV.Reg0Val.lean ====
/-
  What the first tiled kernel leaves in its two output arrays, index by index, as the reals of the specification.

  The kernel visits the 1015808 padded pairs in 62 tiles of 16384. For the pair at position p it reads the two scaled
  feature rows u, v (64 reals each) and the two packed words of its anchor and second node, and writes
    row 0:  exp (⟨u, v⟩ · (1/τ) − 1/τ),
    row 1:  that exponential where p is a real pair (p < 1000000) and the pair is not positive, 0 elsewhere,
    row 2:  1 where p is a real, positive pair, 0 elsewhere,
  and, in a second array, the anchor's label word (the low eight bits of its packed word). A pair is positive when the two
  label fields agree and both pass bits (bit 8) are set.

  First each value the kernel computes is read at one entry of its tile: the row sum of products, the named scale 1/τ,
  the masks and shifts on the packed words, the comparison of the pair's position with 1000000. Then, the input arrays
  holding the scaled rows of the specification's data (zero rows for padding) and its packed words (the zero word for
  padding), those entries are the specification's ePad, negPad, wPad and labPad. Last, an index of an output array is a
  tile and a place in the tile, the array there holds what that tile's point left, and the point read its tiles off the
  input arrays at the same positions.
-/
import proofs.«413937_j37383395344507_3_alg».proof.Proof.KV.Basic
import proofs.«413937_j37383395344507_3_alg».proof.Proof.KV.Reg0Cover
import proofs.«413937_j37383395344507_3_alg».proof.Proof.Consts
import Idealize.ShloMosaic.Lib.Pipeline.Value
import Idealize.ShloMosaic.Lib.ValueIdx
import Idealize.ShloMosaic.PureOps.Ideal.Laws
import Idealize.ShloMosaic.PureOps.IdealRules
import proofs.«413937_j37383395344507_3_alg».proof.Proof.LibPack
import proofs.«413937_j37383395344507_3_alg».proof.Proof.IdealReal

set_option maxRecDepth 16384

noncomputable section

namespace Cert.KernelIdeal.KV

open Cert.KernelIdeal Cert.KernelIdeal.Gen Cert.Spec Idealize.ShloMosaic Idealize.ShloMosaic.TcCoe Idealize.SL.Sem
  Idealize.ShloMosaic.ValueIdx
open scoped Classical

/-- The scale 1/τ as the kernel's named constant denotes it. -/
theorem named_c0 : (Named.named (F := Ideal) κ "fold_c_134217728_13421773" (φ := .f32) 0x41200000#32) = ((c0 : ℝ) : EReal) := by
  unfold c0
  exact IdealRules.named_const.ideal_named_scalar _ _ _ _ (by simp [κ])

/-- A one-row tile read as a vector: entry l is the tile's (0, l). -/
theorem row_apply {α : Type} (x : S1x16384.Idx → α) (l : Fin 16384) :
    shapeCast S16384 x shapeCasts_S1x16384_S16384 (ix1 l) = x (ix2 0 l) :=
  shapeCast_apply x _ (ix1 l) (ix2 0 l) (by simp [Shape.rowMajor_val_two, Shape.rowMajor_val_one])

/-- A vector stored as a one-row tile: the tile's (0, l) is entry l. -/
theorem unrow_apply {α : Type} (x : S16384.Idx → α) (l : Fin 16384) :
    shapeCast S1x16384 x shapeCasts_S16384_S1x16384 (ix2 0 l) = x (ix1 l) :=
  shapeCast_apply x _ (ix2 0 l) (ix1 l) (by simp [Shape.rowMajor_val_two, Shape.rowMajor_val_one])

/-- The index a row's sum runs over: the row's index with the feature coordinate put back. -/
theorem lift_row (l : Fin 16384) (k : Fin 64) : reduces_S16384x64_S16384.lift (ix1 l) k = ix2 l k := by
  funext a; apply Fin.ext
  match a with
  | ⟨0, _⟩ => rfl
  | ⟨1, _⟩ => rfl

/-- The exponential of a scaled row sum at an entry, for any scale K: exp (∑_d x0(l,d) · x1(l,d) · K − K). -/
theorem pay6_core (x0 x1 : FVec Ideal S16384x64 .f32) (K : Ideal .f32) (l : Fin 16384) :
    exp (subf (mulf (multiReduction .add [1] S16384 (mulf x0 x1) 0x00000000#32 reduces_S16384x64_S16384 (.inl rfl) rfl)
      (broadcast S16384 K)) (broadcast S16384 K)) (ix1 l) = Ideal.exp ((∑ d : Fin 64, x0 (ix2 l d) * x1 (ix2 l d)) * K - K) := by
  have h := Ideal.multiReduction_add_single (mulf x0 x1) 0x00000000#32 reduces_S16384x64_S16384 (.inl rfl) rfl (ix1 l)
  have h2 : (∑ k : Fin (S16384x64.size 1), mulf x0 x1 (reduces_S16384x64_S16384.lift (ix1 l) k)) = ∑ d : Fin 64, x0 (ix2 l d) * x1 (ix2 l d) :=
    Finset.sum_congr rfl (fun k _ => congrArg (mulf x0 x1) (lift_row l k))
  simp only [exp, subf, mulf, broadcast, Ideal.exp_def, Ideal.subf_def, Ideal.mulf_def] at h h2 ⊢
  rw [h, h2]

/-- The pair's exponential at entry l: the scale is 1/τ. -/
theorem pay6_apply (x0 x1 : Vec Ideal S16384x64 .f32) (l : Fin 16384) :
    k0_pay6 (F := Ideal) x0 x1 (ix1 l) = Ideal.exp ((∑ d : Fin 64, x0 (ix2 l d) * x1 (ix2 l d)) * ((c0 : ℝ) : EReal) - ((c0 : ℝ) : EReal)) := by
  unfold k0_pay6
  simp only [shapeCast_self, named_c0]
  exact pay6_core x0 x1 _ l

/-- The anchor's label word at entry l: the low eight bits of its packed word. -/
theorem pay9_apply (x2 : Vec Ideal S1x16384 .i32) (l : Fin 16384) :
    k0_pay9 (F := Ideal) x2 (ix1 l) = IntOp.andi (x2 (ix2 0 l)) 255#32 := by
  unfold k0_pay9 k0_pay7
  show IntOp.andi (shapeCast S16384 x2 shapeCasts_S1x16384_S16384 (ix1 l)) 255#32 = _
  rw [row_apply]

/-- The pass bit of a packed word, as a 0/1 word. -/
def passW (w : BitVec 32) : BitVec 32 := IntOp.andi (IntOp.shrsi .vector w 8#32) 1#32

/-- The second node's pass bit at entry l. -/
theorem pay10_apply (x3 : Vec Ideal S1x16384 .i32) (l : Fin 16384) :
    k0_pay10 (F := Ideal) x3 (ix1 l) = passW (x3 (ix2 0 l)) := by
  unfold k0_pay10 k0_pay8
  show IntOp.andi (IntOp.shrsi .vector (shapeCast S16384 x3 shapeCasts_S1x16384_S16384 (ix1 l)) 8#32) 1#32 = _
  rw [row_apply]; rfl

/-- Whether the anchor passes, at entry l. -/
theorem pay13_apply (x2 : Vec Ideal S1x16384 .i32) (l : Fin 16384) :
    k0_pay13 (F := Ideal) x2 (ix1 l) = IntOp.cmpi .eq (passW (x2 (ix2 0 l))) 1#32 := by
  unfold k0_pay13 k0_pay7
  show IntOp.cmpi .eq (IntOp.andi (IntOp.shrsi .vector (shapeCast S16384 x2 shapeCasts_S1x16384_S16384 (ix1 l)) 8#32) 1#32) 1#32 = _
  rw [row_apply]; rfl

/-- Whether the two labels agree, at entry l. -/
theorem pay12_apply (x2 x3 : Vec Ideal S1x16384 .i32) (l : Fin 16384) :
    k0_pay12 (F := Ideal) x2 x3 (ix1 l) = IntOp.cmpi .eq (IntOp.andi (x2 (ix2 0 l)) 255#32) (IntOp.andi (x3 (ix2 0 l)) 255#32) := by
  unfold k0_pay12 k0_pay8
  show IntOp.cmpi .eq (k0_pay9 (F := Ideal) x2 (ix1 l)) (IntOp.andi (shapeCast S16384 x3 shapeCasts_S1x16384_S16384 (ix1 l)) 255#32) = _
  rw [row_apply, pay9_apply]

/-- Whether position q among the padded pairs is a real pair, as a bit. -/
def validB (q : ℕ) : BitVec 1 := if q < 1000000 then 1#1 else 0#1

/-- Whether entry l of tile i is a real pair: its position i · 16384 + l is below 1000000 (no wrap: it is below 2³¹). -/
theorem pay11_apply (i : grid0.Coords) (l : Fin 16384) :
    k0_pay11 i (ix1 l) = validB ((i 0).val * 16384 + l.val) := by
  unfold k0_pay11
  show IntOp.cmpi .slt (IntOp.addi (Scalar.muli (BitVec.ofNat 32 (i 0).val) 16384#32)
    (shapeCast S16384 (iota .tc S1x16384 32 [1] iota_S1x16384_d1_w32) shapeCasts_S1x16384_S16384 (ix1 l))) 1000000#32 = _
  rw [row_apply, iota_single_apply]
  have hi : (i 0).val < 62 := (i 0).isLt
  have hl : l.val < 16384 := l.isLt
  show BitVec.ofBool ((BitVec.ofNat 32 (i 0).val * 16384#32 + BitVec.ofNat 32 l.val).slt 1000000#32) = _
  have e : (BitVec.ofNat 32 (i 0).val * 16384#32 + BitVec.ofNat 32 l.val) = BitVec.ofNat 32 ((i 0).val * 16384 + l.val) := by
    apply BitVec.eq_of_toNat_eq
    simp [BitVec.toNat_add, BitVec.toNat_mul, BitVec.toNat_ofNat]
  rw [e]
  unfold validB
  have e1 : (BitVec.ofNat 32 ((i 0).val * 16384 + l.val)).toInt = (((i 0).val * 16384 + l.val : ℕ) : ℤ) := by
    rw [BitVec.toInt_eq_toNat_cond, BitVec.toNat_ofNat, Nat.mod_eq_of_lt (by omega), if_pos (by omega)]
  have e2 : (1000000#32 : BitVec 32).toInt = 1000000 := by decide
  rw [BitVec.slt, e1, e2]
  by_cases h : (i 0).val * 16384 + l.val < 1000000
  · rw [if_pos h, decide_eq_true (by exact_mod_cast h)]; rfl
  · rw [if_neg h, decide_eq_false (by intro h'; exact h (by exact_mod_cast h'))]; rfl

/-- The positive bit of a pair from its two packed words and its validity bit. -/
def posB (w2 w3 : BitVec 32) (vb : BitVec 1) : BitVec 1 :=
  IntOp.andi (IntOp.andi (IntOp.cmpi .eq (IntOp.andi w2 255#32) (IntOp.andi w3 255#32))
    (IntOp.andi (IntOp.cmpi .eq (passW w2) 1#32) (IntOp.cmpi .eq (passW w3) 1#32))) vb

/-- The positive bit at entry l of tile i. -/
theorem pay1_apply (i : grid0.Coords) (x2 x3 : Vec Ideal S1x16384 .i32) (l : Fin 16384) :
    k0_pay1 (k0_pay10 (F := Ideal) x3) (k0_pay11 i) (k0_pay12 (F := Ideal) x2 x3) (k0_pay13 (F := Ideal) x2) k0_pay14 (ix1 l)
      = posB (x2 (ix2 0 l)) (x3 (ix2 0 l)) (validB ((i 0).val * 16384 + l.val)) := by
  unfold k0_pay1
  show IntOp.andi (IntOp.andi (k0_pay12 (F := Ideal) x2 x3 (ix1 l)) (IntOp.andi (k0_pay13 (F := Ideal) x2 (ix1 l))
    (IntOp.cmpi .eq (k0_pay10 (F := Ideal) x3 (ix1 l)) (k0_pay14 (ix1 l))))) (k0_pay11 i (ix1 l)) = _
  rw [pay12_apply, pay13_apply, pay10_apply, pay11_apply]
  rfl

/-- A pair's exponential from its two scaled rows: exp (⟨u, v⟩ · (1/τ) − 1/τ). -/
def expS (u v : Fin 64 → EReal) : EReal := Ideal.exp ((∑ d : Fin 64, u d * v d) * ((c0 : ℝ) : EReal) - ((c0 : ℝ) : EReal))

/-- What the three-row output holds in row r for the pair at position q among the padded pairs, from the pair's two
    scaled rows and two packed words: the exponential; the exponential where the pair is real and not positive, else 0;
    the positive bit as a real. -/
def cell (r q : ℕ) (u v : Fin 64 → EReal) (w2 w3 : BitVec 32) : EReal :=
  if r = 0 then expS u v
  else if r = 1 then Scalar.select (IntOp.andi (IntOp.xori (posB w2 w3 (validB q)) 1#1) (validB q)) (expS u v)
    (FloatOps.ofBits (F := Ideal) .f32 0x00000000#32)
  else FloatOps.sitofp (F := Ideal) .f32 ((posB w2 w3 (validB q)).setWidth 32)

/-- Row 0 as stored: the vector of exponentials laid out as one row. -/
theorem pay2_apply (v10 : FVec Ideal S16384 .f32) (l : Fin 16384) : k0_pay2 (F := Ideal) v10 (ix2 0 l) = v10 (ix1 l) := by
  unfold k0_pay2; exact unrow_apply v10 l

/-- Row 1 as stored: the exponential kept where the pair is real and not positive, 0 elsewhere. -/
theorem pay3_apply (v10 : FVec Ideal S16384 .f32) (v26 : IVec S16384 32) (v33 v34 v36 : IVec S16384 1) (v37 : IVec S16384 32) (l : Fin 16384) :
    k0_pay3 (F := Ideal) v10 v26 v33 v34 v36 v37 (ix2 0 l)
      = Scalar.select (IntOp.andi (IntOp.xori (k0_pay1 v26 v33 v34 v36 v37 (ix1 l)) 1#1) (v33 (ix1 l))) (v10 (ix1 l))
          (FloatOps.ofBits (F := Ideal) .f32 0x00000000#32) := by
  unfold k0_pay3
  exact (unrow_apply _ l).trans rfl

/-- Row 2 as stored: the positive bit widened to a word and read as a real. -/
theorem pay4_apply (v26 : IVec S16384 32) (v33 v34 v36 : IVec S16384 1) (v37 : IVec S16384 32) (l : Fin 16384) :
    k0_pay4 (F := Ideal) v26 v33 v34 v36 v37 (ix2 0 l)
      = FloatOps.sitofp (F := Ideal) .f32 ((k0_pay1 v26 v33 v34 v36 v37 (ix1 l)).setWidth 32) := by
  unfold k0_pay4
  exact (unrow_apply _ l).trans rfl

/-- The label words as stored: the vector laid out as one row. -/
theorem pay5_apply (v16 : IVec S16384 32) (l : Fin 16384) : k0_pay5 v16 (ix2 0 l) = v16 (ix1 l) := by
  unfold k0_pay5; exact unrow_apply v16 l

/-! ## The rows of the two output tiles at an entry -/

/-- Row 0 at entry l, from the two feature tiles. -/
theorem row0_val (x0 x1 : Vec Ideal S16384x64 .f32) (l : Fin 16384) :
    k0_pay2 (F := Ideal) (k0_pay6 x0 x1) (ix2 0 l) = expS (fun d => x0 (ix2 l d)) (fun d => x1 (ix2 l d)) := by
  rw [pay2_apply, pay6_apply]; rfl

/-- Row 1 at entry l of tile i, from the four tiles. -/
theorem row1_val (i : grid0.Coords) (x0 x1 : Vec Ideal S16384x64 .f32) (x2 x3 : Vec Ideal S1x16384 .i32) (l : Fin 16384) :
    k0_pay3 (F := Ideal) (k0_pay6 x0 x1) (k0_pay10 (F := Ideal) x3) (k0_pay11 i) (k0_pay12 (F := Ideal) x2 x3) (k0_pay13 (F := Ideal) x2) k0_pay14 (ix2 0 l)
      = cell 1 ((i 0).val * 16384 + l.val) (fun d => x0 (ix2 l d)) (fun d => x1 (ix2 l d)) (x2 (ix2 0 l)) (x3 (ix2 0 l)) := by
  rw [pay3_apply, pay1_apply, pay11_apply, pay6_apply]; rfl

/-- Row 2 at entry l of tile i, from the two word tiles (the rows u, v play no part). -/
theorem row2_val (i : grid0.Coords) (u v : Fin 64 → EReal) (x2 x3 : Vec Ideal S1x16384 .i32) (l : Fin 16384) :
    k0_pay4 (F := Ideal) (k0_pay10 (F := Ideal) x3) (k0_pay11 i) (k0_pay12 (F := Ideal) x2 x3) (k0_pay13 (F := Ideal) x2) k0_pay14 (ix2 0 l)
      = cell 2 ((i 0).val * 16384 + l.val) u v (x2 (ix2 0 l)) (x3 (ix2 0 l)) := by
  rw [pay4_apply, pay1_apply]; rfl

/-- The label row at entry l. -/
theorem lab_val (x2 : Vec Ideal S1x16384 .i32) (l : Fin 16384) :
    k0_pay5 (k0_pay9 (F := Ideal) x2) (ix2 0 l) = IntOp.andi (x2 (ix2 0 l)) 255#32 := by
  rw [pay5_apply, pay9_apply]

/-! ## The entries as the reals of the specification -/

/-- On rows of reals the exponential is the real exp (⟨a, b⟩ · (1/τ) − 1/τ). -/
theorem expS_real (a b : Fin 64 → ℝ) :
    expS (fun d => ((a d : ℝ) : EReal)) (fun d => ((b d : ℝ) : EReal)) = ((Real.exp ((∑ d, a d * b d) * c0 - c0) : ℝ) : EReal) := by
  unfold expS
  rw [show (∑ d : Fin 64, ((a d : ℝ) : EReal) * ((b d : ℝ) : EReal)) = ∑ d : Fin 64, ((a d * b d : ℝ) : EReal) from
    Finset.sum_congr rfl (fun d _ => (EReal.coe_mul _ _).symm), Cert.IdealReal.sum_univ_coe, ← EReal.coe_mul, ← EReal.coe_sub]
  rfl

/-- On two nodes' packed words, at a real pair, the positive bit says: one label, both pass. -/
theorem posB_packed (D : Data) (n1 n2 : Fin NN) :
    posB (D.packedW n1) (D.packedW n2) 1#1 = if (D.cl n1 = D.cl n2 ∧ D.passed n1 ∧ D.passed n2) then 1#1 else 0#1 := by
  unfold posB passW
  rw [Cert.LibPack.packedW_label_eq, Cert.LibPack.packedW_flag_test, Cert.LibPack.packedW_flag_test]
  by_cases h1 : D.cl n1 = D.cl n2 <;> by_cases h2 : D.passed n1 <;> by_cases h3 : D.passed n2 <;> simp [h1, h2, h3, IntOp.andi]

/-- Past the real pairs the positive bit is clear. -/
theorem posB_invalid (w2 w3 : BitVec 32) : posB w2 w3 0#1 = 0#1 := by
  unfold posB; exact Cert.LibPack.andi_zero_right _

/- Throughout: u, v are the two scaled rows of the pair at position p and w2, w3 its two packed words, as the input
    arrays hold them (zero rows and zero words past the real pairs). -/
section Values
variable (D : Data) (p : Fin PPad) (u v : Fin 64 → EReal) (w2 w3 : BitVec 32)
  (hu : ∀ d, u d = if h : p.val < PP then (((D.xr (D.ia ⟨p.val, h⟩) d / D.nr (D.ia ⟨p.val, h⟩) : ℝ)) : EReal) else ((0 : ℝ) : EReal))
  (hv : ∀ d, v d = if h : p.val < PP then (((D.xr (D.ja ⟨p.val, h⟩) d / D.nr (D.ja ⟨p.val, h⟩) : ℝ)) : EReal) else ((0 : ℝ) : EReal))
  (hw2 : w2 = if h : p.val < PP then D.packedW (D.ia ⟨p.val, h⟩) else 0#32)
  (hw3 : w3 = if h : p.val < PP then D.packedW (D.ja ⟨p.val, h⟩) else 0#32)

include hu hv in
/-- The exponential of the pair at position p is the specification's ePad p. -/
theorem expS_of : expS u v = ((D.ePad p : ℝ) : EReal) := by
  unfold Data.ePad
  by_cases h : p.val < PP
  · rw [dif_pos h]
    have eu : u = fun d => (((D.xr (D.ia ⟨p.val, h⟩) d / D.nr (D.ia ⟨p.val, h⟩) : ℝ)) : EReal) := funext fun d => by rw [hu d, dif_pos h]
    have ev : v = fun d => (((D.xr (D.ja ⟨p.val, h⟩) d / D.nr (D.ja ⟨p.val, h⟩) : ℝ)) : EReal) := funext fun d => by rw [hv d, dif_pos h]
    rw [eu, ev, expS_real]
    rfl
  · rw [dif_neg h]
    have eu : u = fun d => (((fun _ : Fin 64 => (0 : ℝ)) d : ℝ) : EReal) := funext fun d => by rw [hu d, dif_neg h]
    have ev : v = fun d => (((fun _ : Fin 64 => (0 : ℝ)) d : ℝ) : EReal) := funext fun d => by rw [hv d, dif_neg h]
    rw [eu, ev, expS_real]
    simp

include hw2 hw3 in
/-- The positive bit of the pair at position p: the specification's pos for a real pair, clear for padding. -/
theorem posB_of : posB w2 w3 (validB p.val) = if h : p.val < PP then (if D.pos ⟨p.val, h⟩ then 1#1 else 0#1) else 0#1 := by
  by_cases h : p.val < PP
  · rw [dif_pos h, hw2, hw3, dif_pos h, dif_pos h]
    have hv1 : validB p.val = 1#1 := by unfold validB; exact if_pos h
    rw [hv1, posB_packed]
    exact if_congr Iff.rfl rfl rfl
  · rw [dif_neg h]
    have hv0 : validB p.val = 0#1 := by unfold validB; exact if_neg h
    rw [hv0, posB_invalid]

include hu hv hw2 hw3 in
/-- Row 1 at position p is the specification's negPad p. -/
theorem negCell_of : cell 1 p.val u v w2 w3 = ((D.negPad p : ℝ) : EReal) := by
  unfold cell
  rw [if_neg (by decide), if_pos rfl, posB_of D p w2 w3 hw2 hw3, expS_of D p u v hu hv]
  unfold Data.negPad Data.negAt
  by_cases h : p.val < PP
  · have hv1 : validB p.val = 1#1 := by unfold validB; exact if_pos h
    rw [dif_pos h, dif_pos h, hv1]
    have he : D.ePad p = Data.eAt D.sK c0 ⟨p.val, h⟩ := by unfold Data.ePad; rw [dif_pos h]
    by_cases hp : D.pos ⟨p.val, h⟩
    · rw [if_pos hp, if_pos hp]
      exact Cert.Spec.ofBits_zero
    · rw [if_neg hp, if_neg hp, he]
      rfl
  · have hv0 : validB p.val = 0#1 := by unfold validB; exact if_neg h
    rw [dif_neg h, dif_neg h, hv0]
    exact Cert.Spec.ofBits_zero

include hw2 hw3 in
/-- Row 2 at position p is the specification's wPad p. -/
theorem posCell_of : cell 2 p.val u v w2 w3 = ((D.wPad p : ℝ) : EReal) := by
  unfold cell
  rw [if_neg (by decide), if_neg (by decide), posB_of D p w2 w3 hw2 hw3]
  unfold Data.wPad
  by_cases h : p.val < PP
  · rw [dif_pos h, dif_pos h]
    exact Cert.IdealReal.sitofp_extui_ite_coe _
  · rw [dif_neg h, dif_neg h]
    exact Cert.IdealReal.sitofp_extui_zero_coe

include hw2 in
/-- The label word at position p is the specification's labPad p. -/
theorem lab_of : IntOp.andi w2 255#32 = D.labPad p := by
  unfold Data.labPad
  by_cases h : p.val < PP
  · rw [dif_pos h, hw2, dif_pos h]; exact Cert.LibPack.packedW_label D _
  · rw [dif_neg h, hw2, dif_neg h]; exact Cert.LibPack.unpack_label_zero

end Values

/-! ## The two output arrays after the region, index by index -/

section Final

variable (V : (c : Dev nD) → (b : Ref sig .tc) → Buf (Elt Ideal) ((c : Thread nD τ).loc b)) (c : Dev nD) (D : Data)

/-- A padded pair's position is a tile and a place in the tile. -/
theorem split_pos (p : Fin PPad) :
    ∃ (t : Fin cfg0.N) (q : Fin 16384) (h : t.val * 16384 + q.val < 1015808), p = ⟨t.val * 16384 + q.val, h⟩ := by
  have hp : p.val < 1015808 := p.isLt
  refine ⟨⟨p.val / 16384, ?_⟩, ⟨p.val % 16384, Nat.mod_lt _ (by decide)⟩, ?_, ?_⟩
  · rw [show cfg0.N = 62 from N_0]; omega
  · show p.val / 16384 * 16384 + p.val % 16384 < 1015808; omega
  · apply Fin.ext; show p.val = p.val / 16384 * 16384 + p.val % 16384; omega

/-- Row 0 of the three-row array: each padded pair's exponential. -/
theorem reg0_row0
    (h23 : ∀ (p : Fin PPad) (d : Fin DD), (V c main_v23 : S1015808x64.Idx → EReal) (ix2 p d)
      = if h : p.val < PP then (((D.xr (D.ia ⟨p.val, h⟩) d / D.nr (D.ia ⟨p.val, h⟩) : ℝ)) : EReal) else ((0 : ℝ) : EReal))
    (h24 : ∀ (p : Fin PPad) (d : Fin DD), (V c main_v24 : S1015808x64.Idx → EReal) (ix2 p d)
      = if h : p.val < PP then (((D.xr (D.ja ⟨p.val, h⟩) d / D.nr (D.ja ⟨p.val, h⟩) : ℝ)) : EReal) else ((0 : ℝ) : EReal))
    (p : Fin PPad) :
    ((Hand.dat0 V c).arrAt 4 cfg0.N : S3x1015808.Idx → EReal) (ix2 0 p) = ((D.ePad p : ℝ) : EReal) := by
  obtain ⟨t, q, h, rfl⟩ := split_pos p
  refine (Hand.arrAt4_apply V c 0 t q h).trans ?_
  refine (Hand.out0_4_row0 (F := Ideal) (grid0.coords t) (Hand.iblk0 V c 0 t) (Hand.iblk0 V c 1 t) (Hand.iblk0 V c 2 t) (Hand.iblk0 V c 3 t) q).trans ?_
  refine (row0_val (Hand.iblk0 V c 0 t) (Hand.iblk0 V c 1 t) q).trans ?_
  refine expS_of D ⟨t.val * 16384 + q.val, h⟩ _ _ (fun d => ?_) (fun d => ?_)
  · exact (Hand.iblk0_0_apply V c t q d h).trans (h23 _ d)
  · exact (Hand.iblk0_1_apply V c t q d h).trans (h24 _ d)

/-- Row 1: the exponential of a real pair that is not positive, 0 elsewhere. -/
theorem reg0_row1
    (h23 : ∀ (p : Fin PPad) (d : Fin DD), (V c main_v23 : S1015808x64.Idx → EReal) (ix2 p d)
      = if h : p.val < PP then (((D.xr (D.ia ⟨p.val, h⟩) d / D.nr (D.ia ⟨p.val, h⟩) : ℝ)) : EReal) else ((0 : ℝ) : EReal))
    (h24 : ∀ (p : Fin PPad) (d : Fin DD), (V c main_v24 : S1015808x64.Idx → EReal) (ix2 p d)
      = if h : p.val < PP then (((D.xr (D.ja ⟨p.val, h⟩) d / D.nr (D.ja ⟨p.val, h⟩) : ℝ)) : EReal) else ((0 : ℝ) : EReal))
    (h28 : ∀ p : Fin PPad, (V c main_v28 : S1x1015808.Idx → BitVec 32) (ix2 0 p)
      = if h : p.val < PP then D.packedW (D.ia ⟨p.val, h⟩) else 0#32)
    (h29 : ∀ p : Fin PPad, (V c main_v29 : S1x1015808.Idx → BitVec 32) (ix2 0 p)
      = if h : p.val < PP then D.packedW (D.ja ⟨p.val, h⟩) else 0#32)
    (p : Fin PPad) :
    ((Hand.dat0 V c).arrAt 4 cfg0.N : S3x1015808.Idx → EReal) (ix2 1 p) = ((D.negPad p : ℝ) : EReal) := by
  obtain ⟨t, q, h, rfl⟩ := split_pos p
  refine (Hand.arrAt4_apply V c 1 t q h).trans ?_
  refine (Hand.out0_4_row1 (F := Ideal) (grid0.coords t) (Hand.iblk0 V c 0 t) (Hand.iblk0 V c 1 t) (Hand.iblk0 V c 2 t) (Hand.iblk0 V c 3 t) q).trans ?_
  refine (row1_val (grid0.coords t) (Hand.iblk0 V c 0 t) (Hand.iblk0 V c 1 t) (Hand.iblk0 V c 2 t) (Hand.iblk0 V c 3 t) q).trans ?_
  rw [Hand.coord0 t]
  refine negCell_of D ⟨t.val * 16384 + q.val, h⟩ _ _ _ _ (fun d => ?_) (fun d => ?_) ?_ ?_
  · exact (Hand.iblk0_0_apply V c t q d h).trans (h23 _ d)
  · exact (Hand.iblk0_1_apply V c t q d h).trans (h24 _ d)
  · exact (Hand.iblk0_2_apply V c t q h).trans (h28 _)
  · exact (Hand.iblk0_3_apply V c t q h).trans (h29 _)

/-- Row 2: 1 at a real, positive pair, 0 elsewhere. -/
theorem reg0_row2
    (h28 : ∀ p : Fin PPad, (V c main_v28 : S1x1015808.Idx → BitVec 32) (ix2 0 p)
      = if h : p.val < PP then D.packedW (D.ia ⟨p.val, h⟩) else 0#32)
    (h29 : ∀ p : Fin PPad, (V c main_v29 : S1x1015808.Idx → BitVec 32) (ix2 0 p)
      = if h : p.val < PP then D.packedW (D.ja ⟨p.val, h⟩) else 0#32)
    (p : Fin PPad) :
    ((Hand.dat0 V c).arrAt 4 cfg0.N : S3x1015808.Idx → EReal) (ix2 2 p) = ((D.wPad p : ℝ) : EReal) := by
  obtain ⟨t, q, h, rfl⟩ := split_pos p
  refine (Hand.arrAt4_apply V c 2 t q h).trans ?_
  refine (Hand.out0_4_row2 (F := Ideal) (grid0.coords t) (Hand.iblk0 V c 0 t) (Hand.iblk0 V c 1 t) (Hand.iblk0 V c 2 t) (Hand.iblk0 V c 3 t) q).trans ?_
  refine (row2_val (grid0.coords t) (fun _ => 0) (fun _ => 0) (Hand.iblk0 V c 2 t) (Hand.iblk0 V c 3 t) q).trans ?_
  rw [Hand.coord0 t]
  refine posCell_of D ⟨t.val * 16384 + q.val, h⟩ _ _ _ _ ?_ ?_
  · exact (Hand.iblk0_2_apply V c t q h).trans (h28 _)
  · exact (Hand.iblk0_3_apply V c t q h).trans (h29 _)

/-- The one-row array: each padded pair's anchor's label word. -/
theorem reg0_lab
    (h28 : ∀ p : Fin PPad, (V c main_v28 : S1x1015808.Idx → BitVec 32) (ix2 0 p)
      = if h : p.val < PP then D.packedW (D.ia ⟨p.val, h⟩) else 0#32)
    (p : Fin PPad) :
    ((Hand.dat0 V c).arrAt 5 cfg0.N : S1x1015808.Idx → BitVec 32) (ix2 0 p) = D.labPad p := by
  obtain ⟨t, q, h, rfl⟩ := split_pos p
  refine (Hand.arrAt5_apply V c t q h).trans ?_
  refine (Hand.out0_5_apply (F := Ideal) (Hand.iblk0 V c 2 t) q).trans ?_
  refine (lab_val (Hand.iblk0 V c 2 t) q).trans ?_
  exact lab_of D ⟨t.val * 16384 + q.val, h⟩ _ ((Hand.iblk0_2_apply V c t q h).trans (h28 _))

end Final

end Cert.KernelIdeal.KV

end
-- ==== Proof.KV.Mid.lean ====
/-
  The host steps between the two kernel regions, read at an index.

  Region 0 leaves a three-row array (per padded pair: its exponential, what it adds to its anchor's denominator, its weight)
  and a row of label words. The steps between the regions cut the three rows apart and flatten them; accumulate row 1 into a
  zero vector over the nodes at each pair's anchor node (a scatter-add) and clamp the result below at 0: a node's denominator;
  read that vector back at each pair's anchor node (a gather, after a shift of negative indices that never fires: every anchor
  word is a node number); and reshape rows 0 and 2, the gathered denominators and the label row to one-row arrays, region 1's
  operands. Proved here: those four operands hold, at padded pair p, the pair's exponential, its anchor's denominator, its
  weight and its label word. The padding pairs add 0 to every denominator, so the accumulated sum over the padded pairs is
  the sum over the real pairs.
-/
import proofs.«413937_j37383395344507_3_alg».proof.Proof.KV.Basic
import proofs.«413937_j37383395344507_3_alg».proof.Proof.Lib1D
import proofs.«413937_j37383395344507_3_alg».proof.Proof.LibLinear
import proofs.«413937_j37383395344507_3_alg».proof.Proof.Consts
import proofs.«413937_j37383395344507_3_alg».proof.Proof.IdealReal
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Mathlib.Algebra.BigOperators.Fin

noncomputable section

namespace Cert.KernelIdeal.KV

open Cert.KernelIdeal Cert.KernelIdeal.Gen Cert.Spec Idealize.ShloMosaic Idealize.ShloMosaic.TcCoe Idealize.SL.Sem Idealize.ShloMosaic.ValueIdx
open scoped Classical

variable (m : (ℓ : Loc nD τ sig) → Buf (Elt Ideal) ℓ) (c : Dev nD) (outs : Outs (F := Ideal))

/-! ## Layout steps read at an index -/

/-- Row k of a three-row array, cut out and flattened, read at p. -/
theorem row_flat {α : Type} (X : S3x1015808.Idx → α) (k : Fin 3) (h : S3x1015808.Slices ![k.val, 0] S1x1015808)
    (h2 : S1x1015808.ShapeCasts S1015808) (p : Fin PPad) :
    shapeCast S1015808 (extractStridedSlice S1x1015808 ![k.val, 0] X h) h2 (ix1 p) = X (ix2 k p) := by
  rw [shapeCast_1a_a_apply]
  exact slice2_axis0_apply k.val X h 0 p k rfl

/-- A one-row array flattened, read at p. -/
theorem one_flat {α : Type} (X : S1x1015808.Idx → α) (h2 : S1x1015808.ShapeCasts S1015808) (p : Fin PPad) :
    shapeCast S1015808 X h2 (ix1 p) = X (ix2 0 p) := shapeCast_1a_a_apply X h2 p

/-- A flat array given a leading unit axis, read at (0, p). -/
theorem flat_row {α : Type} (x : S1015808.Idx → α) (h : S1015808.ShapeCasts S1x1015808) (p : Fin PPad) :
    shapeCast S1x1015808 x h (ix2 0 p) = x (ix1 p) := shapeCast_a_1a_apply x h 0 p

/-! ## The first stretch: the three rows and the label row, flattened -/

theorem v32_18 (p : Fin PPad) :
    (V18 m outs c main_v32 : S1015808.Idx → EReal) (ix1 p) = (outs 17 main_v30_0 c : S3x1015808.Idx → EReal) (ix2 0 p) := by
  have e : (V18 m outs c main_v32 : S1015808.Idx → EReal)
      = shapeCast S1015808 (extractStridedSlice S1x1015808 ![0, 0] (V17 m outs c main_v30_0 : S3x1015808.Idx → EReal)
          slices_S3x1015808_S1x1015808_0_0) shapeCasts_S1x1015808_S1015808 := by
    show StableHlo.after hostOps1 (V17 m outs c) (Proc.devRef .tc main_v32) = _
    after_results
    rfl
  rw [e]
  exact row_flat _ 0 _ _ p

theorem v34_18 (p : Fin PPad) :
    (V18 m outs c main_v34 : S1015808.Idx → EReal) (ix1 p) = (outs 17 main_v30_0 c : S3x1015808.Idx → EReal) (ix2 1 p) := by
  have e : (V18 m outs c main_v34 : S1015808.Idx → EReal)
      = shapeCast S1015808 (extractStridedSlice S1x1015808 ![1, 0] (V17 m outs c main_v30_0 : S3x1015808.Idx → EReal)
          slices_S3x1015808_S1x1015808_1_0) shapeCasts_S1x1015808_S1015808 := by
    show StableHlo.after hostOps1 (V17 m outs c) (Proc.devRef .tc main_v34) = _
    after_results
    rfl
  rw [e]
  exact row_flat _ 1 _ _ p

theorem v36_18 (p : Fin PPad) :
    (V18 m outs c main_v36 : S1015808.Idx → EReal) (ix1 p) = (outs 17 main_v30_0 c : S3x1015808.Idx → EReal) (ix2 2 p) := by
  have e : (V18 m outs c main_v36 : S1015808.Idx → EReal)
      = shapeCast S1015808 (extractStridedSlice S1x1015808 ![2, 0] (V17 m outs c main_v30_0 : S3x1015808.Idx → EReal)
          slices_S3x1015808_S1x1015808_2_0) shapeCasts_S1x1015808_S1015808 := by
    show StableHlo.after hostOps1 (V17 m outs c) (Proc.devRef .tc main_v36) = _
    after_results
    rfl
  rw [e]
  exact row_flat _ 2 _ _ p

theorem v37_18 (p : Fin PPad) :
    (V18 m outs c main_v37 : S1015808.Idx → BitVec 32) (ix1 p) = (outs 17 main_v30_1 c : S1x1015808.Idx → BitVec 32) (ix2 0 p) := by
  have e : (V18 m outs c main_v37 : S1015808.Idx → BitVec 32)
      = shapeCast S1015808 (V17 m outs c main_v30_1 : S1x1015808.Idx → BitVec 32) shapeCasts_S1x1015808_S1015808 := by
    show StableHlo.after hostOps1 (V17 m outs c) (Proc.devRef .tc main_v37) = _
    after_results
    rfl
  rw [e]
  exact one_flat _ _ p

/-! ## The last stretch's reshapes: region 1's operands from rows 0 and 2 and the label row -/

theorem v49_apply {D : Data}
    (h0 : ∀ p : Fin PPad, (outs 17 main_v30_0 c : S3x1015808.Idx → EReal) (ix2 0 p) = ((D.ePad p : ℝ) : EReal))
    (p : Fin PPad) : (V20 m outs c main_v49 : S1x1015808.Idx → EReal) (ix2 0 p) = ((D.ePad p : ℝ) : EReal) := by
  have e : (V20 m outs c main_v49 : S1x1015808.Idx → EReal)
      = shapeCast S1x1015808 (V19 m outs c main_v32 : S1015808.Idx → EReal) shapeCasts_S1015808_S1x1015808 := by
    show StableHlo.after hostOps1_2 (V19 m outs c) (Proc.devRef .tc main_v49) = _
    after_results
    rfl
  rw [e, flat_row, V19_of m outs c main_v32 (by decide), v32_18, h0]

theorem v51_apply {D : Data}
    (hw : ∀ p : Fin PPad, (outs 17 main_v30_0 c : S3x1015808.Idx → EReal) (ix2 2 p) = ((D.wPad p : ℝ) : EReal))
    (p : Fin PPad) : (V20 m outs c main_v51 : S1x1015808.Idx → EReal) (ix2 0 p) = ((D.wPad p : ℝ) : EReal) := by
  have e : (V20 m outs c main_v51 : S1x1015808.Idx → EReal)
      = shapeCast S1x1015808 (V19 m outs c main_v36 : S1015808.Idx → EReal) shapeCasts_S1015808_S1x1015808 := by
    show StableHlo.after hostOps1_2 (V19 m outs c) (Proc.devRef .tc main_v51) = _
    after_results
    rfl
  rw [e, flat_row, V19_of m outs c main_v36 (by decide), v36_18, hw]

theorem v52_apply {D : Data}
    (hl : ∀ p : Fin PPad, (outs 17 main_v30_1 c : S1x1015808.Idx → BitVec 32) (ix2 0 p) = D.labPad p)
    (p : Fin PPad) : (V20 m outs c main_v52 : S1x1015808.Idx → BitVec 32) (ix2 0 p) = D.labPad p := by
  have e : (V20 m outs c main_v52 : S1x1015808.Idx → BitVec 32)
      = shapeCast S1x1015808 (V19 m outs c main_v37 : S1015808.Idx → BitVec 32) shapeCasts_S1015808_S1x1015808 := by
    show StableHlo.after hostOps1_2 (V19 m outs c) (Proc.devRef .tc main_v52) = _
    after_results
    rfl
  rw [e, flat_row, V19_of m outs c main_v37 (by decide), v37_18, hl]

/-! ## The padded pairs anchored at a node, summed -/

/-- The padding pairs add 0, so what the padded pairs anchored at node n add up to is what the real pairs anchored at n do. -/
theorem sum_negPad (D : Data) (n : Fin NN) :
    (∑ e : Fin PPad, if D.iaPad e = n then D.negPad e else 0)
      = ∑ q : Fin PP, if D.ia q = n then D.negAt D.sK c0 q else 0 := by
  -- both sums are sums of one function of the position, over the positions below PPad and below PP
  let g : ℕ → ℝ := fun i => if h : i < PP then (if D.ia ⟨i, h⟩ = n then D.negAt D.sK c0 ⟨i, h⟩ else 0) else 0
  have hL : ∀ e : Fin PPad, (if D.iaPad e = n then D.negPad e else 0) = g e.val := by
    intro e
    by_cases h : e.val < PP
    · simp only [g, Data.iaPad, Data.negPad, dif_pos h]
    · simp only [g, Data.negPad, dif_neg h, ite_self]
  have hR : ∀ q : Fin PP, (if D.ia q = n then D.negAt D.sK c0 q else 0) = g q.val := by
    intro q
    simp only [g, dif_pos q.isLt, Fin.eta]
  rw [Finset.sum_congr rfl (fun e _ => hL e), Finset.sum_congr rfl (fun q _ => hR q),
    Fin.sum_univ_eq_sum_range g PPad, Fin.sum_univ_eq_sum_range g PP]
  symm
  refine Finset.sum_subset (Finset.range_subset_range.mpr (by norm_num)) ?_
  intro i _ hi
  have hi' : ¬ i < PP := by simpa only [Finset.mem_range] using hi
  simp only [g, dif_neg hi']

/-! ## Index words -/

/-- A node number written as a word, read signed, is the node number. -/
theorem toInt_node (n : Fin NN) : (BitVec.ofNat 32 n.val).toInt = (n.val : ℤ) :=
  StableHlo.Predicate.toInt_ofNat_small n.val (by have h : n.val < 100000 := n.isLt; omega)

/-- The two spellings of a rank-1 index. -/
theorem ofFin_eq_ix1 {n : ℕ} (p : Fin n) : (Shape.Idx.ofFin p : (⟨1, ![n]⟩ : Shape).Idx) = ix1 p := by
  funext a; match a with | ⟨0, _⟩ => rfl

/-- A vector of words as an index column, read at (p, 0). -/
theorem col_apply (v : IVec S1015808 32) (p : Fin PPad) :
    broadcastInDim S1015808x1 ![0] bcast_S1015808_S1015808x1_0 v (StableHlo.Predicate.ixP p) = v (ix1 p) := by
  rw [StableHlo.Predicate.bcast_col1, ofFin_eq_ix1]

/-! ## The scatter-add and the gather over abstract operands -/

/-- Row 1 accumulated into a zero vector at the pairs' anchor nodes, read at node r: the sum of what the real pairs anchored
    at r add. -/
theorem scatter_den {D : Data} (x : FVec Ideal S100000 .f32) (idx : IVec S1015808x1 32) (upd : FVec Ideal S1015808 .f32)
    (hx : ∀ r : Fin NN, x (ix1 r) = ((0 : ℝ) : EReal))
    (hidx : ∀ e : Fin PPad, idx (StableHlo.Predicate.ixP e) = BitVec.ofNat 32 (D.iaPad e).val)
    (hupd : ∀ e : Fin PPad, upd (ix1 e) = ((D.negPad e : ℝ) : EReal)) (r : Fin NN) :
    Host.scatterAdd scatter_S100000_S1015808x1_S1015808_n_0_0_1 x idx upd (ix1 r)
      = ((∑ q : Fin PP, if D.ia q = r then D.negAt D.sK c0 q else 0 : ℝ) : EReal) := by
  rw [Cert.Lib1D.scatterAdd_elems _ rfl rfl rfl rfl, hx, Finset.sum_filter, ← sum_negPad, Cert.LibLinear.coe_sum,
    EReal.coe_zero, zero_add]
  refine Finset.sum_congr rfl (fun e _ => ?_)
  have hiff : (idx (StableHlo.Predicate.ixP e)).toInt = (r.val : ℤ) ↔ D.iaPad e = r := by
    rw [hidx, toInt_node]
    constructor
    · intro h; exact Fin.ext (by exact_mod_cast h)
    · intro h; rw [h]
  by_cases h : D.iaPad e = r
  · rw [if_pos (hiff.mpr h), if_pos h, hupd]
  · rw [if_neg (fun h' => h (hiff.mp h')), if_neg h, EReal.coe_zero]

/-- The shift of negative indices never fires on a node number. -/
theorem shift_node (n : Fin NN) (X : BitVec 32) :
    Scalar.select (IntOp.cmpi .slt (BitVec.ofNat 32 n.val) 0#32) X (BitVec.ofNat 32 n.val) = BitVec.ofNat 32 n.val := by
  unfold Scalar.select
  rw [if_neg]
  intro h
  have hn : n.val < 100000 := n.isLt
  have h1 : (BitVec.ofNat 32 n.val).toNat < 2 ^ 31 := by rw [BitVec.toNat_ofNat]; omega
  have h2 := (StableHlo.Predicate.slt_iff_toNat h1 (by decide : (0#32).toNat < 2 ^ 31)).mp h
  simp at h2

/-- A vector over the nodes read back at the pairs' anchor nodes (after the shift), at pair p: its entry at p's anchor. -/
theorem gather_den {D : Data} (x : S100000.Idx → EReal) (v : IVec S1015808 32)
    (hv : ∀ p : Fin PPad, v (ix1 p) = BitVec.ofNat 32 (D.iaPad p).val) (p : Fin PPad) :
    Host.gather gather_S100000_S1015808x1_S1015808_n_0_n_n_0_1_1 x
        (broadcastInDim S1015808x1 ![0] bcast_S1015808_S1015808x1_0
          (select (cmpi CmpIPredicate.slt v (broadcastInDim S1015808 ![] bcast_S_S1015808 (constantI S_ 32 0#32)))
            (addi v (broadcastInDim S1015808 ![] bcast_S_S1015808 (constantI S_ 32 100000#32))) v)) (ix1 p)
      = x (ix1 (D.iaPad p)) := by
  have hN : 0 < 100000 := by norm_num
  rw [Cert.Lib1D.gather_elems _ rfl rfl rfl rfl rfl x _ hN p]
  -- the index word at p: the anchor's node number
  have hw : (broadcastInDim S1015808x1 ![0] bcast_S1015808_S1015808x1_0
          (select (cmpi CmpIPredicate.slt v (broadcastInDim S1015808 ![] bcast_S_S1015808 (constantI S_ 32 0#32)))
            (addi v (broadcastInDim S1015808 ![] bcast_S_S1015808 (constantI S_ 32 100000#32))) v)) (StableHlo.Predicate.ixP p)
      = BitVec.ofNat 32 (D.iaPad p).val := by
    rw [col_apply, select_apply]
    show Scalar.select (IntOp.cmpi .slt (v (ix1 p)) 0#32) _ (v (ix1 p)) = _
    rw [hv, shift_node]
  generalize (broadcastInDim S1015808x1 ![0] bcast_S1015808_S1015808x1_0
          (select (cmpi CmpIPredicate.slt v (broadcastInDim S1015808 ![] bcast_S_S1015808 (constantI S_ 32 0#32)))
            (addi v (broadcastInDim S1015808 ![] bcast_S_S1015808 (constantI S_ 32 100000#32))) v)) = idx at hw ⊢
  have hlt : (D.iaPad p).val < 100000 := (D.iaPad p).isLt
  have hr := Cert.Lib1D.rowOf_of_inRange hN idx p (by rw [hw, toInt_node]; omega) (by rw [hw, toInt_node]; omega)
  rw [hw, toInt_node] at hr
  congr 2
  exact Fin.ext (by exact_mod_cast hr)

/-! ## The accumulating stretch: a node's sum of negative exponentials -/

/-- The anchor column is not written between region 0's entry and region 1's. -/
theorem v27_19 : V19 m outs c main_v27 = V16 m c main_v27 := by
  rw [V19_of m outs c main_v27 (by decide), V18_of m outs c main_v27 (by decide), V17_of m outs c main_v27 (by decide)]

theorem v40_18 {D : Data}
    (hn : ∀ p : Fin PPad, (outs 17 main_v30_0 c : S3x1015808.Idx → EReal) (ix2 1 p) = ((D.negPad p : ℝ) : EReal))
    (h27 : ∀ p : Fin PPad, (V16 m c main_v27 : S1015808.Idx → BitVec 32) (ix1 p) = BitVec.ofNat 32 (D.iaPad p).val)
    (r : Fin NN) :
    (V18 m outs c main_v40 : S100000.Idx → EReal) (ix1 r)
      = ((∑ q : Fin PP, if D.ia q = r then D.negAt D.sK c0 q else 0 : ℝ) : EReal) := by
  have e : (V18 m outs c main_v40 : S100000.Idx → EReal)
      = Host.scatterAdd scatter_S100000_S1015808x1_S1015808_n_0_0_1
          (broadcastInDim S100000 ![] bcast_S_S100000 (constant (F := Ideal) S_ .f32 0x00000000#32))
          (broadcastInDim S1015808x1 ![0] bcast_S1015808_S1015808x1_0 (V17 m outs c main_v27 : S1015808.Idx → BitVec 32))
          (shapeCast S1015808 (extractStridedSlice S1x1015808 ![1, 0] (V17 m outs c main_v30_0 : S3x1015808.Idx → EReal)
            slices_S3x1015808_S1x1015808_1_0) shapeCasts_S1x1015808_S1015808) := by
    show StableHlo.after hostOps1 (V17 m outs c) (Proc.devRef .tc main_v40) = _
    after_results
    rfl
  rw [e]
  refine scatter_den _ _ _ (fun _ => ofBits_zero) (fun e => ?_) (fun e => ?_) r
  · rw [col_apply, V17_of m outs c main_v27 (by decide), h27]
  · exact (row_flat _ 1 _ _ e).trans (hn e)

/-- The zero the clamp compares with. -/
theorem cst8_18 : (V18 m outs c main_cst_8 : S_.Idx → EReal) = constant (F := Ideal) S_ .f32 0x00000000#32 := by
  show StableHlo.after hostOps1 (V17 m outs c) (Proc.devRef .tc main_cst_8) = _
  after_results

/-! ## The clamp stretch: a node's denominator -/

/-- The clamp over any earlier contents. -/
theorem v41_of (W : Valuation τ sig (Elt Ideal)) :
    (StableHlo.after hostOps1_1 W (Proc.devRef .tc main_v41) : S100000.Idx → EReal)
      = (maximumf (broadcastInDim S100000 ![] bcast_S_S100000 (W main_cst_8 : S_.Idx → EReal))
          (W main_v40 : S100000.Idx → EReal) : FVec Ideal S100000 .f32) := by
  after_results
  rfl

theorem v41_19 {D : Data}
    (hn : ∀ p : Fin PPad, (outs 17 main_v30_0 c : S3x1015808.Idx → EReal) (ix2 1 p) = ((D.negPad p : ℝ) : EReal))
    (h27 : ∀ p : Fin PPad, (V16 m c main_v27 : S1015808.Idx → BitVec 32) (ix1 p) = BitVec.ofNat 32 (D.iaPad p).val)
    (r : Fin NN) :
    (V19 m outs c main_v41 : S100000.Idx → EReal) (ix1 r) = ((D.denAt D.sK c0 r : ℝ) : EReal) := by
  show (StableHlo.after hostOps1_1 (V18 m outs c) (Proc.devRef .tc main_v41) : S100000.Idx → EReal) (ix1 r) = _
  rw [v41_of (V18 m outs c), maximumf_apply, v40_18 m c outs hn h27 r]
  have h0 : broadcastInDim S100000 ![] bcast_S_S100000 (V18 m outs c main_cst_8 : S_.Idx → EReal) (ix1 r)
      = ((0 : ℝ) : EReal) := by
    rw [cst8_18]; exact ofBits_zero
  rw [h0, Cert.IdealReal.emax_coe]
  rfl

/-! ## The last stretch: the denominators read back at the pairs' anchors -/

/-- The shift, the gather and the reshape over any earlier contents. -/
theorem v50_of (W : Valuation τ sig (Elt Ideal)) :
    (StableHlo.after hostOps1_2 W (Proc.devRef .tc main_v50) : S1x1015808.Idx → EReal)
      = shapeCast S1x1015808 (Host.gather gather_S100000_S1015808x1_S1015808_n_0_n_n_0_1_1 (W main_v41 : S100000.Idx → EReal)
          (broadcastInDim S1015808x1 ![0] bcast_S1015808_S1015808x1_0
            (select (cmpi CmpIPredicate.slt (W main_v27 : S1015808.Idx → BitVec 32)
                (broadcastInDim S1015808 ![] bcast_S_S1015808 (constantI S_ 32 0#32)))
              (addi (W main_v27 : S1015808.Idx → BitVec 32) (broadcastInDim S1015808 ![] bcast_S_S1015808 (constantI S_ 32 100000#32)))
              (W main_v27 : S1015808.Idx → BitVec 32))))
          shapeCasts_S1015808_S1x1015808 := by
  after_results
  rfl

theorem v50_apply {D : Data}
    (hn : ∀ p : Fin PPad, (outs 17 main_v30_0 c : S3x1015808.Idx → EReal) (ix2 1 p) = ((D.negPad p : ℝ) : EReal))
    (h27 : ∀ p : Fin PPad, (V16 m c main_v27 : S1015808.Idx → BitVec 32) (ix1 p) = BitVec.ofNat 32 (D.iaPad p).val)
    (p : Fin PPad) : (V20 m outs c main_v50 : S1x1015808.Idx → EReal) (ix2 0 p) = ((D.denPad p : ℝ) : EReal) := by
  have hv : ∀ q : Fin PPad, (V19 m outs c main_v27 : S1015808.Idx → BitVec 32) (ix1 q) = BitVec.ofNat 32 (D.iaPad q).val := by
    intro q; rw [v27_19]; exact h27 q
  show (StableHlo.after hostOps1_2 (V19 m outs c) (Proc.devRef .tc main_v50) : S1x1015808.Idx → EReal) (ix2 0 p) = _
  rw [v50_of (V19 m outs c), flat_row, gather_den (D := D) _ _ hv p]
  exact v41_19 m c outs hn h27 (D.iaPad p)

end Cert.KernelIdeal.KV

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KV.Reg1Cover.lean ====
/-
  Region 1 of the kernel program (its second kernel call), the part that does not depend on the arithmetic.

  The region runs 62 grid points. Its two output arrays are one block each, written back at the last point only, and
  that block is the whole [1 × 64] array: so each output array ends holding the corresponding carried row after all 62 points.
  A carried row starts as the zero row and each point adds its partial sum to it: so after n points, at column k, it is the
  left fold of the addition over the first n points' partial sums at k, from zero; over the extended reals that fold is the
  finite sum. An input window's block at point t is the stretch of 16384 consecutive columns of its one-row array that
  starts at column 16384 · t, and the grid's one coordinate at point t is t.
-/
import proofs.«413937_j37383395344507_3_alg».proof.Proof.KI.Reg1
import Idealize.ShloMosaic.Lib.Pipeline.Value
import Idealize.ShloMosaic.Lib.ValueIdx
import Idealize.ShloMosaic.PureOps.Ideal
import proofs.«413937_j37383395344507_3_alg».proof.Proof.Consts

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-! ## The output arrays after the region -/

/-- The grid's last point. -/
abbrev tLast1 : Fin cfg1.N := ⟨61, by rw [show cfg1.N = 62 from N_1]; omega⟩

/-- A point that writes an output window back is the last. -/
theorem eq_last_of_flush1_4 (t : Fin cfg1.N) (hf : (cfg1.win 4).flush t = true) : t = tLast1 := by
  have hN : cfg1.N = 62 := N_1
  have h1 := (flush1_4 t).mp hf
  have h2 := t.isLt
  exact Fin.ext (by show t.val = 61; omega)

theorem eq_last_of_flush1_5 (t : Fin cfg1.N) (hf : (cfg1.win 5).flush t = true) : t = tLast1 := by
  have hN : cfg1.N = 62 := N_1
  have h1 := (flush1_5 t).mp hf
  have h2 := t.isLt
  exact Fin.ext (by show t.val = 61; omega)

/-- Output window 4's one block starts at the array's origin, at every point. -/
theorem off1_4 (t : Fin cfg1.N) : (fun a => win1_4.index t a * main_v53_0.ty.shape.size a) = fun _ => 0 :=
  funext fun a => by fin_cases a <;> rfl

theorem off1_5 (t : Fin cfg1.N) : (fun a => win1_5.index t a * main_v53_1.ty.shape.size a) = fun _ => 0 :=
  funext fun a => by fin_cases a <;> rfl

/-- What the last point writes back of the first output is the first carried row after all 62 points, and that is the
    block of it read through the array's window. -/
theorem flushed1_4_eq (c : Dev nD) (G : Buf (Elt F) ((c : Thread nD τ).loc main_v53_0)) (hG : G = (sAt1 V c 62).1)
    (t : Fin cfg1.N) (hf : (cfg1.win 4).flush t = true) :
    (dat1 V c).flushed 4 t = ((cfg1.win 4).blk t).view.read (Elt F) G := by
  obtain rfl := eq_last_of_flush1_4 t hf
  show (cfg1.win 4).cut (grid1.coords tLast1) ((dat1 V c).after 4 tLast1) = _
  rw [after1_4, hG]
  exact (Memref.read_access_unit_zero (Elt F) main_v53_0 (off1_4 tLast1) (fun a => by rw [congrFun (off1_4 tLast1) a]; simp) _).symm

theorem flushed1_5_eq (c : Dev nD) (G : Buf (Elt F) ((c : Thread nD τ).loc main_v53_1)) (hG : G = (sAt1 V c 62).2)
    (t : Fin cfg1.N) (hf : (cfg1.win 5).flush t = true) :
    (dat1 V c).flushed 5 t = ((cfg1.win 5).blk t).view.read (Elt F) G := by
  obtain rfl := eq_last_of_flush1_5 t hf
  show (cfg1.win 5).cut (grid1.coords tLast1) ((dat1 V c).after 5 tLast1) = _
  rw [after1_5, hG]
  exact (Memref.read_access_unit_zero (Elt F) main_v53_1 (off1_5 tLast1) (fun a => by rw [congrFun (off1_5 tLast1) a]; simp) _).symm

/-- The first output array after the region: the first carried row after all 62 points. -/
theorem arrAt4_eq (c : Dev nD) :
    (dat1 V c).arrAt 4 cfg1.N = ((sAt1 V c 62).1 : Buf (Elt F) ((c : Thread nD τ).loc main_v53_0)) :=
  (dat1 V c).arrAt_eq_of_cover 4 _ (flushed1_4_eq V c _ rfl) fun i =>
    ⟨tLast1, (flush1_4 tLast1).mpr rfl, by
      show i ∈ ((View.whole main_v53_0).slice (win1_4.rect tLast1)).set
      rw [View.set_slice_whole, Rect.mem_set_unit]
      intro a
      have h0 : (i 0 : Nat) < 1 := (i 0).isLt
      have h1 : (i 1 : Nat) < 64 := (i 1).isLt
      match a with
      | ⟨0, _⟩ =>
        show win1_4.index tLast1 0 * win1_4.size 0 ≤ (i 0 : Nat) ∧ (i 0 : Nat) < win1_4.index tLast1 0 * win1_4.size 0 + win1_4.xsize (grid1.coords tLast1) 0
        rw [show win1_4.index tLast1 0 * win1_4.size 0 = 0 from rfl, show win1_4.xsize (grid1.coords tLast1) 0 = 1 from rfl]; omega
      | ⟨1, _⟩ =>
        show win1_4.index tLast1 1 * win1_4.size 1 ≤ (i 1 : Nat) ∧ (i 1 : Nat) < win1_4.index tLast1 1 * win1_4.size 1 + win1_4.xsize (grid1.coords tLast1) 1
        rw [show win1_4.index tLast1 1 * win1_4.size 1 = 0 from rfl, show win1_4.xsize (grid1.coords tLast1) 1 = 64 from rfl]; omega⟩

/-- The second output array after the region: the second carried row after all 62 points. -/
theorem arrAt5_eq (c : Dev nD) :
    (dat1 V c).arrAt 5 cfg1.N = ((sAt1 V c 62).2 : Buf (Elt F) ((c : Thread nD τ).loc main_v53_1)) :=
  (dat1 V c).arrAt_eq_of_cover 5 _ (flushed1_5_eq V c _ rfl) fun i =>
    ⟨tLast1, (flush1_5 tLast1).mpr rfl, by
      show i ∈ ((View.whole main_v53_1).slice (win1_5.rect tLast1)).set
      rw [View.set_slice_whole, Rect.mem_set_unit]
      intro a
      have h0 : (i 0 : Nat) < 1 := (i 0).isLt
      have h1 : (i 1 : Nat) < 64 := (i 1).isLt
      match a with
      | ⟨0, _⟩ =>
        show win1_5.index tLast1 0 * win1_5.size 0 ≤ (i 0 : Nat) ∧ (i 0 : Nat) < win1_5.index tLast1 0 * win1_5.size 0 + win1_5.xsize (grid1.coords tLast1) 0
        rw [show win1_5.index tLast1 0 * win1_5.size 0 = 0 from rfl, show win1_5.xsize (grid1.coords tLast1) 0 = 1 from rfl]; omega
      | ⟨1, _⟩ =>
        show win1_5.index tLast1 1 * win1_5.size 1 ≤ (i 1 : Nat) ∧ (i 1 : Nat) < win1_5.index tLast1 1 * win1_5.size 1 + win1_5.xsize (grid1.coords tLast1) 1
        rw [show win1_5.index tLast1 1 * win1_5.size 1 = 0 from rfl, show win1_5.xsize (grid1.coords tLast1) 1 = 64 from rfl]; omega⟩

/-! ## The carried rows as folds over the points -/

/-- One point's addition, at a column: the carried entry plus the point's partial sum there. -/
theorem pay1_apply (p acc : Vec F S1x64 .f32) (i : S1x64.Idx) : k1_pay1 p acc i = FloatOps.addf (acc i) (p i) := by
  show shapeCast S1x64 (addf acc p) shapeCasts_S1x64_S1x64 i = _
  rw [shapeCast_self]; rfl

theorem pay2_apply (p acc : Vec F S1x64 .f32) (i : S1x64.Idx) : k1_pay2 p acc i = FloatOps.addf (acc i) (p i) := by
  show shapeCast S1x64 (addf acc p) shapeCasts_S1x64_S1x64 i = _
  rw [shapeCast_self]; rfl

/-- The rows the first point starts from: the zero word in every column. -/
theorem pay3_apply (i : S1x64.Idx) : k1_pay3 (F := F) i = Scalar.ofBits .f32 0x00000000#32 := by
  show shapeCast S1x64 (broadcast S1x64 (Scalar.ofBits (F := F) .f32 0x00000000#32)) shapeCasts_S1x64_S1x64 i = _
  rw [shapeCast_self]; rfl

theorem pay4_apply (i : S1x64.Idx) : k1_pay4 (F := F) i = Scalar.ofBits .f32 0x00000000#32 := by
  show shapeCast S1x64 (broadcast S1x64 (Scalar.ofBits (F := F) .f32 0x00000000#32)) shapeCasts_S1x64_S1x64 i = _
  rw [shapeCast_self]; rfl

/-- One of the first n ≤ 62 points, as a point of the grid. -/
abbrev pt1 {n : ℕ} (hn : n ≤ 62) (t : Fin n) : Fin cfg1.N :=
  ⟨t.val, by rw [show cfg1.N = 62 from N_1]; exact lt_of_lt_of_le t.isLt hn⟩

/-- The first carried row after n points, at a column: the left fold of the addition over the first n points' first
    partial sums at that column, from the zero word. -/
theorem sAt1_fst_apply (c : Dev nD) (i : S1x64.Idx) : ∀ (n : ℕ) (hn : n ≤ 62),
    (sAt1 V c n).1 i
      = Fin.foldl n (fun acc (t : Fin n) => FloatOps.addf acc ((part1 V c (pt1 hn t)).1 i)) (Scalar.ofBits .f32 0x00000000#32)
  | 0, _ => by rw [sAt1_zero, Fin.foldl_zero]; exact pay3_apply i
  | n + 1, hn => by
    have hlt : n < cfg1.N := by rw [show cfg1.N = 62 from N_1]; omega
    rw [Fin.foldl_succ_last, show sAt1 V c (n + 1) = _ from sAt1_succ V c ⟨n, hlt⟩]
    show k1_pay1 (part1 V c ⟨n, hlt⟩).1 (sAt1 V c n).1 i = _
    rw [pay1_apply, sAt1_fst_apply c i n (by omega)]
    rfl

/-- The same for the second carried row and the second partial sums. -/
theorem sAt1_snd_apply (c : Dev nD) (i : S1x64.Idx) : ∀ (n : ℕ) (hn : n ≤ 62),
    (sAt1 V c n).2 i
      = Fin.foldl n (fun acc (t : Fin n) => FloatOps.addf acc ((part1 V c (pt1 hn t)).2 i)) (Scalar.ofBits .f32 0x00000000#32)
  | 0, _ => by rw [sAt1_zero, Fin.foldl_zero]; exact pay4_apply i
  | n + 1, hn => by
    have hlt : n < cfg1.N := by rw [show cfg1.N = 62 from N_1]; omega
    rw [Fin.foldl_succ_last, show sAt1 V c (n + 1) = _ from sAt1_succ V c ⟨n, hlt⟩]
    show k1_pay2 (part1 V c ⟨n, hlt⟩).2 (sAt1 V c n).2 i = _
    rw [pay2_apply, sAt1_snd_apply c i n (by omega)]
    rfl

/-! ## The input blocks read off their arrays -/

/-- The grid's one coordinate at point t is t. -/
theorem coord1 (t : Fin cfg1.N) : ((grid1.coords t) 0).val = t.val := by
  have ht : t.val < 62 := lt_of_lt_of_eq t.isLt N_1
  show t.val / grid1.stride 0 % 62 = t.val
  rw [show grid1.stride 0 = 1 from by decide, Nat.div_one, Nat.mod_eq_of_lt ht]

/-- A column of a point's block is a column of the padded one-row array. -/
theorem col_lt1 (t : Fin cfg1.N) (q : Fin 16384) : t.val * 16384 + q.val < 1015808 := by
  have ht : t.val < 62 := lt_of_lt_of_eq t.isLt N_1
  have hq := q.isLt
  omega

/-- The grid coordinate as a 32-bit word, read back as a number, is the point. -/
theorem word1 (t : Fin cfg1.N) : (BitVec.ofNat 32 ((grid1.coords t) 0).val).toNat = t.val := by
  have ht : t.val < 62 := lt_of_lt_of_eq t.isLt N_1
  rw [coord1, BitVec.toNat_ofNat]
  omega

/-- Input window 0's block at point t: columns 16384 · t onward of the array of the pairs' exponentials. -/
theorem iblk1_0_apply (c : Dev nD) (t : Fin cfg1.N) (q : Fin 16384) (h : t.val * 16384 + q.val < 1015808) :
    iblk1 V c 0 t (ix2 0 q) = (V c main_v49 : S1x1015808.Idx → Elt F .f32) (ix2 0 ⟨t.val * 16384 + q.val, h⟩) := by
  have e1 : win1_0.index t (1 : Fin 2) = t.val := word1 t
  show (V c main_v49 : S1x1015808.Idx → Elt F .f32) (((cfg1.win 0).blk t).view.emb (ix2 0 q)) = _
  refine congrArg _ ?_
  funext a; apply Fin.ext
  match a with
  | ⟨0, _⟩ => rfl
  | ⟨1, _⟩ => show win1_0.index t (1 : Fin 2) * 16384 + 1 * q.val = t.val * 16384 + q.val; omega

/-- Input window 1's block: the same stretch of the array of the anchors' denominators. -/
theorem iblk1_1_apply (c : Dev nD) (t : Fin cfg1.N) (q : Fin 16384) (h : t.val * 16384 + q.val < 1015808) :
    iblk1 V c 1 t (ix2 0 q) = (V c main_v50 : S1x1015808.Idx → Elt F .f32) (ix2 0 ⟨t.val * 16384 + q.val, h⟩) := by
  have e1 : win1_1.index t (1 : Fin 2) = t.val := word1 t
  show (V c main_v50 : S1x1015808.Idx → Elt F .f32) (((cfg1.win 1).blk t).view.emb (ix2 0 q)) = _
  refine congrArg _ ?_
  funext a; apply Fin.ext
  match a with
  | ⟨0, _⟩ => rfl
  | ⟨1, _⟩ => show win1_1.index t (1 : Fin 2) * 16384 + 1 * q.val = t.val * 16384 + q.val; omega

/-- Input window 2's block: the same stretch of the array of the pairs' weights. -/
theorem iblk1_2_apply (c : Dev nD) (t : Fin cfg1.N) (q : Fin 16384) (h : t.val * 16384 + q.val < 1015808) :
    iblk1 V c 2 t (ix2 0 q) = (V c main_v51 : S1x1015808.Idx → Elt F .f32) (ix2 0 ⟨t.val * 16384 + q.val, h⟩) := by
  have e1 : win1_2.index t (1 : Fin 2) = t.val := word1 t
  show (V c main_v51 : S1x1015808.Idx → Elt F .f32) (((cfg1.win 2).blk t).view.emb (ix2 0 q)) = _
  refine congrArg _ ?_
  funext a; apply Fin.ext
  match a with
  | ⟨0, _⟩ => rfl
  | ⟨1, _⟩ => show win1_2.index t (1 : Fin 2) * 16384 + 1 * q.val = t.val * 16384 + q.val; omega

/-- Input window 3's block: the same stretch of the array of the pairs' label words. -/
theorem iblk1_3_apply (c : Dev nD) (t : Fin cfg1.N) (q : Fin 16384) (h : t.val * 16384 + q.val < 1015808) :
    iblk1 V c 3 t (ix2 0 q) = (V c main_v52 : S1x1015808.Idx → Elt F .i32) (ix2 0 ⟨t.val * 16384 + q.val, h⟩) := by
  have e1 : win1_3.index t (1 : Fin 2) = t.val := word1 t
  show (V c main_v52 : S1x1015808.Idx → Elt F .i32) (((cfg1.win 3).blk t).view.emb (ix2 0 q)) = _
  refine congrArg _ ?_
  funext a; apply Fin.ext
  match a with
  | ⟨0, _⟩ => rfl
  | ⟨1, _⟩ => show win1_3.index t (1 : Fin 2) * 16384 + 1 * q.val = t.val * 16384 + q.val; omega

/-! ## Over the extended reals the fold is the finite sum -/

/-- A left fold of the addition of extended reals over the first n indices is the start plus their sum. -/
theorem foldl_add_eq_sum : ∀ (n : ℕ) (g : Fin n → EReal) (z : EReal),
    Fin.foldl n (fun acc t => acc + g t) z = z + ∑ t, g t
  | 0, g, z => by rw [Fin.foldl_zero, Finset.univ_eq_empty, Finset.sum_empty, add_zero]
  | n + 1, g, z => by
    rw [Fin.foldl_succ_last, Fin.sum_univ_castSucc, ← add_assoc]
    exact congrArg (· + g (Fin.last n)) (foldl_add_eq_sum n (fun t => g t.castSucc) z)

section AtIdeal
variable (VI : (c : Dev nD) → (b : Ref sig .tc) → Buf (Elt Ideal) ((c : Thread nD τ).loc b))

/-- Over the extended reals: the first carried row after n points, at a column, is the sum of the first n points' first
    partial sums at that column (the zero word denotes 0). -/
theorem sAt1_fst_sum (c : Dev nD) (i : S1x64.Idx) (n : ℕ) (hn : n ≤ 62) :
    (sAt1 (F := Ideal) VI c n).1 i = ∑ t : Fin n, (part1 (F := Ideal) VI c (pt1 hn t)).1 i := by
  rw [sAt1_fst_apply VI c i n hn]
  show Fin.foldl n (fun acc (t : Fin n) => acc + (part1 (F := Ideal) VI c (pt1 hn t)).1 i)
    (Ideal.ofBits .f32 0x00000000#32) = _
  rw [foldl_add_eq_sum, Cert.Spec.ofBits_zero, EReal.coe_zero, zero_add]

theorem sAt1_snd_sum (c : Dev nD) (i : S1x64.Idx) (n : ℕ) (hn : n ≤ 62) :
    (sAt1 (F := Ideal) VI c n).2 i = ∑ t : Fin n, (part1 (F := Ideal) VI c (pt1 hn t)).2 i := by
  rw [sAt1_snd_apply VI c i n hn]
  show Fin.foldl n (fun acc (t : Fin n) => acc + (part1 (F := Ideal) VI c (pt1 hn t)).2 i)
    (Ideal.ofBits .f32 0x00000000#32) = _
  rw [foldl_add_eq_sum, Cert.Spec.ofBits_zero, EReal.coe_zero, zero_add]

/-- So each output array after the region, at a column, is the sum over the 62 points of the points' partial sums there. -/
theorem arrAt4_sum (c : Dev nD) (i : S1x64.Idx) :
    ((dat1 (F := Ideal) VI c).arrAt 4 cfg1.N : S1x64.Idx → EReal) i
      = ∑ t : Fin 62, (part1 (F := Ideal) VI c (pt1 (le_refl 62) t)).1 i := by
  rw [arrAt4_eq VI c]; exact sAt1_fst_sum VI c i 62 (le_refl 62)

theorem arrAt5_sum (c : Dev nD) (i : S1x64.Idx) :
    ((dat1 (F := Ideal) VI c).arrAt 5 cfg1.N : S1x64.Idx → EReal) i
      = ∑ t : Fin 62, (part1 (F := Ideal) VI c (pt1 (le_refl 62) t)).2 i := by
  rw [arrAt5_eq VI c]; exact sAt1_snd_sum VI c i 62 (le_refl 62)

end AtIdeal

end Cert.KernelIdeal.Hand

end
-- ==== Proof.KV.Reg1Val.lean ====
/-
  What the second kernel region leaves in its two output rows: the per-label sums of the positive pairs' losses and the
  per-label counts of positive pairs.

  A grid point t of the region reads lanes 16384·t … 16384·t + 16383 of four padded rows (a pair's exponential e, its anchor's
  denominator d, its weight w, its label word) and adds, to two carried rows of 64 entries, the products of a masked
  [1 × 16384] row with the [16384 × 64] one-hot matrix of the label words: entry k of the first product is the sum over the
  lanes q with w q > 1/2 and 16384·t + q < 1000000 and label k of log (e q + d q) − log (e q); entry k of the second is the sum
  over the lanes q with 16384·t + q < 1000000 and label k of w q. After the 62 points the carried rows hold the sums over all
  1015808 padded lanes; the 15808 lanes past the real pairs add nothing; so the rows are the sums over the 1000000 pairs.
-/
import proofs.«413937_j37383395344507_3_alg».proof.Proof.KV.Basic
import proofs.«413937_j37383395344507_3_alg».proof.Proof.Gen.KernelIdeal.Skeleton
import proofs.«413937_j37383395344507_3_alg».proof.Proof.LibDense
import proofs.«413937_j37383395344507_3_alg».proof.Proof.LibLinear
import proofs.«413937_j37383395344507_3_alg».proof.Proof.Math
import proofs.«413937_j37383395344507_3_alg».proof.Proof.Consts
import Idealize.ShloMosaic.Lib.ValueIdx
import Idealize.ShloMosaic.Lib.ValueLayout
import Idealize.ShloMosaic.Lib.Pipeline.Value
import Idealize.ShloMosaic.Lib.StableHlo.Predicate
import proofs.«413937_j37383395344507_3_alg».proof.Proof.IdealReal
import proofs.«413937_j37383395344507_3_alg».proof.Proof.KI.Reg1
import proofs.«413937_j37383395344507_3_alg».proof.Proof.KV.Reg1Cover
import Mathlib.Algebra.BigOperators.Fin
import Mathlib.Logic.Equiv.Fin.Basic

set_option maxRecDepth 16384

noncomputable section

namespace Cert.KernelIdeal.KV

open Cert.KernelIdeal Cert.KernelIdeal.Gen Cert.Spec Idealize.ShloMosaic Idealize.ShloMosaic.TcCoe Idealize.SL.Sem
open Idealize.ShloMosaic.ValueIdx
open scoped Classical

namespace Reg1

/-! ## The payloads of one grid point, read at an index -/

/-- The lane mask: lane q of point i is a real pair's. -/
theorem pay6_apply (i : grid1.Coords) (q : Fin 16384) :
    k1_pay6 i (ix1 q) = 1#1 ↔ (i 0).val * 16384 + q.val < 1000000 := by
  have hi : (i 0).val < 62 := (i 0).isLt
  have hq : q.val < 16384 := q.isLt
  have e1 : k1_pay6 i (ix1 q)
      = IntOp.cmpi .slt (BitVec.ofNat 32 (i 0).val * 16384#32 + BitVec.ofNat 32 q.val) 1000000#32 := by
    unfold k1_pay6
    show IntOp.cmpi .slt (IntOp.addi (IntOp.muli (BitVec.ofNat 32 (i 0).val) 16384#32)
      (shapeCast S16384 (iota .tc S1x16384 32 [1] iota_S1x16384_d1_w32) shapeCasts_S1x16384_S16384 (ix1 q))) 1000000#32 = _
    rw [shapeCast_1a_a_apply, iota_single_apply]
    rfl
  rw [e1, StableHlo.Predicate.slt_iff_toNat]
  · simp only [BitVec.toNat_add, BitVec.toNat_mul, BitVec.toNat_ofNat]
    omega
  · simp only [BitVec.toNat_add, BitVec.toNat_mul, BitVec.toNat_ofNat]
    omega
  · decide

/-- The one-hot matrix of the label words: entry (q, k) is 1 when lane q's label word is k, else 0. -/
theorem pay7_apply (v9 : Vec Ideal S1x16384 .i32) (q : Fin 16384) (k : Fin 64) :
    (k1_pay7 (F := Ideal) v9 : S16384x64.Idx → EReal) (ix2 q k)
      = if v9 (ix2 0 q) = BitVec.ofNat 32 k.val then ((1 : ℝ) : EReal) else ((0 : ℝ) : EReal) := by
  have e1 : (k1_pay7 (F := Ideal) v9 : S16384x64.Idx → EReal) (ix2 q k)
      = FloatOps.sitofp (F := Ideal) .f32 ((IntOp.cmpi .eq (BitVec.ofNat 32 k.val) (v9 (ix2 0 q))).setWidth 32) := by
    unfold k1_pay7
    show FloatOps.sitofp (F := Ideal) .f32 ((IntOp.cmpi .eq (iota .tc S16384x64 32 [1] iota_S16384x64_d1_w32 (ix2 q k))
      (broadcastTo S16384x64 (shapeCast S16384x1 (shapeCast S16384 v9 shapeCasts_S1x16384_S16384) shapeCasts_S16384_S16384x1)
        broadcasts_S16384x1_S16384x64 (ix2 q k))).setWidth 32) = _
    rw [iota_single_apply,
      broadcastTo_apply _ broadcasts_S16384x1_S16384x64 (ix2 q k) (ix2 q (0 : Fin 1))
        (fun a => match a with | ⟨0, _⟩ => rfl | ⟨1, _⟩ => rfl),
      shapeCast_apply _ shapeCasts_S16384_S16384x1 (ix2 q (0 : Fin 1)) (ix1 q)
        (by rw [Shape.rowMajor_val_one, Shape.rowMajor_val_two]; show q.val = q.val * 1 + 0; omega),
      shapeCast_1a_a_apply]
  rw [e1]
  by_cases h : v9 (ix2 0 q) = BitVec.ofNat 32 k.val
  · rw [if_pos h, IntOp.cmpi_eq.mpr h.symm]
    exact Cert.IdealReal.sitofp_extui_one_coe
  · rw [if_neg h, eq_zero_of_ne_one (fun hc => h (IntOp.cmpi_eq.mp hc).symm)]
    exact Cert.IdealReal.sitofp_extui_zero_coe

/-- A select on the conjunction of two one-bit conditions. -/
theorem select_andi {α : Type} (b1 b2 : BitVec 1) (a z : α) :
    Scalar.select (IntOp.andi b1 b2) a z = if b1 = 1#1 ∧ b2 = 1#1 then a else z := by
  by_cases h : b1 = 1#1 ∧ b2 = 1#1
  · rw [if_pos h]; exact if_pos (IntOp.andi_eq_one.mpr h)
  · rw [if_neg h]; exact if_neg (fun hc => h (IntOp.andi_eq_one.mp hc))

/-- A bit chosen by a proposition is 1 exactly when the proposition holds. -/
theorem ite_bit_eq_one (p : Prop) [Decidable p] : (if p then 1#1 else 0#1 : BitVec 1) = 1#1 ↔ p := by
  by_cases h : p
  · rw [if_pos h]; exact ⟨fun _ => h, fun _ => rfl⟩
  · rw [if_neg h]; exact ⟨fun hc => absurd hc (by decide), fun hp => absurd hp h⟩

/-- A product of two choices between reals, taken in the extended reals, is the real product. -/
theorem ite_mul_ite_coe (p q : Prop) [Decidable p] [Decidable q] (a b c d : ℝ) :
    (if p then ((a : ℝ) : EReal) else ((b : ℝ) : EReal)) * (if q then ((c : ℝ) : EReal) else ((d : ℝ) : EReal))
      = (((if p then a else b) * (if q then c else d) : ℝ) : EReal) := by
  split_ifs <;> rw [EReal.coe_mul]

section Lanes
variable (i : grid1.Coords) (v3 v5 v7 : Vec Ideal S1x16384 .f32) (v9 : Vec Ideal S1x16384 .i32)
variable (e d w : Fin 16384 → ℝ)

/-- A lane's term of the first product: the loss where the weight is above 1/2 and the lane a real pair's, else 0. -/
def lossLane (q : Fin 16384) : ℝ :=
  if 1 / 2 < w q ∧ (i 0).val * 16384 + q.val < 1000000 then Real.log (e q + d q) - Real.log (e q) else 0

/-- A lane's term of the second product: the weight where the lane is a real pair's, else 0. -/
def wLane (q : Fin 16384) : ℝ := if (i 0).val * 16384 + q.val < 1000000 then w q else 0

/-- The one-hot entry as a real. -/
def hot (q : Fin 16384) (k : Fin 64) : ℝ := if v9 (ix2 0 q) = BitVec.ofNat 32 k.val then 1 else 0

/-- THE FIRST PRODUCT at entry k: the sum over the lanes of the masked loss times the one-hot entry. -/
theorem pay8_apply (h3 : ∀ q, v3 (ix2 0 q) = ((e q : ℝ) : EReal)) (h5 : ∀ q, v5 (ix2 0 q) = ((d q : ℝ) : EReal))
    (h7 : ∀ q, v7 (ix2 0 q) = ((w q : ℝ) : EReal)) (he : ∀ q, 0 < e q) (hd : ∀ q, 0 ≤ d q) (k : Fin 64) :
    (k1_pay8 (F := Ideal) i v3 v5 v7 v9 : S1x64.Idx → EReal) (ix2 0 k)
      = ((∑ q : Fin 16384, lossLane i e d w q * hot v9 q k : ℝ) : EReal) := by
  have e0 : k1_pay8 (F := Ideal) i v3 v5 v7 v9
      = FloatOps.matmul dot_S1x16384_S16384x64_S1x64_1_0_0_1_n_n none
          (shapeCast S1x16384
            (select (andi (cmpf .ogt (k1_pay5 (F := Ideal) v7) (broadcast S16384 (Scalar.ofBits (F := Ideal) .f32 0x3F000000#32))) (k1_pay6 i))
              (subf (log (addf (shapeCast S16384 v3 shapeCasts_S1x16384_S16384) (shapeCast S16384 v5 shapeCasts_S1x16384_S16384)))
                (log (shapeCast S16384 v3 shapeCasts_S1x16384_S16384)))
              (broadcast S16384 (Scalar.ofBits (F := Ideal) .f32 0x00000000#32)))
            shapeCasts_S16384_S1x16384)
          (k1_pay7 (F := Ideal) v9) (constant S1x64 .f32 0x00000000#32) := rfl
  rw [e0, Cert.LibDense.matmul_zero_apply (M := 1) (K := 16384) (N := 64) dot_S1x16384_S16384x64_S1x64_1_0_0_1_n_n none rfl rfl rfl rfl rfl rfl]
  refine Cert.IdealReal.sum_eq_coe _ _ _ (fun q _ => ?_)
  rw [pay7_apply, shapeCast_a_1a_apply]
  show Scalar.select (IntOp.andi (FloatOps.cmpf .ogt (shapeCast S16384 v7 shapeCasts_S1x16384_S16384 (ix1 q)) (FloatOps.ofBits (F := Ideal) .f32 0x3F000000#32)) (k1_pay6 i (ix1 q)))
      (FloatOps.subf (FloatOps.log (FloatOps.addf (shapeCast S16384 v3 shapeCasts_S1x16384_S16384 (ix1 q)) (shapeCast S16384 v5 shapeCasts_S1x16384_S16384 (ix1 q))))
        (FloatOps.log (shapeCast S16384 v3 shapeCasts_S1x16384_S16384 (ix1 q))))
      (FloatOps.ofBits (F := Ideal) .f32 0x00000000#32) * _ = _
  rw [shapeCast_1a_a_apply, shapeCast_1a_a_apply, shapeCast_1a_a_apply, h3, h5, h7, select_andi,
    Cert.IdealReal.ofBits_half_coe, Cert.IdealReal.ofBits_zero_coe, Cert.IdealReal.addf_coe,
    Cert.IdealReal.log_coe (add_pos_of_pos_of_nonneg (he q) (hd q)), Cert.IdealReal.log_coe (he q), Cert.IdealReal.subf_coe]
  unfold lossLane hot
  by_cases hc : 1 / 2 < w q ∧ (i 0).val * 16384 + q.val < 1000000
  · rw [if_pos (⟨Cert.IdealReal.cmpf_ogt_coe_of_lt hc.1, (pay6_apply i q).mpr hc.2⟩ :
        FloatOps.cmpf (F := Ideal) (φ := .f32) .ogt ((w q : ℝ) : EReal) (((1 : ℝ) / 2 : ℝ) : EReal) = 1#1 ∧ k1_pay6 i (ix1 q) = 1#1),
      if_pos hc]
    split_ifs <;> rw [EReal.coe_mul]
  · have hb : ¬(FloatOps.cmpf (F := Ideal) (φ := .f32) .ogt ((w q : ℝ) : EReal) (((1 : ℝ) / 2 : ℝ) : EReal) = 1#1
        ∧ k1_pay6 i (ix1 q) = 1#1) := by
      rintro ⟨h1, h2⟩
      refine hc ⟨?_, (pay6_apply i q).mp h2⟩
      by_contra hn
      rw [Cert.IdealReal.cmpf_ogt_coe_of_not_lt hn] at h1
      exact absurd h1 (by decide)
    rw [if_neg hb, if_neg hc]
    split_ifs <;> rw [EReal.coe_mul]

/-- THE SECOND PRODUCT at entry k: the sum over the lanes of the masked weight times the one-hot entry. -/
theorem pay9_apply (h7 : ∀ q, v7 (ix2 0 q) = ((w q : ℝ) : EReal)) (k : Fin 64) :
    (k1_pay9 (F := Ideal) i v7 v9 : S1x64.Idx → EReal) (ix2 0 k)
      = ((∑ q : Fin 16384, wLane i w q * hot v9 q k : ℝ) : EReal) := by
  have e0 : k1_pay9 (F := Ideal) i v7 v9
      = FloatOps.matmul dot_S1x16384_S16384x64_S1x64_1_0_0_1_n_n none
          (shapeCast S1x16384
            (select (k1_pay6 i) (k1_pay5 (F := Ideal) v7) (broadcast S16384 (Scalar.ofBits (F := Ideal) .f32 0x00000000#32)))
            shapeCasts_S16384_S1x16384)
          (k1_pay7 (F := Ideal) v9) (constant S1x64 .f32 0x00000000#32) := rfl
  rw [e0, Cert.LibDense.matmul_zero_apply (M := 1) (K := 16384) (N := 64) dot_S1x16384_S16384x64_S1x64_1_0_0_1_n_n none rfl rfl rfl rfl rfl rfl]
  refine Cert.IdealReal.sum_eq_coe _ _ _ (fun q _ => ?_)
  rw [pay7_apply, shapeCast_a_1a_apply]
  show Scalar.select (k1_pay6 i (ix1 q)) (shapeCast S16384 v7 shapeCasts_S1x16384_S16384 (ix1 q))
      (FloatOps.ofBits (F := Ideal) .f32 0x00000000#32) * _ = _
  rw [shapeCast_1a_a_apply, h7, Cert.IdealReal.ofBits_zero_coe]
  unfold wLane hot
  by_cases hl : (i 0).val * 16384 + q.val < 1000000
  · rw [(pay6_apply i q).mpr hl, select_one, if_pos hl]
    split_ifs <;> rw [EReal.coe_mul]
  · rw [eq_zero_of_ne_one (fun hc => hl ((pay6_apply i q).mp hc)), select_zero, if_neg hl]
    split_ifs <;> rw [EReal.coe_mul]

end Lanes

/-! ## The sums over the padded pairs -/

section Padded
variable (D : Data)

/-- A padded pair's masked loss: its loss where its weight is above 1/2 and it is a real pair, else 0. -/
def lossP (p : Fin PPad) : ℝ :=
  if 1 / 2 < D.wPad p ∧ p.val < 1000000 then Real.log (D.ePad p + D.denPad p) - Real.log (D.ePad p) else 0

/-- A padded pair's masked weight. -/
def wP (p : Fin PPad) : ℝ := if p.val < 1000000 then D.wPad p else 0

/-- Whether a padded pair's label word is k, as a real. -/
def hotP (p : Fin PPad) (k : Fin CC) : ℝ := if D.labPad p = BitVec.ofNat 32 k.val then 1 else 0

/-- Two labels' words are equal exactly when the labels are: both are below 2^32. -/
theorem labWord_eq_iff (a k : Fin CC) : BitVec.ofNat 32 a.val = BitVec.ofNat 32 k.val ↔ a = k := by
  have ha : a.val < 64 := a.isLt
  have hk : k.val < 64 := k.isLt
  constructor
  · intro h
    have h' := congrArg BitVec.toNat h
    rw [BitVec.toNat_ofNat, BitVec.toNat_ofNat] at h'
    exact Fin.ext (by omega)
  · intro h; rw [h]

/-- A real pair as a padded pair. -/
abbrev padOf (p : Fin PP) : Fin PPad := ⟨p.val, lt_trans p.isLt (by decide)⟩

/-- A real pair's masked loss times its one-hot entry: its loss when it is positive with label k, else 0. -/
theorem lossP_mul_hotP_real (p : Fin PP) (k : Fin CC) :
    lossP D (padOf p) * hotP D (padOf p) k = if D.pos p ∧ D.cl (D.ia p) = k then D.lossAt D.sK c0 p else 0 := by
  have hp : p.val < PP := p.isLt
  have hw : D.wPad (padOf p) = if D.pos p then 1 else 0 := by unfold Data.wPad; rw [dif_pos hp]
  have he : D.ePad (padOf p) = Data.eAt D.sK c0 p := by unfold Data.ePad; rw [dif_pos hp]
  have hi : D.iaPad (padOf p) = D.ia p := by unfold Data.iaPad; rw [dif_pos hp]
  have hl : D.labPad (padOf p) = BitVec.ofNat 32 (D.cl (D.ia p)).val := by unfold Data.labPad; rw [dif_pos hp]
  have hc : (1 / 2 < (if D.pos p then (1 : ℝ) else 0) ∧ (padOf p).val < 1000000) ↔ D.pos p := by
    by_cases hpos : D.pos p
    · rw [if_pos hpos]; exact ⟨fun _ => hpos, fun _ => ⟨by norm_num, hp⟩⟩
    · rw [if_neg hpos]; exact ⟨fun h => absurd h.1 (by norm_num), fun h => absurd h hpos⟩
  unfold lossP hotP Data.denPad
  rw [hw, he, hi, hl]
  simp only [hc, labWord_eq_iff]
  by_cases hpos : D.pos p
  · by_cases hk : D.cl (D.ia p) = k
    · rw [if_pos hpos, if_pos hk, if_pos (show D.pos p ∧ D.cl (D.ia p) = k from ⟨hpos, hk⟩), mul_one]; rfl
    · rw [if_neg hk, if_neg (show ¬(D.pos p ∧ D.cl (D.ia p) = k) from fun h => hk h.2), mul_zero]
  · rw [if_neg hpos, if_neg (show ¬(D.pos p ∧ D.cl (D.ia p) = k) from fun h => hpos h.1), zero_mul]

/-- A real pair's masked weight times its one-hot entry: 1 when it is positive with label k, else 0. -/
theorem wP_mul_hotP_real (p : Fin PP) (k : Fin CC) :
    wP D (padOf p) * hotP D (padOf p) k = if D.pos p ∧ D.cl (D.ia p) = k then 1 else 0 := by
  have hp : p.val < PP := p.isLt
  have hw : D.wPad (padOf p) = if D.pos p then 1 else 0 := by unfold Data.wPad; rw [dif_pos hp]
  have hl : D.labPad (padOf p) = BitVec.ofNat 32 (D.cl (D.ia p)).val := by unfold Data.labPad; rw [dif_pos hp]
  unfold wP hotP
  rw [hw, hl, if_pos hp]
  simp only [labWord_eq_iff]
  by_cases hpos : D.pos p
  · by_cases hk : D.cl (D.ia p) = k
    · rw [if_pos hpos, if_pos hk, if_pos (show D.pos p ∧ D.cl (D.ia p) = k from ⟨hpos, hk⟩), mul_one]
    · rw [if_neg hk, if_neg (show ¬(D.pos p ∧ D.cl (D.ia p) = k) from fun h => hk h.2), mul_zero]
  · rw [if_neg hpos, if_neg (show ¬(D.pos p ∧ D.cl (D.ia p) = k) from fun h => hpos h.1), zero_mul]

/-- A sum over the padded pairs of a function that vanishes past the real pairs is the sum over the real pairs. -/
theorem sum_pad (f : Fin 1015808 → ℝ) (h0 : ∀ p : Fin 1015808, 1000000 ≤ p.val → f p = 0) :
    ∑ p : Fin 1015808, f p = ∑ p : Fin 1000000, f ⟨p.val, by have := p.isLt; omega⟩ := by
  -- both sums as sums over an initial segment of the naturals
  have hF : ∀ (n : ℕ) (g : Fin n → ℝ), ∑ p : Fin n, g p = ∑ i ∈ Finset.range n, (if h : i < n then g ⟨i, h⟩ else 0) := by
    intro n g
    rw [← Fin.sum_univ_eq_sum_range (fun i => if h : i < n then g ⟨i, h⟩ else 0) n]
    exact Finset.sum_congr rfl fun p _ => by rw [dif_pos p.isLt]
  rw [hF 1015808 f, hF 1000000, ← Finset.sum_range_add_sum_Ico _ (show 1000000 ≤ 1015808 by norm_num)]
  have hz : ∑ i ∈ Finset.Ico 1000000 1015808, (if h : i < 1015808 then f ⟨i, h⟩ else 0) = 0 :=
    Finset.sum_eq_zero fun i hi => by
      have hi' := Finset.mem_Ico.mp hi
      rw [dif_pos hi'.2]
      exact h0 _ hi'.1
  rw [hz, add_zero]
  refine Finset.sum_congr rfl fun i hi => ?_
  have hi' : i < 1000000 := Finset.mem_range.mp hi
  rw [dif_pos hi', dif_pos (show i < 1015808 by omega)]

/-- A double sum over 62 points of 16384 lanes is the sum over the 1015808 padded pairs. -/
theorem sum_points (f : Fin PPad → ℝ) :
    ∑ t : Fin 62, ∑ q : Fin 16384, f ⟨t.val * 16384 + q.val, by have := t.isLt; have := q.isLt; show _ < 1015808; omega⟩
      = ∑ p : Fin PPad, f p := by
  have hN : 62 * 16384 = 1015808 := by norm_num
  have e1 : ∑ p : Fin PPad, f p = ∑ i : Fin (62 * 16384), f (i.cast hN) := (Fin.sum_congr' f hN).symm
  have e2 : ∑ i : Fin (62 * 16384), f (i.cast hN) = ∑ x : Fin 62 × Fin 16384, f ((finProdFinEquiv x).cast hN) :=
    (Equiv.sum_comp (finProdFinEquiv (m := 62) (n := 16384)) (fun i => f (i.cast hN))).symm
  rw [e1, e2, Fintype.sum_prod_type]
  refine Finset.sum_congr rfl fun t _ => Finset.sum_congr rfl fun q _ => congrArg f (Fin.ext ?_)
  show t.val * 16384 + q.val = q.val + 16384 * t.val
  omega

/-- The padded masked losses with label k sum to the label's sum of losses. -/
theorem sum_lossP (k : Fin CC) : ∑ p : Fin PPad, lossP D p * hotP D p k = D.sumsK k := by
  rw [sum_pad (fun p => lossP D p * hotP D p k) (fun p hp => by
    show lossP D p * hotP D p k = 0
    unfold lossP
    rw [if_neg (fun h => by have h2 : p.val < 1000000 := h.2; have h3 : 1000000 ≤ p.val := hp; omega), zero_mul])]
  unfold Data.sumsK Data.sumsAt
  exact Finset.sum_congr rfl fun p _ => lossP_mul_hotP_real D p k

/-- The padded masked weights with label k sum to the label's count. -/
theorem sum_wP (k : Fin CC) : ∑ p : Fin PPad, wP D p * hotP D p k = D.cnt k := by
  rw [sum_pad (fun p => wP D p * hotP D p k) (fun p hp => by
    show wP D p * hotP D p k = 0
    unfold wP
    rw [if_neg (by have h3 : 1000000 ≤ p.val := hp; omega), zero_mul])]
  unfold Data.cnt
  exact Finset.sum_congr rfl fun p _ => wP_mul_hotP_real D p k

end Padded

/-! ## The two output rows -/

section Assemble
variable (V : (c : Dev nD) → (b : Ref sig .tc) → Buf (Elt Ideal) ((c : Thread nD τ).loc b)) (c : Dev nD) (D : Data)

/-- Lane q of point t, as a padded pair. -/
abbrev lane (t : Fin 62) (q : Fin 16384) : Fin PPad :=
  ⟨t.val * 16384 + q.val, by have := t.isLt; have := q.isLt; show _ < 1015808; omega⟩

/-- A padded pair's exponential is positive. -/
theorem ePad_pos (p : Fin PPad) : 0 < D.ePad p := by
  unfold Data.ePad
  split
  · exact Data.eAt_pos _ _ _
  · exact Real.exp_pos _

/-- Point t's first product at entry k: the sum over its lanes of the masked loss times the one-hot entry. -/
theorem part1_fst_apply
    (h49 : ∀ p : Fin PPad, (V c main_v49 : S1x1015808.Idx → EReal) (ix2 0 p) = ((D.ePad p : ℝ) : EReal))
    (h50 : ∀ p : Fin PPad, (V c main_v50 : S1x1015808.Idx → EReal) (ix2 0 p) = ((D.denPad p : ℝ) : EReal))
    (h51 : ∀ p : Fin PPad, (V c main_v51 : S1x1015808.Idx → EReal) (ix2 0 p) = ((D.wPad p : ℝ) : EReal))
    (h52 : ∀ p : Fin PPad, (V c main_v52 : S1x1015808.Idx → BitVec 32) (ix2 0 p) = D.labPad p)
    (t : Fin 62) (k : Fin CC) :
    ((Hand.part1 V c (Hand.pt1 (le_refl 62) t)).1 : S1x64.Idx → EReal) (ix2 0 k)
      = ((∑ q : Fin 16384, lossP D (lane t q) * hotP D (lane t q) k : ℝ) : EReal) := by
  have ht : ((grid1.coords (Hand.pt1 (le_refl 62) t)) 0).val = t.val := Hand.coord1 _
  show (k1_pay8 (F := Ideal) (grid1.coords (Hand.pt1 (le_refl 62) t)) (Hand.iblk1 V c 0 _) (Hand.iblk1 V c 1 _)
    (Hand.iblk1 V c 2 _) (Hand.iblk1 V c 3 _) : S1x64.Idx → EReal) (ix2 0 k) = _
  rw [pay8_apply (grid1.coords (Hand.pt1 (le_refl 62) t)) (Hand.iblk1 V c 0 (Hand.pt1 (le_refl 62) t)) (Hand.iblk1 V c 1 (Hand.pt1 (le_refl 62) t))
    (Hand.iblk1 V c 2 (Hand.pt1 (le_refl 62) t)) (Hand.iblk1 V c 3 (Hand.pt1 (le_refl 62) t))
    (fun q => D.ePad (lane t q)) (fun q => D.denPad (lane t q)) (fun q => D.wPad (lane t q))
    (fun q => (Hand.iblk1_0_apply V c (Hand.pt1 (le_refl 62) t) q (lane t q).isLt).trans (h49 _))
    (fun q => (Hand.iblk1_1_apply V c (Hand.pt1 (le_refl 62) t) q (lane t q).isLt).trans (h50 _))
    (fun q => (Hand.iblk1_2_apply V c (Hand.pt1 (le_refl 62) t) q (lane t q).isLt).trans (h51 _))
    (fun q => ePad_pos D _) (fun q => D.denAt_nonneg _ _ _) k]
  refine congrArg _ (Finset.sum_congr rfl fun q _ => ?_)
  have e1 : lossLane (grid1.coords (Hand.pt1 (le_refl 62) t)) (fun q => D.ePad (lane t q)) (fun q => D.denPad (lane t q))
      (fun q => D.wPad (lane t q)) q = lossP D (lane t q) := by
    unfold lossLane lossP
    rw [ht]
  have e2 : hot (Hand.iblk1 V c 3 (Hand.pt1 (le_refl 62) t)) q k = hotP D (lane t q) k := by
    unfold hot hotP
    rw [Hand.iblk1_3_apply V c (Hand.pt1 (le_refl 62) t) q (lane t q).isLt, h52]
  rw [e1, e2]

/-- Point t's second product at entry k: the sum over its lanes of the masked weight times the one-hot entry. -/
theorem part1_snd_apply
    (h51 : ∀ p : Fin PPad, (V c main_v51 : S1x1015808.Idx → EReal) (ix2 0 p) = ((D.wPad p : ℝ) : EReal))
    (h52 : ∀ p : Fin PPad, (V c main_v52 : S1x1015808.Idx → BitVec 32) (ix2 0 p) = D.labPad p)
    (t : Fin 62) (k : Fin CC) :
    ((Hand.part1 V c (Hand.pt1 (le_refl 62) t)).2 : S1x64.Idx → EReal) (ix2 0 k)
      = ((∑ q : Fin 16384, wP D (lane t q) * hotP D (lane t q) k : ℝ) : EReal) := by
  have ht : ((grid1.coords (Hand.pt1 (le_refl 62) t)) 0).val = t.val := Hand.coord1 _
  show (k1_pay9 (F := Ideal) (grid1.coords (Hand.pt1 (le_refl 62) t)) (Hand.iblk1 V c 2 _) (Hand.iblk1 V c 3 _)
    : S1x64.Idx → EReal) (ix2 0 k) = _
  rw [pay9_apply (grid1.coords (Hand.pt1 (le_refl 62) t)) (Hand.iblk1 V c 2 (Hand.pt1 (le_refl 62) t)) (Hand.iblk1 V c 3 (Hand.pt1 (le_refl 62) t)) (fun q => D.wPad (lane t q))
    (fun q => (Hand.iblk1_2_apply V c (Hand.pt1 (le_refl 62) t) q (lane t q).isLt).trans (h51 _)) k]
  refine congrArg _ (Finset.sum_congr rfl fun q _ => ?_)
  have e1 : wLane (grid1.coords (Hand.pt1 (le_refl 62) t)) (fun q => D.wPad (lane t q)) q = wP D (lane t q) := by
    unfold wLane wP
    rw [ht]
  have e2 : hot (Hand.iblk1 V c 3 (Hand.pt1 (le_refl 62) t)) q k = hotP D (lane t q) k := by
    unfold hot hotP
    rw [Hand.iblk1_3_apply V c (Hand.pt1 (le_refl 62) t) q (lane t q).isLt, h52]
  rw [e1, e2]

end Assemble

end Reg1

open Reg1

section Rows
variable (V : (c : Dev nD) → (b : Ref sig .tc) → Buf (Elt Ideal) ((c : Thread nD τ).loc b)) (c : Dev nD) (D : Data)

/-- THE FIRST OUTPUT ROW after the region: entry k is label k's sum of losses over its positive pairs. -/
theorem reg1_sums
    (h49 : ∀ p : Fin PPad, (V c main_v49 : S1x1015808.Idx → EReal) (ix2 0 p) = ((D.ePad p : ℝ) : EReal))
    (h50 : ∀ p : Fin PPad, (V c main_v50 : S1x1015808.Idx → EReal) (ix2 0 p) = ((D.denPad p : ℝ) : EReal))
    (h51 : ∀ p : Fin PPad, (V c main_v51 : S1x1015808.Idx → EReal) (ix2 0 p) = ((D.wPad p : ℝ) : EReal))
    (h52 : ∀ p : Fin PPad, (V c main_v52 : S1x1015808.Idx → BitVec 32) (ix2 0 p) = D.labPad p)
    (k : Fin CC) :
    ((Hand.dat1 V c).arrAt 4 cfg1.N : S1x64.Idx → EReal) (ix2 0 k) = ((D.sumsK k : ℝ) : EReal) := by
  refine (Hand.arrAt4_sum V c (ix2 0 k)).trans ?_
  refine (Cert.IdealReal.sum_eq_coe Finset.univ _ (fun t : Fin 62 => ∑ q : Fin 16384, lossP D (lane t q) * hotP D (lane t q) k)
    (fun t _ => part1_fst_apply V c D h49 h50 h51 h52 t k)).trans ?_
  exact congrArg _ ((sum_points (fun p => lossP D p * hotP D p k)).trans (sum_lossP D k))

/-- THE SECOND OUTPUT ROW after the region: entry k is label k's number of positive pairs. -/
theorem reg1_cnt
    (h51 : ∀ p : Fin PPad, (V c main_v51 : S1x1015808.Idx → EReal) (ix2 0 p) = ((D.wPad p : ℝ) : EReal))
    (h52 : ∀ p : Fin PPad, (V c main_v52 : S1x1015808.Idx → BitVec 32) (ix2 0 p) = D.labPad p)
    (k : Fin CC) :
    ((Hand.dat1 V c).arrAt 5 cfg1.N : S1x64.Idx → EReal) (ix2 0 k) = ((D.cnt k : ℝ) : EReal) := by
  refine (Hand.arrAt5_sum V c (ix2 0 k)).trans ?_
  refine (Cert.IdealReal.sum_eq_coe Finset.univ _ (fun t : Fin 62 => ∑ q : Fin 16384, wP D (lane t q) * hotP D (lane t q) k)
    (fun t _ => part1_snd_apply V c D h51 h52 t k)).trans ?_
  exact congrArg _ ((sum_points (fun p => wP D p * hotP D p k)).trans (sum_wP D k))

end Rows

end Cert.KernelIdeal.KV

end
-- ==== Proof.TailArith.lean ====
/-
  The last step of the loss, read on the extended reals.

  Given 64 per-label sums s k and counts c k, both real, the programs form
    means k   = s k / max (c k) 1,
    present k = (c k > 0),
    n         = max (Σ k, [present k]) 1,
    result    = (Σ k, if present k then means k else 0) / n.
  Every denominator is at least 1, so every quotient is the real quotient, every sum a real sum, and the result is the
  real number Spec.tail s c. The first part reads each elementwise operation at an index whose operands are real there;
  the second reads a sum of a 64-vector into a scalar; the third composes them into the whole step.
-/
import Idealize.ShloMosaic.PureOps.Ideal
import Idealize.ShloMosaic.PureOps.Ideal.Laws
import Idealize.ShloMosaic.Lib.ValueIdx
import Idealize.ShloMosaic.Lib.IdealHost
import proofs.«413937_j37383395344507_3_alg».proof.Proof.Spec
import proofs.«413937_j37383395344507_3_alg».proof.Proof.Consts
import proofs.«413937_j37383395344507_3_alg».proof.Proof.IdealReal
import proofs.«413937_j37383395344507_3_alg».proof.Proof.Lib1D

noncomputable section

namespace Cert.TailArith

open Idealize.ShloMosaic Idealize.ShloMosaic.ValueIdx Cert.Spec
open scoped Classical

/-! ## Elementwise operations at an index where the operands are real -/

section Pointwise
variable {S : Shape} {φ : FTy}

/-- A maximum of two vectors, at an index where both are real, is the real maximum. -/
theorem maximumf_at (a b : FVec Ideal S φ) (i : S.Idx) {x y : ℝ} (ha : a i = ((x : ℝ) : EReal)) (hb : b i = ((y : ℝ) : EReal)) :
    maximumf a b i = ((max x y : ℝ) : EReal) := by
  rw [maximumf_apply, ha, hb]; exact Cert.IdealReal.emax_coe x y

/-- A host quotient of two vectors, at an index where both are real and the divisor is not zero, is the real quotient. -/
theorem hostDivf_at (a b : FVec Ideal S φ) (i : S.Idx) {x y : ℝ} (ha : a i = ((x : ℝ) : EReal)) (hb : b i = ((y : ℝ) : EReal))
    (hy : y ≠ 0) : Host.divf (F := Ideal) a b i = ((x / y : ℝ) : EReal) := by
  show FloatOps.hostDivf (F := Ideal) (φ := φ) (a i) (b i) = _
  rw [ha, hb]; exact Cert.IdealReal.hostDivf_coe x hy

/-- "Greater than" of two vectors, at an index where both are real, is the bit of the real comparison. -/
theorem cmpf_ogt_at (a b : FVec Ideal S φ) (i : S.Idx) {x y : ℝ} (ha : a i = ((x : ℝ) : EReal)) (hb : b i = ((y : ℝ) : EReal)) :
    cmpf .ogt a b i = if y < x then 1#1 else 0#1 := by
  rw [cmpf_apply, ha, hb]; exact Cert.IdealReal.cmpf_ogt_coe x y

/-- A bit turned into a float is 1 or 0. -/
theorem uitofp_at (cb : IVec S 1) (i : S.Idx) (p : Prop) [Decidable p] (hcb : cb i = if p then 1#1 else 0#1) :
    (uitofp φ cb : FVec Ideal S φ) i = (((if p then 1 else 0) : ℝ) : EReal) := by
  show FloatOps.uitofp (F := Ideal) φ (cb i) = _
  rw [hcb]; exact Cert.IdealReal.uitofp_ite_coe p

/-- A select on a bit, at an index where both branches are real, is the real choice. -/
theorem select_at (cb : IVec S 1) (a b : FVec Ideal S φ) (i : S.Idx) (p : Prop) [Decidable p] {x y : ℝ}
    (hcb : cb i = if p then 1#1 else 0#1) (ha : a i = ((x : ℝ) : EReal)) (hb : b i = ((y : ℝ) : EReal)) :
    select cb a b i = (((if p then x else y) : ℝ) : EReal) := by
  rw [select_apply, hcb, ha, hb]; exact Cert.IdealReal.select_ite_coe x y p

/-- The scalar constant 1, broadcast to a shape, reads 1 everywhere. -/
theorem bcast_one_at (h : (⟨0, ![]⟩ : Shape).BroadcastsInDim S ![]) (i : S.Idx) :
    broadcastInDim S ![] h (constant (F := Ideal) ⟨0, ![]⟩ .f32 0x3F800000#32) i = ((1 : ℝ) : EReal) := by
  rw [broadcastInDim_scalar_apply, constant_apply]; exact ofBits_one

/-- The scalar constant 0, broadcast to a shape, reads 0 everywhere. -/
theorem bcast_zero_at (h : (⟨0, ![]⟩ : Shape).BroadcastsInDim S ![]) (i : S.Idx) :
    broadcastInDim S ![] h (constant (F := Ideal) ⟨0, ![]⟩ .f32 0x00000000#32) i = ((0 : ℝ) : EReal) := by
  rw [broadcastInDim_scalar_apply, constant_apply]; exact ofBits_zero

end Pointwise

/-! ## A sum of a vector into a scalar -/

/-- The host's sum of an n-vector from the initial value 0, where every entry is real, is the real sum. -/
theorem hostSum_at {n : ℕ} (x : FVec Ideal ⟨1, ![n]⟩ .f32) (r : Fin n → ℝ) (hx : ∀ k : Fin n, x (ix1 k) = ((r k : ℝ) : EReal))
    (h : (⟨1, ![n]⟩ : Shape).ReducesTo [0] ⟨0, ![]⟩) (hu : 0 < (⟨0, ![]⟩ : Shape).numel) (j : (⟨0, ![]⟩ : Shape).Idx) :
    Host.reduceAdd (F := Ideal) x (constant (F := Ideal) ⟨0, ![]⟩ .f32 0x00000000#32) h hu j = ((∑ k, r k : ℝ) : EReal) := by
  rw [hostReduceAdd_apply, Ideal.hostReduceAdd_total h (fun b => b.elim0), constant_apply, ofBits_zero, Cert.Lib1D.sum_idx1,
    Finset.sum_congr rfl (fun k _ => hx k), Cert.IdealReal.sum_univ_coe, Cert.IdealReal.zero_add_coe]

/-! ## The whole step -/

section Whole

/-- The scalar shape and the shape of a 64-vector. -/
abbrev Sc : Shape := ⟨0, ![]⟩
abbrev S64v : Shape := ⟨1, ![64]⟩

variable (sv cv : FVec Ideal S64v .f32) (hb : Sc.BroadcastsInDim S64v ![]) (hr : S64v.ReducesTo [0] Sc) (hu : 0 < Sc.numel)

/-- The constants 1 and 0 as scalars and as 64-vectors. -/
abbrev oneS : FVec Ideal Sc .f32 := constant (F := Ideal) Sc .f32 0x3F800000#32
abbrev zeroS : FVec Ideal Sc .f32 := constant (F := Ideal) Sc .f32 0x00000000#32
abbrev oneV : FVec Ideal S64v .f32 := broadcastInDim S64v ![] hb oneS
abbrev zeroV : FVec Ideal S64v .f32 := broadcastInDim S64v ![] hb zeroS

/-- means = sums / maximum (counts, 1). -/
abbrev meansV : FVec Ideal S64v .f32 := Host.divf (F := Ideal) sv (maximumf cv (oneV hb))
/-- present = counts > 0. -/
abbrev presentV : IVec S64v 1 := cmpf .ogt cv (zeroV hb)
/-- n = maximum (the number of labels present, 1). -/
abbrev countV : FVec Ideal Sc .f32 :=
  maximumf (Host.reduceAdd (F := Ideal) (uitofp .f32 (presentV cv hb)) zeroS hr hu) oneS
/-- The means of the labels present, 0 elsewhere. -/
abbrev selV : FVec Ideal S64v .f32 := select (presentV cv hb) (meansV sv cv hb) (zeroV hb)
/-- The result: their sum over n. -/
abbrev tailV : FVec Ideal Sc .f32 := Host.divf (F := Ideal) (Host.reduceAdd (F := Ideal) (selV sv cv hb) zeroS hr hu) (countV cv hb hr hu)

variable (s cn : Fin CC → ℝ)

/-- A count clamped below at 1 is not zero. -/
theorem clamp_ne_zero (k : Fin CC) : max (cn k) 1 ≠ 0 := (lt_of_lt_of_le one_pos (le_max_right _ _)).ne'

/-- The number of labels present clamped below at 1 is not zero. -/
theorem count_ne_zero : max (∑ k : Fin CC, if 0 < cn k then (1 : ℝ) else 0) 1 ≠ 0 :=
  (lt_of_lt_of_le one_pos (le_max_right _ _)).ne'

variable {sv cv}
variable (hs : ∀ k : Fin CC, sv (ix1 k) = ((s k : ℝ) : EReal)) (hc : ∀ k : Fin CC, cv (ix1 k) = ((cn k : ℝ) : EReal))

include hs hc in
/-- A label's mean: its sum over its count clamped below at 1. -/
theorem means_at (k : Fin CC) : meansV sv cv hb (ix1 k) = ((s k / max (cn k) 1 : ℝ) : EReal) :=
  hostDivf_at _ _ _ (hs k) (maximumf_at _ _ _ (hc k) (bcast_one_at hb _)) (clamp_ne_zero cn k)

include hc in
/-- A label is present when its count is positive. -/
theorem present_at (k : Fin CC) : presentV cv hb (ix1 k) = if 0 < cn k then 1#1 else 0#1 :=
  cmpf_ogt_at _ _ _ (hc k) (bcast_zero_at hb _)

include hc in
/-- The number of labels present, clamped below at 1. -/
theorem count_at (j : Sc.Idx) :
    countV cv hb hr hu j = ((max (∑ k : Fin CC, if 0 < cn k then (1 : ℝ) else 0) 1 : ℝ) : EReal) :=
  maximumf_at _ _ _
    (hostSum_at _ (fun k => if 0 < cn k then (1 : ℝ) else 0) (fun k => uitofp_at _ _ _ (present_at hb cn hc k)) hr hu j)
    ((constant_apply _ _).trans ofBits_one)

include hs hc in
/-- A present label's mean, 0 for an absent label. -/
theorem sel_at (k : Fin CC) : selV sv cv hb (ix1 k) = (((if 0 < cn k then s k / max (cn k) 1 else 0) : ℝ) : EReal) :=
  select_at _ _ _ _ _ (present_at hb cn hc k) (means_at hb s cn hs hc k) (bcast_zero_at hb _)

include hs hc in
/-- The whole step is the real number `tail s cn`. -/
theorem tail_at (j : Sc.Idx) : tailV sv cv hb hr hu j = ((tail s cn : ℝ) : EReal) :=
  hostDivf_at _ _ _
    (hostSum_at _ (fun k => if 0 < cn k then s k / max (cn k) 1 else 0) (fun k => sel_at hb s cn hs hc k) hr hu j)
    (count_at hb hr hu cn hc j) (count_ne_zero cn)

end Whole

end Cert.TailArith

end
-- ==== Proof.KV.Tail.lean ====
/-
  The end of the kernel program, read on the extended reals.

  After the second region the program holds two [1, 64] arrays: per label, a sum of losses and a count of positive pairs.
  The last host operations reshape both to [64]; take means = sums / maximum (counts, 1); present = counts > 0;
  n = maximum (the number of labels present, 1); and return (the sum over the labels of the mean where present, 0 elsewhere) / n.
  When the two arrays hold real numbers s k and c k, the returned scalar is the real number Spec.tail s c: each
  denominator is at least 1, so each quotient is a real quotient and each sum a real sum.

  Three stretches of operations are read one after another: each buffer a stretch writes is first written as the
  operations' term over the stretch's inputs, and the composed term is the vector form of the step whose value at its one
  index is computed in TailArith.
-/
import proofs.«413937_j37383395344507_3_alg».proof.Proof.KV.Basic
import proofs.«413937_j37383395344507_3_alg».proof.Proof.TailArith
import Idealize.ShloMosaic.Lib.ValueIdx
import Idealize.ShloMosaic.Lib.ValueLayout
import Idealize.ShloMosaic.Lib.StableHlo.Run

noncomputable section

namespace Cert.KernelIdeal.KV

open Cert.KernelIdeal Cert.KernelIdeal.Gen Cert.Spec Idealize.ShloMosaic Idealize.ShloMosaic.TcCoe Idealize.SL.Sem Idealize.ShloMosaic.ValueIdx
open Cert.TailArith
open scoped Classical

variable (m : (ℓ : Loc nD τ sig) → Buf (Elt Ideal) ℓ) (outs : Outs (F := Ideal)) (c : Dev nD)

/-! ## The first stretch: reshapes, means, presence, the number of labels present -/

/-- The two arrays the second region leaves, reshaped from [1, 64] to [64]. -/
abbrev sumsV : FVec Ideal S64 .f32 := shapeCast S64 (outs 21 main_v53_0 c : S1x64.Idx → EReal) shapeCasts_S1x64_S64
abbrev cntsV : FVec Ideal S64 .f32 := shapeCast S64 (outs 21 main_v53_1 c : S1x64.Idx → EReal) shapeCasts_S1x64_S64

theorem v58_eq : (V22 m outs c main_v58 : S64.Idx → EReal) = meansV (sumsV outs c) (cntsV outs c) bcast_S_S64 := by
  show StableHlo.after hostOps2 (V21 m outs c) (Proc.devRef .tc main_v58) = _
  after_results
  rfl

theorem v60_eq : (V22 m outs c main_v60 : S64.Idx → BitVec 1) = presentV (cntsV outs c) bcast_S_S64 := by
  show StableHlo.after hostOps2 (V21 m outs c) (Proc.devRef .tc main_v60) = _
  after_results
  rfl

theorem v63_eq : (V22 m outs c main_v63 : S_.Idx → EReal) = countV (cntsV outs c) bcast_S_S64 reducesTo_S64_S_d0 h_S_ := by
  show StableHlo.after hostOps2 (V21 m outs c) (Proc.devRef .tc main_v63) = _
  after_results
  rfl

theorem cst15_eq : (V22 m outs c main_cst_15 : S_.Idx → EReal) = zeroS := by
  show StableHlo.after hostOps2 (V21 m outs c) (Proc.devRef .tc main_cst_15) = _
  after_results

/-! ## The second stretch: the means of the labels present, 0 for the others -/

theorem v64_eq : (V23 m outs c main_v64 : S64.Idx → EReal)
    = select (V22 m outs c main_v60 : S64.Idx → BitVec 1) (V22 m outs c main_v58 : S64.Idx → EReal)
        (broadcastInDim S64 ![] bcast_S_S64 (V22 m outs c main_cst_15 : S_.Idx → EReal)) := by
  show StableHlo.after hostOps2_1 (V22 m outs c) (Proc.devRef .tc main_v64)
    = select (V22 m outs c (Proc.devRef .tc main_v60)) (V22 m outs c (Proc.devRef .tc main_v58))
        (broadcastInDim S64 ![] bcast_S_S64 (V22 m outs c (Proc.devRef .tc main_cst_15)))
  generalize V22 m outs c = W
  after_results <;> rfl

theorem v64_sel : (V23 m outs c main_v64 : S64.Idx → EReal) = selV (sumsV outs c) (cntsV outs c) bcast_S_S64 := by
  rw [v64_eq, v60_eq, v58_eq, cst15_eq]

/-! ## The third stretch: their sum over the number of labels present -/

theorem v66_eq : (V24 m outs c main_v66 : S_.Idx → EReal)
    = Host.divf (F := Ideal) (Host.reduceAdd (F := Ideal) (V23 m outs c main_v64 : S64.Idx → EReal) zeroS reducesTo_S64_S_d0 h_S_)
        (V23 m outs c main_v63 : S_.Idx → EReal) := by
  show StableHlo.after hostOps2_2 (V23 m outs c) (Proc.devRef .tc main_v66)
    = Host.divf (F := Ideal) (Host.reduceAdd (F := Ideal) (V23 m outs c (Proc.devRef .tc main_v64)) zeroS reducesTo_S64_S_d0 h_S_)
        (V23 m outs c (Proc.devRef .tc main_v63))
  generalize V23 m outs c = W
  after_results <;> rfl

theorem v66_tail : (V24 m outs c main_v66 : S_.Idx → EReal)
    = tailV (sumsV outs c) (cntsV outs c) bcast_S_S64 reducesTo_S64_S_d0 h_S_ := by
  rw [v66_eq, v64_sel, V23_of m outs c main_v63 (by decide), v63_eq]

/-- The result of the program: the mean over the labels present of each label's mean loss. -/
theorem v66_apply (s cn : Fin CC → ℝ)
    (hs : ∀ k : Fin CC, (outs 21 main_v53_0 c : S1x64.Idx → EReal) (ix2 0 k) = ((s k : ℝ) : EReal))
    (hc : ∀ k : Fin CC, (outs 21 main_v53_1 c : S1x64.Idx → EReal) (ix2 0 k) = ((cn k : ℝ) : EReal)) :
    (V24 m outs c main_v66 : S_.Idx → EReal) ix0 = ((Cert.Spec.tail s cn : ℝ) : EReal) := by
  rw [v66_tail]
  exact tail_at bcast_S_S64 reducesTo_S64_S_d0 h_S_ s cn
    (fun k => (shapeCast_1a_a_apply _ shapeCasts_S1x64_S64 k).trans (hs k))
    (fun k => (shapeCast_1a_a_apply _ shapeCasts_S1x64_S64 k).trans (hc k)) ix0

end Cert.KernelIdeal.KV
end
-- ==== Proof.KV.Value.lean ====
/-
  The kernel program's result, on one core, as a real number.

  The program is host steps, a first tiled region, host steps, a second tiled region, host steps. Read at the exact instance on
  argument arrays that meet the precondition (every float a real, every pair index a node, every label below 64), its buffers
  hold, link by link: the pair columns, the rows divided by their clamped norms and the packed label-and-pass words of the
  nodes; the first region's four operands, those tables looked up at the pairs and padded with zeros to whole tiles; the three
  rows the first region leaves (each padded pair's exponential at the scale and shift 1/τ, what it adds to its anchor's
  denominator, its weight) and its label row; the second region's operands (the exponentials, each pair's anchor's
  denominator, the weights, the labels); the per-label sums of losses and counts of positive pairs it leaves; and the result,
  the mean over the labels that have a positive pair of the label's mean loss. Each link is proved in its own module with the
  link before it as a hypothesis; here they are joined. The five argument arrays are never written, so at the end each
  holds what it held at launch.
-/
import proofs.«413937_j37383395344507_3_alg».proof.Proof.KV.Basic
import proofs.«413937_j37383395344507_3_alg».proof.Proof.KI.Run
import proofs.«413937_j37383395344507_3_alg».proof.Proof.KV.Nodes
import proofs.«413937_j37383395344507_3_alg».proof.Proof.KV.Pre
import proofs.«413937_j37383395344507_3_alg».proof.Proof.KV.Reg0Val
import proofs.«413937_j37383395344507_3_alg».proof.Proof.KV.Mid
import proofs.«413937_j37383395344507_3_alg».proof.Proof.KV.Reg1Val
import proofs.«413937_j37383395344507_3_alg».proof.Proof.KV.Tail
import Idealize.ShloMosaic.Lib.ValueIdx

noncomputable section

namespace Cert.KernelIdeal.KV

open Cert.KernelIdeal Cert.KernelIdeal.Gen Cert.Spec Idealize.ShloMosaic Idealize.ShloMosaic.TcCoe Idealize.SL.Sem Idealize.ShloMosaic.ValueIdx
open scoped Classical

variable (m : (ℓ : Loc nD τ sig) → Buf (Elt Ideal) ℓ) (c : Dev nD)

/-! ### The five arguments at the end of the run -/

/-- No step of the program writes an argument array: at the end each holds what it held at launch. -/
theorem V24_arg0 : V24 m (Hand.outs m) c main_arg0 = m ((c.tc : Thread nD τ).loc main_arg0) := V24_main_arg0 m (Hand.outs m) c
theorem V24_arg1 : V24 m (Hand.outs m) c main_arg1 = m ((c.tc : Thread nD τ).loc main_arg1) := V24_main_arg1 m (Hand.outs m) c
theorem V24_arg2 : V24 m (Hand.outs m) c main_arg2 = m ((c.tc : Thread nD τ).loc main_arg2) := V24_main_arg2 m (Hand.outs m) c
theorem V24_arg3 : V24 m (Hand.outs m) c main_arg3 = m ((c.tc : Thread nD τ).loc main_arg3) := V24_main_arg3 m (Hand.outs m) c
theorem V24_arg4 : V24 m (Hand.outs m) c main_arg4 = m ((c.tc : Thread nD τ).loc main_arg4) := V24_main_arg4 m (Hand.outs m) c

/-! ### The result -/

/-- The kernel program's result on a core whose argument arrays meet the precondition: the mean over the labels that have a
    positive pair of the mean loss of the label's positive pairs, the losses formed at the scale and shift 1/τ. Link by link:
    the node tables; the four operands of the first region; that region's three rows and label row; the operands of the second
    region (the exponentials, the anchors' denominators, the weights, the labels); its per-label sums and counts; the last
    averaging. -/
theorem kernel_value (hG : good m c) :
    (V24 m (Hand.outs m) c main_v66 : S_.Idx → EReal) ix0 = ((Cert.Spec.tail (dat m c).sumsK (dat m c).cnt : ℝ) : EReal) := by
  -- the node tables after the first host stretch
  have h1 := v1_apply m c hG
  have h3 := v3_apply m c hG
  have h11 := v11_apply m c hG
  have h18 := v18_apply m c hG
  -- the first region's four operands, and the padded anchor column
  have h23 := v23_apply m c (dat m c) h1 h11
  have h24 := v24_apply m c (dat m c) h3 h11
  have h28 := v28_apply m c (dat m c) h1 h18
  have h29 := v29_apply m c (dat m c) h3 h18
  have h27 := v27_apply m c (dat m c) h1
  -- what the first region leaves
  have r0 := reg0_row0 (Hand.Vin0 m) c (dat m c) h23 h24
  have r1 := reg0_row1 (Hand.Vin0 m) c (dat m c) h23 h24 h28 h29
  have r2 := reg0_row2 (Hand.Vin0 m) c (dat m c) h28 h29
  have rl := reg0_lab (Hand.Vin0 m) c (dat m c) h28
  -- read through the family of contents the run names
  have h0 : ∀ p : Fin PPad, (Hand.outs m 17 main_v30_0 c : S3x1015808.Idx → EReal) (ix2 0 p) = (((dat m c).ePad p : ℝ) : EReal) := by
    intro p; rw [Hand.outs_v30_0]; exact r0 p
  have hn : ∀ p : Fin PPad, (Hand.outs m 17 main_v30_0 c : S3x1015808.Idx → EReal) (ix2 1 p) = (((dat m c).negPad p : ℝ) : EReal) := by
    intro p; rw [Hand.outs_v30_0]; exact r1 p
  have hw : ∀ p : Fin PPad, (Hand.outs m 17 main_v30_0 c : S3x1015808.Idx → EReal) (ix2 2 p) = (((dat m c).wPad p : ℝ) : EReal) := by
    intro p; rw [Hand.outs_v30_0]; exact r2 p
  have hl : ∀ p : Fin PPad, (Hand.outs m 17 main_v30_1 c : S1x1015808.Idx → BitVec 32) (ix2 0 p) = (dat m c).labPad p := by
    intro p; rw [Hand.outs_v30_1]; exact rl p
  -- the second region's four operands
  have e49 : V20 m (Hand.outs m) c main_v49 = Hand.Vin1 m c main_v49 := congrFun (Hand.V20_outs m c) _
  have e50 : V20 m (Hand.outs m) c main_v50 = Hand.Vin1 m c main_v50 := congrFun (Hand.V20_outs m c) _
  have e51 : V20 m (Hand.outs m) c main_v51 = Hand.Vin1 m c main_v51 := congrFun (Hand.V20_outs m c) _
  have e52 : V20 m (Hand.outs m) c main_v52 = Hand.Vin1 m c main_v52 := congrFun (Hand.V20_outs m c) _
  have h49 : ∀ p : Fin PPad, (Hand.Vin1 m c main_v49 : S1x1015808.Idx → EReal) (ix2 0 p) = (((dat m c).ePad p : ℝ) : EReal) := by
    intro p; rw [← e49]; exact v49_apply m c (Hand.outs m) h0 p
  have h50 : ∀ p : Fin PPad, (Hand.Vin1 m c main_v50 : S1x1015808.Idx → EReal) (ix2 0 p) = (((dat m c).denPad p : ℝ) : EReal) := by
    intro p; rw [← e50]; exact v50_apply m c (Hand.outs m) hn h27 p
  have h51 : ∀ p : Fin PPad, (Hand.Vin1 m c main_v51 : S1x1015808.Idx → EReal) (ix2 0 p) = (((dat m c).wPad p : ℝ) : EReal) := by
    intro p; rw [← e51]; exact v51_apply m c (Hand.outs m) hw p
  have h52 : ∀ p : Fin PPad, (Hand.Vin1 m c main_v52 : S1x1015808.Idx → BitVec 32) (ix2 0 p) = (dat m c).labPad p := by
    intro p; rw [← e52]; exact v52_apply m c (Hand.outs m) hl p
  -- what the second region leaves
  have hs : ∀ k : Fin CC, (Hand.outs m 21 main_v53_0 c : S1x64.Idx → EReal) (ix2 0 k) = (((dat m c).sumsK k : ℝ) : EReal) := by
    intro k; rw [Hand.outs_v53_0]; exact reg1_sums (Hand.Vin1 m) c (dat m c) h49 h50 h51 h52 k
  have hc : ∀ k : Fin CC, (Hand.outs m 21 main_v53_1 c : S1x64.Idx → EReal) (ix2 0 k) = (((dat m c).cnt k : ℝ) : EReal) := by
    intro k; rw [Hand.outs_v53_1]; exact reg1_cnt (Hand.Vin1 m) c (dat m c) h51 h52 k
  -- the last averaging
  exact v66_apply m (Hand.outs m) c (dat m c).sumsK (dat m c).cnt hs hc

end Cert.KernelIdeal.KV

end
-- ==== Proof.RV.Masks.lean ====
/-
  The pairs' two index columns, the labels, scores and flags looked up at a pair's two nodes, and the positive-pair mask,
  each read at one pair p.

  A pair's two node indices are the two rows of the pairs array. Every lookup of a node's label, score or flag shifts a
  negative index up by the number of nodes (no index is negative), lays the indices out as a column and reads the vector at
  the index clamped into range (every index is in range): at pair p the lookup is the vector's entry at the pair's node.
  The mask bit of pair p is the conjunction of "the two labels are the same word", "both scores exceed the threshold" and
  "both flags are set"; it is 1 exactly when the pair is positive, and turned into a float it is the real 1 or 0.
-/
import proofs.«413937_j37383395344507_3_alg».proof.Proof.RefRead
import proofs.«413937_j37383395344507_3_alg».proof.Proof.Spec
import proofs.«413937_j37383395344507_3_alg».proof.Proof.Lib1D
import proofs.«413937_j37383395344507_3_alg».proof.Proof.Consts

noncomputable section

namespace Cert.ReferenceIdeal.RV

open Cert.ReferenceIdeal Cert.ReferenceIdeal.Gen Cert.ReferenceIdeal.ReadP Cert.Spec Idealize.ShloMosaic
  Idealize.ShloMosaic.ValueIdx Idealize.ShloMosaic.StableHlo.Predicate Cert.LibRows Cert.Lib1D
open scoped Classical

variable (x0 : FVec Ideal S100000x64 .f32) (x1 : IVec S2x1000000 32) (x2 : IVec S100000 32) (x3 : IVec S100000 1)
  (x4 : FVec Ideal S100000 .f32)

/-! ## Words -/

/-- A word that read signed lies in [0, N) has unsigned value below N. -/
theorem toNat_lt_of_toInt (w : BitVec 32) (N : ℕ) (h0 : 0 ≤ w.toInt) (h1 : w.toInt < (N : ℤ)) : w.toNat < N := by
  rw [toInt_eq_toNat_of_nonneg _ h0] at h1
  exact_mod_cast h1

/-- A word whose value is below N is the word of its value reduced modulo N. -/
theorem ofNat_mod_eq (w : BitVec 32) (N : ℕ) (h : w.toNat < N) : BitVec.ofNat 32 (w.toNat % N) = w := by
  apply BitVec.eq_of_toNat_eq
  rw [BitVec.toNat_ofNat, Nat.mod_eq_of_lt h]
  exact Nat.mod_eq_of_lt w.isLt

/-- The shift of a negative index leaves a word that is not negative alone. -/
theorem wrap_word (w a : BitVec 32) (h0 : 0 ≤ w.toInt) : Scalar.select (IntOp.cmpi .slt w 0#32) a w = w := by
  have hz : IntOp.cmpi .slt w 0#32 = 0#1 := by
    apply eq_zero_of_ne_one
    show ¬ BitVec.ofBool (w.slt 0#32) = 1#1
    rw [ofBool_eq_one_iff, BitVec.slt_iff_toInt_lt, BitVec.toInt_zero]
    omega
  rw [hz, select_zero]

/-- A conjunction of two bits is 1 exactly when both are. -/
theorem andi_eq_one_iff (a b : BitVec 1) : IntOp.andi a b = 1#1 ↔ a = 1#1 ∧ b = 1#1 := by
  revert a b; decide

/-- A bit is the choice between 1 and 0 on any proposition it decides. -/
theorem bit_eq_ite (b : BitVec 1) (P : Prop) (h : b = 1#1 ↔ P) : b = if P then 1#1 else 0#1 := by
  by_cases hP : P
  · rw [if_pos hP]; exact h.mpr hP
  · rw [if_neg hP]; exact eq_zero_of_ne_one (fun hb => hP (h.mp hb))

/-! ## The two index columns -/

theorem idx_row0 (p : Fin PP) : idx_main_v0 (idx_main_v1 (ix1 p)) = ix2 0 p := by
  funext a
  match a with
  | ⟨0, _⟩ => rfl
  | ⟨1, _⟩ => exact Fin.ext (Nat.mod_eq_of_lt p.isLt)

theorem idx_row1 (p : Fin PP) : idx_main_v2 (idx_main_v3 (ix1 p)) = ix2 1 p := by
  funext a
  match a with
  | ⟨0, _⟩ => rfl
  | ⟨1, _⟩ => exact Fin.ext (Nat.mod_eq_of_lt p.isLt)

/-- The anchor column at p is the pairs array's entry (0, p). -/
theorem v1_word (p : Fin PP) : val_main_v1 (F := Ideal) x1 (ix1 p) = x1 (ix2 0 p) := by
  rw [val_main_v1_apply, val_main_v0_apply, idx_row0]

/-- The second column at p is the pairs array's entry (1, p). -/
theorem v3_word (p : Fin PP) : val_main_v3 (F := Ideal) x1 (ix1 p) = x1 (ix2 1 p) := by
  rw [val_main_v3_apply, val_main_v2_apply, idx_row1]

/-! ## What the precondition says of a word -/

/-- Every pair index, read unsigned, is a node. -/
theorem node_lt (hG : Good x0 x1 x2 x4) (i : S2x1000000.Idx) : (x1 i).toNat < 100000 := by
  obtain ⟨h0, h1⟩ := hG.hpp i
  rw [toInt_eq_toNat_of_nonneg _ h0] at h1
  omega

/-- Every label, read unsigned, is below 64. -/
theorem label_lt (hG : Good x0 x1 x2 x4) (i : S100000.Idx) : (x2 i).toNat < 64 := by
  obtain ⟨h0, h1⟩ := hG.hcid i
  rw [toInt_eq_toNat_of_nonneg _ h0] at h1
  omega

/-- The anchor node's word is the pairs array's entry (0, p). -/
theorem ia_word (hG : Good x0 x1 x2 x4) (p : Fin PP) :
    BitVec.ofNat 32 ((Data.of x0 x1 x2 x3 x4).ia p).val = x1 (ix2 0 p) :=
  ofNat_mod_eq _ NN (node_lt x0 x1 x2 x4 hG _)

/-- The second node's word is the pairs array's entry (1, p). -/
theorem ja_word (hG : Good x0 x1 x2 x4) (p : Fin PP) :
    BitVec.ofNat 32 ((Data.of x0 x1 x2 x3 x4).ja p).val = x1 (ix2 1 p) :=
  ofNat_mod_eq _ NN (node_lt x0 x1 x2 x4 hG _)

/-- A node's label word is the word of its label. -/
theorem cl_word (hG : Good x0 x1 x2 x4) (n : Fin NN) :
    BitVec.ofNat 32 ((Data.of x0 x1 x2 x3 x4).cl n).val = x2 (ix1 n) :=
  ofNat_mod_eq _ CC (label_lt x0 x1 x2 x4 hG _)

/-- Two nodes' label words are equal exactly when their labels are. -/
theorem cl_eq_iff (hG : Good x0 x1 x2 x4) (n m : Fin NN) :
    x2 (ix1 n) = x2 (ix1 m) ↔ (Data.of x0 x1 x2 x3 x4).cl n = (Data.of x0 x1 x2 x3 x4).cl m := by
  constructor
  · intro h
    apply Fin.ext
    show (x2 (ix1 n)).toNat % CC = (x2 (ix1 m)).toNat % CC
    rw [h]
  · intro h
    rw [← cl_word x0 x1 x2 x3 x4 hG n, ← cl_word x0 x1 x2 x3 x4 hG m, h]

theorem v1_apply (hG : Good x0 x1 x2 x4) (p : Fin PP) :
    val_main_v1 (F := Ideal) x1 (ix1 p) = BitVec.ofNat 32 ((Data.of x0 x1 x2 x3 x4).ia p).val := by
  rw [v1_word]; exact (ia_word x0 x1 x2 x3 x4 hG p).symm

theorem v3_apply (hG : Good x0 x1 x2 x4) (p : Fin PP) :
    val_main_v3 (F := Ideal) x1 (ix1 p) = BitVec.ofNat 32 ((Data.of x0 x1 x2 x3 x4).ja p).val := by
  rw [v3_word]; exact (ja_word x0 x1 x2 x3 x4 hG p).symm

/-! ## A lookup at a pair's node -/

/-- A lookup whose start index at p is a word with value below 100000 reads the vector's entry at that value. -/
theorem gather_word {α : Type} (x : S100000.Idx → α) (idx : IVec S1000000x1 32) (p : Fin PP) (w : BitVec 32)
    (hw : idx (ixP p) = w) (hlt : w.toNat < 100000) :
    Host.gather gather_S100000_S1000000x1_S1000000_n_0_n_n_0_1_1 x idx (ix1 p)
      = x (ix1 ⟨w.toNat % NN, Nat.mod_lt _ (by decide)⟩) := by
  have hN : 0 < 100000 := by decide
  rw [gather_elems gather_S100000_S1000000x1_S1000000_n_0_n_n_0_1_1 rfl rfl rfl rfl rfl x idx hN p]
  congr 2
  apply Fin.ext
  show min (idx (ixP p)).toInt.toNat (100000 - 1) = w.toNat % 100000
  rw [hw, Nat.mod_eq_of_lt hlt, toInt_eq_toNat_of_lt (by omega : w.toNat < 2 ^ 31)]
  omega

/-- The shifted anchor index at p is the pairs array's entry (0, p). -/
theorem v8_word (hG : Good x0 x1 x2 x4) (p : Fin PP) : val_main_v8 (F := Ideal) x1 (ix1 p) = x1 (ix2 0 p) := by
  rw [val_main_v8_apply, val_main_v5_apply, val_main_v4_apply, val_main_c_apply, v1_word]
  exact wrap_word _ _ (hG.hpp _).1

theorem v9_word (hG : Good x0 x1 x2 x4) (p : Fin PP) : val_main_v9 (F := Ideal) x1 (ixP p) = x1 (ix2 0 p) := by
  rw [val_main_v9_apply, show idx_main_v9 (ixP p) = ix1 p from by funext a; match a with | ⟨0, _⟩ => rfl]
  exact v8_word x0 x1 x2 x4 hG p

/-- The anchor's label word. -/
theorem v10_word (hG : Good x0 x1 x2 x4) (p : Fin PP) :
    val_main_v10 (F := Ideal) x1 x2 (ix1 p) = x2 (ix1 ((Data.of x0 x1 x2 x3 x4).ia p)) := by
  unfold val_main_v10
  exact gather_word x2 _ p _ (v9_word x0 x1 x2 x4 hG p) (node_lt x0 x1 x2 x4 hG _)

theorem v15_word (hG : Good x0 x1 x2 x4) (p : Fin PP) : val_main_v15 (F := Ideal) x1 (ix1 p) = x1 (ix2 1 p) := by
  rw [val_main_v15_apply, val_main_v12_apply, val_main_v11_apply, val_main_c_1_apply, v3_word]
  exact wrap_word _ _ (hG.hpp _).1

theorem v16_word (hG : Good x0 x1 x2 x4) (p : Fin PP) : val_main_v16 (F := Ideal) x1 (ixP p) = x1 (ix2 1 p) := by
  rw [val_main_v16_apply, show idx_main_v16 (ixP p) = ix1 p from by funext a; match a with | ⟨0, _⟩ => rfl]
  exact v15_word x0 x1 x2 x4 hG p

/-- The second node's label word. -/
theorem v17_word (hG : Good x0 x1 x2 x4) (p : Fin PP) :
    val_main_v17 (F := Ideal) x1 x2 (ix1 p) = x2 (ix1 ((Data.of x0 x1 x2 x3 x4).ja p)) := by
  unfold val_main_v17
  exact gather_word x2 _ p _ (v16_word x0 x1 x2 x4 hG p) (node_lt x0 x1 x2 x4 hG _)

theorem v23_word (hG : Good x0 x1 x2 x4) (p : Fin PP) : val_main_v23 (F := Ideal) x1 (ix1 p) = x1 (ix2 0 p) := by
  rw [val_main_v23_apply, val_main_v20_apply, val_main_v19_apply, val_main_c_3_apply, v1_word]
  exact wrap_word _ _ (hG.hpp _).1

theorem v24_word (hG : Good x0 x1 x2 x4) (p : Fin PP) : val_main_v24 (F := Ideal) x1 (ixP p) = x1 (ix2 0 p) := by
  rw [val_main_v24_apply, show idx_main_v24 (ixP p) = ix1 p from by funext a; match a with | ⟨0, _⟩ => rfl]
  exact v23_word x0 x1 x2 x4 hG p

/-- The anchor's score. -/
theorem v25_word (hG : Good x0 x1 x2 x4) (p : Fin PP) :
    val_main_v25 (F := Ideal) x1 x4 (ix1 p) = x4 (ix1 ((Data.of x0 x1 x2 x3 x4).ia p)) := by
  unfold val_main_v25
  exact gather_word x4 _ p _ (v24_word x0 x1 x2 x4 hG p) (node_lt x0 x1 x2 x4 hG _)

theorem v32_word (hG : Good x0 x1 x2 x4) (p : Fin PP) : val_main_v32 (F := Ideal) x1 (ix1 p) = x1 (ix2 1 p) := by
  rw [val_main_v32_apply, val_main_v29_apply, val_main_v28_apply, val_main_c_5_apply, v3_word]
  exact wrap_word _ _ (hG.hpp _).1

theorem v33_word (hG : Good x0 x1 x2 x4) (p : Fin PP) : val_main_v33 (F := Ideal) x1 (ixP p) = x1 (ix2 1 p) := by
  rw [val_main_v33_apply, show idx_main_v33 (ixP p) = ix1 p from by funext a; match a with | ⟨0, _⟩ => rfl]
  exact v32_word x0 x1 x2 x4 hG p

/-- The second node's score. -/
theorem v34_word (hG : Good x0 x1 x2 x4) (p : Fin PP) :
    val_main_v34 (F := Ideal) x1 x4 (ix1 p) = x4 (ix1 ((Data.of x0 x1 x2 x3 x4).ja p)) := by
  unfold val_main_v34
  exact gather_word x4 _ p _ (v33_word x0 x1 x2 x4 hG p) (node_lt x0 x1 x2 x4 hG _)

theorem v42_word (hG : Good x0 x1 x2 x4) (p : Fin PP) : val_main_v42 (F := Ideal) x1 (ix1 p) = x1 (ix2 0 p) := by
  rw [val_main_v42_apply, val_main_v39_apply, val_main_v38_apply, val_main_c_8_apply, v1_word]
  exact wrap_word _ _ (hG.hpp _).1

theorem v43_word (hG : Good x0 x1 x2 x4) (p : Fin PP) : val_main_v43 (F := Ideal) x1 (ixP p) = x1 (ix2 0 p) := by
  rw [val_main_v43_apply, show idx_main_v43 (ixP p) = ix1 p from by funext a; match a with | ⟨0, _⟩ => rfl]
  exact v42_word x0 x1 x2 x4 hG p

/-- The anchor's flag. -/
theorem v44_word (hG : Good x0 x1 x2 x4) (p : Fin PP) :
    val_main_v44 (F := Ideal) x1 x3 (ix1 p) = x3 (ix1 ((Data.of x0 x1 x2 x3 x4).ia p)) := by
  unfold val_main_v44
  exact gather_word x3 _ p _ (v43_word x0 x1 x2 x4 hG p) (node_lt x0 x1 x2 x4 hG _)

theorem v50_word (hG : Good x0 x1 x2 x4) (p : Fin PP) : val_main_v50 (F := Ideal) x1 (ix1 p) = x1 (ix2 1 p) := by
  rw [val_main_v50_apply, val_main_v47_apply, val_main_v46_apply, val_main_c_10_apply, v3_word]
  exact wrap_word _ _ (hG.hpp _).1

theorem v51_word (hG : Good x0 x1 x2 x4) (p : Fin PP) : val_main_v51 (F := Ideal) x1 (ixP p) = x1 (ix2 1 p) := by
  rw [val_main_v51_apply, show idx_main_v51 (ixP p) = ix1 p from by funext a; match a with | ⟨0, _⟩ => rfl]
  exact v50_word x0 x1 x2 x4 hG p

/-- The second node's flag. -/
theorem v52_word (hG : Good x0 x1 x2 x4) (p : Fin PP) :
    val_main_v52 (F := Ideal) x1 x3 (ix1 p) = x3 (ix1 ((Data.of x0 x1 x2 x3 x4).ja p)) := by
  unfold val_main_v52
  exact gather_word x3 _ p _ (v51_word x0 x1 x2 x4 hG p) (node_lt x0 x1 x2 x4 hG _)

theorem v107_word (hG : Good x0 x1 x2 x4) (p : Fin PP) : val_main_v107 (F := Ideal) x1 (ix1 p) = x1 (ix2 0 p) := by
  rw [val_main_v107_apply, val_main_v104_apply, val_main_v103_apply, val_main_c_26_apply, v1_word]
  exact wrap_word _ _ (hG.hpp _).1

theorem v108_word (hG : Good x0 x1 x2 x4) (p : Fin PP) : val_main_v108 (F := Ideal) x1 (ixP p) = x1 (ix2 0 p) := by
  rw [val_main_v108_apply, show idx_main_v108 (ixP p) = ix1 p from by funext a; match a with | ⟨0, _⟩ => rfl]
  exact v107_word x0 x1 x2 x4 hG p

/-- The anchor's label word, looked up again. -/
theorem v109_word (hG : Good x0 x1 x2 x4) (p : Fin PP) :
    val_main_v109 (F := Ideal) x1 x2 (ix1 p) = x2 (ix1 ((Data.of x0 x1 x2 x3 x4).ia p)) := by
  unfold val_main_v109
  exact gather_word x2 _ p _ (v108_word x0 x1 x2 x4 hG p) (node_lt x0 x1 x2 x4 hG _)

/-! ## The mask's bits -/

/-- The labels' bit: 1 exactly when the two nodes share a label. -/
theorem v18_iff (hG : Good x0 x1 x2 x4) (p : Fin PP) :
    val_main_v18 (F := Ideal) x1 x2 (ix1 p) = 1#1
      ↔ (Data.of x0 x1 x2 x3 x4).cl ((Data.of x0 x1 x2 x3 x4).ia p) = (Data.of x0 x1 x2 x3 x4).cl ((Data.of x0 x1 x2 x3 x4).ja p) := by
  rw [val_main_v18_apply, v10_word x0 x1 x2 x3 x4 hG p, v17_word x0 x1 x2 x3 x4 hG p, cmpi_eq_iff]
  exact cl_eq_iff x0 x1 x2 x3 x4 hG _ _

/-- A score above the threshold: the comparison's bit is 1 exactly when the real score exceeds the real threshold. -/
theorem score_bit (hG : Good x0 x1 x2 x4) (n : Fin NN) :
    FloatOps.cmpf (F := Ideal) .ogt (x4 (ix1 n)) (FloatOps.ofBits (F := Ideal) .f32 0x3F666666#32) = 1#1
      ↔ thrR < (Data.of x0 x1 x2 x3 x4).pt n := by
  show Ideal.cmp .ogt (x4 (ix1 n)) (Ideal.ofBits .f32 0x3F666666#32) = 1#1 ↔ _
  rw [ofBits_thr, hG.hpts (ix1 n)]
  show BitVec.ofBool (decide (((thrR : ℝ) : EReal) < (((x4 (ix1 n)).toReal : ℝ) : EReal))) = 1#1 ↔ _
  rw [ofBool_eq_one_iff, decide_eq_true_eq, EReal.coe_lt_coe_iff]
  exact Iff.rfl

theorem v27_iff (hG : Good x0 x1 x2 x4) (p : Fin PP) :
    val_main_v27 (F := Ideal) x1 x4 (ix1 p) = 1#1 ↔ thrR < (Data.of x0 x1 x2 x3 x4).pt ((Data.of x0 x1 x2 x3 x4).ia p) := by
  rw [val_main_v27_apply, v25_word x0 x1 x2 x3 x4 hG p, val_main_v26_apply, val_main_cst_apply]
  exact score_bit x0 x1 x2 x3 x4 hG _

theorem v36_iff (hG : Good x0 x1 x2 x4) (p : Fin PP) :
    val_main_v36 (F := Ideal) x1 x4 (ix1 p) = 1#1 ↔ thrR < (Data.of x0 x1 x2 x3 x4).pt ((Data.of x0 x1 x2 x3 x4).ja p) := by
  rw [val_main_v36_apply, v34_word x0 x1 x2 x3 x4 hG p, val_main_v35_apply, val_main_cst_7_apply]
  exact score_bit x0 x1 x2 x3 x4 hG _

theorem v44_iff (hG : Good x0 x1 x2 x4) (p : Fin PP) :
    val_main_v44 (F := Ideal) x1 x3 (ix1 p) = 1#1 ↔ (Data.of x0 x1 x2 x3 x4).rc ((Data.of x0 x1 x2 x3 x4).ia p) = true := by
  rw [v44_word x0 x1 x2 x3 x4 hG p]
  exact (decide_eq_true_iff).symm

theorem v52_iff (hG : Good x0 x1 x2 x4) (p : Fin PP) :
    val_main_v52 (F := Ideal) x1 x3 (ix1 p) = 1#1 ↔ (Data.of x0 x1 x2 x3 x4).rc ((Data.of x0 x1 x2 x3 x4).ja p) = true := by
  rw [v52_word x0 x1 x2 x3 x4 hG p]
  exact (decide_eq_true_iff).symm

/-- The mask bit of a pair is 1 exactly when the pair is positive. -/
theorem v54_iff (hG : Good x0 x1 x2 x4) (p : Fin PP) :
    val_main_v54 (F := Ideal) x1 x2 x3 x4 (ix1 p) = 1#1 ↔ (Data.of x0 x1 x2 x3 x4).pos p := by
  rw [val_main_v54_apply, val_main_v53_apply, val_main_v45_apply, val_main_v37_apply]
  simp only [andi_eq_one_iff]
  rw [v18_iff x0 x1 x2 x3 x4 hG p, v27_iff x0 x1 x2 x3 x4 hG p, v36_iff x0 x1 x2 x3 x4 hG p, v44_iff x0 x1 x2 x3 x4 hG p,
    v52_iff x0 x1 x2 x3 x4 hG p]
  unfold Data.pos Data.passed
  tauto

theorem v54_apply (hG : Good x0 x1 x2 x4) (p : Fin PP) :
    val_main_v54 (F := Ideal) x1 x2 x3 x4 (ix1 p) = if (Data.of x0 x1 x2 x3 x4).pos p then 1#1 else 0#1 :=
  bit_eq_ite _ _ (v54_iff x0 x1 x2 x3 x4 hG p)

/-- The mask as a float: the real 1 on a positive pair, the real 0 on any other. -/
theorem v102_apply (hG : Good x0 x1 x2 x4) (p : Fin PP) :
    val_main_v102 (F := Ideal) x1 x2 x3 x4 (ix1 p) = ((if (Data.of x0 x1 x2 x3 x4).pos p then (1 : ℝ) else 0 : ℝ) : EReal) := by
  rw [val_main_v102_apply, v54_apply x0 x1 x2 x3 x4 hG p]
  show ((((if (Data.of x0 x1 x2 x3 x4).pos p then 1#1 else 0#1 : BitVec 1).toNat : ℕ) : ℝ) : EReal) = _
  by_cases h : (Data.of x0 x1 x2 x3 x4).pos p
  · rw [if_pos h, if_pos h]; simp
  · rw [if_neg h, if_neg h]; simp

/-- The anchor's label word, as the word of the anchor's label. -/
theorem v109_apply (hG : Good x0 x1 x2 x4) (p : Fin PP) :
    val_main_v109 (F := Ideal) x1 x2 (ix1 p)
      = BitVec.ofNat 32 ((Data.of x0 x1 x2 x3 x4).cl ((Data.of x0 x1 x2 x3 x4).ia p)).val := by
  rw [v109_word x0 x1 x2 x3 x4 hG p]
  exact (cl_word x0 x1 x2 x3 x4 hG _).symm

end Cert.ReferenceIdeal.RV

end
-- ==== Proof.RV.Sim.lean ====
/-
  The pairs' scaled similarity and its exponential, as the reference program forms them, over the reals.

  For a pair p with anchor node i and second node j (its two index words, each in [0, 100000), so neither is shifted nor clamped
  when a row is read at it), the program reads the two feature rows x_i, x_j, forms their inner product Σ_d x_i d · x_j d, each
  row's Euclidean norm √(Σ_d x d · x d) clamped below at ε, divides the inner product by the product of the two clamped norms
  and then by the temperature τ. Every feature being a real and every clamped norm positive, each step is the real operation,
  and the result is the scaled similarity s p of the specification (`v81_apply`). The largest s over all the pairs, taken from
  −∞, is a real, because there is at least one pair and a maximum of reals that starts below all of them is one of them
  (`v82_real`). Subtracting it and taking the exponential gives exp (s p − M), the pair's exponential at the shift M
  (`v85_apply`).
-/
import proofs.«413937_j37383395344507_3_alg».proof.Proof.RefRead
import proofs.«413937_j37383395344507_3_alg».proof.Proof.Spec
import proofs.«413937_j37383395344507_3_alg».proof.Proof.Consts
import proofs.«413937_j37383395344507_3_alg».proof.Proof.Lib1D
import proofs.«413937_j37383395344507_3_alg».proof.Proof.LibRows
import proofs.«413937_j37383395344507_3_alg».proof.Proof.LibLinear
import proofs.«413937_j37383395344507_3_alg».proof.Proof.IdealReal
import Idealize.ShloMosaic.Lib.Affine
import Idealize.ShloMosaic.PureOps.Reduce

noncomputable section

namespace Cert.ReferenceIdeal.RV

open Cert.ReferenceIdeal Cert.ReferenceIdeal.Gen Cert.ReferenceIdeal.ReadP Cert.Spec Idealize.ShloMosaic Idealize.ShloMosaic.ValueIdx
open Idealize.ShloMosaic.StableHlo.Predicate
open scoped Classical

variable (x0 : FVec Ideal S100000x64 .f32) (x1 : IVec S2x1000000 32) (x2 : IVec S100000 32) (x3 : IVec S100000 1)
  (x4 : FVec Ideal S100000 .f32)

/-- A pair's first index word, as the first row gather reads it: the word itself (it is not negative, so never shifted). -/
theorem v61_at (hG : Good x0 x1 x2 x4) (p : Fin PP) :
    val_main_v61 (F := Ideal) x1 (ixP p) = x1 (ix2 0 p) := by
  have hidx : idx_main_v0 (idx_main_v1 (ix1 p)) = (ix2 0 p : S2x1000000.Idx) := by
    funext a
    match a with
    | ⟨0, _⟩ => rfl
    | ⟨1, _⟩ => exact Fin.ext (Nat.mod_eq_of_lt p.isLt)
  have h1 : val_main_v1 (F := Ideal) x1 (ix1 p) = x1 (ix2 0 p) := by
    rw [val_main_v1_apply, val_main_v0_apply, hidx]
  have hi : idx_main_v61 (ixP p) = (ix1 p : S1000000.Idx) := by
    funext a
    match a with
    | ⟨0, _⟩ => rfl
  rw [val_main_v61_apply, hi, val_main_v60_apply, val_main_v57_apply, h1, val_main_v56_apply, val_main_c_12_apply]
  have hc : IntOp.cmpi .slt (x1 (ix2 0 p)) 0#32 = 0#1 := by
    have hne : IntOp.cmpi .slt (x1 (ix2 0 p)) 0#32 ≠ 1#1 := by
      rw [Ne, IntOp.cmpi_slt, BitVec.toInt_zero]
      exact not_lt.mpr (hG.hpp _).1
    generalize IntOp.cmpi .slt (x1 (ix2 0 p)) 0#32 = c at hne
    revert hne; revert c; decide
  rw [hc, select_zero]

/-- A pair's second index word, as the second row gather reads it. -/
theorem v68_at (hG : Good x0 x1 x2 x4) (p : Fin PP) :
    val_main_v68 (F := Ideal) x1 (ixP p) = x1 (ix2 1 p) := by
  have hidx : idx_main_v2 (idx_main_v3 (ix1 p)) = (ix2 1 p : S2x1000000.Idx) := by
    funext a
    match a with
    | ⟨0, _⟩ => rfl
    | ⟨1, _⟩ => exact Fin.ext (Nat.mod_eq_of_lt p.isLt)
  have h1 : val_main_v3 (F := Ideal) x1 (ix1 p) = x1 (ix2 1 p) := by
    rw [val_main_v3_apply, val_main_v2_apply, hidx]
  have hi : idx_main_v68 (ixP p) = (ix1 p : S1000000.Idx) := by
    funext a
    match a with
    | ⟨0, _⟩ => rfl
  rw [val_main_v68_apply, hi, val_main_v67_apply, val_main_v64_apply, h1, val_main_v63_apply, val_main_c_14_apply]
  have hc : IntOp.cmpi .slt (x1 (ix2 1 p)) 0#32 = 0#1 := by
    have hne : IntOp.cmpi .slt (x1 (ix2 1 p)) 0#32 ≠ 1#1 := by
      rw [Ne, IntOp.cmpi_slt, BitVec.toInt_zero]
      exact not_lt.mpr (hG.hpp _).1
    generalize IntOp.cmpi .slt (x1 (ix2 1 p)) 0#32 = c at hne
    revert hne; revert c; decide
  rw [hc, select_zero]

local notation "𝒟" => Data.of x0 x1 x2 x3 x4

/-- An index word in [0, 100000) names, clamped into the table, the node the data reads off it. -/
theorem clamp_eq_mod (w : BitVec 32) (h0 : 0 ≤ w.toInt) (h1 : w.toInt < 100000) :
    min w.toInt.toNat (100000 - 1) = w.toNat % NN := by
  rw [Lib1D.toInt_eq_toNat_of_nonneg _ h0] at h1 ⊢
  show min ((w.toNat : ℤ)).toNat (100000 - 1) = w.toNat % 100000
  omega

/-- The row the first gather reads for pair p is its anchor node's. -/
theorem row_ia (hG : Good x0 x1 x2 x4) (p : Fin PP) :
    LibRows.rowOf (N := 100000) (by decide) (val_main_v61 (F := Ideal) x1) p = (𝒟).ia p := by
  apply Fin.ext
  show min ((val_main_v61 (F := Ideal) x1) (ixP p)).toInt.toNat (100000 - 1) = (x1 (ix2 0 p)).toNat % NN
  rw [v61_at x0 x1 x2 x4 hG p]
  exact clamp_eq_mod _ (hG.hpp _).1 (hG.hpp _).2

/-- The row the second gather reads for pair p is its second node's. -/
theorem row_ja (hG : Good x0 x1 x2 x4) (p : Fin PP) :
    LibRows.rowOf (N := 100000) (by decide) (val_main_v68 (F := Ideal) x1) p = (𝒟).ja p := by
  apply Fin.ext
  show min ((val_main_v68 (F := Ideal) x1) (ixP p)).toInt.toNat (100000 - 1) = (x1 (ix2 1 p)).toNat % NN
  rw [v68_at x0 x1 x2 x4 hG p]
  exact clamp_eq_mod _ (hG.hpp _).1 (hG.hpp _).2

/-- The first gathered row of pair p: the anchor node's feature row. -/
theorem v62_at (hG : Good x0 x1 x2 x4) (p : Fin PP) (d : Fin DD) :
    val_main_v62 (F := Ideal) x0 x1 (ix2 p d) = (((𝒟).xr ((𝒟).ia p) d : ℝ) : EReal) := by
  unfold val_main_v62
  rw [LibRows.gather_rows _ rfl rfl rfl rfl rfl x0 (val_main_v61 (F := Ideal) x1) (by decide) p d,
    row_ia x0 x1 x2 x3 x4 hG p]
  exact hG.hx _

/-- The second gathered row of pair p: the second node's feature row. -/
theorem v69_at (hG : Good x0 x1 x2 x4) (p : Fin PP) (d : Fin DD) :
    val_main_v69 (F := Ideal) x0 x1 (ix2 p d) = (((𝒟).xr ((𝒟).ja p) d : ℝ) : EReal) := by
  unfold val_main_v69
  rw [LibRows.gather_rows _ rfl rfl rfl rfl rfl x0 (val_main_v68 (F := Ideal) x1) (by decide) p d,
    row_ja x0 x1 x2 x3 x4 hG p]
  exact hG.hx _

/-- The raw inner product of pair p's two rows. -/
theorem v71_at (hG : Good x0 x1 x2 x4) (p : Fin PP) :
    val_main_v71 (F := Ideal) x0 x1 (ix1 p)
      = ((∑ d, (𝒟).xr ((𝒟).ia p) d * (𝒟).xr ((𝒟).ja p) d : ℝ) : EReal) := by
  have hk : ∀ k : Fin 64, val_main_v70 (F := Ideal) x0 x1 (idx_main_v71 (ix1 p) k)
      = (((𝒟).xr ((𝒟).ia p) k * (𝒟).xr ((𝒟).ja p) k : ℝ) : EReal) := by
    intro k
    have hi : idx_main_v71 (ix1 p) k = (ix2 p k : S1000000x64.Idx) := by
      funext a
      match a with
      | ⟨0, _⟩ => rfl
      | ⟨1, _⟩ => rfl
    rw [hi, val_main_v70_apply, v62_at x0 x1 x2 x3 x4 hG p k, v69_at x0 x1 x2 x3 x4 hG p k, IdealReal.mulf_coe]
  rw [val_main_v71_apply, val_main_cst_16_apply, Ideal.ofBits_def, ofBits_zero, LibLinear.coe_sum, EReal.coe_zero, zero_add]
  exact Finset.sum_congr rfl fun k _ => hk k

/-- The squared length of pair p's anchor row. -/
theorem nsq0_at (hG : Good x0 x1 x2 x4) (p : Fin PP) :
    val_main_call0_v1 (F := Ideal) x0 x1 (ix1 p)
      = ((∑ d, (𝒟).xr ((𝒟).ia p) d * (𝒟).xr ((𝒟).ia p) d : ℝ) : EReal) := by
  have hk : ∀ k : Fin 64, val_main_call0_v0 (F := Ideal) x0 x1 (idx_main_call0_v1 (ix1 p) k)
      = (((𝒟).xr ((𝒟).ia p) k * (𝒟).xr ((𝒟).ia p) k : ℝ) : EReal) := by
    intro k
    have hi : idx_main_call0_v1 (ix1 p) k = (ix2 p k : S1000000x64.Idx) := by
      funext a
      match a with
      | ⟨0, _⟩ => rfl
      | ⟨1, _⟩ => rfl
    rw [hi, val_main_call0_v0_apply, v62_at x0 x1 x2 x3 x4 hG p k, IdealReal.mulf_coe]
  rw [val_main_call0_v1_apply, val_main_call0_cst_apply, Ideal.ofBits_def, ofBits_zero, LibLinear.coe_sum, EReal.coe_zero,
    zero_add]
  exact Finset.sum_congr rfl fun k _ => hk k

/-- The squared length of pair p's second row. -/
theorem nsq1_at (hG : Good x0 x1 x2 x4) (p : Fin PP) :
    val_main_call1_v1 (F := Ideal) x0 x1 (ix1 p)
      = ((∑ d, (𝒟).xr ((𝒟).ja p) d * (𝒟).xr ((𝒟).ja p) d : ℝ) : EReal) := by
  have hk : ∀ k : Fin 64, val_main_call1_v0 (F := Ideal) x0 x1 (idx_main_call1_v1 (ix1 p) k)
      = (((𝒟).xr ((𝒟).ja p) k * (𝒟).xr ((𝒟).ja p) k : ℝ) : EReal) := by
    intro k
    have hi : idx_main_call1_v1 (ix1 p) k = (ix2 p k : S1000000x64.Idx) := by
      funext a
      match a with
      | ⟨0, _⟩ => rfl
      | ⟨1, _⟩ => rfl
    rw [hi, val_main_call1_v0_apply, v69_at x0 x1 x2 x3 x4 hG p k, IdealReal.mulf_coe]
  rw [val_main_call1_v1_apply, val_main_call1_cst_apply, Ideal.ofBits_def, ofBits_zero, LibLinear.coe_sum, EReal.coe_zero,
    zero_add]
  exact Finset.sum_congr rfl fun k _ => hk k

/-- A sum of squares is not negative. -/
theorem sumsq_nonneg (D : Data) (n : Fin NN) : 0 ≤ ∑ d, D.xr n d * D.xr n d :=
  Finset.sum_nonneg fun d _ => mul_self_nonneg _

/-- The clamped norm of pair p's anchor row. -/
theorem v74_at (hG : Good x0 x1 x2 x4) (p : Fin PP) :
    val_main_v74 (F := Ideal) x0 x1 (ix1 p) = (((𝒟).nr ((𝒟).ia p) : ℝ) : EReal) := by
  rw [val_main_v74_apply, val_main_v72_apply, nsq0_at x0 x1 x2 x3 x4 hG p,
    IdealReal.hostUnary_sqrt_coe (sumsq_nonneg _ _), val_main_v73_apply, val_main_cst_17_apply, Ideal.ofBits_def, ofBits_eps,
    IdealReal.maximumf_coe]
  rfl

/-- The clamped norm of pair p's second row. -/
theorem v77_at (hG : Good x0 x1 x2 x4) (p : Fin PP) :
    val_main_v77 (F := Ideal) x0 x1 (ix1 p) = (((𝒟).nr ((𝒟).ja p) : ℝ) : EReal) := by
  rw [val_main_v77_apply, val_main_v75_apply, nsq1_at x0 x1 x2 x3 x4 hG p,
    IdealReal.hostUnary_sqrt_coe (sumsq_nonneg _ _), val_main_v76_apply, val_main_cst_18_apply, Ideal.ofBits_def, ofBits_eps,
    IdealReal.maximumf_coe]
  rfl

/-- The scaled similarity of pair p: the inner product over the product of the clamped norms, over the temperature. -/
theorem v81_apply (hG : Good x0 x1 x2 x4) (p : Fin PP) :
    val_main_v81 (F := Ideal) x0 x1 (ix1 p) = (((Data.of x0 x1 x2 x3 x4).sR p : ℝ) : EReal) := by
  have hn : (𝒟).nr ((𝒟).ia p) * (𝒟).nr ((𝒟).ja p) ≠ 0 :=
    (mul_pos ((𝒟).nr_pos _) ((𝒟).nr_pos _)).ne'
  rw [val_main_v81_apply, val_main_v79_apply, v71_at x0 x1 x2 x3 x4 hG p, val_main_v78_apply, v74_at x0 x1 x2 x3 x4 hG p,
    v77_at x0 x1 x2 x3 x4 hG p, IdealReal.mulf_coe, IdealReal.hostDivf_coe _ hn, val_main_v80_apply, val_main_cst_19_apply,
    Ideal.ofBits_def, ofBits_tau, IdealReal.hostDivf_coe _ tauR_pos.ne']
  rfl

/-- A fold of the maximum from −∞ over real values is −∞, over no value at all, or a real. -/
theorem fold_max_real {ι : Type} (op : EReal → EReal → EReal) [Std.Commutative op] [Std.Associative op]
    (hop : ∀ a b, op a b = max a b) (g : ι → EReal) (hg : ∀ i, ∃ r : ℝ, g i = (r : EReal)) (S : Finset ι) :
    (S.fold op ⊥ g = ⊥ ∧ ∀ i, i ∉ S) ∨ ∃ r : ℝ, S.fold op ⊥ g = (r : EReal) := by
  induction S using Finset.induction_on with
  | empty => exact Or.inl ⟨Finset.fold_empty, Finset.notMem_empty⟩
  | insert a S ha ih =>
    right
    obtain ⟨r, hr⟩ := hg a
    rw [Finset.fold_insert ha, hop, hr]
    rcases ih with ⟨h, _⟩ | ⟨s, hs⟩
    · rw [h]; exact ⟨r, max_eq_left bot_le⟩
    · rw [hs]; exact ⟨max r s, IdealReal.emax_coe r s⟩

/-- Every pair's scaled similarity is a real. -/
theorem v81_real (hG : Good x0 x1 x2 x4) (i : S1000000.Idx) :
    ∃ r : ℝ, val_main_v81 (F := Ideal) x0 x1 i = (r : EReal) := by
  obtain ⟨q, hq⟩ : ∃ q : Fin PP, i = ix1 q := ⟨_, eq_ix1 _⟩
  rw [hq]
  exact ⟨_, v81_apply x0 x1 x2 (fun _ => 0#1) x4 hG q⟩

/-- The largest scaled similarity over all the pairs, taken from −∞, is a real: there is a pair. -/
theorem v82_real (hG : Good x0 x1 x2 x4) : ∃ M : ℝ, val_main_v82 (F := Ideal) x0 x1 ix0 = ((M : ℝ) : EReal) := by
  have hop : ∀ a b : EReal, FloatOps.maximumf (F := Ideal) (φ := .f32) a b = max a b := fun _ _ => rfl
  have key := fold_max_real (FloatOps.maximumf (F := Ideal) (φ := .f32)) hop (val_main_v81 (F := Ideal) x0 x1)
    (v81_real x0 x1 x2 x4 hG)
  unfold val_main_v82
  rw [Host.reduce_eq_fold FloatOps.maximumf _ _ reducesTo_S1000000_S_d0 h_S_ ix0, val_main_cst_20_apply,
    Ideal.ofBits_def, ofBits_ninf]
  refine (key _).elim ?_ id
  rintro ⟨_, hS⟩
  have h0 := hS (ix1 (⟨0, by omega⟩ : Fin 1000000))
  rw [Finset.mem_filter] at h0
  exact (h0 ⟨Finset.mem_univ _, eq_ix0 _⟩).elim

/-- The exponential of pair p's scaled similarity less the largest one. -/
theorem v85_apply (hG : Good x0 x1 x2 x4) (M : ℝ) (hM : val_main_v82 (F := Ideal) x0 x1 ix0 = ((M : ℝ) : EReal))
    (p : Fin PP) :
    val_main_v85 (F := Ideal) x0 x1 (ix1 p) = ((Data.eAt (Data.of x0 x1 x2 x3 x4).sR M p : ℝ) : EReal) := by
  have hi : idx_main_v83 (ix1 p) = ix0 := rfl
  rw [val_main_v85_apply, val_main_v84_apply, v81_apply x0 x1 x2 x3 x4 hG p, val_main_v83_apply, hi, hM, IdealReal.subf_coe,
    IdealReal.hostUnary_exp_coe]
  rfl

end Cert.ReferenceIdeal.RV

end
-- ==== Proof.RV.Loss.lean ====
/-
  The anchors' denominators and the pairs' losses of the reference program, as real numbers.

  Upstream, every pair p carries the positive real e p = exp (s p − M), a bit saying whether it is a positive pair, and
  the word of its anchor node ia p (a number below the node count). Here: a pair's contribution is e p when the pair is
  negative and 0 when it is positive; an accumulating scatter from a zero vector lands contribution q on node ia q, so node n
  receives the sum of the contributions of the pairs anchored at it; the clamp below at 0 gives the node's denominator. A
  lookup of the denominators at the anchor words (none negative, so none is shifted; all below the node count, so none is
  clamped) gives each pair its anchor's denominator; the pair's loss is log (e p + that denominator) − log e p, both
  logarithms of positive reals; and the loss times the pair's weight (1 for a positive pair, 0 otherwise) is the loss of a
  positive pair and 0 of any other.
-/
import proofs.«413937_j37383395344507_3_alg».proof.Proof.RefRead
import proofs.«413937_j37383395344507_3_alg».proof.Proof.Spec
import proofs.«413937_j37383395344507_3_alg».proof.Proof.Lib1D
import proofs.«413937_j37383395344507_3_alg».proof.Proof.LibLinear
import proofs.«413937_j37383395344507_3_alg».proof.Proof.Consts
import proofs.«413937_j37383395344507_3_alg».proof.Proof.Math

noncomputable section

namespace Cert.ReferenceIdeal.RV

open Cert.ReferenceIdeal Cert.ReferenceIdeal.Gen Cert.ReferenceIdeal.ReadP Cert.Spec Idealize.ShloMosaic
  Idealize.ShloMosaic.ValueIdx Idealize.ShloMosaic.StableHlo.Predicate
open scoped Classical

variable (x0 : FVec Ideal S100000x64 .f32) (x1 : IVec S2x1000000 32) (x2 : IVec S100000 32) (x3 : IVec S100000 1)
  (x4 : FVec Ideal S100000 .f32) (D : Data) (M : ℝ)

/-- A pair's contribution to its anchor's sum: its exponential when it is negative, 0 when it is positive. -/
theorem v86_apply
    (h85 : ∀ p : Fin PP, val_main_v85 (F := Ideal) x0 x1 (ix1 p) = ((Data.eAt D.sR M p : ℝ) : EReal))
    (h54 : ∀ p : Fin PP, val_main_v54 (F := Ideal) x1 x2 x3 x4 (ix1 p) = if D.pos p then 1#1 else 0#1)
    (p : Fin PP) :
    val_main_v86 (F := Ideal) x0 x1 x2 x3 x4 (ix1 p) = ((D.negAt D.sR M p : ℝ) : EReal) := by
  rw [val_main_v86_apply, val_main_v55_apply, h54 p, h85 p, val_main_call2_v1_apply, val_main_call2_v0_apply,
    val_main_cst_21_apply, Ideal.ofBits_def, ofBits_zero]
  unfold Data.negAt
  by_cases h : D.pos p
  · rw [if_pos h, if_pos h, show (~~~(1#1 : BitVec 1)) = 0#1 from by decide, select_zero]
  · rw [if_neg h, if_neg h, show (~~~(0#1 : BitVec 1)) = 1#1 from by decide, select_one]

/-- A word of the anchor column, read signed, is the anchor node's number. -/
theorem v88_toInt
    (h1 : ∀ p : Fin PP, val_main_v1 (F := Ideal) x1 (ix1 p) = BitVec.ofNat 32 (D.ia p).val)
    (e : Fin PP) : (val_main_v88 (F := Ideal) x1 (ixP e)).toInt = ((D.ia e).val : ℤ) := by
  have hi : idx_main_v88 (ixP e) = ix1 e := by
    funext a; match a with | ⟨0, _⟩ => rfl
  have hlt : (D.ia e).val < 100000 := (D.ia e).isLt
  rw [val_main_v88_apply, hi, h1 e]
  exact toInt_ofNat_small _ (by omega)

/-- A node's accumulated sum: the contributions of the pairs anchored at it. -/
theorem v89_apply
    (h85 : ∀ p : Fin PP, val_main_v85 (F := Ideal) x0 x1 (ix1 p) = ((Data.eAt D.sR M p : ℝ) : EReal))
    (h54 : ∀ p : Fin PP, val_main_v54 (F := Ideal) x1 x2 x3 x4 (ix1 p) = if D.pos p then 1#1 else 0#1)
    (h1 : ∀ p : Fin PP, val_main_v1 (F := Ideal) x1 (ix1 p) = BitVec.ofNat 32 (D.ia p).val)
    (n : Fin NN) :
    val_main_v89 (F := Ideal) x0 x1 x2 x3 x4 (ix1 n)
      = ((∑ q, if D.ia q = n then D.negAt D.sR M q else 0 : ℝ) : EReal) := by
  unfold val_main_v89
  rw [Cert.Lib1D.scatterAdd_elems _ rfl rfl rfl rfl, val_main_v87_apply, val_main_cst_22_apply, Ideal.ofBits_def,
    ofBits_zero, EReal.coe_zero, zero_add, Finset.sum_filter, Cert.LibLinear.coe_sum]
  refine Finset.sum_congr rfl (fun e _ => ?_)
  rw [v88_toInt x1 D h1 e, v86_apply x0 x1 x2 x3 x4 D M h85 h54 e]
  by_cases h : D.ia e = n
  · rw [if_pos h, if_pos (by rw [h])]
  · rw [if_neg h, if_neg (fun h' => h (Fin.ext (by exact_mod_cast h'))), EReal.coe_zero]

/-- A node's denominator: its accumulated sum clamped below at 0. -/
theorem v90_apply
    (h85 : ∀ p : Fin PP, val_main_v85 (F := Ideal) x0 x1 (ix1 p) = ((Data.eAt D.sR M p : ℝ) : EReal))
    (h54 : ∀ p : Fin PP, val_main_v54 (F := Ideal) x1 x2 x3 x4 (ix1 p) = if D.pos p then 1#1 else 0#1)
    (h1 : ∀ p : Fin PP, val_main_v1 (F := Ideal) x1 (ix1 p) = BitVec.ofNat 32 (D.ia p).val)
    (n : Fin NN) :
    val_main_v90 (F := Ideal) x0 x1 x2 x3 x4 (ix1 n) = ((D.denAt D.sR M n : ℝ) : EReal) := by
  rw [val_main_v90_apply, val_main_call3_v1_apply, val_main_call3_v0_apply, val_main_cst_23_apply,
    v89_apply x0 x1 x2 x3 x4 D M h85 h54 h1 n, Ideal.ofBits_def, ofBits_zero, Ideal.maximumf_def]
  unfold Data.denAt
  exact (EReal.coe_strictMono.monotone.map_max).symm

/-- A word of the lookup's index column is the anchor node's word: it is not negative, so it is not shifted. -/
theorem v96_word
    (h1 : ∀ p : Fin PP, val_main_v1 (F := Ideal) x1 (ix1 p) = BitVec.ofNat 32 (D.ia p).val)
    (p : Fin PP) : val_main_v96 (F := Ideal) x1 (ixP p) = BitVec.ofNat 32 (D.ia p).val := by
  have hi : idx_main_v96 (ixP p) = ix1 p := by
    funext a; match a with | ⟨0, _⟩ => rfl
  have hlt : (D.ia p).val < 100000 := (D.ia p).isLt
  have hz : IntOp.cmpi .slt (BitVec.ofNat 32 (D.ia p).val) 0#32 = 0#1 := by
    apply eq_zero_of_ne_one
    show ¬ BitVec.ofBool ((BitVec.ofNat 32 (D.ia p).val).slt 0#32) = 1#1
    rw [ofBool_eq_one_iff, BitVec.slt_iff_toInt_lt, BitVec.toInt_zero, toInt_ofNat_small _ (by omega)]
    omega
  rw [val_main_v96_apply, hi, val_main_v95_apply, val_main_v92_apply, val_main_v91_apply, val_main_c_24_apply, h1 p, hz,
    select_zero]

/-- Each pair's looked-up value: its anchor's denominator. -/
theorem v97_apply
    (h85 : ∀ p : Fin PP, val_main_v85 (F := Ideal) x0 x1 (ix1 p) = ((Data.eAt D.sR M p : ℝ) : EReal))
    (h54 : ∀ p : Fin PP, val_main_v54 (F := Ideal) x1 x2 x3 x4 (ix1 p) = if D.pos p then 1#1 else 0#1)
    (h1 : ∀ p : Fin PP, val_main_v1 (F := Ideal) x1 (ix1 p) = BitVec.ofNat 32 (D.ia p).val)
    (p : Fin PP) :
    val_main_v97 (F := Ideal) x0 x1 x2 x3 x4 (ix1 p) = ((D.denAt D.sR M (D.ia p) : ℝ) : EReal) := by
  have hN : 0 < 100000 := by omega
  have hlt : (D.ia p).val < 100000 := (D.ia p).isLt
  have hrow : Cert.LibRows.rowOf hN (val_main_v96 (F := Ideal) x1) p = D.ia p := by
    apply Fin.ext
    have h := Cert.Lib1D.rowOf_of_inRange hN (val_main_v96 (F := Ideal) x1) p
    rw [v96_word x1 D h1 p, toInt_ofNat_small _ (by omega)] at h
    have h' := h (by omega) (by omega)
    exact_mod_cast h'
  unfold val_main_v97
  rw [Cert.Lib1D.gather_elems _ rfl rfl rfl rfl rfl _ _ hN p, hrow, v90_apply x0 x1 x2 x3 x4 D M h85 h54 h1 (D.ia p)]

/-- A pair's loss: the logarithm of its exponential plus its anchor's denominator, less the logarithm of its exponential. -/
theorem v101_apply
    (h85 : ∀ p : Fin PP, val_main_v85 (F := Ideal) x0 x1 (ix1 p) = ((Data.eAt D.sR M p : ℝ) : EReal))
    (h54 : ∀ p : Fin PP, val_main_v54 (F := Ideal) x1 x2 x3 x4 (ix1 p) = if D.pos p then 1#1 else 0#1)
    (h1 : ∀ p : Fin PP, val_main_v1 (F := Ideal) x1 (ix1 p) = BitVec.ofNat 32 (D.ia p).val)
    (p : Fin PP) :
    val_main_v101 (F := Ideal) x0 x1 x2 x3 x4 (ix1 p) = ((D.lossAt D.sR M p : ℝ) : EReal) := by
  have he : 0 < Data.eAt D.sR M p := Data.eAt_pos D.sR M p
  have hs : 0 < Data.eAt D.sR M p + D.denAt D.sR M (D.ia p) :=
    add_pos_of_pos_of_nonneg he (D.denAt_nonneg D.sR M (D.ia p))
  rw [val_main_v101_apply, val_main_v99_apply, val_main_v98_apply, val_main_v100_apply, h85 p,
    v97_apply x0 x1 x2 x3 x4 D M h85 h54 h1 p, Ideal.addf_def, ← EReal.coe_add, Ideal.hostUnary_log_def,
    Ideal.hostUnary_log_def, Ideal.log_coe, Ideal.log_coe, if_neg (not_le.mpr hs), if_neg (not_le.mpr he), Ideal.subf_def,
    ← EReal.coe_sub]
  rfl

/-- A pair's weighted loss: its loss when it is positive, 0 otherwise. -/
theorem v110_apply
    (h85 : ∀ p : Fin PP, val_main_v85 (F := Ideal) x0 x1 (ix1 p) = ((Data.eAt D.sR M p : ℝ) : EReal))
    (h54 : ∀ p : Fin PP, val_main_v54 (F := Ideal) x1 x2 x3 x4 (ix1 p) = if D.pos p then 1#1 else 0#1)
    (h102 : ∀ p : Fin PP, val_main_v102 (F := Ideal) x1 x2 x3 x4 (ix1 p)
      = ((if D.pos p then (1 : ℝ) else 0 : ℝ) : EReal))
    (h1 : ∀ p : Fin PP, val_main_v1 (F := Ideal) x1 (ix1 p) = BitVec.ofNat 32 (D.ia p).val)
    (p : Fin PP) :
    val_main_v110 (F := Ideal) x0 x1 x2 x3 x4 (ix1 p)
      = ((if D.pos p then D.lossAt D.sR M p else 0 : ℝ) : EReal) := by
  rw [val_main_v110_apply, v101_apply x0 x1 x2 x3 x4 D M h85 h54 h1 p, h102 p, Ideal.mulf_def, ← EReal.coe_mul]
  by_cases h : D.pos p
  · rw [if_pos h, if_pos h, mul_one]
  · rw [if_neg h, if_neg h, mul_zero]

end Cert.ReferenceIdeal.RV

end
-- ==== Proof.RV.Means.lean ====
/-
  The last stretch of the reference: the per-label sums and counts, and the mean of the per-label means.

  Every pair carries a label word (its anchor's label, a number below 64), a weight (1 when the pair is positive, else 0) and a
  weighted loss (its loss when positive, else 0). Two accumulating scatters into 64 zeros add, at entry k, the weighted
  losses, respectively the weights, of the pairs whose label is k: the sum of the losses of the positive pairs of label k,
  and their number. From sums s and counts c the result is
      (Σ k, if 0 < c k then s k / max (c k) 1 else 0) / max (Σ k, if 0 < c k then 1 else 0) 1 :
  the mean inside each label that has a positive pair, then the mean over those labels. Both divisors are at least 1, so every
  quotient is the real quotient.
-/
import proofs.«413937_j37383395344507_3_alg».proof.Proof.RefRead
import proofs.«413937_j37383395344507_3_alg».proof.Proof.Spec
import proofs.«413937_j37383395344507_3_alg».proof.Proof.Consts
import proofs.«413937_j37383395344507_3_alg».proof.Proof.Lib1D
import proofs.«413937_j37383395344507_3_alg».proof.Proof.LibLinear

noncomputable section

namespace Cert.ReferenceIdeal.RV

open Cert.ReferenceIdeal Cert.ReferenceIdeal.Gen Cert.ReferenceIdeal.ReadP Cert.Spec Idealize.ShloMosaic
  Idealize.ShloMosaic.ValueIdx Idealize.ShloMosaic.StableHlo.Predicate
open scoped Classical

/-! ## Operations on extended reals that are real numbers -/

/-- The quotient of two reals, the divisor not zero, is the real quotient. -/
theorem div_real (x : ℝ) {y : ℝ} (hy : y ≠ 0) : Ideal.div ((x : ℝ) : EReal) ((y : ℝ) : EReal) = ((x / y : ℝ) : EReal) := by
  rw [Ideal.div_coe hy, ← EReal.coe_mul, mul_one_div]

/-- The larger of two reals, taken in the extended reals, is the larger real. -/
theorem max_real (x y : ℝ) : max ((x : ℝ) : EReal) ((y : ℝ) : EReal) = ((max x y : ℝ) : EReal) :=
  (EReal.coe_strictMono.monotone.map_max).symm

/-- "Greater than" between two reals answers the bit 1 exactly when it holds. -/
theorem cmp_ogt_real (x y : ℝ) : Ideal.cmp .ogt ((x : ℝ) : EReal) ((y : ℝ) : EReal) = if y < x then 1#1 else 0#1 := by
  show BitVec.ofBool (decide (((y : ℝ) : EReal) < ((x : ℝ) : EReal))) = _
  by_cases h : y < x
  · rw [if_pos h, decide_eq_true (EReal.coe_lt_coe_iff.mpr h)]; rfl
  · rw [if_neg h, decide_eq_false (fun h' => h (EReal.coe_lt_coe_iff.mp h'))]; rfl

/-! ## An accumulating scatter of real updates into zeros, at label words below 64 -/

/-- Entry k of the scatter: the sum of the updates whose label is k. -/
theorem scatter_labels (z : FVec Ideal S64 .f32) (idx : IVec S1000000x1 32) (upd : FVec Ideal S1000000 .f32)
    (f : Fin PP → ℝ) (lab : Fin PP → Fin CC)
    (hz : ∀ k : Fin CC, z (ix1 k) = ((0 : ℝ) : EReal))
    (hidx : ∀ p : Fin PP, idx (ixP p) = BitVec.ofNat 32 (lab p).val)
    (hupd : ∀ p : Fin PP, upd (ix1 p) = ((f p : ℝ) : EReal)) (k : Fin CC) :
    Host.scatterAdd scatter_S64_S1000000x1_S1000000_n_0_0_1 z idx upd (ix1 k)
      = ((∑ p : Fin PP, if lab p = k then f p else 0 : ℝ) : EReal) := by
  rw [Cert.Lib1D.scatterAdd_elems scatter_S64_S1000000x1_S1000000_n_0_0_1 rfl rfl rfl rfl z idx upd k, hz,
    EReal.coe_zero, zero_add, Cert.LibLinear.coe_sum, Finset.sum_filter]
  refine Finset.sum_congr rfl (fun p _ => ?_)
  -- the label word read signed is the label
  have hw : (idx (ixP p)).toInt = ((lab p).val : ℤ) := by
    rw [hidx]
    exact toInt_ofNat_small _ (lt_trans (lab p).isLt (by decide))
  have hiff : ((idx (ixP p)).toInt = ((k.val : ℕ) : ℤ)) ↔ lab p = k := by
    rw [hw]
    constructor
    · intro h; exact Fin.ext (by exact_mod_cast h)
    · intro h; rw [h]
  by_cases hk : lab p = k
  · rw [if_pos (hiff.mpr hk), if_pos hk, hupd]
  · rw [if_neg (fun h => hk (hiff.mp h)), if_neg hk, EReal.coe_zero]

variable (x0 : FVec Ideal S100000x64 .f32) (x1 : IVec S2x1000000 32) (x2 : IVec S100000 32) (x3 : IVec S100000 1)
  (x4 : FVec Ideal S100000 .f32)

/-- The label column of either scatter at row p is the label word of pair p. -/
theorem v112_at (p : Fin PP) : val_main_v112 (F := Ideal) x1 x2 (ixP p) = val_main_v109 (F := Ideal) x1 x2 (ix1 p) := by
  rw [val_main_v112_apply]
  congr 1
  funext a
  match a with
  | ⟨0, _⟩ => rfl

theorem v115_at (p : Fin PP) : val_main_v115 (F := Ideal) x1 x2 (ixP p) = val_main_v109 (F := Ideal) x1 x2 (ix1 p) := by
  rw [val_main_v115_apply]
  congr 1
  funext a
  match a with
  | ⟨0, _⟩ => rfl

/-- The zeros the sums are accumulated into. -/
theorem v111_at (k : Fin CC) : val_main_v111 (F := Ideal) (ix1 k) = ((0 : ℝ) : EReal) := by
  rw [val_main_v111_apply, val_main_cst_28_apply, Ideal.ofBits_def, ofBits_zero]

/-- The zeros the counts are accumulated into. -/
theorem v114_at (k : Fin CC) : val_main_v114 (F := Ideal) (ix1 k) = ((0 : ℝ) : EReal) := by
  rw [val_main_v114_apply, val_main_cst_29_apply, Ideal.ofBits_def, ofBits_zero]

section Sums

variable (D : Data) (M : ℝ)

/-- Entry k of the accumulated losses: the sum of the losses of the positive pairs of label k. -/
theorem v113_apply
    (h110 : ∀ p : Fin PP, val_main_v110 (F := Ideal) x0 x1 x2 x3 x4 (ix1 p)
      = ((if D.pos p then D.lossAt D.sR M p else 0 : ℝ) : EReal))
    (h109 : ∀ p : Fin PP, val_main_v109 (F := Ideal) x1 x2 (ix1 p) = BitVec.ofNat 32 (D.cl (D.ia p)).val)
    (k : Fin CC) :
    val_main_v113 (F := Ideal) x0 x1 x2 x3 x4 (ix1 k) = ((D.sumsR M k : ℝ) : EReal) := by
  have hidx : ∀ p : Fin PP, val_main_v112 (F := Ideal) x1 x2 (ixP p) = BitVec.ofNat 32 (D.cl (D.ia p)).val :=
    fun p => (v112_at x1 x2 p).trans (h109 p)
  have h := scatter_labels (val_main_v111 (F := Ideal)) (val_main_v112 (F := Ideal) x1 x2)
    (val_main_v110 (F := Ideal) x0 x1 x2 x3 x4) (fun p => if D.pos p then D.lossAt D.sR M p else 0)
    (fun p => D.cl (D.ia p)) v111_at hidx h110 k
  refine h.trans (congrArg (fun r : ℝ => (r : EReal)) ?_)
  unfold Data.sumsR Data.sumsAt
  refine Finset.sum_congr rfl (fun p _ => ?_)
  by_cases hp : D.pos p <;> by_cases hk : D.cl (D.ia p) = k <;> simp [hp, hk]

/-- Entry k of the accumulated weights: the number of positive pairs of label k. -/
theorem v116_apply
    (h102 : ∀ p : Fin PP, val_main_v102 (F := Ideal) x1 x2 x3 x4 (ix1 p) = ((if D.pos p then (1 : ℝ) else 0 : ℝ) : EReal))
    (h109 : ∀ p : Fin PP, val_main_v109 (F := Ideal) x1 x2 (ix1 p) = BitVec.ofNat 32 (D.cl (D.ia p)).val)
    (k : Fin CC) :
    val_main_v116 (F := Ideal) x1 x2 x3 x4 (ix1 k) = ((D.cnt k : ℝ) : EReal) := by
  have hidx : ∀ p : Fin PP, val_main_v115 (F := Ideal) x1 x2 (ixP p) = BitVec.ofNat 32 (D.cl (D.ia p)).val :=
    fun p => (v115_at x1 x2 p).trans (h109 p)
  have h := scatter_labels (val_main_v114 (F := Ideal)) (val_main_v115 (F := Ideal) x1 x2)
    (val_main_v102 (F := Ideal) x1 x2 x3 x4) (fun p => if D.pos p then (1 : ℝ) else 0)
    (fun p => D.cl (D.ia p)) v114_at hidx h102 k
  refine h.trans (congrArg (fun r : ℝ => (r : EReal)) ?_)
  unfold Data.cnt
  refine Finset.sum_congr rfl (fun p _ => ?_)
  by_cases hp : D.pos p <;> by_cases hk : D.cl (D.ia p) = k <;> simp [hp, hk]

end Sums

section Tail

variable (s cn : Fin CC → ℝ)
  (hs : ∀ k : Fin CC, val_main_v113 (F := Ideal) x0 x1 x2 x3 x4 (ix1 k) = ((s k : ℝ) : EReal))
  (hc : ∀ k : Fin CC, val_main_v116 (F := Ideal) x1 x2 x3 x4 (ix1 k) = ((cn k : ℝ) : EReal))

include hc in
/-- A label is present: its count is above 0. -/
theorem v121_at (k : Fin CC) :
    val_main_v121 (F := Ideal) x1 x2 x3 x4 (ix1 k) = if 0 < cn k then 1#1 else 0#1 := by
  rw [val_main_v121_apply, hc, val_main_v120_apply, val_main_cst_31_apply, Ideal.ofBits_def, ofBits_zero, Ideal.cmpf_def]
  exact cmp_ogt_real _ _

include hc in
/-- The presence bit as a float: 1 or 0. -/
theorem v122_at (k : Fin CC) :
    val_main_v122 (F := Ideal) x1 x2 x3 x4 (ix1 k) = ((if 0 < cn k then (1 : ℝ) else 0 : ℝ) : EReal) := by
  rw [val_main_v122_apply, v121_at x1 x2 x3 x4 cn hc]
  by_cases h : 0 < cn k
  · rw [if_pos h, if_pos h]
    show (((1#1 : BitVec 1).toNat : ℝ) : EReal) = _
    norm_num
  · rw [if_neg h, if_neg h]
    show (((0#1 : BitVec 1).toNat : ℝ) : EReal) = _
    norm_num

include hc in
/-- The divisor of a label's mean: its count, at least 1. -/
theorem v118_at (k : Fin CC) :
    val_main_v118 (F := Ideal) x1 x2 x3 x4 (ix1 k) = ((max (cn k) 1 : ℝ) : EReal) := by
  rw [val_main_v118_apply, hc, val_main_v117_apply, val_main_cst_30_apply, Ideal.ofBits_def, ofBits_one, Ideal.maximumf_def,
    max_real]

include hs hc in
/-- A label's mean. -/
theorem v119_at (k : Fin CC) :
    val_main_v119 (F := Ideal) x0 x1 x2 x3 x4 (ix1 k) = ((s k / max (cn k) 1 : ℝ) : EReal) := by
  rw [val_main_v119_apply, hs, v118_at x1 x2 x3 x4 cn hc, Ideal.hostDivf_def,
    div_real _ (ne_of_gt (lt_of_lt_of_le one_pos (le_max_right _ _)))]

include hs hc in
/-- A label's mean when the label is present, else 0. -/
theorem v125_at (k : Fin CC) :
    val_main_v125 (F := Ideal) x0 x1 x2 x3 x4 (ix1 k)
      = ((if 0 < cn k then s k / max (cn k) 1 else 0 : ℝ) : EReal) := by
  rw [val_main_v125_apply, v121_at x1 x2 x3 x4 cn hc, v119_at x0 x1 x2 x3 x4 s cn hs hc, val_main_call4_v1_apply,
    val_main_call4_v0_apply, val_main_cst_34_apply, Ideal.ofBits_def, ofBits_zero]
  by_cases h : 0 < cn k
  · rw [if_pos h, if_pos h, select_one]
  · rw [if_neg h, if_neg h, select_zero]

include hc in
/-- The number of present labels. -/
theorem v123_at :
    val_main_v123 (F := Ideal) x1 x2 x3 x4 ix0 = ((∑ k : Fin CC, if 0 < cn k then (1 : ℝ) else 0 : ℝ) : EReal) := by
  rw [val_main_v123_apply, val_main_cst_32_apply, Ideal.ofBits_def, ofBits_zero, EReal.coe_zero, zero_add,
    Cert.Lib1D.sum_idx1, Cert.LibLinear.coe_sum]
  exact Finset.sum_congr rfl (fun k _ => v122_at x1 x2 x3 x4 cn hc k)

include hc in
/-- The divisor of the last mean: the number of present labels, at least 1. -/
theorem v124_at :
    val_main_v124 (F := Ideal) x1 x2 x3 x4 ix0
      = ((max (∑ k : Fin CC, if 0 < cn k then (1 : ℝ) else 0) 1 : ℝ) : EReal) := by
  rw [val_main_v124_apply, v123_at x1 x2 x3 x4 cn hc, val_main_cst_33_apply, Ideal.ofBits_def, ofBits_one,
    Ideal.maximumf_def, max_real]

include hs hc in
/-- The sum of the present labels' means. -/
theorem v126_at :
    val_main_v126 (F := Ideal) x0 x1 x2 x3 x4 ix0
      = ((∑ k : Fin CC, if 0 < cn k then s k / max (cn k) 1 else 0 : ℝ) : EReal) := by
  rw [val_main_v126_apply, val_main_cst_35_apply, Ideal.ofBits_def, ofBits_zero, EReal.coe_zero, zero_add,
    Cert.Lib1D.sum_idx1, Cert.LibLinear.coe_sum]
  exact Finset.sum_congr rfl (fun k _ => v125_at x0 x1 x2 x3 x4 s cn hs hc k)

include hs hc in
/-- The result: the mean over the present labels of the labels' means. -/
theorem v127_of :
    val_main_v127 (F := Ideal) x0 x1 x2 x3 x4 ix0 = ((Cert.Spec.tail s cn : ℝ) : EReal) := by
  rw [val_main_v127_apply, v126_at x0 x1 x2 x3 x4 s cn hs hc, v124_at x1 x2 x3 x4 cn hc, Ideal.hostDivf_def,
    div_real _ (ne_of_gt (lt_of_lt_of_le one_pos (le_max_right _ _)))]
  rfl

end Tail

end Cert.ReferenceIdeal.RV

end
-- ==== Proof.RV.Value.lean ====
/-
  The reference program's result as one real number.

  The argument arrays, read as real data (every float a real, every pair index a node, every label below 64), give for each
  pair its anchor's word, its positivity bit and weight, and its anchor's label word; the largest scaled similarity is a real
  M and every pair's exponential is exp (s p − M). From these a pair's weighted loss is its loss at the shift M when it is
  positive and 0 otherwise; the per-label sums and counts are the sums and counts of the formulas at that shift; and the result
  is the mean over the labels that have a positive pair of the means within each label.
-/
import proofs.«413937_j37383395344507_3_alg».proof.Proof.RV.Masks
import proofs.«413937_j37383395344507_3_alg».proof.Proof.RV.Sim
import proofs.«413937_j37383395344507_3_alg».proof.Proof.RV.Loss
import proofs.«413937_j37383395344507_3_alg».proof.Proof.RV.Means

noncomputable section

namespace Cert.ReferenceIdeal.RV

open Cert.ReferenceIdeal Cert.ReferenceIdeal.Gen Cert.ReferenceIdeal.ReadP Cert.Spec Idealize.ShloMosaic
  Idealize.ShloMosaic.ValueIdx
open scoped Classical

variable (x0 : FVec Ideal S100000x64 .f32) (x1 : IVec S2x1000000 32) (x2 : IVec S100000 32) (x3 : IVec S100000 1)
  (x4 : FVec Ideal S100000 .f32)

/-- The result of the reference: the last step of the formulas, on the per-label sums at some real shift and the counts. -/
theorem ref_value (hG : Good x0 x1 x2 x4) :
    ∃ M : ℝ, val_main_v127 (F := Ideal) x0 x1 x2 x3 x4 ix0
      = ((Cert.Spec.tail ((Data.of x0 x1 x2 x3 x4).sumsR M) (Data.of x0 x1 x2 x3 x4).cnt : ℝ) : EReal) := by
  -- the largest scaled similarity is a real number M
  obtain ⟨M, hM⟩ := v82_real x0 x1 x2 x4 hG
  refine ⟨M, ?_⟩
  -- each pair's exponential at the shift M, its positivity bit, its weight, its anchor's word and its anchor's label word
  have h85 := v85_apply x0 x1 x2 x3 x4 hG M hM
  have h54 := v54_apply x0 x1 x2 x3 x4 hG
  have h102 := v102_apply x0 x1 x2 x3 x4 hG
  have h1 := v1_apply x0 x1 x2 x3 x4 hG
  have h109 := v109_apply x0 x1 x2 x3 x4 hG
  -- the weighted losses, then the per-label sums and counts, then the mean of the means
  have h110 := v110_apply x0 x1 x2 x3 x4 (Data.of x0 x1 x2 x3 x4) M h85 h54 h102 h1
  exact v127_of x0 x1 x2 x3 x4 _ _ (v113_apply x0 x1 x2 x3 x4 (Data.of x0 x1 x2 x3 x4) M h110 h109)
    (v116_apply x1 x2 x3 x4 (Data.of x0 x1 x2 x3 x4) h102 h109)

end Cert.ReferenceIdeal.RV

end
-- ==== Proof.lean ====
/-
  The certificate of a contrastive loss over pairs of nodes: the kernel's two-launch program against the plain array program.

  Both programs normalise the feature rows, form each pair's scaled cosine similarity s, exponentiate it less a shift, sum the
  negative pairs' exponentials per anchor node (clamped below at 0), take each pair's loss log (e + denominator) − log e, sum the
  positive pairs' losses and count them per label, and average: within each label that has a positive pair, then over those labels.
  They differ in three ways, none of which changes the result over the reals.
  * The kernel scales a similarity by the constant it NAMES 1/τ (the reciprocal of the other program's own divisor τ, the real
    its single-precision word denotes); the other program divides by τ: one real number.
  * The kernel shifts by the constant 1/τ, the other by the largest scaled similarity. A pair's loss does not depend on the
    shift: every exponential, hence every denominator, scales by one positive factor, which the two logarithms' difference cancels.
  * The kernel scales each row by its clamped norm before the inner product, the other divides the raw inner product by the
    product of the two clamped norms: equal, the clamped norms being positive.
  The kernel computes the per-pair quantities in a first launch over 62 tiles of 16384 pairs (the last tile padded: a padding pair
  is neither positive nor negative and adds nothing), the per-label sums and counts in a second launch that accumulates a
  one-hot product over the same 62 tiles, and the rest on the host. Under the precondition every float is a real, every pair
  index names a node and every label is below 64, so every lookup is in range and every intermediate is a real.

  The three frames: each kernel program's from the several-regions launch over its two regions' proof data and body runs; the
  array program's from its run. The idealized kernel is its word-level program with the one constant named at its two sites.
-/
import proofs.«413937_j37383395344507_3_alg».proof.Defs
import proofs.«413937_j37383395344507_3_alg».proof.Proof.Gen.Kernel
import proofs.«413937_j37383395344507_3_alg».proof.Proof.Gen.KernelIdeal
import proofs.«413937_j37383395344507_3_alg».proof.Proof.Gen.ReferenceIdeal
import proofs.«413937_j37383395344507_3_alg».proof.Proof.Gen.Pre_finite_inputs
import proofs.«413937_j37383395344507_3_alg».proof.Proof.KB.Run
import proofs.«413937_j37383395344507_3_alg».proof.Proof.KI.Run
import proofs.«413937_j37383395344507_3_alg».proof.Proof.KI.RunValue
import proofs.«413937_j37383395344507_3_alg».proof.Proof.RefRun
import proofs.«413937_j37383395344507_3_alg».proof.Proof.RefRead
import proofs.«413937_j37383395344507_3_alg».proof.Proof.PreFacts
import proofs.«413937_j37383395344507_3_alg».proof.Proof.Math
import proofs.«413937_j37383395344507_3_alg».proof.Proof.KV.Value
import proofs.«413937_j37383395344507_3_alg».proof.Proof.RV.Value
import Idealize.ShloMosaic.Adequacy
import Idealize.ShloMosaic.Init

noncomputable section

namespace Cert.Proof

open Idealize.ShloMosaic Idealize.ShloMosaic.TcCoe Idealize.SL.Sem Idealize.ShloMosaic.ValueIdx

/-- The witnesses of the programs' stated side conditions. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m g _ => Cert.Kernel.Hand.frame (F := Bits) m g

theorem frame_ki : Cert.frame_KernelIdeal := fun m g _ => Cert.KernelIdeal.Hand.frame (F := Ideal) m g

theorem frame_ri : Cert.frame_ReferenceIdeal := fun m g _ =>
  (θ_run Cert.ReferenceIdeal.defs _ _).mono (fun _ h c => (h c).2) (Cert.ReferenceIdeal.ValueP.run (F := Ideal) m g)

/-- The ledger's two entries, one per site: the table gives the name the value 134217728/13421773, and the printed constant is
    that value at the extended reals. -/
theorem preserves : Cert.preserves_Kernel_KernelIdeal :=
  ⟨IdealRules.named_const.statement Cert.KernelIdeal.κ "fold_c_134217728_13421773" .f32 0x41200000#32 ((134217728 / 13421773 : ℝ) : EReal) rfl,
   IdealRules.named_const.statement Cert.KernelIdeal.κ "fold_c_134217728_13421773" .f32 0x41200000#32 ((134217728 / 13421773 : ℝ) : EReal) rfl⟩

/-- From memories agreeing on the arguments both programs end with one result: the kernel's result buffer holds the mean of
    means of the per-label sums at scale and shift 1/τ, the array program's the same at its own shift, and the sums do not
    depend on the shift. -/
theorem algebraic : Cert.algebraic_KernelIdeal_ReferenceIdeal := by
  intro m g m' g' hpre hagree
  refine ⟨fun c => Cert.KernelIdeal.Gen.V24 m (Cert.KernelIdeal.Hand.outs m) c Cert.KernelIdeal.main_v66,
    Cert.KernelIdeal.Hand.run_result (F := Ideal) m g, ?_⟩
  refine (θ_run Cert.ReferenceIdeal.defs _ _).mono (fun r h c => ⟨(h c).1.trans ?_, (h c).2⟩)
    (Cert.ReferenceIdeal.ValueP.run (F := Ideal) m' g')
  -- what the precondition says of the kernel's argument arrays on this core
  have hG : Cert.KernelIdeal.KV.good m c := Cert.Spec.good_of_pre _ _ _ _ _ (hpre c)
  obtain ⟨ha0, ha1, ha2, ha3, ha4⟩ := hagree c
  rw [Cert.ReferenceIdeal.ReadP.val_main_v127_eq, ha0, ha1, ha2, ha3, ha4]
  obtain ⟨M, hM⟩ := Cert.ReferenceIdeal.RV.ref_value (Cert.KernelIdeal.KV.a0 m c) (Cert.KernelIdeal.KV.a1 m c)
    (Cert.KernelIdeal.KV.a2 m c) (Cert.KernelIdeal.KV.a3 m c) (Cert.KernelIdeal.KV.a4 m c) hG
  funext i
  obtain rfl : i = ix0 := Subsingleton.elim _ _
  refine hM.trans ?_
  rw [← (Cert.KernelIdeal.KV.dat m c).sumsK_eq_sumsR M]
  exact (Cert.KernelIdeal.KV.kernel_value m c hG).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
